-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S16x1 : Shape := ⟨2, ![16, 1]⟩
abbrev S16 : Shape := ⟨1, ![16]⟩
abbrev S16x16 : Shape := ⟨2, ![16, 16]⟩
abbrev S32x1024 : Shape := ⟨2, ![32, 1024]⟩
abbrev S32 : Shape := ⟨1, ![32]⟩
abbrev S16x32 : Shape := ⟨2, ![16, 32]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_

variable [Facts]

def fn_part2 {F : FTy → Type} [FloatOps F] (main_arg7 : FVec F S16x32 .f32) (main_arg8 : FVec F S16 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S16 .f32) (main_arg5 : FVec F S32x1024 .f32) (main_arg6 : FVec F S32 .f32) (main_arg7 : FVec F S16x32 .f32) (main_arg8 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x1024 .f32 := Host.absf main_arg5
  let main_cst_8 : FVec F S_ .f32 := constant S_ .f32 0x7F800000#32
  let main_v25 : FVec F S32x1024 .f32 := broadcastInDim S32x1024 ![] bcast_S_S32x1024 main_cst_8
  let main_v26 : IVec S32x1024 1 := cmpf .olt main_v24 main_v25
  let main_c_9 : IVec S_ 1 := constantI S_ 1 1#1
  let main_v27 : IVec S_ 1 := (fun x v => Host.reduce IntOp.andi x v reducesTo_S32x1024_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S2x1024x1024 .f32) (main_arg1 : FVec F S16x1 .f32) (main_arg2 : FVec F S16 .f32) (main_arg3 : FVec F S16x16 .f32) (main_arg4 : FVec F S16 .f32) (main_arg5 : FVec F S32x1024 .f32) (main_arg6 : FVec F S32 .f32) (main_arg7 : FVec F S16x32 .f32) (main_arg8 : FVec F S16 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_v13 main_v16
-- ==== Kernel.lean ====
abbrev S2x1024x1024 : Shape := ⟨3, ![2, 1024, 1024]⟩
abbrev S16x1 : Shape := ⟨2, ![16, 1]⟩
abbrev S16 : Shape := ⟨1, ![16]⟩
abbrev S16x16 : Shape := ⟨2, ![16, 16]⟩
abbrev S32x1024 : Shape := ⟨2, ![32, 1024]⟩
abbrev S32 : Shape := ⟨1, ![32]⟩
abbrev S16x32 : Shape := ⟨2, ![16, 32]⟩
abbrev S2x16 : Shape := ⟨2, ![2, 16]⟩
abbrev S1x32 : Shape := ⟨2, ![1, 32]⟩
abbrev S1x16 : Shape := ⟨2, ![1, 16]⟩
abbrev S128x128 : Shape := ⟨2, ![128, 128]⟩
abbrev S1x1024x1024 : Shape := ⟨3, ![1, 1024, 1024]⟩
abbrev S1024x1024 : Shape := ⟨2, ![1024, 1024]⟩
abbrev S1x128x128 : Shape := ⟨3, ![1, 128, 128]⟩
abbrev S128 : Shape := ⟨1, ![128]⟩
abbrev S1x128 : Shape := ⟨2, ![1, 128]⟩
abbrev S1x1024 : Shape := ⟨2, ![1, 1024]⟩
abbrev S1024 : Shape := ⟨1, ![1024]⟩
abbrev S16x1024 : Shape := ⟨2, ![16, 1024]⟩
abbrev S2x1024 : Shape := ⟨2, ![2, 1024]⟩
abbrev S2x32 : Shape := ⟨2, ![2, 32]⟩

abbrev nBuf : Space → Nat
  | .hbm => 10
  | .vmem => 10
  | .smem => 0
  | _ => 0

abbrev bufTy : (tb : Table) → Fin (tcTables nBuf tb) → BufTy
  | .hbm, ⟨0, _⟩ => ⟨S2x1024x1024, .f32⟩
  | .hbm, ⟨1, _⟩ => ⟨S16x1, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S32x1024, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S2x16, .f32⟩
  | .local _ .vmem, ⟨0, _⟩ => ⟨S2x1024x1024, .f32⟩
  | .local _ .vmem, ⟨1, _⟩ => ⟨S16x1, .f32⟩
  | .local _ .vmem, ⟨2, _⟩ => ⟨S16, .f32⟩
  | .local _ .vmem, ⟨3, _⟩ => ⟨S16x16, .f32⟩
  | .local _ .vmem, ⟨4, _⟩ => ⟨S16, .f32⟩
  | .local _ .vmem, ⟨5, _⟩ => ⟨S32x1024, .f32⟩
  | .local _ .vmem, ⟨6, _⟩ => ⟨S32, .f32⟩
  | .local _ .vmem, ⟨7, _⟩ => ⟨S16x32, .f32⟩
  | .local _ .vmem, ⟨8, _⟩ => ⟨S16, .f32⟩
  | .local _ .vmem, ⟨9, _⟩ => ⟨S2x16, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

class Facts₀ : Prop where
  inb_S16_S16_0 : ∀ a, (![0] : Fin 1 → Nat) a + S16.size a ≤ S16.size a
  h_S16 : 0 < S16.numel
  shapeCasts_S16_S16x1 : S16.ShapeCasts S16x1
  inb_S32_S32_0 : ∀ a, (![0] : Fin 1 → Nat) a + S32.size a ≤ S32.size a
  h_S32 : 0 < S32.numel
  shapeCasts_S32_S1x32 : S32.ShapeCasts S1x32
  shapeCasts_S16_S1x16 : S16.ShapeCasts S1x16
  iota_S128x128_d0_w32 : S128x128.Iotas .tc 32 [0]
  iota_S128x128_d1_w32 : S128x128.Iotas .tc 32 [1]
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x1024x1024_S1x128x128_0_0_0 : ∀ a, (![0, 0, 0] : Fin 3 → Nat) a + S1x128x128.size a ≤ S2x1024x1024.size a
  h_S1x128x128 : 0 < S1x128x128.numel
  shapeCasts_S1x128x128_S128x128 : S1x128x128.ShapeCasts S128x128
  reduces_S128x128_S128 : S128x128.Reduces [0] S128
  shapeCasts_S128_S1x128 : S128.ShapeCasts S1x128
  inb_S2x1024x1024_S1x128x128_0_128_128 : ∀ a, (![0, 128, 128] : Fin 3 → Nat) a + S1x128x128.size a ≤ S2x1024x1024.size a
  inb_S2x1024x1024_S1x128x128_0_256_256 : ∀ a, (![0, 256, 256] : Fin 3 → Nat) a + S1x128x128.size a ≤ S2x1024x1024.size a
  inb_S2x1024x1024_S1x128x128_0_384_384 : ∀ a, (![0, 384, 384] : Fin 3 → Nat) a + S1x128x128.size a ≤ S2x1024x1024.size a
  inb_S2x1024x1024_S1x128x128_0_512_512 : ∀ a, (![0, 512, 512] : Fin 3 → Nat) a + S1x128x128.size a ≤ S2x1024x1024.size a
  inb_S2x1024x1024_S1x128x128_0_640_640 : ∀ a, (![0, 640, 640] : Fin 3 → Nat) a + S1x128x128.size a ≤ S2x1024x1024.size a
  inb_S2x1024x1024_S1x128x128_0_768_768 : ∀ a, (![0, 768, 768] : Fin 3 → Nat) a + S1x128x128.size a ≤ S2x1024x1024.size a
  inb_S2x1024x1024_S1x128x128_0_896_896 : ∀ a, (![0, 896, 896] : Fin 3 → Nat) a + S1x128x128.size a ≤ S2x1024x1024.size a
  concatenates_S1x128_S1x128_S1x128_S1x128_S1x128_S1x128_S1x128_S1x128_S1x1024_d1 : Shape.Concatenates [S1x128, S1x128, S1x128, S1x128, S1x128, S1x128, S1x128, S1x128] S1x1024 1
  reduces_S1024x1024_S1024 : S1024x1024.Reduces [0] S1024
  shapeCasts_S1024_S1x1024 : S1024.ShapeCasts S1x1024
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  broadcasts_S16x1_S16x1024 : S16x1.Broadcasts S16x1024
  broadcasts_S1x1024_S16x1024 : S1x1024.Broadcasts S16x1024
  inb_S16x16_S16x16_0_0 : ∀ a, (![0, 0] : Fin 2 → Nat) a + S16x16.size a ≤ S16x16.size a
  h_S16x16 : 0 < S16x16.numel
  reduces_S16x1024_S1024 : S16x1024.Reduces [0] S1024
  inb_S2x1024x1024_S1x1024x1024_1_0_0 : ∀ a, (![1, 0, 0] : Fin 3 → Nat) a + S1x1024x1024.size a ≤ S2x1024x1024.size a
  inb_S2x1024x1024_S1x128x128_1_0_0 : ∀ a, (![1, 0, 0] : Fin 3 → Nat) a + S1x128x128.size a ≤ S2x1024x1024.size a
  inb_S2x1024x1024_S1x128x128_1_128_128 : ∀ a, (![1, 128, 128] : Fin 3 → Nat) a + S1x128x128.size a ≤ S2x1024x1024.size a
  inb_S2x1024x1024_S1x128x128_1_256_256 : ∀ a, (![1, 256, 256] : Fin 3 → Nat) a + S1x128x128.size a ≤ S2x1024x1024.size a
  inb_S2x1024x1024_S1x128x128_1_384_384 : ∀ a, (![1, 384, 384] : Fin 3 → Nat) a + S1x128x128.size a ≤ S2x1024x1024.size a
  inb_S2x1024x1024_S1x128x128_1_512_512 : ∀ a, (![1, 512, 512] : Fin 3 → Nat) a + S1x128x128.size a ≤ S2x1024x1024.size a
  inb_S2x1024x1024_S1x128x128_1_640_640 : ∀ a, (![1, 640, 640] : Fin 3 → Nat) a + S1x128x128.size a ≤ S2x1024x1024.size a
  inb_S2x1024x1024_S1x128x128_1_768_768 : ∀ a, (![1, 768, 768] : Fin 3 → Nat) a + S1x128x128.size a ≤ S2x1024x1024.size a
  inb_S2x1024x1024_S1x128x128_1_896_896 : ∀ a, (![1, 896, 896] : Fin 3 → Nat) a + S1x128x128.size a ≤ S2x1024x1024.size a
  concatenates_S1x1024_S1x1024_S2x1024_d0 : Shape.Concatenates [S1x1024, S1x1024] S2x1024 0
  inb_S32x1024_S32x1024_0_0 : ∀ a, (![0, 0] : Fin 2 → Nat) a + S32x1024.size a ≤ S32x1024.size a
  h_S32x1024 : 0 < S32x1024.numel
  broadcasts_S1x32_S2x32 : S1x32.Broadcasts S2x32
  inb_S16x32_S16x32_0_0 : ∀ a, (![0, 0] : Fin 2 → Nat) a + S16x32.size a ≤ S16x32.size a
  h_S16x32 : 0 < S16x32.numel
  broadcasts_S1x16_S2x16 : S1x16.Broadcasts S2x16
  inb_S2x16_S2x16_0_0 : ∀ a, (![0, 0] : Fin 2 → Nat) a + S2x16.size a ≤ S2x16.size a
  h_S2x16 : 0 < S2x16.numel
  dot_S1x1024_S1024x1024_S1x1024_1_0_0_1_n_n_wf : DotDims.WF S1x1024 S1024x1024 S1x1024 [1] [0] [0] [1] [] []
  dot_S16x16_S16x1024_S16x1024_1_0_0_1_n_n_wf : DotDims.WF S16x16 S16x1024 S16x1024 [1] [0] [0] [1] [] []
  dot_S16x1024_S1024x1024_S16x1024_1_0_0_1_n_n_wf : DotDims.WF S16x1024 S1024x1024 S16x1024 [1] [0] [0] [1] [] []
  dot_S2x1024_S32x1024_S2x32_1_1_0_0_n_n_wf : DotDims.WF S2x1024 S32x1024 S2x32 [1] [1] [0] [0] [] []
  dot_S2x32_S16x32_S2x16_1_1_0_0_n_n_wf : DotDims.WF S2x32 S16x32 S2x16 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S16x16_S16x1024_S16x1024_1_0_0_1_n_n : DotDims S16x16 S16x1024 S16x1024 where
  lhsContracting := [1]
  rhsContracting := [0]
  lhsNonContracting := [0]
  rhsNonContracting := [1]
  lhsBatch := []
  rhsBatch := []
  wf := dot_S16x16_S16x1024_S16x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S2x1024_S32x1024_S2x32_1_1_0_0_n_n : DotDims S2x1024 S32x1024 S2x32 where
  lhsContracting := [1]
  rhsContracting := [1]
  lhsNonContracting := [0]
  rhsNonContracting := [0]
  lhsBatch := []
  rhsBatch := []
  wf := dot_S2x1024_S32x1024_S2x32_1_1_0_0_n_n_wf
def dot_S2x32_S16x32_S2x16_1_1_0_0_n_n : DotDims S2x32 S16x32 S2x16 where
  lhsContracting := [1]
  rhsContracting := [1]
  lhsNonContracting := [0]
  rhsNonContracting := [0]
  lhsBatch := []
  rhsBatch := []
  wf := dot_S2x32_S16x32_S2x16_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v0) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S16x1 : Shape := ⟨2, ![16, 1]⟩
abbrev S16 : Shape := ⟨1, ![16]⟩
abbrev S16x16 : Shape := ⟨2, ![16, 16]⟩
abbrev S32x1024 : Shape := ⟨2, ![32, 1024]⟩
abbrev S32 : Shape := ⟨1, ![32]⟩
abbrev S16x32 : Shape := ⟨2, ![16, 32]⟩
abbrev S2 : Shape := ⟨1, ![2]⟩
abbrev S2x1048576 : Shape := ⟨2, ![2, 1048576]⟩
abbrev S2097152 : Shape := ⟨1, ![2097152]⟩
abbrev S1024 : Shape := ⟨1, ![1024]⟩
abbrev S1024x1024 : Shape := ⟨2, ![1024, 1024]⟩
abbrev S1048576 : Shape := ⟨1, ![1048576]⟩
abbrev S1x1048576 : Shape := ⟨2, ![1, 1048576]⟩
abbrev S1x1024 : Shape := ⟨2, ![1, 1024]⟩
abbrev S2048x1024 : Shape := ⟨2, ![2048, 1024]⟩
abbrev S_ : Shape := ⟨0, ![]⟩
abbrev S1024x1 : Shape := ⟨2, ![1024, 1]⟩
abbrev S1024x2 : Shape := ⟨2, ![1024, 2]⟩
abbrev S2x1024 : Shape := ⟨2, ![2, 1024]⟩
abbrev S2048 : Shape := ⟨1, ![2048]⟩
abbrev S2097152x1 : Shape := ⟨2, ![2097152, 1]⟩
abbrev S2097152x3 : Shape := ⟨2, ![2097152, 3]⟩
abbrev S2048x1 : Shape := ⟨2, ![2048, 1]⟩
abbrev S2099200 : Shape := ⟨1, ![2099200]⟩
abbrev S2099200x1 : Shape := ⟨2, ![2099200, 1]⟩
abbrev S1x16 : Shape := ⟨2, ![1, 16]⟩
abbrev S2048x16 : Shape := ⟨2, ![2048, 16]⟩
abbrev S2099200x16 : Shape := ⟨2, ![2099200, 16]⟩
abbrev S1024x32 : Shape := ⟨2, ![1024, 32]⟩
abbrev S2x32 : Shape := ⟨2, ![2, 32]⟩
abbrev S1x32 : Shape := ⟨2, ![1, 32]⟩
abbrev S32x16 : Shape := ⟨2, ![32, 16]⟩
abbrev S2x16 : Shape := ⟨2, ![2, 16]⟩

abbrev nBuf : Space → Nat
  | .hbm => 264
  | .vmem => 0
  | .smem => 0
  | _ => 0

abbrev hbmTy0_0 (i : Nat) : BufTy := match i % 128 with
  | 0 => ⟨S2x1024x1024, .f32⟩
  | 1 => ⟨S16x1, .f32⟩
  | 2 => ⟨S16, .f32⟩
  | 3 => ⟨S16x16, .f32⟩
  | 4 => ⟨S16, .f32⟩
  | 5 => ⟨S32x1024, .f32⟩
  | 6 => ⟨S32, .f32⟩
  | 7 => ⟨S16x32, .f32⟩
  | 8 => ⟨S16, .f32⟩
  | 9 => ⟨S2, .i32⟩
  | 10 => ⟨S2x1048576, .i32⟩
  | 11 => ⟨S2097152, .i32⟩
  | 12 => ⟨S1024, .i32⟩
  | 13 => ⟨S1024x1024, .i32⟩
  | 14 => ⟨S1048576, .i32⟩
  | 15 => ⟨S1x1048576, .i32⟩
  | 16 => ⟨S2x1048576, .i32⟩
  | 17 => ⟨S2097152, .i32⟩
  | 18 => ⟨S1024, .i32⟩
  | 19 => ⟨S1x1024, .i32⟩
  | 20 => ⟨S2048x1024, .i32⟩
  | 21 => ⟨S2097152, .i32⟩
  | 22 => ⟨S_, .i32⟩
  | 23 => ⟨S2097152, .i32⟩
  | 24 => ⟨S2097152, .i32⟩
  | 25 => ⟨S2097152, .i32⟩
  | 26 => ⟨S_, .i32⟩
  | 27 => ⟨S2097152, .i32⟩
  | 28 => ⟨S2097152, .i32⟩
  | 29 => ⟨S2097152, .i32⟩
  | 30 => ⟨S1024, .i32⟩
  | 31 => ⟨S1024, .i32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x1, .i32⟩
  | 48 => ⟨S1024x2, .i32⟩
  | 49 => ⟨S2x1024, .f32⟩
  | 50 => ⟨S2048, .f32⟩
  | 51 => ⟨S2048, .i32⟩
  | 52 => ⟨S_, .f32⟩
  | 53 => ⟨S2048, .f32⟩
  | 54 => ⟨S2048, .i1⟩
  | 55 => ⟨S_, .f32⟩
  | 56 => ⟨S2048, .f32⟩
  | 57 => ⟨S_, .f32⟩
  | 58 => ⟨S2048, .f32⟩
  | 59 => ⟨S2048, .f32⟩
  | 60 => ⟨S_, .i32⟩
  | 61 => ⟨S2097152, .i32⟩
  | 62 => ⟨S2097152, .i1⟩
  | 63 => ⟨S_, .i32⟩
  | 64 => ⟨S2097152, .i32⟩
  | 65 => ⟨S2097152, .i32⟩
  | 66 => ⟨S2097152, .i32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S_, .i32⟩
  | 75 => ⟨S2097152, .i32⟩
  | 76 => ⟨S2097152, .i1⟩
  | 77 => ⟨S_, .i32⟩
  | 78 => ⟨S2097152, .i32⟩
  | 79 => ⟨S2097152, .i32⟩
  | 80 => ⟨S2097152, .i32⟩
  | 81 => ⟨S2097152x1, .i32⟩
  | 82 => ⟨S2097152x1, .i32⟩
  | 83 => ⟨S2097152x1, .i32⟩
  | 84 => ⟨S2097152x3, .i32⟩
  | 85 => ⟨S2097152, .f32⟩
  | 86 => ⟨S_, .f32⟩
  | 87 => ⟨S2048x1, .f32⟩
  | 88 => ⟨S2099200, .i32⟩
  | 89 => ⟨S2099200, .i32⟩
  | 90 => ⟨S2099200, .f32⟩
  | 91 => ⟨S_, .f32⟩
  | 92 => ⟨S2048, .f32⟩
  | 93 => ⟨S_, .i32⟩
  | 94 => ⟨S2099200, .i32⟩
  | 95 => ⟨S2099200, .i1⟩
  | 96 => ⟨S_, .i32⟩
  | 97 => ⟨S2099200, .i32⟩
  | 98 => ⟨S2099200, .i32⟩
  | 99 => ⟨S2099200, .i32⟩
  | 100 => ⟨S2099200x1, .i32⟩
  | 101 => ⟨S2048, .f32⟩
  | 102 => ⟨S_, .f32⟩
  | 103 => ⟨S2048, .f32⟩
  | 104 => ⟨S2048, .i1⟩
  | 105 => ⟨S_, .f32⟩
  | 106 => ⟨S_, .f32⟩
  | 107 => ⟨S2048, .f32⟩
  | 108 => ⟨S2048, .f32⟩
  | 109 => ⟨S_, .f32⟩
  | 110 => ⟨S2048, .f32⟩
  | 111 => ⟨S2048, .i1⟩
  | 112 => ⟨S2048, .f32⟩
  | 113 => ⟨S_, .f32⟩
  | 114 => ⟨S2048, .f32⟩
  | 115 => ⟨S2048, .f32⟩
  | 116 => ⟨S_, .f32⟩
  | 117 => ⟨S_, .f32⟩
  | 118 => ⟨S2048, .f32⟩
  | 119 => ⟨S2048, .f32⟩
  | 120 => ⟨S_, .i32⟩
  | 121 => ⟨S2099200, .i32⟩
  | 122 => ⟨S2099200, .i1⟩
  | 123 => ⟨S_, .i32⟩
  | 124 => ⟨S2099200, .i32⟩
  | 125 => ⟨S2099200, .i32⟩
  | 126 => ⟨S2099200, .i32⟩
  | 127 => ⟨S2099200x1, .i32⟩
  | _ => ⟨S2x1024x1024, .f32⟩

abbrev hbmTy0_1 (i : Nat) : BufTy := match i % 128 with
  | 0 => ⟨S2099200, .f32⟩
  | 1 => ⟨S2099200, .f32⟩
  | 2 => ⟨S_, .i32⟩
  | 3 => ⟨S2099200, .i32⟩
  | 4 => ⟨S2099200, .i1⟩
  | 5 => ⟨S_, .i32⟩
  | 6 => ⟨S2099200, .i32⟩
  | 7 => ⟨S2099200, .i32⟩
  | 8 => ⟨S2099200, .i32⟩
  | 9 => ⟨S2099200x1, .i32⟩
  | 10 => ⟨S2099200, .f32⟩
  | 11 => ⟨S2099200, .f32⟩
  | 12 => ⟨S1x16, .f32⟩
  | 13 => ⟨S2048x16, .f32⟩
  | 14 => ⟨S2099200x1, .f32⟩
  | 15 => ⟨S_, .i32⟩
  | 16 => ⟨S2099200, .i32⟩
  | 17 => ⟨S2099200, .i1⟩
  | 18 => ⟨S_, .i32⟩
  | 19 => ⟨S2099200, .i32⟩
  | 20 => ⟨S2099200, .i32⟩
  | 21 => ⟨S2099200, .i32⟩
  | 22 => ⟨S2099200x1, .i32⟩
  | 23 => ⟨S2099200x16, .f32⟩
  | 24 => ⟨S2099200x16, .f32⟩
  | 25 => ⟨S2099200x16, .f32⟩
  | 26 => ⟨S_, .f32⟩
  | 27 => ⟨S2048x16, .f32⟩
  | 28 => ⟨S_, .i32⟩
  | 29 => ⟨S2099200, .i32⟩
  | 30 => ⟨S2099200, .i1⟩
  | 31 => ⟨S_, .i32⟩
  | 32 => ⟨S2099200, .i32⟩
  | 33 => ⟨S2099200, .i32⟩
  | 34 => ⟨S2099200, .i32⟩
  | 35 => ⟨S2099200x1, .i32⟩
  | 36 => ⟨S2048x16, .f32⟩
  | 37 => ⟨S1x16, .f32⟩
  | 38 => ⟨S2048x16, .f32⟩
  | 39 => ⟨S2048x16, .f32⟩
  | 40 => ⟨S_, .f32⟩
  | 41 => ⟨S2048x16, .f32⟩
  | 42 => ⟨S2048x16, .f32⟩
  | 43 => ⟨S2099200, .i32⟩
  | 44 => ⟨S2099200, .i32⟩
  | 45 => ⟨S2099200, .f32⟩
  | 46 => ⟨S_, .f32⟩
  | 47 => ⟨S2048, .f32⟩
  | 48 => ⟨S_, .i32⟩
  | 49 => ⟨S2099200, .i32⟩
  | 50 => ⟨S2099200, .i1⟩
  | 51 => ⟨S_, .i32⟩
  | 52 => ⟨S2099200, .i32⟩
  | 53 => ⟨S2099200, .i32⟩
  | 54 => ⟨S2099200, .i32⟩
  | 55 => ⟨S2099200x1, .i32⟩
  | 56 => ⟨S2048, .f32⟩
  | 57 => ⟨S_, .f32⟩
  | 58 => ⟨S2048, .f32⟩
  | 59 => ⟨S2048, .i1⟩
  | 60 => ⟨S_, .f32⟩
  | 61 => ⟨S_, .f32⟩
  | 62 => ⟨S2048, .f32⟩
  | 63 => ⟨S2048, .f32⟩
  | 64 => ⟨S_, .f32⟩
  | 65 => ⟨S2048, .f32⟩
  | 66 => ⟨S2048, .i1⟩
  | 67 => ⟨S2048, .f32⟩
  | 68 => ⟨S_, .f32⟩
  | 69 => ⟨S2048, .f32⟩
  | 70 => ⟨S2048, .f32⟩
  | 71 => ⟨S_, .f32⟩
  | 72 => ⟨S_, .f32⟩
  | 73 => ⟨S2048, .f32⟩
  | 74 => ⟨S2048, .f32⟩
  | 75 => ⟨S_, .i32⟩
  | 76 => ⟨S2099200, .i32⟩
  | 77 => ⟨S2099200, .i1⟩
  | 78 => ⟨S_, .i32⟩
  | 79 => ⟨S2099200, .i32⟩
  | 80 => ⟨S2099200, .i32⟩
  | 81 => ⟨S2099200, .i32⟩
  | 82 => ⟨S2099200x1, .i32⟩
  | 83 => ⟨S2099200, .f32⟩
  | 84 => ⟨S2099200, .f32⟩
  | 85 => ⟨S_, .i32⟩
  | 86 => ⟨S2099200, .i32⟩
  | 87 => ⟨S2099200, .i1⟩
  | 88 => ⟨S_, .i32⟩
  | 89 => ⟨S2099200, .i32⟩
  | 90 => ⟨S2099200, .i32⟩
  | 91 => ⟨S2099200, .i32⟩
  | 92 => ⟨S2099200x1, .i32⟩
  | 93 => ⟨S2099200, .f32⟩
  | 94 => ⟨S2099200, .f32⟩
  | 95 => ⟨S16x16, .f32⟩
  | 96 => ⟨S2048x16, .f32⟩
  | 97 => ⟨S2099200x1, .f32⟩
  | 98 => ⟨S_, .i32⟩
  | 99 => ⟨S2099200, .i32⟩
  | 100 => ⟨S2099200, .i1⟩
  | 101 => ⟨S_, .i32⟩
  | 102 => ⟨S2099200, .i32⟩
  | 103 => ⟨S2099200, .i32⟩
  | 104 => ⟨S2099200, .i32⟩
  | 105 => ⟨S2099200x1, .i32⟩
  | 106 => ⟨S2099200x16, .f32⟩
  | 107 => ⟨S2099200x16, .f32⟩
  | 108 => ⟨S2099200x16, .f32⟩
  | 109 => ⟨S_, .f32⟩
  | 110 => ⟨S2048x16, .f32⟩
  | 111 => ⟨S_, .i32⟩
  | 112 => ⟨S2099200, .i32⟩
  | 113 => ⟨S2099200, .i1⟩
  | 114 => ⟨S_, .i32⟩
  | 115 => ⟨S2099200, .i32⟩
  | 116 => ⟨S2099200, .i32⟩
  | 117 => ⟨S2099200, .i32⟩
  | 118 => ⟨S2099200x1, .i32⟩
  | 119 => ⟨S2048x16, .f32⟩
  | 120 => ⟨S1x16, .f32⟩
  | 121 => ⟨S2048x16, .f32⟩
  | 122 => ⟨S2048x16, .f32⟩
  | 123 => ⟨S_, .f32⟩
  | 124 => ⟨S2048, .f32⟩
  | 125 => ⟨S2x1024, .f32⟩
  | 126 => ⟨S1024x32, .f32⟩
  | 127 => ⟨S2x32, .f32⟩
  | _ => ⟨S2x1024x1024, .f32⟩

abbrev hbmTy0_2 (i : Nat) : BufTy := match i % 128 with
  | 0 => ⟨S1x32, .f32⟩
  | 1 => ⟨S2x32, .f32⟩
  | 2 => ⟨S2x32, .f32⟩
  | 3 => ⟨S32x16, .f32⟩
  | 4 => ⟨S2x16, .f32⟩
  | 5 => ⟨S1x16, .f32⟩
  | 6 => ⟨S2x16, .f32⟩
  | 7 => ⟨S2x16, .f32⟩
  | _ => ⟨S2x1024x1024, .f32⟩

abbrev hbmTy (i : Nat) : BufTy := match i / 128 with
  | 0 => hbmTy0_0 i
  | 1 => hbmTy0_1 i
  | 2 => hbmTy0_2 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_call1_v0 : Ref sig .tc := ⟨.hbm, 106, rfl⟩
abbrev main_call1_v1 : Ref sig .tc := ⟨.hbm, 107, rfl⟩
abbrev main_v76 : Ref sig .tc := ⟨.hbm, 108, rfl⟩
abbrev main_cst_19 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_cst_21 : Ref sig .tc := ⟨.hbm, 116, rfl⟩
abbrev main_call2_v0 : Ref sig .tc := ⟨.hbm, 117, rfl⟩
abbrev main_call2_v1 : Ref sig .tc := ⟨.hbm, 118, rfl⟩
abbrev main_v82 : Ref sig .tc := ⟨.hbm, 119, rfl⟩
abbrev main_c_22 : Ref sig .tc := ⟨.hbm, 120, rfl⟩
abbrev main_v83 : Ref sig .tc := ⟨.hbm, 121, rfl⟩
abbrev main_v84 : Ref sig .tc := ⟨.hbm, 122, rfl⟩
abbrev main_c_23 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_24 : Ref sig .tc := ⟨.hbm, 130, rfl⟩
abbrev main_v91 : Ref sig .tc := ⟨.hbm, 131, rfl⟩
abbrev main_v92 : Ref sig .tc := ⟨.hbm, 132, rfl⟩
abbrev main_c_25 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_26 : Ref sig .tc := ⟨.hbm, 143, rfl⟩
abbrev main_v102 : Ref sig .tc := ⟨.hbm, 144, rfl⟩
abbrev main_v103 : Ref sig .tc := ⟨.hbm, 145, rfl⟩
abbrev main_c_27 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_c_29 : Ref sig .tc := ⟨.hbm, 156, rfl⟩
abbrev main_v112 : Ref sig .tc := ⟨.hbm, 157, rfl⟩
abbrev main_v113 : Ref sig .tc := ⟨.hbm, 158, rfl⟩
abbrev main_c_30 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_call3_cst : Ref sig .tc := ⟨.hbm, 168, rfl⟩
abbrev main_call3_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_31 : Ref sig .tc := ⟨.hbm, 174, rfl⟩
abbrev main_v126 : Ref sig .tc := ⟨.hbm, 175, rfl⟩
abbrev main_c_32 : Ref sig .tc := ⟨.hbm, 176, rfl⟩
abbrev main_v127 : Ref sig .tc := ⟨.hbm, 177, rfl⟩
abbrev main_v128 : Ref sig .tc := ⟨.hbm, 178, rfl⟩
abbrev main_c_33 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_34 : Ref sig .tc := ⟨.hbm, 185, rfl⟩
abbrev main_v134 : Ref sig .tc := ⟨.hbm, 186, rfl⟩
abbrev main_v135 : Ref sig .tc := ⟨.hbm, 187, rfl⟩
abbrev main_cst_35 : Ref sig .tc := ⟨.hbm, 188, rfl⟩
abbrev main_call4_v0 : Ref sig .tc := ⟨.hbm, 189, rfl⟩
abbrev main_call4_v1 : Ref sig .tc := ⟨.hbm, 190, rfl⟩
abbrev main_v136 : Ref sig .tc := ⟨.hbm, 191, rfl⟩
abbrev main_cst_36 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_37 : Ref sig .tc := ⟨.hbm, 196, rfl⟩
abbrev main_v140 : Ref sig .tc := ⟨.hbm, 197, rfl⟩
abbrev main_v141 : Ref sig .tc := ⟨.hbm, 198, rfl⟩
abbrev main_cst_38 : Ref sig .tc := ⟨.hbm, 199, rfl⟩
abbrev main_call5_v0 : Ref sig .tc := ⟨.hbm, 200, rfl⟩
abbrev main_call5_v1 : Ref sig .tc := ⟨.hbm, 201, rfl⟩
abbrev main_v142 : Ref sig .tc := ⟨.hbm, 202, rfl⟩
abbrev main_c_39 : Ref sig .tc := ⟨.hbm, 203, rfl⟩
abbrev main_v143 : Ref sig .tc := ⟨.hbm, 204, rfl⟩
abbrev main_v144 : Ref sig .tc := ⟨.hbm, 205, rfl⟩
abbrev main_c_40 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_c_41 : Ref sig .tc := ⟨.hbm, 213, rfl⟩
abbrev main_v151 : Ref sig .tc := ⟨.hbm, 214, rfl⟩
abbrev main_v152 : Ref sig .tc := ⟨.hbm, 215, rfl⟩
abbrev main_c_42 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_43 : Ref sig .tc := ⟨.hbm, 226, rfl⟩
abbrev main_v162 : Ref sig .tc := ⟨.hbm, 227, rfl⟩
abbrev main_v163 : Ref sig .tc := ⟨.hbm, 228, rfl⟩
abbrev main_c_44 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_cst_45 : Ref sig .tc := ⟨.hbm, 237, rfl⟩
abbrev main_v171 : Ref sig .tc := ⟨.hbm, 238, rfl⟩
abbrev main_c_46 : Ref sig .tc := ⟨.hbm, 239, rfl⟩
abbrev main_v172 : Ref sig .tc := ⟨.hbm, 240, rfl⟩
abbrev main_v173 : Ref sig .tc := ⟨.hbm, 241, rfl⟩
abbrev main_c_47 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_48 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩

abbrev nD : Nat := 1
abbrev τ : Topo := Topo.v7x

variable {F : FTy → Type} [FloatOps F]

class Facts₀ : Prop where
  bcast_S2_S2x1048576_0 : S2.BroadcastsInDim S2x1048576 (![0] : Fin 1 → Fin S2x1048576.rank)
  shapeCasts_S2x1048576_S2097152 : S2x1048576.ShapeCasts S2097152
  bcast_S1024_S1024x1024_0 : S1024.BroadcastsInDim S1024x1024 (![0] : Fin 1 → Fin S1024x1024.rank)
  shapeCasts_S1024x1024_S1048576 : S1024x1024.ShapeCasts S1048576
  shapeCasts_S1048576_S1x1048576 : S1048576.ShapeCasts S1x1048576
  bcast_S1x1048576_S2x1048576_0_1 : S1x1048576.BroadcastsInDim S2x1048576 (![0, 1] : Fin 2 → Fin S2x1048576.rank)
  shapeCasts_S1024_S1x1024 : S1024.ShapeCasts S1x1024
  bcast_S1x1024_S2048x1024_0_1 : S1x1024.BroadcastsInDim S2048x1024 (![0, 1] : Fin 2 → Fin S2048x1024.rank)
  shapeCasts_S2048x1024_S2097152 : S2048x1024.ShapeCasts S2097152
  bcast_S_S2097152 : S_.BroadcastsInDim S2097152 (![] : Fin 0 → Fin S2097152.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  shapeCasts_S2x1024_S2048 : S2x1024.ShapeCasts S2048
  bcast_S_S2048 : S_.BroadcastsInDim S2048 (![] : Fin 0 → Fin S2048.rank)
  bcast_S2097152_S2097152x1_0 : S2097152.BroadcastsInDim S2097152x1 (![0] : Fin 1 → Fin S2097152x1.rank)
  concatenates_S2097152x1_S2097152x1_S2097152x1_S2097152x3_d1 : Shape.Concatenates [S2097152x1, S2097152x1, S2097152x1] S2097152x3 1
  bcast_S_S2048x1 : S_.BroadcastsInDim S2048x1 (![] : Fin 0 → Fin S2048x1.rank)
  concatenates_S2097152_S2048_S2099200_d0 : Shape.Concatenates [S2097152, S2048] S2099200 0
  bcast_S_S2099200 : S_.BroadcastsInDim S2099200 (![] : Fin 0 → Fin S2099200.rank)
  bcast_S2099200_S2099200x1_0 : S2099200.BroadcastsInDim S2099200x1 (![0] : Fin 1 → Fin S2099200x1.rank)
  transposes_S16x1_S1x16_1_0 : S16x1.Transposes [1, 0] S1x16
  bcast_S2099200x1_S2099200x16_0_1 : S2099200x1.BroadcastsInDim S2099200x16 (![0, 1] : Fin 2 → Fin S2099200x16.rank)
  bcast_S_S2048x16 : S_.BroadcastsInDim S2048x16 (![] : Fin 0 → Fin S2048x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  transposes_S16x16_S16x16_1_0 : S16x16.Transposes [1, 0] S16x16
  reducesTo_S2048x16_S2048_d1 : S2048x16.ReducesTo [1] S2048
  h_S_ : 0 < S_.numel
  shapeCasts_S2048_S2x1024 : S2048.ShapeCasts S2x1024
  transposes_S32x1024_S1024x32_1_0 : S32x1024.Transposes [1, 0] S1024x32
  bcast_S32_S1x32_1 : S32.BroadcastsInDim S1x32 (![1] : Fin 1 → Fin S1x32.rank)
  bcast_S1x32_S2x32_0_1 : S1x32.BroadcastsInDim S2x32 (![0, 1] : Fin 2 → Fin S2x32.rank)
  transposes_S16x32_S32x16_1_0 : S16x32.Transposes [1, 0] S32x16
  bcast_S1x16_S2x16_0_1 : S1x16.BroadcastsInDim S2x16 (![0, 1] : Fin 2 → Fin S2x16.rank)
  gather_S2x1024x1024_S1024x2_S2x1024_0_12_n_n_12_1_211_wf : GatherDims.WF S2x1024x1024 S1024x2 S2x1024 [0] [1, 2] [] [1, 2] [] 1 ![2, 1, 1]
  gather_S2x1024x1024_S2097152x3_S2097152_n_012_n_n_012_1_111_wf : GatherDims.WF S2x1024x1024 S2097152x3 S2097152 [] [0, 1, 2] [] [0, 1, 2] [] 1 ![1, 1, 1]
  scatter_S2048_S2099200x1_S2099200_n_0_0_1_wf : ScatterDims.WF S2048 S2099200x1 S2099200 [] [0] [0] 1
  gather_S2048_S2099200x1_S2099200_n_0_n_n_0_1_1_wf : GatherDims.WF S2048 S2099200x1 S2099200 [] [0] [] [0] [] 1 ![1]
  dot_S2048x1_S1x16_S2048x16_1_0_0_1_n_n_wf : DotDims.WF S2048x1 S1x16 S2048x16 [1] [0] [0] [1] [] []
  gather_S2048x16_S2099200x1_S2099200x16_1_0_n_n_0_1_116_wf : GatherDims.WF S2048x16 S2099200x1 S2099200x16 [1] [0] [] [0] [] 1 ![1, 16]
  scatter_S2048x16_S2099200x1_S2099200x16_1_0_0_1_wf : ScatterDims.WF S2048x16 S2099200x1 S2099200x16 [1] [0] [0] 1
  dot_S2048x16_S16x16_S2048x16_1_0_0_1_n_n_wf : DotDims.WF S2048x16 S16x16 S2048x16 [1] [0] [0] [1] [] []
  dot_S2x1024_S1024x32_S2x32_1_0_0_1_n_n_wf : DotDims.WF S2x1024 S1024x32 S2x32 [1] [0] [0] [1] [] []
  dot_S2x32_S32x16_S2x16_1_0_0_1_n_n_wf : DotDims.WF S2x32 S32x16 S2x16 [1] [0] [0] [1] [] []

variable [Facts₀]

def gather_S2x1024x1024_S1024x2_S2x1024_0_12_n_n_12_1_211 : GatherDims S2x1024x1024 S1024x2 S2x1024 where
  offsetDims := [0]
  collapsedSliceDims := [1, 2]
  operandBatchingDims := []
  startIndicesBatchingDims := []
  startIndexMap := [1, 2]
  indexVectorDim := 1
  sliceSizes := ![2, 1, 1]
  wf := gather_S2x1024x1024_S1024x2_S2x1024_0_12_n_n_12_1_211_wf
def gather_S2x1024x1024_S2097152x3_S2097152_n_012_n_n_012_1_111 : GatherDims S2x1024x1024 S2097152x3 S2097152 where
  offsetDims := []
  collapsedSliceDims := [0, 1, 2]
  operandBatchingDims := []
  startIndicesBatchingDims := []
  startIndexMap := [0, 1, 2]
  indexVectorDim := 1
  sliceSizes := ![1, 1, 1]
  wf := gather_S2x1024x1024_S2097152x3_S2097152_n_012_n_n_012_1_111_wf
def scatter_S2048_S2099200x1_S2099200_n_0_0_1 : ScatterDims S2048 S2099200x1 S2099200 where
  updateWindowDims := []
  insertedWindowDims := [0]
  scatterDimsToOperandDims := [0]
  indexVectorDim := 1
  wf := scatter_S2048_S2099200x1_S2099200_n_0_0_1_wf
def gather_S2048_S2099200x1_S2099200_n_0_n_n_0_1_1 : GatherDims S2048 S2099200x1 S2099200 where
  offsetDims := []
  collapsedSliceDims := [0]
  operandBatchingDims := []
  startIndicesBatchingDims := []
  startIndexMap := [0]
  indexVectorDim := 1
  sliceSizes := ![1]
  wf := gather_S2048_S2099200x1_S2099200_n_0_n_n_0_1_1_wf
def dot_S2048x1_S1x16_S2048x16_1_0_0_1_n_n : DotDims S2048x1 S1x16 S2048x16 where
  lhsContracting := [1]
  rhsContracting := [0]
  lhsNonContracting := [0]
  rhsNonContracting := [1]
  lhsBatch := []
  rhsBatch := []
  wf := dot_S2048x1_S1x16_S2048x16_1_0_0_1_n_n_wf
def gather_S2048x16_S2099200x1_S2099200x16_1_0_n_n_0_1_116 : GatherDims S2048x16 S2099200x1 S2099200x16 where
  offsetDims := [1]
  collapsedSliceDims := [0]
  operandBatchingDims := []
  startIndicesBatchingDims := []
  startIndexMap := [0]
  indexVectorDim := 1
  sliceSizes := ![1, 16]
  wf := gather_S2048x16_S2099200x1_S2099200x16_1_0_n_n_0_1_116_wf
def scatter_S2048x16_S2099200x1_S2099200x16_1_0_0_1 : ScatterDims S2048x16 S2099200x1 S2099200x16 where
  updateWindowDims := [1]
  insertedWindowDims := [0]
  scatterDimsToOperandDims := [0]
  indexVectorDim := 1
  wf := scatter_S2048x16_S2099200x1_S2099200x16_1_0_0_1_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2x1024_S1024x32_S2x32_1_0_0_1_n_n : DotDims S2x1024 S1024x32 S2x32 where
  lhsContracting := [1]
  rhsContracting := [0]
  lhsNonContracting := [0]
  rhsNonContracting := [1]
  lhsBatch := []
  rhsBatch := []
  wf := dot_S2x1024_S1024x32_S2x32_1_0_0_1_n_n_wf
def dot_S2x32_S32x16_S2x16_1_0_0_1_n_n : DotDims S2x32 S32x16 S2x16 where
  lhsContracting := [1]
  rhsContracting := [0]
  lhsNonContracting := [0]
  rhsNonContracting := [1]
  lhsBatch := []
  rhsBatch := []
  wf := dot_S2x32_S32x16_S2x16_1_0_0_1_n_n_wf

class Facts : Prop extends Facts₀ where

variable [Facts]
-- ==== Proof.RefSingle.lean ====
/-
  Lines of host operations in which every operation writes one buffer of its own. In such a line the contents of a
  buffer after the whole line are what the operation that writes it left there, computed from what the whole line
  leaves in that operation's operands: no later operation writes the buffer or the operands. So the line's final
  contents satisfy one equation per operation, `y = f x`, all over the SAME final contents.
-/
import Idealize.ShloMosaic.Lib.StableHlo.Run

noncomputable section

namespace Cert.Gcn.R

open Idealize.ShloMosaic Idealize.ShloMosaic.TcCoe Idealize.SL.Sem Idealize.ShloMosaic.StableHlo

variable {τ : Topo} {sig : RefSig} {Val : EltTy → Type}

/-- The operations of `ops` write, one by one, exactly the buffers listed in `outs`. -/
abbrev Writes (ops : List (HloOp τ sig Val)) (outs : List (Ref sig .tc)) : Prop :=
  List.Forall₂ (fun op y => op.writes = {Proc.devRef (τ := τ) .tc y}) ops outs

theorem Writes.drop {ops : List (HloOp τ sig Val)} {outs : List (Ref sig .tc)} (h : Writes ops outs) :
    ∀ n : Nat, Writes (ops.drop n) (outs.drop n) := by
  induction h with
  | nil => intro n; cases n <;> exact List.Forall₂.nil
  | cons hw _ ih =>
    intro n
    cases n with
    | zero => exact List.Forall₂.cons hw (by simpa using ih 0)
    | succ n => exact ih n

/-- Two such lines one after the other. -/
theorem Writes.append {l₁ l₂ : List (HloOp τ sig Val)} {o₁ o₂ : List (Ref sig .tc)} (h₁ : Writes l₁ o₁) (h₂ : Writes l₂ o₂) :
    Writes (l₁ ++ l₂) (o₁ ++ o₂) := by
  induction h₁ with
  | nil => exact h₂
  | cons hw _ ih => exact List.Forall₂.cons hw ih

/-- Two lines one after the other: the fold of the second over the fold of the first. -/
theorem after_app (l₁ l₂ : List (HloOp τ sig Val)) (V : Valuation τ sig Val) :
    after (l₁ ++ l₂) V = after l₂ (after l₁ V) := by
  induction l₁ generalizing V with
  | nil => rfl
  | cons op l ih => exact ih _

/-- A buffer none of the line's operations writes keeps its contents. -/
theorem after_keep {ops : List (HloOp τ sig Val)} {outs : List (Ref sig .tc)} (h : Writes ops outs)
    {r : Ref sig .tc} (hr : r ∉ outs) (V : Valuation τ sig Val) :
    after ops V (Proc.devRef .tc r) = V (Proc.devRef .tc r) := by
  induction h generalizing V with
  | nil => rfl
  | @cons op y ops outs hw _ ih =>
    rw [after_cons, ih (fun hm => hr (List.mem_cons_of_mem _ hm)), op.result_of_not_mem]
    rw [hw, Finset.mem_singleton]
    intro he
    exact hr (by rw [Proc.devRef_injective _ he]; exact List.mem_cons_self)

/-- The line cut at its operation `k`. -/
theorem after_split (ops : List (HloOp τ sig Val)) (k : Nat) (hk : k < ops.length) (V : Valuation τ sig Val) :
    after ops V = after (ops.drop (k + 1)) (ops[k].result (after (ops.take k) V)) := by
  conv_lhs => rw [← List.take_append_drop k ops, after_app, List.drop_eq_getElem_cons hk, after_cons]

/-- A buffer no operation after the `k`-th writes holds, after the line, what the `k`-th left in it. -/
theorem after_at {ops : List (HloOp τ sig Val)} {outs : List (Ref sig .tc)} (h : Writes ops outs) (k : Nat)
    (op : HloOp τ sig Val) (hop : ops[k]? = some op) (V : Valuation τ sig Val) {r : Ref sig .tc}
    (hr : r ∉ outs.drop (k + 1)) :
    after ops V (Proc.devRef .tc r) = op.result (after (ops.take k) V) (Proc.devRef .tc r) := by
  obtain ⟨hk, rfl⟩ := List.getElem?_eq_some_iff.mp hop
  rw [after_split ops k hk V]
  exact after_keep (h.drop (k + 1)) hr _

variable {ops : List (HloOp τ sig Val)} {outs : List (Ref sig .tc)}

/-- The equation of an operation with no operand. -/
theorem eq_nullary (h : Writes ops outs) (k : Nat) (y : Ref sig .tc) (v : y.ty.Contents Val) (hy)
    (hop : ops[k]? = some (nullary y v hy)) (hy' : y ∉ outs.drop (k + 1)) (V : Valuation τ sig Val) :
    after ops V (Proc.devRef .tc y) = v := by
  rw [after_at h k _ hop V hy', nullary_result]

/-- The equation of an operation of one operand. -/
theorem eq_unary (h : Writes ops outs) (k : Nat) (x y : Ref sig .tc)
    (f : x.ty.Contents Val → y.ty.Contents Val) (hx hy)
    (hop : ops[k]? = some (unary x y f hx hy)) (hxy : x ≠ y) (hx' : x ∉ outs.drop (k + 1)) (hy' : y ∉ outs.drop (k + 1))
    (V : Valuation τ sig Val) {vx : x.ty.Contents Val} (hvx : after ops V (Proc.devRef .tc x) = vx) :
    after ops V (Proc.devRef .tc y) = f vx := by
  rw [after_at h k _ hop V hy', unary_result]
  rw [after_at h k _ hop V hx', unary_result_ne (h := hxy)] at hvx
  rw [hvx]

/-- The equation of a reshape. -/
theorem eq_reshape (h : Writes ops outs) (k : Nat) (x y : Ref sig .tc)
    (he : x.ty.elt = y.ty.elt) (hn : x.ty.shape.ShapeCasts y.ty.shape) (hx hy)
    (hop : ops[k]? = some (reshape x y he hn hx hy)) (hxy : x ≠ y) (hx' : x ∉ outs.drop (k + 1)) (hy' : y ∉ outs.drop (k + 1))
    (V : Valuation τ sig Val) {vx : x.ty.Contents Val} (hvx : after ops V (Proc.devRef .tc x) = vx) :
    after ops V (Proc.devRef .tc y) = fun i => he ▸ shapeCast y.ty.shape vx hn i := by
  rw [after_at h k _ hop V hy', reshape_result]
  rw [after_at h k _ hop V hx', reshape_result_ne (h := hxy)] at hvx
  rw [hvx]

/-- The equation of an operation of two operands. -/
theorem eq_binary (h : Writes ops outs) (k : Nat) (a b y : Ref sig .tc)
    (f : a.ty.Contents Val → b.ty.Contents Val → y.ty.Contents Val) (ha hb hy)
    (hop : ops[k]? = some (binary a b y f ha hb hy)) (hay : a ≠ y) (hby : b ≠ y)
    (ha' : a ∉ outs.drop (k + 1)) (hb' : b ∉ outs.drop (k + 1)) (hy' : y ∉ outs.drop (k + 1))
    (V : Valuation τ sig Val) {va : a.ty.Contents Val} {vb : b.ty.Contents Val}
    (hva : after ops V (Proc.devRef .tc a) = va) (hvb : after ops V (Proc.devRef .tc b) = vb) :
    after ops V (Proc.devRef .tc y) = f va vb := by
  rw [after_at h k _ hop V hy', binary_result]
  rw [after_at h k _ hop V ha', binary_result_ne (h := hay)] at hva
  rw [after_at h k _ hop V hb', binary_result_ne (h := hby)] at hvb
  rw [hva, hvb]

/-- The equation of an operation of three operands. -/
theorem eq_ternary (h : Writes ops outs) (k : Nat) (c a b y : Ref sig .tc)
    (f : c.ty.Contents Val → a.ty.Contents Val → b.ty.Contents Val → y.ty.Contents Val) (hc ha hb hy)
    (hop : ops[k]? = some (ternary c a b y f hc ha hb hy)) (hcy : c ≠ y) (hay : a ≠ y) (hby : b ≠ y)
    (hc' : c ∉ outs.drop (k + 1)) (ha' : a ∉ outs.drop (k + 1)) (hb' : b ∉ outs.drop (k + 1)) (hy' : y ∉ outs.drop (k + 1))
    (V : Valuation τ sig Val) {vc : c.ty.Contents Val} {va : a.ty.Contents Val} {vb : b.ty.Contents Val}
    (hvc : after ops V (Proc.devRef .tc c) = vc) (hva : after ops V (Proc.devRef .tc a) = va)
    (hvb : after ops V (Proc.devRef .tc b) = vb) :
    after ops V (Proc.devRef .tc y) = f vc va vb := by
  rw [after_at h k _ hop V hy', ternary_result]
  rw [after_at h k _ hop V hc', ternary_result_ne (h := hcy)] at hvc
  rw [after_at h k _ hop V ha', ternary_result_ne (h := hay)] at hva
  rw [after_at h k _ hop V hb', ternary_result_ne (h := hby)] at hvb
  rw [hvc, hva, hvb]

/-- The equation of an operation of a family of operands. -/
theorem eq_nary (h : Writes ops outs) (k : Nat) {n : Nat} (xs : Fin n → Ref sig .tc) (y : Ref sig .tc)
    (f : ((j : Fin n) → (xs j).ty.Contents Val) → y.ty.Contents Val) (hxs hy)
    (hop : ops[k]? = some (nary xs y f hxs hy)) (hxy : ∀ j, xs j ≠ y)
    (hx' : ∀ j, xs j ∉ outs.drop (k + 1)) (hy' : y ∉ outs.drop (k + 1))
    (V : Valuation τ sig Val) {vs : (j : Fin n) → (xs j).ty.Contents Val}
    (hvs : ∀ j, after ops V (Proc.devRef .tc (xs j)) = vs j) :
    after ops V (Proc.devRef .tc y) = f vs := by
  rw [after_at h k _ hop V hy', nary_result]
  congr 1
  funext j
  have hj := hvs j
  rw [after_at h k _ hop V (hx' j), nary_result_ne (h := hxy j)] at hj
  exact hj

/-- The equation of an operation of three operands given as a family (a concatenation of three pieces). -/
theorem eq_nary3 (h : Writes ops outs) (k : Nat) (a b c y : Ref sig .tc)
    (f : ((j : Fin 3) → (![a, b, c] j).ty.Contents Val) → y.ty.Contents Val) (hxs hy)
    (hop : ops[k]? = some (nary ![a, b, c] y f hxs hy)) (hay : a ≠ y) (hby : b ≠ y) (hcy : c ≠ y)
    (ha' : a ∉ outs.drop (k + 1)) (hb' : b ∉ outs.drop (k + 1)) (hc' : c ∉ outs.drop (k + 1)) (hy' : y ∉ outs.drop (k + 1))
    (V : Valuation τ sig Val) {va : a.ty.Contents Val} {vb : b.ty.Contents Val} {vc : c.ty.Contents Val}
    (hva : after ops V (Proc.devRef .tc a) = va) (hvb : after ops V (Proc.devRef .tc b) = vb)
    (hvc : after ops V (Proc.devRef .tc c) = vc) :
    after ops V (Proc.devRef .tc y)
      = f (fun j => match j with
        | ⟨0, _⟩ => va
        | ⟨1, _⟩ => vb
        | ⟨2, _⟩ => vc) :=
  eq_nary h k ![a, b, c] y f hxs hy hop
    (fun j => match j with
      | ⟨0, _⟩ => hay
      | ⟨1, _⟩ => hby
      | ⟨2, _⟩ => hcy)
    (fun j => match j with
      | ⟨0, _⟩ => ha'
      | ⟨1, _⟩ => hb'
      | ⟨2, _⟩ => hc')
    hy' V
    (fun j => match j with
      | ⟨0, _⟩ => hva
      | ⟨1, _⟩ => hvb
      | ⟨2, _⟩ => hvc)

end Cert.Gcn.R

end
-- ==== Proof.RefRun.lean ====
/-
  The reference's run, read. The reference is a straight line of 255 host operations, each writing one buffer of its own
  (none twice, none an argument). So the contents the whole line leaves satisfy one equation per operation, the result
  buffer holding the operation's function of what the line leaves in its operands (RefSingle.lean). Going through the
  line in order, each buffer is thereby its STAGE of the reference read one operation at a time (the stage is, by
  definition, the operation's function of its operands' stages), down to the last, the program's result; the arguments
  keep their launch contents.
-/
import proofs.«117536_g81621558493468_cont_sun_c4_510_28_alg».proof.Proof.RefOpsList
import proofs.«117536_g81621558493468_cont_sun_c4_510_28_alg».proof.Proof.RefSingle
import proofs.«117536_g81621558493468_cont_sun_c4_510_28_alg».proof.Proof.ReadP
import proofs.«117536_g81621558493468_cont_sun_c4_510_28_alg».proof.Proof.RefOps

noncomputable section

namespace Cert.Gcn.R

open Cert.ReferenceIdeal Cert.ReferenceIdeal.Gen Idealize.ShloMosaic Idealize.ShloMosaic.TcCoe Idealize.SL.Sem Idealize.ShloMosaic.StableHlo

variable {F : FTy → Type} [FloatOps F]

/-! ## Every operation writes one buffer of its own -/

/-- The buffers the operations of chunk 0 write, in order. -/
abbrev outs_part0 : List (Ref sig .tc) :=
  [main_v0, main_v1, main_v2, main_v3, main_v4, main_v5, main_v6, main_v7, main_v8, main_v9, main_v10, main_v11, main_v12, main_c, main_v13, main_v14, main_v15, main_c_0, main_v16, main_v17, main_v18, main_v19, main_v20, main_c_1, main_v21, main_v22, main_c_2, main_v23, main_v24, main_v25, main_c_3, main_v26, main_v27, main_c_4, main_v28, main_v29, main_v30, main_v31, main_v32, main_v33, main_v34, main_v35, main_v36, main_cst, main_v37, main_v38, main_cst_5, main_v39, main_cst_6, main_v40, main_v41, main_c_7, main_v42, main_v43, main_c_8, main_v44, main_v45, main_v46, main_c_9, main_v47]
set_option maxRecDepth 8192 in
theorem ops_part0_writes : Writes (ops_part0 : List (HloOp τ sig (Elt F))) outs_part0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

/-- The buffers the operations of chunk 1 write, in order. -/
abbrev outs_part1 : List (Ref sig .tc) :=
  [main_v48, main_c_10, main_v49, main_v50, main_v51, main_c_11, main_v52, main_v53, main_c_12, main_v54, main_v55, main_v56, main_v57, main_v58, main_v59, main_v60, main_v61, main_cst_13, main_v62, main_v63, main_v64, main_v65, main_cst_14, main_v66, main_c_15, main_v67, main_v68, main_c_16, main_v69, main_v70, main_v71, main_v72, main_v73, main_cst_17, main_v74, main_v75, main_cst_18, main_call1_v0, main_call1_v1, main_v76, main_cst_19, main_v77, main_v78, main_v79, main_cst_20, main_v80, main_v81, main_cst_21, main_call2_v0, main_call2_v1, main_v82, main_c_22, main_v83, main_v84, main_c_23, main_v85, main_v86, main_v87, main_v88, main_v89, main_v90, main_c_24, main_v91, main_v92]
set_option maxRecDepth 8192 in
theorem ops_part1_writes : Writes (ops_part1 : List (HloOp τ sig (Elt F))) outs_part1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))

/-- The buffers the operations of chunk 2 write, in order. -/
abbrev outs_part2 : List (Ref sig .tc) :=
  [main_c_25, main_v93, main_v94, main_v95, main_v96, main_v97, main_v98, main_v99, main_v100, main_v101, main_c_26, main_v102, main_v103, main_c_27, main_v104, main_v105, main_v106, main_v107, main_v108, main_v109, main_v110, main_cst_28, main_v111, main_c_29, main_v112, main_v113, main_c_30, main_v114, main_v115, main_v116, main_v117, main_v118, main_v119, main_v120, main_v121, main_call3_cst, main_call3_v0, main_v122, main_v123, main_v124, main_v125, main_cst_31, main_v126, main_c_32, main_v127, main_v128, main_c_33, main_v129, main_v130, main_v131, main_v132, main_v133, main_cst_34, main_v134, main_v135, main_cst_35, main_call4_v0, main_call4_v1, main_v136, main_cst_36, main_v137, main_v138, main_v139, main_cst_37]
set_option maxRecDepth 8192 in
theorem ops_part2_writes : Writes (ops_part2 : List (HloOp τ sig (Elt F))) outs_part2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))

/-- The buffers the operations of chunk 3 write, in order. -/
abbrev outs_part3 : List (Ref sig .tc) :=
  [main_v140, main_v141, main_cst_38, main_call5_v0, main_call5_v1, main_v142, main_c_39, main_v143, main_v144, main_c_40, main_v145, main_v146, main_v147, main_v148, main_v149, main_v150, main_c_41, main_v151, main_v152, main_c_42, main_v153, main_v154, main_v155, main_v156, main_v157, main_v158, main_v159, main_v160, main_v161, main_c_43, main_v162, main_v163, main_c_44, main_v164, main_v165, main_v166, main_v167, main_v168, main_v169, main_v170, main_cst_45, main_v171, main_c_46, main_v172, main_v173, main_c_47, main_v174, main_v175, main_v176, main_v177, main_v178, main_v179, main_v180, main_v181, main_cst_48, main_v182, main_v183, main_v184, main_v185, main_v186, main_v187, main_v188]
set_option maxRecDepth 8192 in
theorem ops_part3_writes : Writes (ops_part3 : List (HloOp τ sig (Elt F))) outs_part3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))

/-- The buffers the operations of chunk 4 write, in order. -/
abbrev outs_part4 : List (Ref sig .tc) :=
  [main_v189, main_v190, main_v191, main_v192, main_v193]
set_option maxRecDepth 8192 in
theorem ops_part4_writes : Writes (ops_part4 : List (HloOp τ sig (Elt F))) outs_part4 :=
  .cons rfl (.cons rfl (.cons rfl (.cons rfl (.cons rfl (.nil)))))

/-- The 255 buffers the reference's operations write, in order: pairwise distinct, and none an argument of the program. -/
abbrev outs : List (Ref sig .tc) :=
  outs_part0 ++ (outs_part1 ++ (outs_part2 ++ (outs_part3 ++ (outs_part4))))

theorem ops_writes : Writes (ops : List (HloOp τ sig (Elt F))) outs :=
  ops_part0_writes.append (ops_part1_writes.append (ops_part2_writes.append (ops_part3_writes.append (ops_part4_writes))))

/-! ## The arguments are never written -/

theorem keep_main_arg0 (V : Valuation τ sig (Elt F)) :
    after ops V (Proc.devRef .tc main_arg0) = V (Proc.devRef .tc main_arg0) :=
  after_keep ops_writes (by decide +kernel) V

theorem keep_main_arg1 (V : Valuation τ sig (Elt F)) :
    after ops V (Proc.devRef .tc main_arg1) = V (Proc.devRef .tc main_arg1) :=
  after_keep ops_writes (by decide +kernel) V

theorem keep_main_arg2 (V : Valuation τ sig (Elt F)) :
    after ops V (Proc.devRef .tc main_arg2) = V (Proc.devRef .tc main_arg2) :=
  after_keep ops_writes (by decide +kernel) V

theorem keep_main_arg3 (V : Valuation τ sig (Elt F)) :
    after ops V (Proc.devRef .tc main_arg3) = V (Proc.devRef .tc main_arg3) :=
  after_keep ops_writes (by decide +kernel) V

theorem keep_main_arg4 (V : Valuation τ sig (Elt F)) :
    after ops V (Proc.devRef .tc main_arg4) = V (Proc.devRef .tc main_arg4) :=
  after_keep ops_writes (by decide +kernel) V

theorem keep_main_arg5 (V : Valuation τ sig (Elt F)) :
    after ops V (Proc.devRef .tc main_arg5) = V (Proc.devRef .tc main_arg5) :=
  after_keep ops_writes (by decide +kernel) V

theorem keep_main_arg6 (V : Valuation τ sig (Elt F)) :
    after ops V (Proc.devRef .tc main_arg6) = V (Proc.devRef .tc main_arg6) :=
  after_keep ops_writes (by decide +kernel) V

theorem keep_main_arg7 (V : Valuation τ sig (Elt F)) :
    after ops V (Proc.devRef .tc main_arg7) = V (Proc.devRef .tc main_arg7) :=
  after_keep ops_writes (by decide +kernel) V

theorem keep_main_arg8 (V : Valuation τ sig (Elt F)) :
    after ops V (Proc.devRef .tc main_arg8) = V (Proc.devRef .tc main_arg8) :=
  after_keep ops_writes (by decide +kernel) V

/-! ## The contents after the whole line, buffer by buffer in program order

Each buffer holds its stage of the reference read one operation at a time: the operation's function of the stages of
its operands (the single-assignment equation of its place in the line, then the definition of the stage). -/

theorem at_main_v0 (V : Valuation τ sig (Elt F)) :
    after ops V (Proc.devRef .tc main_v0) = Read.val_main_v0 (F := F) :=
  (eq_nullary ops_writes 0 main_v0 _ _ rfl (by decide +kernel) V).trans rfl

theorem at_main_v1 (V : Valuation τ sig (Elt F)) :
    after ops V (Proc.devRef .tc main_v1) = Read.val_main_v1 (F := F) :=
  (eq_unary ops_writes 1 main_v0 main_v1 _ _ _ rfl (by decide) (by decide +kernel) (by decide +kernel) V (at_main_v0 V)).trans rfl

theorem at_main_v2 (V : Valuation τ sig (Elt F)) :
    after ops V (Proc.devRef .tc main_v2) = Read.val_main_v2 (F := F) :=
  (eq_reshape ops_writes 2 main_v1 main_v2 _ _ _ _ rfl (by decide) (by decide +kernel) (by decide +kernel) V (at_main_v1 V)).trans rfl

theorem at_main_v3 (V : Valuation τ sig (Elt F)) :
    after ops V (Proc.devRef .tc main_v3) = Read.val_main_v3 (F := F) :=
  (eq_nullary ops_writes 3 main_v3 _ _ rfl (by decide +kernel) V).trans rfl

theorem at_main_v4 (V : Valuation τ sig (Elt F)) :
    after ops V (Proc.devRef .tc main_v4) = Read.val_main_v4 (F := F) :=
  (eq_unary ops_writes 4 main_v3 main_v4 _ _ _ rfl (by decide) (by decide +kernel) (by decide +kernel) V (at_main_v3 V)).trans rfl

theorem at_main_v5 (V : Valuation τ sig (Elt F)) :
    after ops V (Proc.devRef .tc main_v5) = Read.val_main_v5 (F := F) :=
  (eq_reshape ops_writes 5 main_v4 main_v5 _ _ _ _ rfl (by decide) (by decide +kernel) (by decide +kernel) V (at_main_v4 V)).trans rfl

theorem at_main_v6 (V : Valuation τ sig (Elt F)) :
    after ops V (Proc.devRef .tc main_v6) = Read.val_main_v6 (F := F) :=
  (eq_reshape ops_writes 6 main_v5 main_v6 _ _ _ _ rfl (by decide) (by decide +kernel) (by decide +kernel) V (at_main_v5 V)).trans rfl

theorem at_main_v7 (V : Valuation τ sig (Elt F)) :
    after ops V (Proc.devRef .tc main_v7) = Read.val_main_v7 (F := F) :=
  (eq_unary ops_writes 7 main_v6 main_v7 _ _ _ rfl (by decide) (by decide +kernel) (by decide +kernel) V (at_main_v6 V)).trans rfl

theorem at_main_v8 (V : Valuation τ sig (Elt F)) :
    after ops V (Proc.devRef .tc main_v8) = Read.val_main_v8 (F := F) :=
  (eq_reshape ops_writes 8 main_v7 main_v8 _ _ _ _ rfl (by decide) (by decide +kernel) (by decide +kernel) V (at_main_v7 V)).trans rfl

theorem at_main_v9 (V : Valuation τ sig (Elt F)) :
    after ops V (Proc.devRef .tc main_v9) = Read.val_main_v9 (F := F) :=
  (eq_nullary ops_writes 9 main_v9 _ _ rfl (by decide +kernel) V).trans rfl

theorem at_main_v10 (V : Valuation τ sig (Elt F)) :
    after ops V (Proc.devRef .tc main_v10) = Read.val_main_v10 (F := F) :=
  (eq_reshape ops_writes 10 main_v9 main_v10 _ _ _ _ rfl (by decide) (by decide +kernel) (by decide +kernel) V (at_main_v9 V)).trans rfl

theorem at_main_v11 (V : Valuation τ sig (Elt F)) :
    after ops V (Proc.devRef .tc main_v11) = Read.val_main_v11 (F := F) :=
  (eq_unary ops_writes 11 main_v10 main_v11 _ _ _ rfl (by decide) (by decide +kernel) (by decide +kernel) V (at_main_v10 V)).trans rfl

theorem at_main_v12 (V : Valuation τ sig (Elt F)) :
    after ops V (Proc.devRef .tc main_v12) = Read.val_main_v12 (F := F) :=
  (eq_reshape ops_writes 12 main_v11 main_v12 _ _ _ _ rfl (by decide) (by decide +kernel) (by decide +kernel) V (at_main_v11 V)).trans rfl

theorem at_main_c (V : Valuation τ sig (Elt F)) :
    after ops V (Proc.devRef .tc main_c) = Read.val_main_c (F := F) :=
  (eq_nullary ops_writes 13 main_c _ _ rfl (by decide +kernel) V).trans rfl

theorem at_main_v13 (V : Valuation τ sig (Elt F)) :
    after ops V (Proc.devRef .tc main_v13) = Read.val_main_v13 (F := F) :=
  (eq_unary ops_writes 14 main_c main_v13 _ _ _ rfl (by decide) (by decide +kernel) (by decide +kernel) V (at_main_c V)).trans rfl

theorem at_main_v14 (V : Valuation τ sig (Elt F)) :
    after ops V (Proc.devRef .tc main_v14) = Read.val_main_v14 (F := F) :=
  (eq_binary ops_writes 15 main_v2 main_v13 main_v14 _ _ _ _ rfl (by decide) (by decide) (by decide +kernel) (by decide +kernel) (by decide +kernel) V (at_main_v2 V) (at_main_v13 V)).trans rfl

theorem at_main_v15 (V : Valuation τ sig (Elt F)) :
    after ops V (Proc.devRef .tc main_v15) = Read.val_main_v15 (F := F) :=
  (eq_binary ops_writes 16 main_v14 main_v8 main_v15 _ _ _ _ rfl (by decide) (by decide) (by decide +kernel) (by decide +kernel) (by decide +kernel) V (at_main_v14 V) (at_main_v8 V)).trans rfl

theorem at_main_c_0 (V : Valuation τ sig (Elt F)) :
    after ops V (Proc.devRef .tc main_c_0) = Read.val_main_c_0 (F := F) :=
  (eq_nullary ops_writes 17 main_c_0 _ _ rfl (by decide +kernel) V).trans rfl

theorem at_main_v16 (V : Valuation τ sig (Elt F)) :
    after ops V (Proc.devRef .tc main_v16) = Read.val_main_v16 (F := F) :=
  (eq_unary ops_writes 18 main_c_0 main_v16 _ _ _ rfl (by decide) (by decide +kernel) (by decide +kernel) V (at_main_c_0 V)).trans rfl

theorem at_main_v17 (V : Valuation τ sig (Elt F)) :
    after ops V (Proc.devRef .tc main_v17) = Read.val_main_v17 (F := F) :=
  (eq_binary ops_writes 19 main_v2 main_v16 main_v17 _ _ _ _ rfl (by decide) (by decide) (by decide +kernel) (by decide +kernel) (by decide +kernel) V (at_main_v2 V) (at_main_v16 V)).trans rfl

theorem at_main_v18 (V : Valuation τ sig (Elt F)) :
    after ops V (Proc.devRef .tc main_v18) = Read.val_main_v18 (F := F) :=
  (eq_binary ops_writes 20 main_v17 main_v12 main_v18 _ _ _ _ rfl (by decide) (by decide) (by decide +kernel) (by decide +kernel) (by decide +kernel) V (at_main_v17 V) (at_main_v12 V)).trans rfl

theorem at_main_v19 (V : Valuation τ sig (Elt F)) :
    after ops V (Proc.devRef .tc main_v19) = Read.val_main_v19 (F := F) :=
  (eq_nullary ops_writes 21 main_v19 _ _ rfl (by decide +kernel) V).trans rfl

theorem at_main_v20 (V : Valuation τ sig (Elt F)) :
    after ops V (Proc.devRef .tc main_v20) = Read.val_main_v20 (F := F) :=
  (eq_nullary ops_writes 22 main_v20 _ _ rfl (by decide +kernel) V).trans rfl

theorem at_main_c_1 (V : Valuation τ sig (Elt F)) :
    after ops V (Proc.devRef .tc main_c_1) = Read.val_main_c_1 (F := F) :=
  (eq_nullary ops_writes 23 main_c_1 _ _ rfl (by decide +kernel) V).trans rfl

theorem at_main_v21 (V : Valuation τ sig (Elt F)) :
    after ops V (Proc.devRef .tc main_v21) = Read.val_main_v21 (F := F) :=
  (eq_unary ops_writes 24 main_c_1 main_v21 _ _ _ rfl (by decide) (by decide +kernel) (by decide +kernel) V (at_main_c_1 V)).trans rfl

theorem at_main_v22 (V : Valuation τ sig (Elt F)) :
    after ops V (Proc.devRef .tc main_v22) = Read.val_main_v22 (F := F) :=
  (eq_binary ops_writes 25 main_v19 main_v21 main_v22 _ _ _ _ rfl (by decide) (by decide) (by decide +kernel) (by decide +kernel) (by decide +kernel) V (at_main_v19 V) (at_main_v21 V)).trans rfl

theorem at_main_c_2 (V : Valuation τ sig (Elt F)) :
    after ops V (Proc.devRef .tc main_c_2) = Read.val_main_c_2 (F := F) :=
  (eq_nullary ops_writes 26 main_c_2 _ _ rfl (by decide +kernel) V).trans rfl

theorem at_main_v23 (V : Valuation τ sig (Elt F)) :
    after ops V (Proc.devRef .tc main_v23) = Read.val_main_v23 (F := F) :=
  (eq_unary ops_writes 27 main_c_2 main_v23 _ _ _ rfl (by decide) (by decide +kernel) (by decide +kernel) V (at_main_c_2 V)).trans rfl

theorem at_main_v24 (V : Valuation τ sig (Elt F)) :
    after ops V (Proc.devRef .tc main_v24) = Read.val_main_v24 (F := F) :=
  (eq_binary ops_writes 28 main_v19 main_v23 main_v24 _ _ _ _ rfl (by decide) (by decide) (by decide +kernel) (by decide +kernel) (by decide +kernel) V (at_main_v19 V) (at_main_v23 V)).trans rfl

theorem at_main_v25 (V : Valuation τ sig (Elt F)) :
    after ops V (Proc.devRef .tc main_v25) = Read.val_main_v25 (F := F) :=
  (eq_ternary ops_writes 29 main_v22 main_v24 main_v19 main_v25 _ _ _ _ _ rfl (by decide) (by decide) (by decide) (by decide +kernel) (by decide +kernel) (by decide +kernel) (by decide +kernel) V (at_main_v22 V) (at_main_v24 V) (at_main_v19 V)).trans rfl

theorem at_main_c_3 (V : Valuation τ sig (Elt F)) :
    after ops V (Proc.devRef .tc main_c_3) = Read.val_main_c_3 (F := F) :=
  (eq_nullary ops_writes 30 main_c_3 _ _ rfl (by decide +kernel) V).trans rfl

theorem at_main_v26 (V : Valuation τ sig (Elt F)) :
    after ops V (Proc.devRef .tc main_v26) = Read.val_main_v26 (F := F) :=
  (eq_unary ops_writes 31 main_c_3 main_v26 _ _ _ rfl (by decide) (by decide +kernel) (by decide +kernel) V (at_main_c_3 V)).trans rfl

theorem at_main_v27 (V : Valuation τ sig (Elt F)) :
    after ops V (Proc.devRef .tc main_v27) = Read.val_main_v27 (F := F) :=
  (eq_binary ops_writes 32 main_v20 main_v26 main_v27 _ _ _ _ rfl (by decide) (by decide) (by decide +kernel) (by decide +kernel) (by decide +kernel) V (at_main_v20 V) (at_main_v26 V)).trans rfl

theorem at_main_c_4 (V : Valuation τ sig (Elt F)) :
    after ops V (Proc.devRef .tc main_c_4) = Read.val_main_c_4 (F := F) :=
  (eq_nullary ops_writes 33 main_c_4 _ _ rfl (by decide +kernel) V).trans rfl

theorem at_main_v28 (V : Valuation τ sig (Elt F)) :
    after ops V (Proc.devRef .tc main_v28) = Read.val_main_v28 (F := F) :=
  (eq_unary ops_writes 34 main_c_4 main_v28 _ _ _ rfl (by decide) (by decide +kernel) (by decide +kernel) V (at_main_c_4 V)).trans rfl

theorem at_main_v29 (V : Valuation τ sig (Elt F)) :
    after ops V (Proc.devRef .tc main_v29) = Read.val_main_v29 (F := F) :=
  (eq_binary ops_writes 35 main_v20 main_v28 main_v29 _ _ _ _ rfl (by decide) (by decide) (by decide +kernel) (by decide +kernel) (by decide +kernel) V (at_main_v20 V) (at_main_v28 V)).trans rfl

theorem at_main_v30 (V : Valuation τ sig (Elt F)) :
    after ops V (Proc.devRef .tc main_v30) = Read.val_main_v30 (F := F) :=
  (eq_ternary ops_writes 36 main_v27 main_v29 main_v20 main_v30 _ _ _ _ _ rfl (by decide) (by decide) (by decide) (by decide +kernel) (by decide +kernel) (by decide +kernel) (by decide +kernel) V (at_main_v27 V) (at_main_v29 V) (at_main_v20 V)).trans rfl

theorem at_main_v31 (V : Valuation τ sig (Elt F)) :
    after ops V (Proc.devRef .tc main_v31) = Read.val_main_v31 (F := F) :=
  (eq_unary ops_writes 37 main_v25 main_v31 _ _ _ rfl (by decide) (by decide +kernel) (by decide +kernel) V (at_main_v25 V)).trans rfl

theorem at_main_v32 (V : Valuation τ sig (Elt F)) :
    after ops V (Proc.devRef .tc main_v32) = Read.val_main_v32 (F := F) :=
  (eq_unary ops_writes 38 main_v30 main_v32 _ _ _ rfl (by decide) (by decide +kernel) (by decide +kernel) V (at_main_v30 V)).trans rfl

theorem at_main_v33 (V : Valuation τ sig (Elt F)) :
    after ops V (Proc.devRef .tc main_v33) = Read.val_main_v33 (F := F) :=
  (eq_binary ops_writes 39 main_v31 main_v32 main_v33 _ _ _ _ rfl (by decide) (by decide) (by decide +kernel) (by decide +kernel) (by decide +kernel) V (at_main_v31 V) (at_main_v32 V)).trans rfl

theorem at_main_v34 (V : Valuation τ sig (Elt F)) :
    after ops V (Proc.devRef .tc main_v34) = Read.val_main_v34 (F := F) (V (Proc.devRef .tc main_arg0)) :=
  (eq_binary ops_writes 40 main_arg0 main_v33 main_v34 _ _ _ _ rfl (by decide) (by decide) (by decide +kernel) (by decide +kernel) (by decide +kernel) V (keep_main_arg0 V) (at_main_v33 V)).trans rfl

theorem at_main_v35 (V : Valuation τ sig (Elt F)) :
    after ops V (Proc.devRef .tc main_v35) = Read.val_main_v35 (F := F) (V (Proc.devRef .tc main_arg0)) :=
  (eq_reshape ops_writes 41 main_v34 main_v35 _ _ _ _ rfl (by decide) (by decide +kernel) (by decide +kernel) V (at_main_v34 V)).trans rfl

theorem at_main_v36 (V : Valuation τ sig (Elt F)) :
    after ops V (Proc.devRef .tc main_v36) = Read.val_main_v36 (F := F) :=
  (eq_nullary ops_writes 42 main_v36 _ _ rfl (by decide +kernel) V).trans rfl

theorem at_main_cst (V : Valuation τ sig (Elt F)) :
    after ops V (Proc.devRef .tc main_cst) = Read.val_main_cst (F := F) :=
  (eq_nullary ops_writes 43 main_cst _ _ rfl (by decide +kernel) V).trans rfl

theorem at_main_v37 (V : Valuation τ sig (Elt F)) :
    after ops V (Proc.devRef .tc main_v37) = Read.val_main_v37 (F := F) :=
  (eq_unary ops_writes 44 main_cst main_v37 _ _ _ rfl (by decide) (by decide +kernel) (by decide +kernel) V (at_main_cst V)).trans rfl

theorem at_main_v38 (V : Valuation τ sig (Elt F)) :
    after ops V (Proc.devRef .tc main_v38) = Read.val_main_v38 (F := F) (V (Proc.devRef .tc main_arg0)) :=
  (eq_binary ops_writes 45 main_v35 main_v37 main_v38 _ _ _ _ rfl (by decide) (by decide) (by decide +kernel) (by decide +kernel) (by decide +kernel) V (at_main_v35 V) (at_main_v37 V)).trans rfl

theorem at_main_cst_5 (V : Valuation τ sig (Elt F)) :
    after ops V (Proc.devRef .tc main_cst_5) = Read.val_main_cst_5 (F := F) :=
  (eq_nullary ops_writes 46 main_cst_5 _ _ rfl (by decide +kernel) V).trans rfl

theorem at_main_v39 (V : Valuation τ sig (Elt F)) :
    after ops V (Proc.devRef .tc main_v39) = Read.val_main_v39 (F := F) :=
  (eq_unary ops_writes 47 main_cst_5 main_v39 _ _ _ rfl (by decide) (by decide +kernel) (by decide +kernel) V (at_main_cst_5 V)).trans rfl

theorem at_main_cst_6 (V : Valuation τ sig (Elt F)) :
    after ops V (Proc.devRef .tc main_cst_6) = Read.val_main_cst_6 (F := F) :=
  (eq_nullary ops_writes 48 main_cst_6 _ _ rfl (by decide +kernel) V).trans rfl

theorem at_main_v40 (V : Valuation τ sig (Elt F)) :
    after ops V (Proc.devRef .tc main_v40) = Read.val_main_v40 (F := F) :=
  (eq_unary ops_writes 49 main_cst_6 main_v40 _ _ _ rfl (by decide) (by decide +kernel) (by decide +kernel) V (at_main_cst_6 V)).trans rfl

theorem at_main_v41 (V : Valuation τ sig (Elt F)) :
    after ops V (Proc.devRef .tc main_v41) = Read.val_main_v41 (F := F) (V (Proc.devRef .tc main_arg0)) :=
  (eq_ternary ops_writes 50 main_v38 main_v39 main_v40 main_v41 _ _ _ _ _ rfl (by decide) (by decide) (by decide) (by decide +kernel) (by decide +kernel) (by decide +kernel) (by decide +kernel) V (at_main_v38 V) (at_main_v39 V) (at_main_v40 V)).trans rfl

theorem at_main_c_7 (V : Valuation τ sig (Elt F)) :
    after ops V (Proc.devRef .tc main_c_7) = Read.val_main_c_7 (F := F) :=
  (eq_nullary ops_writes 51 main_c_7 _ _ rfl (by decide +kernel) V).trans rfl

theorem at_main_v42 (V : Valuation τ sig (Elt F)) :
    after ops V (Proc.devRef .tc main_v42) = Read.val_main_v42 (F := F) :=
  (eq_unary ops_writes 52 main_c_7 main_v42 _ _ _ rfl (by decide) (by decide +kernel) (by decide +kernel) V (at_main_c_7 V)).trans rfl

theorem at_main_v43 (V : Valuation τ sig (Elt F)) :
    after ops V (Proc.devRef .tc main_v43) = Read.val_main_v43 (F := F) :=
  (eq_binary ops_writes 53 main_v2 main_v42 main_v43 _ _ _ _ rfl (by decide) (by decide) (by decide +kernel) (by decide +kernel) (by decide +kernel) V (at_main_v2 V) (at_main_v42 V)).trans rfl

theorem at_main_c_8 (V : Valuation τ sig (Elt F)) :
    after ops V (Proc.devRef .tc main_c_8) = Read.val_main_c_8 (F := F) :=
  (eq_nullary ops_writes 54 main_c_8 _ _ rfl (by decide +kernel) V).trans rfl

theorem at_main_v44 (V : Valuation τ sig (Elt F)) :
    after ops V (Proc.devRef .tc main_v44) = Read.val_main_v44 (F := F) :=
  (eq_unary ops_writes 55 main_c_8 main_v44 _ _ _ rfl (by decide) (by decide +kernel) (by decide +kernel) V (at_main_c_8 V)).trans rfl

theorem at_main_v45 (V : Valuation τ sig (Elt F)) :
    after ops V (Proc.devRef .tc main_v45) = Read.val_main_v45 (F := F) :=
  (eq_binary ops_writes 56 main_v2 main_v44 main_v45 _ _ _ _ rfl (by decide) (by decide) (by decide +kernel) (by decide +kernel) (by decide +kernel) V (at_main_v2 V) (at_main_v44 V)).trans rfl

theorem at_main_v46 (V : Valuation τ sig (Elt F)) :
    after ops V (Proc.devRef .tc main_v46) = Read.val_main_v46 (F := F) :=
  (eq_ternary ops_writes 57 main_v43 main_v45 main_v2 main_v46 _ _ _ _ _ rfl (by decide) (by decide) (by decide) (by decide +kernel) (by decide +kernel) (by decide +kernel) (by decide +kernel) V (at_main_v43 V) (at_main_v45 V) (at_main_v2 V)).trans rfl

theorem at_main_c_9 (V : Valuation τ sig (Elt F)) :
    after ops V (Proc.devRef .tc main_c_9) = Read.val_main_c_9 (F := F) :=
  (eq_nullary ops_writes 58 main_c_9 _ _ rfl (by decide +kernel) V).trans rfl

theorem at_main_v47 (V : Valuation τ sig (Elt F)) :
    after ops V (Proc.devRef .tc main_v47) = Read.val_main_v47 (F := F) :=
  (eq_unary ops_writes 59 main_c_9 main_v47 _ _ _ rfl (by decide) (by decide +kernel) (by decide +kernel) V (at_main_c_9 V)).trans rfl

theorem at_main_v48 (V : Valuation τ sig (Elt F)) :
    after ops V (Proc.devRef .tc main_v48) = Read.val_main_v48 (F := F) :=
  (eq_binary ops_writes 60 main_v8 main_v47 main_v48 _ _ _ _ rfl (by decide) (by decide) (by decide +kernel) (by decide +kernel) (by decide +kernel) V (at_main_v8 V) (at_main_v47 V)).trans rfl

theorem at_main_c_10 (V : Valuation τ sig (Elt F)) :
    after ops V (Proc.devRef .tc main_c_10) = Read.val_main_c_10 (F := F) :=
  (eq_nullary ops_writes 61 main_c_10 _ _ rfl (by decide +kernel) V).trans rfl

theorem at_main_v49 (V : Valuation τ sig (Elt F)) :
    after ops V (Proc.devRef .tc main_v49) = Read.val_main_v49 (F := F) :=
  (eq_unary ops_writes 62 main_c_10 main_v49 _ _ _ rfl (by decide) (by decide +kernel) (by decide +kernel) V (at_main_c_10 V)).trans rfl

theorem at_main_v50 (V : Valuation τ sig (Elt F)) :
    after ops V (Proc.devRef .tc main_v50) = Read.val_main_v50 (F := F) :=
  (eq_binary ops_writes 63 main_v8 main_v49 main_v50 _ _ _ _ rfl (by decide) (by decide) (by decide +kernel) (by decide +kernel) (by decide +kernel) V (at_main_v8 V) (at_main_v49 V)).trans rfl

theorem at_main_v51 (V : Valuation τ sig (Elt F)) :
    after ops V (Proc.devRef .tc main_v51) = Read.val_main_v51 (F := F) :=
  (eq_ternary ops_writes 64 main_v48 main_v50 main_v8 main_v51 _ _ _ _ _ rfl (by decide) (by decide) (by decide) (by decide +kernel) (by decide +kernel) (by decide +kernel) (by decide +kernel) V (at_main_v48 V) (at_main_v50 V) (at_main_v8 V)).trans rfl

theorem at_main_c_11 (V : Valuation τ sig (Elt F)) :
    after ops V (Proc.devRef .tc main_c_11) = Read.val_main_c_11 (F := F) :=
  (eq_nullary ops_writes 65 main_c_11 _ _ rfl (by decide +kernel) V).trans rfl

theorem at_main_v52 (V : Valuation τ sig (Elt F)) :
    after ops V (Proc.devRef .tc main_v52) = Read.val_main_v52 (F := F) :=
  (eq_unary ops_writes 66 main_c_11 main_v52 _ _ _ rfl (by decide) (by decide +kernel) (by decide +kernel) V (at_main_c_11 V)).trans rfl

theorem at_main_v53 (V : Valuation τ sig (Elt F)) :
    after ops V (Proc.devRef .tc main_v53) = Read.val_main_v53 (F := F) :=
  (eq_binary ops_writes 67 main_v12 main_v52 main_v53 _ _ _ _ rfl (by decide) (by decide) (by decide +kernel) (by decide +kernel) (by decide +kernel) V (at_main_v12 V) (at_main_v52 V)).trans rfl

theorem at_main_c_12 (V : Valuation τ sig (Elt F)) :
    after ops V (Proc.devRef .tc main_c_12) = Read.val_main_c_12 (F := F) :=
  (eq_nullary ops_writes 68 main_c_12 _ _ rfl (by decide +kernel) V).trans rfl

theorem at_main_v54 (V : Valuation τ sig (Elt F)) :
    after ops V (Proc.devRef .tc main_v54) = Read.val_main_v54 (F := F) :=
  (eq_unary ops_writes 69 main_c_12 main_v54 _ _ _ rfl (by decide) (by decide +kernel) (by decide +kernel) V (at_main_c_12 V)).trans rfl

theorem at_main_v55 (V : Valuation τ sig (Elt F)) :
    after ops V (Proc.devRef .tc main_v55) = Read.val_main_v55 (F := F) :=
  (eq_binary ops_writes 70 main_v12 main_v54 main_v55 _ _ _ _ rfl (by decide) (by decide) (by decide +kernel) (by decide +kernel) (by decide +kernel) V (at_main_v12 V) (at_main_v54 V)).trans rfl

theorem at_main_v56 (V : Valuation τ sig (Elt F)) :
    after ops V (Proc.devRef .tc main_v56) = Read.val_main_v56 (F := F) :=
  (eq_ternary ops_writes 71 main_v53 main_v55 main_v12 main_v56 _ _ _ _ _ rfl (by decide) (by decide) (by decide) (by decide +kernel) (by decide +kernel) (by decide +kernel) (by decide +kernel) V (at_main_v53 V) (at_main_v55 V) (at_main_v12 V)).trans rfl

theorem at_main_v57 (V : Valuation τ sig (Elt F)) :
    after ops V (Proc.devRef .tc main_v57) = Read.val_main_v57 (F := F) :=
  (eq_unary ops_writes 72 main_v46 main_v57 _ _ _ rfl (by decide) (by decide +kernel) (by decide +kernel) V (at_main_v46 V)).trans rfl

theorem at_main_v58 (V : Valuation τ sig (Elt F)) :
    after ops V (Proc.devRef .tc main_v58) = Read.val_main_v58 (F := F) :=
  (eq_unary ops_writes 73 main_v51 main_v58 _ _ _ rfl (by decide) (by decide +kernel) (by decide +kernel) V (at_main_v51 V)).trans rfl

theorem at_main_v59 (V : Valuation τ sig (Elt F)) :
    after ops V (Proc.devRef .tc main_v59) = Read.val_main_v59 (F := F) :=
  (eq_unary ops_writes 74 main_v56 main_v59 _ _ _ rfl (by decide) (by decide +kernel) (by decide +kernel) V (at_main_v56 V)).trans rfl

theorem at_main_v60 (V : Valuation τ sig (Elt F)) :
    after ops V (Proc.devRef .tc main_v60) = Read.val_main_v60 (F := F) :=
  (eq_nary3 ops_writes 75 main_v57 main_v58 main_v59 main_v60 _ _ _ rfl (by decide) (by decide) (by decide) (by decide +kernel) (by decide +kernel) (by decide +kernel) (by decide +kernel) V (at_main_v57 V) (at_main_v58 V) (at_main_v59 V)).trans rfl

theorem at_main_v61 (V : Valuation τ sig (Elt F)) :
    after ops V (Proc.devRef .tc main_v61) = Read.val_main_v61 (F := F) (V (Proc.devRef .tc main_arg0)) :=
  (eq_binary ops_writes 76 main_arg0 main_v60 main_v61 _ _ _ _ rfl (by decide) (by decide) (by decide +kernel) (by decide +kernel) (by decide +kernel) V (keep_main_arg0 V) (at_main_v60 V)).trans rfl

theorem at_main_cst_13 (V : Valuation τ sig (Elt F)) :
    after ops V (Proc.devRef .tc main_cst_13) = Read.val_main_cst_13 (F := F) :=
  (eq_nullary ops_writes 77 main_cst_13 _ _ rfl (by decide +kernel) V).trans rfl

theorem at_main_v62 (V : Valuation τ sig (Elt F)) :
    after ops V (Proc.devRef .tc main_v62) = Read.val_main_v62 (F := F) :=
  (eq_unary ops_writes 78 main_cst_13 main_v62 _ _ _ rfl (by decide) (by decide +kernel) (by decide +kernel) V (at_main_cst_13 V)).trans rfl

theorem at_main_v63 (V : Valuation τ sig (Elt F)) :
    after ops V (Proc.devRef .tc main_v63) = Read.val_main_v63 (F := F) :=
  (eq_binary ops_writes 79 main_v15 main_v36 main_v63 _ _ _ _ rfl (by decide) (by decide) (by decide +kernel) (by decide +kernel) (by decide +kernel) V (at_main_v15 V) (at_main_v36 V)).trans rfl

theorem at_main_v64 (V : Valuation τ sig (Elt F)) :
    after ops V (Proc.devRef .tc main_v64) = Read.val_main_v64 (F := F) :=
  (eq_binary ops_writes 80 main_v18 main_v36 main_v64 _ _ _ _ rfl (by decide) (by decide) (by decide +kernel) (by decide +kernel) (by decide +kernel) V (at_main_v18 V) (at_main_v36 V)).trans rfl

theorem at_main_v65 (V : Valuation τ sig (Elt F)) :
    after ops V (Proc.devRef .tc main_v65) = Read.val_main_v65 (F := F) (V (Proc.devRef .tc main_arg0)) :=
  (eq_binary ops_writes 81 main_v61 main_v41 main_v65 _ _ _ _ rfl (by decide) (by decide) (by decide +kernel) (by decide +kernel) (by decide +kernel) V (at_main_v61 V) (at_main_v41 V)).trans rfl

theorem at_main_cst_14 (V : Valuation τ sig (Elt F)) :
    after ops V (Proc.devRef .tc main_cst_14) = Read.val_main_cst_14 (F := F) :=
  (eq_nullary ops_writes 82 main_cst_14 _ _ rfl (by decide +kernel) V).trans rfl

theorem at_main_v66 (V : Valuation τ sig (Elt F)) :
    after ops V (Proc.devRef .tc main_v66) = Read.val_main_v66 (F := F) :=
  (eq_unary ops_writes 83 main_cst_14 main_v66 _ _ _ rfl (by decide) (by decide +kernel) (by decide +kernel) V (at_main_cst_14 V)).trans rfl

theorem at_main_c_15 (V : Valuation τ sig (Elt F)) :
    after ops V (Proc.devRef .tc main_c_15) = Read.val_main_c_15 (F := F) :=
  (eq_nullary ops_writes 84 main_c_15 _ _ rfl (by decide +kernel) V).trans rfl

theorem at_main_v67 (V : Valuation τ sig (Elt F)) :
    after ops V (Proc.devRef .tc main_v67) = Read.val_main_v67 (F := F) :=
  (eq_unary ops_writes 85 main_c_15 main_v67 _ _ _ rfl (by decide) (by decide +kernel) (by decide +kernel) V (at_main_c_15 V)).trans rfl

theorem at_main_v68 (V : Valuation τ sig (Elt F)) :
    after ops V (Proc.devRef .tc main_v68) = Read.val_main_v68 (F := F) :=
  (eq_binary ops_writes 86 main_v64 main_v67 main_v68 _ _ _ _ rfl (by decide) (by decide) (by decide +kernel) (by decide +kernel) (by decide +kernel) V (at_main_v64 V) (at_main_v67 V)).trans rfl

theorem at_main_c_16 (V : Valuation τ sig (Elt F)) :
    after ops V (Proc.devRef .tc main_c_16) = Read.val_main_c_16 (F := F) :=
  (eq_nullary ops_writes 87 main_c_16 _ _ rfl (by decide +kernel) V).trans rfl

theorem at_main_v69 (V : Valuation τ sig (Elt F)) :
    after ops V (Proc.devRef .tc main_v69) = Read.val_main_v69 (F := F) :=
  (eq_unary ops_writes 88 main_c_16 main_v69 _ _ _ rfl (by decide) (by decide +kernel) (by decide +kernel) V (at_main_c_16 V)).trans rfl

theorem at_main_v70 (V : Valuation τ sig (Elt F)) :
    after ops V (Proc.devRef .tc main_v70) = Read.val_main_v70 (F := F) :=
  (eq_binary ops_writes 89 main_v64 main_v69 main_v70 _ _ _ _ rfl (by decide) (by decide) (by decide +kernel) (by decide +kernel) (by decide +kernel) V (at_main_v64 V) (at_main_v69 V)).trans rfl

theorem at_main_v71 (V : Valuation τ sig (Elt F)) :
    after ops V (Proc.devRef .tc main_v71) = Read.val_main_v71 (F := F) :=
  (eq_ternary ops_writes 90 main_v68 main_v70 main_v64 main_v71 _ _ _ _ _ rfl (by decide) (by decide) (by decide) (by decide +kernel) (by decide +kernel) (by decide +kernel) (by decide +kernel) V (at_main_v68 V) (at_main_v70 V) (at_main_v64 V)).trans rfl

theorem at_main_v72 (V : Valuation τ sig (Elt F)) :
    after ops V (Proc.devRef .tc main_v72) = Read.val_main_v72 (F := F) :=
  (eq_unary ops_writes 91 main_v71 main_v72 _ _ _ rfl (by decide) (by decide +kernel) (by decide +kernel) V (at_main_v71 V)).trans rfl

theorem at_main_v73 (V : Valuation τ sig (Elt F)) :
    after ops V (Proc.devRef .tc main_v73) = Read.val_main_v73 (F := F) (V (Proc.devRef .tc main_arg0)) :=
  (eq_ternary ops_writes 92 main_v66 main_v72 main_v65 main_v73 _ _ _ _ _ rfl (by decide) (by decide) (by decide) (by decide +kernel) (by decide +kernel) (by decide +kernel) (by decide +kernel) V (at_main_v66 V) (at_main_v72 V) (at_main_v65 V)).trans rfl

theorem at_main_cst_17 (V : Valuation τ sig (Elt F)) :
    after ops V (Proc.devRef .tc main_cst_17) = Read.val_main_cst_17 (F := F) :=
  (eq_nullary ops_writes 93 main_cst_17 _ _ rfl (by decide +kernel) V).trans rfl

theorem at_main_v74 (V : Valuation τ sig (Elt F)) :
    after ops V (Proc.devRef .tc main_v74) = Read.val_main_v74 (F := F) :=
  (eq_unary ops_writes 94 main_cst_17 main_v74 _ _ _ rfl (by decide) (by decide +kernel) (by decide +kernel) V (at_main_cst_17 V)).trans rfl

theorem at_main_v75 (V : Valuation τ sig (Elt F)) :
    after ops V (Proc.devRef .tc main_v75) = Read.val_main_v75 (F := F) (V (Proc.devRef .tc main_arg0)) :=
  (eq_binary ops_writes 95 main_v73 main_v74 main_v75 _ _ _ _ rfl (by decide) (by decide) (by decide +kernel) (by decide +kernel) (by decide +kernel) V (at_main_v73 V) (at_main_v74 V)).trans rfl

theorem at_main_cst_18 (V : Valuation τ sig (Elt F)) :
    after ops V (Proc.devRef .tc main_cst_18) = Read.val_main_cst_18 (F := F) :=
  (eq_nullary ops_writes 96 main_cst_18 _ _ rfl (by decide +kernel) V).trans rfl

theorem at_main_call1_v0 (V : Valuation τ sig (Elt F)) :
    after ops V (Proc.devRef .tc main_call1_v0) = Read.val_main_call1_v0 (F := F) :=
  (eq_unary ops_writes 97 main_cst_18 main_call1_v0 _ _ _ rfl (by decide) (by decide +kernel) (by decide +kernel) V (at_main_cst_18 V)).trans rfl

theorem at_main_call1_v1 (V : Valuation τ sig (Elt F)) :
    after ops V (Proc.devRef .tc main_call1_v1) = Read.val_main_call1_v1 (F := F) :=
  (eq_unary ops_writes 98 main_call1_v0 main_call1_v1 _ _ _ rfl (by decide) (by decide +kernel) (by decide +kernel) V (at_main_call1_v0 V)).trans rfl

theorem at_main_v76 (V : Valuation τ sig (Elt F)) :
    after ops V (Proc.devRef .tc main_v76) = Read.val_main_v76 (F := F) (V (Proc.devRef .tc main_arg0)) :=
  (eq_ternary ops_writes 99 main_v75 main_v73 main_call1_v1 main_v76 _ _ _ _ _ rfl (by decide) (by decide) (by decide) (by decide +kernel) (by decide +kernel) (by decide +kernel) (by decide +kernel) V (at_main_v75 V) (at_main_v73 V) (at_main_call1_v1 V)).trans rfl

theorem at_main_cst_19 (V : Valuation τ sig (Elt F)) :
    after ops V (Proc.devRef .tc main_cst_19) = Read.val_main_cst_19 (F := F) :=
  (eq_nullary ops_writes 100 main_cst_19 _ _ rfl (by decide +kernel) V).trans rfl

theorem at_main_v77 (V : Valuation τ sig (Elt F)) :
    after ops V (Proc.devRef .tc main_v77) = Read.val_main_v77 (F := F) :=
  (eq_unary ops_writes 101 main_cst_19 main_v77 _ _ _ rfl (by decide) (by decide +kernel) (by decide +kernel) V (at_main_cst_19 V)).trans rfl

theorem at_main_v78 (V : Valuation τ sig (Elt F)) :
    after ops V (Proc.devRef .tc main_v78) = Read.val_main_v78 (F := F) (V (Proc.devRef .tc main_arg0)) :=
  (eq_binary ops_writes 102 main_v73 main_v77 main_v78 _ _ _ _ rfl (by decide) (by decide) (by decide +kernel) (by decide +kernel) (by decide +kernel) V (at_main_v73 V) (at_main_v77 V)).trans rfl

theorem at_main_v79 (V : Valuation τ sig (Elt F)) :
    after ops V (Proc.devRef .tc main_v79) = Read.val_main_v79 (F := F) (V (Proc.devRef .tc main_arg0)) :=
  (eq_unary ops_writes 103 main_v76 main_v79 _ _ _ rfl (by decide) (by decide +kernel) (by decide +kernel) V (at_main_v76 V)).trans rfl

theorem at_main_cst_20 (V : Valuation τ sig (Elt F)) :
    after ops V (Proc.devRef .tc main_cst_20) = Read.val_main_cst_20 (F := F) :=
  (eq_nullary ops_writes 104 main_cst_20 _ _ rfl (by decide +kernel) V).trans rfl

theorem at_main_v80 (V : Valuation τ sig (Elt F)) :
    after ops V (Proc.devRef .tc main_v80) = Read.val_main_v80 (F := F) :=
  (eq_unary ops_writes 105 main_cst_20 main_v80 _ _ _ rfl (by decide) (by decide +kernel) (by decide +kernel) V (at_main_cst_20 V)).trans rfl

theorem at_main_v81 (V : Valuation τ sig (Elt F)) :
    after ops V (Proc.devRef .tc main_v81) = Read.val_main_v81 (F := F) (V (Proc.devRef .tc main_arg0)) :=
  (eq_binary ops_writes 106 main_v80 main_v79 main_v81 _ _ _ _ rfl (by decide) (by decide) (by decide +kernel) (by decide +kernel) (by decide +kernel) V (at_main_v80 V) (at_main_v79 V)).trans rfl

theorem at_main_cst_21 (V : Valuation τ sig (Elt F)) :
    after ops V (Proc.devRef .tc main_cst_21) = Read.val_main_cst_21 (F := F) :=
  (eq_nullary ops_writes 107 main_cst_21 _ _ rfl (by decide +kernel) V).trans rfl

theorem at_main_call2_v0 (V : Valuation τ sig (Elt F)) :
    after ops V (Proc.devRef .tc main_call2_v0) = Read.val_main_call2_v0 (F := F) :=
  (eq_unary ops_writes 108 main_cst_21 main_call2_v0 _ _ _ rfl (by decide) (by decide +kernel) (by decide +kernel) V (at_main_cst_21 V)).trans rfl

theorem at_main_call2_v1 (V : Valuation τ sig (Elt F)) :
    after ops V (Proc.devRef .tc main_call2_v1) = Read.val_main_call2_v1 (F := F) :=
  (eq_unary ops_writes 109 main_call2_v0 main_call2_v1 _ _ _ rfl (by decide) (by decide +kernel) (by decide +kernel) V (at_main_call2_v0 V)).trans rfl

theorem at_main_v82 (V : Valuation τ sig (Elt F)) :
    after ops V (Proc.devRef .tc main_v82) = Read.val_main_v82 (F := F) (V (Proc.devRef .tc main_arg0)) :=
  (eq_ternary ops_writes 110 main_v78 main_v81 main_call2_v1 main_v82 _ _ _ _ _ rfl (by decide) (by decide) (by decide) (by decide +kernel) (by decide +kernel) (by decide +kernel) (by decide +kernel) V (at_main_v78 V) (at_main_v81 V) (at_main_call2_v1 V)).trans rfl

theorem at_main_c_22 (V : Valuation τ sig (Elt F)) :
    after ops V (Proc.devRef .tc main_c_22) = Read.val_main_c_22 (F := F) :=
  (eq_nullary ops_writes 111 main_c_22 _ _ rfl (by decide +kernel) V).trans rfl

theorem at_main_v83 (V : Valuation τ sig (Elt F)) :
    after ops V (Proc.devRef .tc main_v83) = Read.val_main_v83 (F := F) :=
  (eq_unary ops_writes 112 main_c_22 main_v83 _ _ _ rfl (by decide) (by decide +kernel) (by decide +kernel) V (at_main_c_22 V)).trans rfl

theorem at_main_v84 (V : Valuation τ sig (Elt F)) :
    after ops V (Proc.devRef .tc main_v84) = Read.val_main_v84 (F := F) :=
  (eq_binary ops_writes 113 main_v63 main_v83 main_v84 _ _ _ _ rfl (by decide) (by decide) (by decide +kernel) (by decide +kernel) (by decide +kernel) V (at_main_v63 V) (at_main_v83 V)).trans rfl

theorem at_main_c_23 (V : Valuation τ sig (Elt F)) :
    after ops V (Proc.devRef .tc main_c_23) = Read.val_main_c_23 (F := F) :=
  (eq_nullary ops_writes 114 main_c_23 _ _ rfl (by decide +kernel) V).trans rfl

theorem at_main_v85 (V : Valuation τ sig (Elt F)) :
    after ops V (Proc.devRef .tc main_v85) = Read.val_main_v85 (F := F) :=
  (eq_unary ops_writes 115 main_c_23 main_v85 _ _ _ rfl (by decide) (by decide +kernel) (by decide +kernel) V (at_main_c_23 V)).trans rfl

theorem at_main_v86 (V : Valuation τ sig (Elt F)) :
    after ops V (Proc.devRef .tc main_v86) = Read.val_main_v86 (F := F) :=
  (eq_binary ops_writes 116 main_v63 main_v85 main_v86 _ _ _ _ rfl (by decide) (by decide) (by decide +kernel) (by decide +kernel) (by decide +kernel) V (at_main_v63 V) (at_main_v85 V)).trans rfl

theorem at_main_v87 (V : Valuation τ sig (Elt F)) :
    after ops V (Proc.devRef .tc main_v87) = Read.val_main_v87 (F := F) :=
  (eq_ternary ops_writes 117 main_v84 main_v86 main_v63 main_v87 _ _ _ _ _ rfl (by decide) (by decide) (by decide) (by decide +kernel) (by decide +kernel) (by decide +kernel) (by decide +kernel) V (at_main_v84 V) (at_main_v86 V) (at_main_v63 V)).trans rfl

theorem at_main_v88 (V : Valuation τ sig (Elt F)) :
    after ops V (Proc.devRef .tc main_v88) = Read.val_main_v88 (F := F) :=
  (eq_unary ops_writes 118 main_v87 main_v88 _ _ _ rfl (by decide) (by decide +kernel) (by decide +kernel) V (at_main_v87 V)).trans rfl

theorem at_main_v89 (V : Valuation τ sig (Elt F)) :
    after ops V (Proc.devRef .tc main_v89) = Read.val_main_v89 (F := F) (V (Proc.devRef .tc main_arg0)) :=
  (eq_binary ops_writes 119 main_v82 main_v88 main_v89 _ _ _ _ rfl (by decide) (by decide) (by decide +kernel) (by decide +kernel) (by decide +kernel) V (at_main_v82 V) (at_main_v88 V)).trans rfl

theorem at_main_v90 (V : Valuation τ sig (Elt F)) :
    after ops V (Proc.devRef .tc main_v90) = Read.val_main_v90 (F := F) (V (Proc.devRef .tc main_arg0)) :=
  (eq_binary ops_writes 120 main_v89 main_v65 main_v90 _ _ _ _ rfl (by decide) (by decide) (by decide +kernel) (by decide +kernel) (by decide +kernel) V (at_main_v89 V) (at_main_v65 V)).trans rfl

theorem at_main_c_24 (V : Valuation τ sig (Elt F)) :
    after ops V (Proc.devRef .tc main_c_24) = Read.val_main_c_24 (F := F) :=
  (eq_nullary ops_writes 121 main_c_24 _ _ rfl (by decide +kernel) V).trans rfl

theorem at_main_v91 (V : Valuation τ sig (Elt F)) :
    after ops V (Proc.devRef .tc main_v91) = Read.val_main_v91 (F := F) :=
  (eq_unary ops_writes 122 main_c_24 main_v91 _ _ _ rfl (by decide) (by decide +kernel) (by decide +kernel) V (at_main_c_24 V)).trans rfl

theorem at_main_v92 (V : Valuation τ sig (Elt F)) :
    after ops V (Proc.devRef .tc main_v92) = Read.val_main_v92 (F := F) :=
  (eq_binary ops_writes 123 main_v64 main_v91 main_v92 _ _ _ _ rfl (by decide) (by decide) (by decide +kernel) (by decide +kernel) (by decide +kernel) V (at_main_v64 V) (at_main_v91 V)).trans rfl

theorem at_main_c_25 (V : Valuation τ sig (Elt F)) :
    after ops V (Proc.devRef .tc main_c_25) = Read.val_main_c_25 (F := F) :=
  (eq_nullary ops_writes 124 main_c_25 _ _ rfl (by decide +kernel) V).trans rfl

theorem at_main_v93 (V : Valuation τ sig (Elt F)) :
    after ops V (Proc.devRef .tc main_v93) = Read.val_main_v93 (F := F) :=
  (eq_unary ops_writes 125 main_c_25 main_v93 _ _ _ rfl (by decide) (by decide +kernel) (by decide +kernel) V (at_main_c_25 V)).trans rfl

theorem at_main_v94 (V : Valuation τ sig (Elt F)) :
    after ops V (Proc.devRef .tc main_v94) = Read.val_main_v94 (F := F) :=
  (eq_binary ops_writes 126 main_v64 main_v93 main_v94 _ _ _ _ rfl (by decide) (by decide) (by decide +kernel) (by decide +kernel) (by decide +kernel) V (at_main_v64 V) (at_main_v93 V)).trans rfl

theorem at_main_v95 (V : Valuation τ sig (Elt F)) :
    after ops V (Proc.devRef .tc main_v95) = Read.val_main_v95 (F := F) :=
  (eq_ternary ops_writes 127 main_v92 main_v94 main_v64 main_v95 _ _ _ _ _ rfl (by decide) (by decide) (by decide) (by decide +kernel) (by decide +kernel) (by decide +kernel) (by decide +kernel) V (at_main_v92 V) (at_main_v94 V) (at_main_v64 V)).trans rfl

theorem at_main_v96 (V : Valuation τ sig (Elt F)) :
    after ops V (Proc.devRef .tc main_v96) = Read.val_main_v96 (F := F) :=
  (eq_unary ops_writes 128 main_v95 main_v96 _ _ _ rfl (by decide) (by decide +kernel) (by decide +kernel) V (at_main_v95 V)).trans rfl

theorem at_main_v97 (V : Valuation τ sig (Elt F)) :
    after ops V (Proc.devRef .tc main_v97) = Read.val_main_v97 (F := F) (V (Proc.devRef .tc main_arg0)) :=
  (eq_binary ops_writes 129 main_v82 main_v96 main_v97 _ _ _ _ rfl (by decide) (by decide) (by decide +kernel) (by decide +kernel) (by decide +kernel) V (at_main_v82 V) (at_main_v96 V)).trans rfl

theorem at_main_v98 (V : Valuation τ sig (Elt F)) :
    after ops V (Proc.devRef .tc main_v98) = Read.val_main_v98 (F := F) (V (Proc.devRef .tc main_arg0)) :=
  (eq_binary ops_writes 130 main_v90 main_v97 main_v98 _ _ _ _ rfl (by decide) (by decide) (by decide +kernel) (by decide +kernel) (by decide +kernel) V (at_main_v90 V) (at_main_v97 V)).trans rfl

theorem at_main_v99 (V : Valuation τ sig (Elt F)) :
    after ops V (Proc.devRef .tc main_v99) = Read.val_main_v99 (F := F) (V (Proc.devRef .tc main_arg1)) :=
  (eq_unary ops_writes 131 main_arg1 main_v99 _ _ _ rfl (by decide) (by decide +kernel) (by decide +kernel) V (keep_main_arg1 V)).trans rfl

theorem at_main_v100 (V : Valuation τ sig (Elt F)) :
    after ops V (Proc.devRef .tc main_v100) = Read.val_main_v100 (F := F) (V (Proc.devRef .tc main_arg1)) :=
  (eq_binary ops_writes 132 main_v62 main_v99 main_v100 _ _ _ _ rfl (by decide) (by decide) (by decide +kernel) (by decide +kernel) (by decide +kernel) V (at_main_v62 V) (at_main_v99 V)).trans rfl

theorem at_main_v101 (V : Valuation τ sig (Elt F)) :
    after ops V (Proc.devRef .tc main_v101) = Read.val_main_v101 (F := F) (V (Proc.devRef .tc main_arg0)) :=
  (eq_unary ops_writes 133 main_v98 main_v101 _ _ _ rfl (by decide) (by decide +kernel) (by decide +kernel) V (at_main_v98 V)).trans rfl

theorem at_main_c_26 (V : Valuation τ sig (Elt F)) :
    after ops V (Proc.devRef .tc main_c_26) = Read.val_main_c_26 (F := F) :=
  (eq_nullary ops_writes 134 main_c_26 _ _ rfl (by decide +kernel) V).trans rfl

theorem at_main_v102 (V : Valuation τ sig (Elt F)) :
    after ops V (Proc.devRef .tc main_v102) = Read.val_main_v102 (F := F) :=
  (eq_unary ops_writes 135 main_c_26 main_v102 _ _ _ rfl (by decide) (by decide +kernel) (by decide +kernel) V (at_main_c_26 V)).trans rfl

theorem at_main_v103 (V : Valuation τ sig (Elt F)) :
    after ops V (Proc.devRef .tc main_v103) = Read.val_main_v103 (F := F) :=
  (eq_binary ops_writes 136 main_v63 main_v102 main_v103 _ _ _ _ rfl (by decide) (by decide) (by decide +kernel) (by decide +kernel) (by decide +kernel) V (at_main_v63 V) (at_main_v102 V)).trans rfl

theorem at_main_c_27 (V : Valuation τ sig (Elt F)) :
    after ops V (Proc.devRef .tc main_c_27) = Read.val_main_c_27 (F := F) :=
  (eq_nullary ops_writes 137 main_c_27 _ _ rfl (by decide +kernel) V).trans rfl

theorem at_main_v104 (V : Valuation τ sig (Elt F)) :
    after ops V (Proc.devRef .tc main_v104) = Read.val_main_v104 (F := F) :=
  (eq_unary ops_writes 138 main_c_27 main_v104 _ _ _ rfl (by decide) (by decide +kernel) (by decide +kernel) V (at_main_c_27 V)).trans rfl

theorem at_main_v105 (V : Valuation τ sig (Elt F)) :
    after ops V (Proc.devRef .tc main_v105) = Read.val_main_v105 (F := F) :=
  (eq_binary ops_writes 139 main_v63 main_v104 main_v105 _ _ _ _ rfl (by decide) (by decide) (by decide +kernel) (by decide +kernel) (by decide +kernel) V (at_main_v63 V) (at_main_v104 V)).trans rfl

theorem at_main_v106 (V : Valuation τ sig (Elt F)) :
    after ops V (Proc.devRef .tc main_v106) = Read.val_main_v106 (F := F) :=
  (eq_ternary ops_writes 140 main_v103 main_v105 main_v63 main_v106 _ _ _ _ _ rfl (by decide) (by decide) (by decide) (by decide +kernel) (by decide +kernel) (by decide +kernel) (by decide +kernel) V (at_main_v103 V) (at_main_v105 V) (at_main_v63 V)).trans rfl

theorem at_main_v107 (V : Valuation τ sig (Elt F)) :
    after ops V (Proc.devRef .tc main_v107) = Read.val_main_v107 (F := F) :=
  (eq_unary ops_writes 141 main_v106 main_v107 _ _ _ rfl (by decide) (by decide +kernel) (by decide +kernel) V (at_main_v106 V)).trans rfl

theorem at_main_v108 (V : Valuation τ sig (Elt F)) :
    after ops V (Proc.devRef .tc main_v108) = Read.val_main_v108 (F := F) (V (Proc.devRef .tc main_arg1)) :=
  (eq_binary ops_writes 142 main_v100 main_v107 main_v108 _ _ _ _ rfl (by decide) (by decide) (by decide +kernel) (by decide +kernel) (by decide +kernel) V (at_main_v100 V) (at_main_v107 V)).trans rfl

theorem at_main_v109 (V : Valuation τ sig (Elt F)) :
    after ops V (Proc.devRef .tc main_v109) = Read.val_main_v109 (F := F) (V (Proc.devRef .tc main_arg0)) :=
  (eq_unary ops_writes 143 main_v101 main_v109 _ _ _ rfl (by decide) (by decide +kernel) (by decide +kernel) V (at_main_v101 V)).trans rfl

theorem at_main_v110 (V : Valuation τ sig (Elt F)) :
    after ops V (Proc.devRef .tc main_v110) = Read.val_main_v110 (F := F) (V (Proc.devRef .tc main_arg0)) (V (Proc.devRef .tc main_arg1)) :=
  (eq_binary ops_writes 144 main_v109 main_v108 main_v110 _ _ _ _ rfl (by decide) (by decide) (by decide +kernel) (by decide +kernel) (by decide +kernel) V (at_main_v109 V) (at_main_v108 V)).trans rfl

theorem at_main_cst_28 (V : Valuation τ sig (Elt F)) :
    after ops V (Proc.devRef .tc main_cst_28) = Read.val_main_cst_28 (F := F) :=
  (eq_nullary ops_writes 145 main_cst_28 _ _ rfl (by decide +kernel) V).trans rfl

theorem at_main_v111 (V : Valuation τ sig (Elt F)) :
    after ops V (Proc.devRef .tc main_v111) = Read.val_main_v111 (F := F) :=
  (eq_unary ops_writes 146 main_cst_28 main_v111 _ _ _ rfl (by decide) (by decide +kernel) (by decide +kernel) V (at_main_cst_28 V)).trans rfl

theorem at_main_c_29 (V : Valuation τ sig (Elt F)) :
    after ops V (Proc.devRef .tc main_c_29) = Read.val_main_c_29 (F := F) :=
  (eq_nullary ops_writes 147 main_c_29 _ _ rfl (by decide +kernel) V).trans rfl

theorem at_main_v112 (V : Valuation τ sig (Elt F)) :
    after ops V (Proc.devRef .tc main_v112) = Read.val_main_v112 (F := F) :=
  (eq_unary ops_writes 148 main_c_29 main_v112 _ _ _ rfl (by decide) (by decide +kernel) (by decide +kernel) V (at_main_c_29 V)).trans rfl

theorem at_main_v113 (V : Valuation τ sig (Elt F)) :
    after ops V (Proc.devRef .tc main_v113) = Read.val_main_v113 (F := F) :=
  (eq_binary ops_writes 149 main_v64 main_v112 main_v113 _ _ _ _ rfl (by decide) (by decide) (by decide +kernel) (by decide +kernel) (by decide +kernel) V (at_main_v64 V) (at_main_v112 V)).trans rfl

theorem at_main_c_30 (V : Valuation τ sig (Elt F)) :
    after ops V (Proc.devRef .tc main_c_30) = Read.val_main_c_30 (F := F) :=
  (eq_nullary ops_writes 150 main_c_30 _ _ rfl (by decide +kernel) V).trans rfl

theorem at_main_v114 (V : Valuation τ sig (Elt F)) :
    after ops V (Proc.devRef .tc main_v114) = Read.val_main_v114 (F := F) :=
  (eq_unary ops_writes 151 main_c_30 main_v114 _ _ _ rfl (by decide) (by decide +kernel) (by decide +kernel) V (at_main_c_30 V)).trans rfl

theorem at_main_v115 (V : Valuation τ sig (Elt F)) :
    after ops V (Proc.devRef .tc main_v115) = Read.val_main_v115 (F := F) :=
  (eq_binary ops_writes 152 main_v64 main_v114 main_v115 _ _ _ _ rfl (by decide) (by decide) (by decide +kernel) (by decide +kernel) (by decide +kernel) V (at_main_v64 V) (at_main_v114 V)).trans rfl

theorem at_main_v116 (V : Valuation τ sig (Elt F)) :
    after ops V (Proc.devRef .tc main_v116) = Read.val_main_v116 (F := F) :=
  (eq_ternary ops_writes 153 main_v113 main_v115 main_v64 main_v116 _ _ _ _ _ rfl (by decide) (by decide) (by decide) (by decide +kernel) (by decide +kernel) (by decide +kernel) (by decide +kernel) V (at_main_v113 V) (at_main_v115 V) (at_main_v64 V)).trans rfl

theorem at_main_v117 (V : Valuation τ sig (Elt F)) :
    after ops V (Proc.devRef .tc main_v117) = Read.val_main_v117 (F := F) :=
  (eq_unary ops_writes 154 main_v116 main_v117 _ _ _ rfl (by decide) (by decide +kernel) (by decide +kernel) V (at_main_v116 V)).trans rfl

theorem at_main_v118 (V : Valuation τ sig (Elt F)) :
    after ops V (Proc.devRef .tc main_v118) = Read.val_main_v118 (F := F) (V (Proc.devRef .tc main_arg0)) (V (Proc.devRef .tc main_arg1)) :=
  (eq_ternary ops_writes 155 main_v111 main_v117 main_v110 main_v118 _ _ _ _ _ rfl (by decide) (by decide) (by decide) (by decide +kernel) (by decide +kernel) (by decide +kernel) (by decide +kernel) V (at_main_v111 V) (at_main_v117 V) (at_main_v110 V)).trans rfl

theorem at_main_v119 (V : Valuation τ sig (Elt F)) :
    after ops V (Proc.devRef .tc main_v119) = Read.val_main_v119 (F := F) (V (Proc.devRef .tc main_arg2)) :=
  (eq_unary ops_writes 156 main_arg2 main_v119 _ _ _ rfl (by decide) (by decide +kernel) (by decide +kernel) V (keep_main_arg2 V)).trans rfl

theorem at_main_v120 (V : Valuation τ sig (Elt F)) :
    after ops V (Proc.devRef .tc main_v120) = Read.val_main_v120 (F := F) (V (Proc.devRef .tc main_arg2)) :=
  (eq_unary ops_writes 157 main_v119 main_v120 _ _ _ rfl (by decide) (by decide +kernel) (by decide +kernel) V (at_main_v119 V)).trans rfl

theorem at_main_v121 (V : Valuation τ sig (Elt F)) :
    after ops V (Proc.devRef .tc main_v121) = Read.val_main_v121 (F := F) (V (Proc.devRef .tc main_arg0)) (V (Proc.devRef .tc main_arg1)) (V (Proc.devRef .tc main_arg2)) :=
  (eq_binary ops_writes 158 main_v118 main_v120 main_v121 _ _ _ _ rfl (by decide) (by decide) (by decide +kernel) (by decide +kernel) (by decide +kernel) V (at_main_v118 V) (at_main_v120 V)).trans rfl

theorem at_main_call3_cst (V : Valuation τ sig (Elt F)) :
    after ops V (Proc.devRef .tc main_call3_cst) = Read.val_main_call3_cst (F := F) :=
  (eq_nullary ops_writes 159 main_call3_cst _ _ rfl (by decide +kernel) V).trans rfl

theorem at_main_call3_v0 (V : Valuation τ sig (Elt F)) :
    after ops V (Proc.devRef .tc main_call3_v0) = Read.val_main_call3_v0 (F := F) :=
  (eq_unary ops_writes 160 main_call3_cst main_call3_v0 _ _ _ rfl (by decide) (by decide +kernel) (by decide +kernel) V (at_main_call3_cst V)).trans rfl

theorem at_main_v122 (V : Valuation τ sig (Elt F)) :
    after ops V (Proc.devRef .tc main_v122) = Read.val_main_v122 (F := F) (V (Proc.devRef .tc main_arg0)) (V (Proc.devRef .tc main_arg1)) (V (Proc.devRef .tc main_arg2)) :=
  (eq_binary ops_writes 161 main_v121 main_call3_v0 main_v122 _ _ _ _ rfl (by decide) (by decide) (by decide +kernel) (by decide +kernel) (by decide +kernel) V (at_main_v121 V) (at_main_call3_v0 V)).trans rfl

theorem at_main_v123 (V : Valuation τ sig (Elt F)) :
    after ops V (Proc.devRef .tc main_v123) = Read.val_main_v123 (F := F) :=
  (eq_binary ops_writes 162 main_v15 main_v36 main_v123 _ _ _ _ rfl (by decide) (by decide) (by decide +kernel) (by decide +kernel) (by decide +kernel) V (at_main_v15 V) (at_main_v36 V)).trans rfl

theorem at_main_v124 (V : Valuation τ sig (Elt F)) :
    after ops V (Proc.devRef .tc main_v124) = Read.val_main_v124 (F := F) :=
  (eq_binary ops_writes 163 main_v18 main_v36 main_v124 _ _ _ _ rfl (by decide) (by decide) (by decide +kernel) (by decide +kernel) (by decide +kernel) V (at_main_v18 V) (at_main_v36 V)).trans rfl

theorem at_main_v125 (V : Valuation τ sig (Elt F)) :
    after ops V (Proc.devRef .tc main_v125) = Read.val_main_v125 (F := F) (V (Proc.devRef .tc main_arg0)) :=
  (eq_binary ops_writes 164 main_v61 main_v41 main_v125 _ _ _ _ rfl (by decide) (by decide) (by decide +kernel) (by decide +kernel) (by decide +kernel) V (at_main_v61 V) (at_main_v41 V)).trans rfl

theorem at_main_cst_31 (V : Valuation τ sig (Elt F)) :
    after ops V (Proc.devRef .tc main_cst_31) = Read.val_main_cst_31 (F := F) :=
  (eq_nullary ops_writes 165 main_cst_31 _ _ rfl (by decide +kernel) V).trans rfl

theorem at_main_v126 (V : Valuation τ sig (Elt F)) :
    after ops V (Proc.devRef .tc main_v126) = Read.val_main_v126 (F := F) :=
  (eq_unary ops_writes 166 main_cst_31 main_v126 _ _ _ rfl (by decide) (by decide +kernel) (by decide +kernel) V (at_main_cst_31 V)).trans rfl

theorem at_main_c_32 (V : Valuation τ sig (Elt F)) :
    after ops V (Proc.devRef .tc main_c_32) = Read.val_main_c_32 (F := F) :=
  (eq_nullary ops_writes 167 main_c_32 _ _ rfl (by decide +kernel) V).trans rfl

theorem at_main_v127 (V : Valuation τ sig (Elt F)) :
    after ops V (Proc.devRef .tc main_v127) = Read.val_main_v127 (F := F) :=
  (eq_unary ops_writes 168 main_c_32 main_v127 _ _ _ rfl (by decide) (by decide +kernel) (by decide +kernel) V (at_main_c_32 V)).trans rfl

theorem at_main_v128 (V : Valuation τ sig (Elt F)) :
    after ops V (Proc.devRef .tc main_v128) = Read.val_main_v128 (F := F) :=
  (eq_binary ops_writes 169 main_v124 main_v127 main_v128 _ _ _ _ rfl (by decide) (by decide) (by decide +kernel) (by decide +kernel) (by decide +kernel) V (at_main_v124 V) (at_main_v127 V)).trans rfl

theorem at_main_c_33 (V : Valuation τ sig (Elt F)) :
    after ops V (Proc.devRef .tc main_c_33) = Read.val_main_c_33 (F := F) :=
  (eq_nullary ops_writes 170 main_c_33 _ _ rfl (by decide +kernel) V).trans rfl

theorem at_main_v129 (V : Valuation τ sig (Elt F)) :
    after ops V (Proc.devRef .tc main_v129) = Read.val_main_v129 (F := F) :=
  (eq_unary ops_writes 171 main_c_33 main_v129 _ _ _ rfl (by decide) (by decide +kernel) (by decide +kernel) V (at_main_c_33 V)).trans rfl

theorem at_main_v130 (V : Valuation τ sig (Elt F)) :
    after ops V (Proc.devRef .tc main_v130) = Read.val_main_v130 (F := F) :=
  (eq_binary ops_writes 172 main_v124 main_v129 main_v130 _ _ _ _ rfl (by decide) (by decide) (by decide +kernel) (by decide +kernel) (by decide +kernel) V (at_main_v124 V) (at_main_v129 V)).trans rfl

theorem at_main_v131 (V : Valuation τ sig (Elt F)) :
    after ops V (Proc.devRef .tc main_v131) = Read.val_main_v131 (F := F) :=
  (eq_ternary ops_writes 173 main_v128 main_v130 main_v124 main_v131 _ _ _ _ _ rfl (by decide) (by decide) (by decide) (by decide +kernel) (by decide +kernel) (by decide +kernel) (by decide +kernel) V (at_main_v128 V) (at_main_v130 V) (at_main_v124 V)).trans rfl

theorem at_main_v132 (V : Valuation τ sig (Elt F)) :
    after ops V (Proc.devRef .tc main_v132) = Read.val_main_v132 (F := F) :=
  (eq_unary ops_writes 174 main_v131 main_v132 _ _ _ rfl (by decide) (by decide +kernel) (by decide +kernel) V (at_main_v131 V)).trans rfl

theorem at_main_v133 (V : Valuation τ sig (Elt F)) :
    after ops V (Proc.devRef .tc main_v133) = Read.val_main_v133 (F := F) (V (Proc.devRef .tc main_arg0)) :=
  (eq_ternary ops_writes 175 main_v126 main_v132 main_v125 main_v133 _ _ _ _ _ rfl (by decide) (by decide) (by decide) (by decide +kernel) (by decide +kernel) (by decide +kernel) (by decide +kernel) V (at_main_v126 V) (at_main_v132 V) (at_main_v125 V)).trans rfl

theorem at_main_cst_34 (V : Valuation τ sig (Elt F)) :
    after ops V (Proc.devRef .tc main_cst_34) = Read.val_main_cst_34 (F := F) :=
  (eq_nullary ops_writes 176 main_cst_34 _ _ rfl (by decide +kernel) V).trans rfl

theorem at_main_v134 (V : Valuation τ sig (Elt F)) :
    after ops V (Proc.devRef .tc main_v134) = Read.val_main_v134 (F := F) :=
  (eq_unary ops_writes 177 main_cst_34 main_v134 _ _ _ rfl (by decide) (by decide +kernel) (by decide +kernel) V (at_main_cst_34 V)).trans rfl

theorem at_main_v135 (V : Valuation τ sig (Elt F)) :
    after ops V (Proc.devRef .tc main_v135) = Read.val_main_v135 (F := F) (V (Proc.devRef .tc main_arg0)) :=
  (eq_binary ops_writes 178 main_v133 main_v134 main_v135 _ _ _ _ rfl (by decide) (by decide) (by decide +kernel) (by decide +kernel) (by decide +kernel) V (at_main_v133 V) (at_main_v134 V)).trans rfl

theorem at_main_cst_35 (V : Valuation τ sig (Elt F)) :
    after ops V (Proc.devRef .tc main_cst_35) = Read.val_main_cst_35 (F := F) :=
  (eq_nullary ops_writes 179 main_cst_35 _ _ rfl (by decide +kernel) V).trans rfl

theorem at_main_call4_v0 (V : Valuation τ sig (Elt F)) :
    after ops V (Proc.devRef .tc main_call4_v0) = Read.val_main_call4_v0 (F := F) :=
  (eq_unary ops_writes 180 main_cst_35 main_call4_v0 _ _ _ rfl (by decide) (by decide +kernel) (by decide +kernel) V (at_main_cst_35 V)).trans rfl

theorem at_main_call4_v1 (V : Valuation τ sig (Elt F)) :
    after ops V (Proc.devRef .tc main_call4_v1) = Read.val_main_call4_v1 (F := F) :=
  (eq_unary ops_writes 181 main_call4_v0 main_call4_v1 _ _ _ rfl (by decide) (by decide +kernel) (by decide +kernel) V (at_main_call4_v0 V)).trans rfl

theorem at_main_v136 (V : Valuation τ sig (Elt F)) :
    after ops V (Proc.devRef .tc main_v136) = Read.val_main_v136 (F := F) (V (Proc.devRef .tc main_arg0)) :=
  (eq_ternary ops_writes 182 main_v135 main_v133 main_call4_v1 main_v136 _ _ _ _ _ rfl (by decide) (by decide) (by decide) (by decide +kernel) (by decide +kernel) (by decide +kernel) (by decide +kernel) V (at_main_v135 V) (at_main_v133 V) (at_main_call4_v1 V)).trans rfl

theorem at_main_cst_36 (V : Valuation τ sig (Elt F)) :
    after ops V (Proc.devRef .tc main_cst_36) = Read.val_main_cst_36 (F := F) :=
  (eq_nullary ops_writes 183 main_cst_36 _ _ rfl (by decide +kernel) V).trans rfl

theorem at_main_v137 (V : Valuation τ sig (Elt F)) :
    after ops V (Proc.devRef .tc main_v137) = Read.val_main_v137 (F := F) :=
  (eq_unary ops_writes 184 main_cst_36 main_v137 _ _ _ rfl (by decide) (by decide +kernel) (by decide +kernel) V (at_main_cst_36 V)).trans rfl

theorem at_main_v138 (V : Valuation τ sig (Elt F)) :
    after ops V (Proc.devRef .tc main_v138) = Read.val_main_v138 (F := F) (V (Proc.devRef .tc main_arg0)) :=
  (eq_binary ops_writes 185 main_v133 main_v137 main_v138 _ _ _ _ rfl (by decide) (by decide) (by decide +kernel) (by decide +kernel) (by decide +kernel) V (at_main_v133 V) (at_main_v137 V)).trans rfl

theorem at_main_v139 (V : Valuation τ sig (Elt F)) :
    after ops V (Proc.devRef .tc main_v139) = Read.val_main_v139 (F := F) (V (Proc.devRef .tc main_arg0)) :=
  (eq_unary ops_writes 186 main_v136 main_v139 _ _ _ rfl (by decide) (by decide +kernel) (by decide +kernel) V (at_main_v136 V)).trans rfl

theorem at_main_cst_37 (V : Valuation τ sig (Elt F)) :
    after ops V (Proc.devRef .tc main_cst_37) = Read.val_main_cst_37 (F := F) :=
  (eq_nullary ops_writes 187 main_cst_37 _ _ rfl (by decide +kernel) V).trans rfl

theorem at_main_v140 (V : Valuation τ sig (Elt F)) :
    after ops V (Proc.devRef .tc main_v140) = Read.val_main_v140 (F := F) :=
  (eq_unary ops_writes 188 main_cst_37 main_v140 _ _ _ rfl (by decide) (by decide +kernel) (by decide +kernel) V (at_main_cst_37 V)).trans rfl

theorem at_main_v141 (V : Valuation τ sig (Elt F)) :
    after ops V (Proc.devRef .tc main_v141) = Read.val_main_v141 (F := F) (V (Proc.devRef .tc main_arg0)) :=
  (eq_binary ops_writes 189 main_v140 main_v139 main_v141 _ _ _ _ rfl (by decide) (by decide) (by decide +kernel) (by decide +kernel) (by decide +kernel) V (at_main_v140 V) (at_main_v139 V)).trans rfl

theorem at_main_cst_38 (V : Valuation τ sig (Elt F)) :
    after ops V (Proc.devRef .tc main_cst_38) = Read.val_main_cst_38 (F := F) :=
  (eq_nullary ops_writes 190 main_cst_38 _ _ rfl (by decide +kernel) V).trans rfl

theorem at_main_call5_v0 (V : Valuation τ sig (Elt F)) :
    after ops V (Proc.devRef .tc main_call5_v0) = Read.val_main_call5_v0 (F := F) :=
  (eq_unary ops_writes 191 main_cst_38 main_call5_v0 _ _ _ rfl (by decide) (by decide +kernel) (by decide +kernel) V (at_main_cst_38 V)).trans rfl

theorem at_main_call5_v1 (V : Valuation τ sig (Elt F)) :
    after ops V (Proc.devRef .tc main_call5_v1) = Read.val_main_call5_v1 (F := F) :=
  (eq_unary ops_writes 192 main_call5_v0 main_call5_v1 _ _ _ rfl (by decide) (by decide +kernel) (by decide +kernel) V (at_main_call5_v0 V)).trans rfl

theorem at_main_v142 (V : Valuation τ sig (Elt F)) :
    after ops V (Proc.devRef .tc main_v142) = Read.val_main_v142 (F := F) (V (Proc.devRef .tc main_arg0)) :=
  (eq_ternary ops_writes 193 main_v138 main_v141 main_call5_v1 main_v142 _ _ _ _ _ rfl (by decide) (by decide) (by decide) (by decide +kernel) (by decide +kernel) (by decide +kernel) (by decide +kernel) V (at_main_v138 V) (at_main_v141 V) (at_main_call5_v1 V)).trans rfl

theorem at_main_c_39 (V : Valuation τ sig (Elt F)) :
    after ops V (Proc.devRef .tc main_c_39) = Read.val_main_c_39 (F := F) :=
  (eq_nullary ops_writes 194 main_c_39 _ _ rfl (by decide +kernel) V).trans rfl

theorem at_main_v143 (V : Valuation τ sig (Elt F)) :
    after ops V (Proc.devRef .tc main_v143) = Read.val_main_v143 (F := F) :=
  (eq_unary ops_writes 195 main_c_39 main_v143 _ _ _ rfl (by decide) (by decide +kernel) (by decide +kernel) V (at_main_c_39 V)).trans rfl

theorem at_main_v144 (V : Valuation τ sig (Elt F)) :
    after ops V (Proc.devRef .tc main_v144) = Read.val_main_v144 (F := F) :=
  (eq_binary ops_writes 196 main_v123 main_v143 main_v144 _ _ _ _ rfl (by decide) (by decide) (by decide +kernel) (by decide +kernel) (by decide +kernel) V (at_main_v123 V) (at_main_v143 V)).trans rfl

theorem at_main_c_40 (V : Valuation τ sig (Elt F)) :
    after ops V (Proc.devRef .tc main_c_40) = Read.val_main_c_40 (F := F) :=
  (eq_nullary ops_writes 197 main_c_40 _ _ rfl (by decide +kernel) V).trans rfl

theorem at_main_v145 (V : Valuation τ sig (Elt F)) :
    after ops V (Proc.devRef .tc main_v145) = Read.val_main_v145 (F := F) :=
  (eq_unary ops_writes 198 main_c_40 main_v145 _ _ _ rfl (by decide) (by decide +kernel) (by decide +kernel) V (at_main_c_40 V)).trans rfl

theorem at_main_v146 (V : Valuation τ sig (Elt F)) :
    after ops V (Proc.devRef .tc main_v146) = Read.val_main_v146 (F := F) :=
  (eq_binary ops_writes 199 main_v123 main_v145 main_v146 _ _ _ _ rfl (by decide) (by decide) (by decide +kernel) (by decide +kernel) (by decide +kernel) V (at_main_v123 V) (at_main_v145 V)).trans rfl

theorem at_main_v147 (V : Valuation τ sig (Elt F)) :
    after ops V (Proc.devRef .tc main_v147) = Read.val_main_v147 (F := F) :=
  (eq_ternary ops_writes 200 main_v144 main_v146 main_v123 main_v147 _ _ _ _ _ rfl (by decide) (by decide) (by decide) (by decide +kernel) (by decide +kernel) (by decide +kernel) (by decide +kernel) V (at_main_v144 V) (at_main_v146 V) (at_main_v123 V)).trans rfl

theorem at_main_v148 (V : Valuation τ sig (Elt F)) :
    after ops V (Proc.devRef .tc main_v148) = Read.val_main_v148 (F := F) :=
  (eq_unary ops_writes 201 main_v147 main_v148 _ _ _ rfl (by decide) (by decide +kernel) (by decide +kernel) V (at_main_v147 V)).trans rfl

theorem at_main_v149 (V : Valuation τ sig (Elt F)) :
    after ops V (Proc.devRef .tc main_v149) = Read.val_main_v149 (F := F) (V (Proc.devRef .tc main_arg0)) :=
  (eq_binary ops_writes 202 main_v142 main_v148 main_v149 _ _ _ _ rfl (by decide) (by decide) (by decide +kernel) (by decide +kernel) (by decide +kernel) V (at_main_v142 V) (at_main_v148 V)).trans rfl

theorem at_main_v150 (V : Valuation τ sig (Elt F)) :
    after ops V (Proc.devRef .tc main_v150) = Read.val_main_v150 (F := F) (V (Proc.devRef .tc main_arg0)) :=
  (eq_binary ops_writes 203 main_v149 main_v125 main_v150 _ _ _ _ rfl (by decide) (by decide) (by decide +kernel) (by decide +kernel) (by decide +kernel) V (at_main_v149 V) (at_main_v125 V)).trans rfl

theorem at_main_c_41 (V : Valuation τ sig (Elt F)) :
    after ops V (Proc.devRef .tc main_c_41) = Read.val_main_c_41 (F := F) :=
  (eq_nullary ops_writes 204 main_c_41 _ _ rfl (by decide +kernel) V).trans rfl

theorem at_main_v151 (V : Valuation τ sig (Elt F)) :
    after ops V (Proc.devRef .tc main_v151) = Read.val_main_v151 (F := F) :=
  (eq_unary ops_writes 205 main_c_41 main_v151 _ _ _ rfl (by decide) (by decide +kernel) (by decide +kernel) V (at_main_c_41 V)).trans rfl

theorem at_main_v152 (V : Valuation τ sig (Elt F)) :
    after ops V (Proc.devRef .tc main_v152) = Read.val_main_v152 (F := F) :=
  (eq_binary ops_writes 206 main_v124 main_v151 main_v152 _ _ _ _ rfl (by decide) (by decide) (by decide +kernel) (by decide +kernel) (by decide +kernel) V (at_main_v124 V) (at_main_v151 V)).trans rfl

theorem at_main_c_42 (V : Valuation τ sig (Elt F)) :
    after ops V (Proc.devRef .tc main_c_42) = Read.val_main_c_42 (F := F) :=
  (eq_nullary ops_writes 207 main_c_42 _ _ rfl (by decide +kernel) V).trans rfl

theorem at_main_v153 (V : Valuation τ sig (Elt F)) :
    after ops V (Proc.devRef .tc main_v153) = Read.val_main_v153 (F := F) :=
  (eq_unary ops_writes 208 main_c_42 main_v153 _ _ _ rfl (by decide) (by decide +kernel) (by decide +kernel) V (at_main_c_42 V)).trans rfl

theorem at_main_v154 (V : Valuation τ sig (Elt F)) :
    after ops V (Proc.devRef .tc main_v154) = Read.val_main_v154 (F := F) :=
  (eq_binary ops_writes 209 main_v124 main_v153 main_v154 _ _ _ _ rfl (by decide) (by decide) (by decide +kernel) (by decide +kernel) (by decide +kernel) V (at_main_v124 V) (at_main_v153 V)).trans rfl

theorem at_main_v155 (V : Valuation τ sig (Elt F)) :
    after ops V (Proc.devRef .tc main_v155) = Read.val_main_v155 (F := F) :=
  (eq_ternary ops_writes 210 main_v152 main_v154 main_v124 main_v155 _ _ _ _ _ rfl (by decide) (by decide) (by decide) (by decide +kernel) (by decide +kernel) (by decide +kernel) (by decide +kernel) V (at_main_v152 V) (at_main_v154 V) (at_main_v124 V)).trans rfl

theorem at_main_v156 (V : Valuation τ sig (Elt F)) :
    after ops V (Proc.devRef .tc main_v156) = Read.val_main_v156 (F := F) :=
  (eq_unary ops_writes 211 main_v155 main_v156 _ _ _ rfl (by decide) (by decide +kernel) (by decide +kernel) V (at_main_v155 V)).trans rfl

theorem at_main_v157 (V : Valuation τ sig (Elt F)) :
    after ops V (Proc.devRef .tc main_v157) = Read.val_main_v157 (F := F) (V (Proc.devRef .tc main_arg0)) :=
  (eq_binary ops_writes 212 main_v142 main_v156 main_v157 _ _ _ _ rfl (by decide) (by decide) (by decide +kernel) (by decide +kernel) (by decide +kernel) V (at_main_v142 V) (at_main_v156 V)).trans rfl

theorem at_main_v158 (V : Valuation τ sig (Elt F)) :
    after ops V (Proc.devRef .tc main_v158) = Read.val_main_v158 (F := F) (V (Proc.devRef .tc main_arg0)) :=
  (eq_binary ops_writes 213 main_v150 main_v157 main_v158 _ _ _ _ rfl (by decide) (by decide) (by decide +kernel) (by decide +kernel) (by decide +kernel) V (at_main_v150 V) (at_main_v157 V)).trans rfl

theorem at_main_v159 (V : Valuation τ sig (Elt F)) :
    after ops V (Proc.devRef .tc main_v159) = Read.val_main_v159 (F := F) (V (Proc.devRef .tc main_arg3)) :=
  (eq_unary ops_writes 214 main_arg3 main_v159 _ _ _ rfl (by decide) (by decide +kernel) (by decide +kernel) V (keep_main_arg3 V)).trans rfl

theorem at_main_v160 (V : Valuation τ sig (Elt F)) :
    after ops V (Proc.devRef .tc main_v160) = Read.val_main_v160 (F := F) (V (Proc.devRef .tc main_arg0)) (V (Proc.devRef .tc main_arg1)) (V (Proc.devRef .tc main_arg2)) (V (Proc.devRef .tc main_arg3)) :=
  (eq_binary ops_writes 215 main_v122 main_v159 main_v160 _ _ _ _ rfl (by decide) (by decide) (by decide +kernel) (by decide +kernel) (by decide +kernel) V (at_main_v122 V) (at_main_v159 V)).trans rfl

theorem at_main_v161 (V : Valuation τ sig (Elt F)) :
    after ops V (Proc.devRef .tc main_v161) = Read.val_main_v161 (F := F) (V (Proc.devRef .tc main_arg0)) :=
  (eq_unary ops_writes 216 main_v158 main_v161 _ _ _ rfl (by decide) (by decide +kernel) (by decide +kernel) V (at_main_v158 V)).trans rfl

theorem at_main_c_43 (V : Valuation τ sig (Elt F)) :
    after ops V (Proc.devRef .tc main_c_43) = Read.val_main_c_43 (F := F) :=
  (eq_nullary ops_writes 217 main_c_43 _ _ rfl (by decide +kernel) V).trans rfl

theorem at_main_v162 (V : Valuation τ sig (Elt F)) :
    after ops V (Proc.devRef .tc main_v162) = Read.val_main_v162 (F := F) :=
  (eq_unary ops_writes 218 main_c_43 main_v162 _ _ _ rfl (by decide) (by decide +kernel) (by decide +kernel) V (at_main_c_43 V)).trans rfl

theorem at_main_v163 (V : Valuation τ sig (Elt F)) :
    after ops V (Proc.devRef .tc main_v163) = Read.val_main_v163 (F := F) :=
  (eq_binary ops_writes 219 main_v123 main_v162 main_v163 _ _ _ _ rfl (by decide) (by decide) (by decide +kernel) (by decide +kernel) (by decide +kernel) V (at_main_v123 V) (at_main_v162 V)).trans rfl

theorem at_main_c_44 (V : Valuation τ sig (Elt F)) :
    after ops V (Proc.devRef .tc main_c_44) = Read.val_main_c_44 (F := F) :=
  (eq_nullary ops_writes 220 main_c_44 _ _ rfl (by decide +kernel) V).trans rfl

theorem at_main_v164 (V : Valuation τ sig (Elt F)) :
    after ops V (Proc.devRef .tc main_v164) = Read.val_main_v164 (F := F) :=
  (eq_unary ops_writes 221 main_c_44 main_v164 _ _ _ rfl (by decide) (by decide +kernel) (by decide +kernel) V (at_main_c_44 V)).trans rfl

theorem at_main_v165 (V : Valuation τ sig (Elt F)) :
    after ops V (Proc.devRef .tc main_v165) = Read.val_main_v165 (F := F) :=
  (eq_binary ops_writes 222 main_v123 main_v164 main_v165 _ _ _ _ rfl (by decide) (by decide) (by decide +kernel) (by decide +kernel) (by decide +kernel) V (at_main_v123 V) (at_main_v164 V)).trans rfl

theorem at_main_v166 (V : Valuation τ sig (Elt F)) :
    after ops V (Proc.devRef .tc main_v166) = Read.val_main_v166 (F := F) :=
  (eq_ternary ops_writes 223 main_v163 main_v165 main_v123 main_v166 _ _ _ _ _ rfl (by decide) (by decide) (by decide) (by decide +kernel) (by decide +kernel) (by decide +kernel) (by decide +kernel) V (at_main_v163 V) (at_main_v165 V) (at_main_v123 V)).trans rfl

theorem at_main_v167 (V : Valuation τ sig (Elt F)) :
    after ops V (Proc.devRef .tc main_v167) = Read.val_main_v167 (F := F) :=
  (eq_unary ops_writes 224 main_v166 main_v167 _ _ _ rfl (by decide) (by decide +kernel) (by decide +kernel) V (at_main_v166 V)).trans rfl

theorem at_main_v168 (V : Valuation τ sig (Elt F)) :
    after ops V (Proc.devRef .tc main_v168) = Read.val_main_v168 (F := F) (V (Proc.devRef .tc main_arg0)) (V (Proc.devRef .tc main_arg1)) (V (Proc.devRef .tc main_arg2)) (V (Proc.devRef .tc main_arg3)) :=
  (eq_binary ops_writes 225 main_v160 main_v167 main_v168 _ _ _ _ rfl (by decide) (by decide) (by decide +kernel) (by decide +kernel) (by decide +kernel) V (at_main_v160 V) (at_main_v167 V)).trans rfl

theorem at_main_v169 (V : Valuation τ sig (Elt F)) :
    after ops V (Proc.devRef .tc main_v169) = Read.val_main_v169 (F := F) (V (Proc.devRef .tc main_arg0)) :=
  (eq_unary ops_writes 226 main_v161 main_v169 _ _ _ rfl (by decide) (by decide +kernel) (by decide +kernel) V (at_main_v161 V)).trans rfl

theorem at_main_v170 (V : Valuation τ sig (Elt F)) :
    after ops V (Proc.devRef .tc main_v170) = Read.val_main_v170 (F := F) (V (Proc.devRef .tc main_arg0)) (V (Proc.devRef .tc main_arg1)) (V (Proc.devRef .tc main_arg2)) (V (Proc.devRef .tc main_arg3)) :=
  (eq_binary ops_writes 227 main_v169 main_v168 main_v170 _ _ _ _ rfl (by decide) (by decide) (by decide +kernel) (by decide +kernel) (by decide +kernel) V (at_main_v169 V) (at_main_v168 V)).trans rfl

theorem at_main_cst_45 (V : Valuation τ sig (Elt F)) :
    after ops V (Proc.devRef .tc main_cst_45) = Read.val_main_cst_45 (F := F) :=
  (eq_nullary ops_writes 228 main_cst_45 _ _ rfl (by decide +kernel) V).trans rfl

theorem at_main_v171 (V : Valuation τ sig (Elt F)) :
    after ops V (Proc.devRef .tc main_v171) = Read.val_main_v171 (F := F) :=
  (eq_unary ops_writes 229 main_cst_45 main_v171 _ _ _ rfl (by decide) (by decide +kernel) (by decide +kernel) V (at_main_cst_45 V)).trans rfl

theorem at_main_c_46 (V : Valuation τ sig (Elt F)) :
    after ops V (Proc.devRef .tc main_c_46) = Read.val_main_c_46 (F := F) :=
  (eq_nullary ops_writes 230 main_c_46 _ _ rfl (by decide +kernel) V).trans rfl

theorem at_main_v172 (V : Valuation τ sig (Elt F)) :
    after ops V (Proc.devRef .tc main_v172) = Read.val_main_v172 (F := F) :=
  (eq_unary ops_writes 231 main_c_46 main_v172 _ _ _ rfl (by decide) (by decide +kernel) (by decide +kernel) V (at_main_c_46 V)).trans rfl

theorem at_main_v173 (V : Valuation τ sig (Elt F)) :
    after ops V (Proc.devRef .tc main_v173) = Read.val_main_v173 (F := F) :=
  (eq_binary ops_writes 232 main_v124 main_v172 main_v173 _ _ _ _ rfl (by decide) (by decide) (by decide +kernel) (by decide +kernel) (by decide +kernel) V (at_main_v124 V) (at_main_v172 V)).trans rfl

theorem at_main_c_47 (V : Valuation τ sig (Elt F)) :
    after ops V (Proc.devRef .tc main_c_47) = Read.val_main_c_47 (F := F) :=
  (eq_nullary ops_writes 233 main_c_47 _ _ rfl (by decide +kernel) V).trans rfl

theorem at_main_v174 (V : Valuation τ sig (Elt F)) :
    after ops V (Proc.devRef .tc main_v174) = Read.val_main_v174 (F := F) :=
  (eq_unary ops_writes 234 main_c_47 main_v174 _ _ _ rfl (by decide) (by decide +kernel) (by decide +kernel) V (at_main_c_47 V)).trans rfl

theorem at_main_v175 (V : Valuation τ sig (Elt F)) :
    after ops V (Proc.devRef .tc main_v175) = Read.val_main_v175 (F := F) :=
  (eq_binary ops_writes 235 main_v124 main_v174 main_v175 _ _ _ _ rfl (by decide) (by decide) (by decide +kernel) (by decide +kernel) (by decide +kernel) V (at_main_v124 V) (at_main_v174 V)).trans rfl

theorem at_main_v176 (V : Valuation τ sig (Elt F)) :
    after ops V (Proc.devRef .tc main_v176) = Read.val_main_v176 (F := F) :=
  (eq_ternary ops_writes 236 main_v173 main_v175 main_v124 main_v176 _ _ _ _ _ rfl (by decide) (by decide) (by decide) (by decide +kernel) (by decide +kernel) (by decide +kernel) (by decide +kernel) V (at_main_v173 V) (at_main_v175 V) (at_main_v124 V)).trans rfl

theorem at_main_v177 (V : Valuation τ sig (Elt F)) :
    after ops V (Proc.devRef .tc main_v177) = Read.val_main_v177 (F := F) :=
  (eq_unary ops_writes 237 main_v176 main_v177 _ _ _ rfl (by decide) (by decide +kernel) (by decide +kernel) V (at_main_v176 V)).trans rfl

theorem at_main_v178 (V : Valuation τ sig (Elt F)) :
    after ops V (Proc.devRef .tc main_v178) = Read.val_main_v178 (F := F) (V (Proc.devRef .tc main_arg0)) (V (Proc.devRef .tc main_arg1)) (V (Proc.devRef .tc main_arg2)) (V (Proc.devRef .tc main_arg3)) :=
  (eq_ternary ops_writes 238 main_v171 main_v177 main_v170 main_v178 _ _ _ _ _ rfl (by decide) (by decide) (by decide) (by decide +kernel) (by decide +kernel) (by decide +kernel) (by decide +kernel) V (at_main_v171 V) (at_main_v177 V) (at_main_v170 V)).trans rfl

theorem at_main_v179 (V : Valuation τ sig (Elt F)) :
    after ops V (Proc.devRef .tc main_v179) = Read.val_main_v179 (F := F) (V (Proc.devRef .tc main_arg4)) :=
  (eq_unary ops_writes 239 main_arg4 main_v179 _ _ _ rfl (by decide) (by decide +kernel) (by decide +kernel) V (keep_main_arg4 V)).trans rfl

theorem at_main_v180 (V : Valuation τ sig (Elt F)) :
    after ops V (Proc.devRef .tc main_v180) = Read.val_main_v180 (F := F) (V (Proc.devRef .tc main_arg4)) :=
  (eq_unary ops_writes 240 main_v179 main_v180 _ _ _ rfl (by decide) (by decide +kernel) (by decide +kernel) V (at_main_v179 V)).trans rfl

theorem at_main_v181 (V : Valuation τ sig (Elt F)) :
    after ops V (Proc.devRef .tc main_v181) = Read.val_main_v181 (F := F) (V (Proc.devRef .tc main_arg0)) (V (Proc.devRef .tc main_arg1)) (V (Proc.devRef .tc main_arg2)) (V (Proc.devRef .tc main_arg3)) (V (Proc.devRef .tc main_arg4)) :=
  (eq_binary ops_writes 241 main_v178 main_v180 main_v181 _ _ _ _ rfl (by decide) (by decide) (by decide +kernel) (by decide +kernel) (by decide +kernel) V (at_main_v178 V) (at_main_v180 V)).trans rfl

theorem at_main_cst_48 (V : Valuation τ sig (Elt F)) :
    after ops V (Proc.devRef .tc main_cst_48) = Read.val_main_cst_48 (F := F) :=
  (eq_nullary ops_writes 242 main_cst_48 _ _ rfl (by decide +kernel) V).trans rfl

theorem at_main_v182 (V : Valuation τ sig (Elt F)) :
    after ops V (Proc.devRef .tc main_v182) = Read.val_main_v182 (F := F) (V (Proc.devRef .tc main_arg0)) (V (Proc.devRef .tc main_arg1)) (V (Proc.devRef .tc main_arg2)) (V (Proc.devRef .tc main_arg3)) (V (Proc.devRef .tc main_arg4)) :=
  (eq_binary ops_writes 243 main_v181 main_cst_48 main_v182 _ _ _ _ rfl (by decide) (by decide) (by decide +kernel) (by decide +kernel) (by decide +kernel) V (at_main_v181 V) (at_main_cst_48 V)).trans rfl

theorem at_main_v183 (V : Valuation τ sig (Elt F)) :
    after ops V (Proc.devRef .tc main_v183) = Read.val_main_v183 (F := F) (V (Proc.devRef .tc main_arg0)) (V (Proc.devRef .tc main_arg1)) (V (Proc.devRef .tc main_arg2)) (V (Proc.devRef .tc main_arg3)) (V (Proc.devRef .tc main_arg4)) :=
  (eq_reshape ops_writes 244 main_v182 main_v183 _ _ _ _ rfl (by decide) (by decide +kernel) (by decide +kernel) V (at_main_v182 V)).trans rfl

theorem at_main_v184 (V : Valuation τ sig (Elt F)) :
    after ops V (Proc.devRef .tc main_v184) = Read.val_main_v184 (F := F) (V (Proc.devRef .tc main_arg5)) :=
  (eq_unary ops_writes 245 main_arg5 main_v184 _ _ _ rfl (by decide) (by decide +kernel) (by decide +kernel) V (keep_main_arg5 V)).trans rfl

theorem at_main_v185 (V : Valuation τ sig (Elt F)) :
    after ops V (Proc.devRef .tc main_v185) = Read.val_main_v185 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (eq_binary ops_writes 246 main_v183 main_v184 main_v185 _ _ _ _ rfl (by decide) (by decide) (by decide +kernel) (by decide +kernel) (by decide +kernel) V (at_main_v183 V) (at_main_v184 V)).trans rfl

theorem at_main_v186 (V : Valuation τ sig (Elt F)) :
    after ops V (Proc.devRef .tc main_v186) = Read.val_main_v186 (F := F) (V (Proc.devRef .tc main_arg6)) :=
  (eq_unary ops_writes 247 main_arg6 main_v186 _ _ _ rfl (by decide) (by decide +kernel) (by decide +kernel) V (keep_main_arg6 V)).trans rfl

theorem at_main_v187 (V : Valuation τ sig (Elt F)) :
    after ops V (Proc.devRef .tc main_v187) = Read.val_main_v187 (F := F) (V (Proc.devRef .tc main_arg6)) :=
  (eq_unary ops_writes 248 main_v186 main_v187 _ _ _ rfl (by decide) (by decide +kernel) (by decide +kernel) V (at_main_v186 V)).trans rfl

theorem at_main_v188 (V : Valuation τ sig (Elt F)) :
    after ops V (Proc.devRef .tc main_v188) = Read.val_main_v188 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (eq_binary ops_writes 249 main_v185 main_v187 main_v188 _ _ _ _ rfl (by decide) (by decide) (by decide +kernel) (by decide +kernel) (by decide +kernel) V (at_main_v185 V) (at_main_v187 V)).trans rfl

theorem at_main_v189 (V : Valuation τ sig (Elt F)) :
    after ops V (Proc.devRef .tc main_v189) = Read.val_main_v189 (F := F) (V (Proc.devRef .tc main_arg7)) :=
  (eq_unary ops_writes 250 main_arg7 main_v189 _ _ _ rfl (by decide) (by decide +kernel) (by decide +kernel) V (keep_main_arg7 V)).trans rfl

theorem at_main_v190 (V : Valuation τ sig (Elt F)) :
    after ops V (Proc.devRef .tc main_v190) = Read.val_main_v190 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (eq_binary ops_writes 251 main_v188 main_v189 main_v190 _ _ _ _ rfl (by decide) (by decide) (by decide +kernel) (by decide +kernel) (by decide +kernel) V (at_main_v188 V) (at_main_v189 V)).trans rfl

theorem at_main_v191 (V : Valuation τ sig (Elt F)) :
    after ops V (Proc.devRef .tc main_v191) = Read.val_main_v191 (F := F) (V (Proc.devRef .tc main_arg8)) :=
  (eq_unary ops_writes 252 main_arg8 main_v191 _ _ _ rfl (by decide) (by decide +kernel) (by decide +kernel) V (keep_main_arg8 V)).trans rfl

theorem at_main_v192 (V : Valuation τ sig (Elt F)) :
    after ops V (Proc.devRef .tc main_v192) = Read.val_main_v192 (F := F) (V (Proc.devRef .tc main_arg8)) :=
  (eq_unary ops_writes 253 main_v191 main_v192 _ _ _ rfl (by decide) (by decide +kernel) (by decide +kernel) V (at_main_v191 V)).trans rfl

theorem at_main_v193 (V : Valuation τ sig (Elt F)) :
    after ops V (Proc.devRef .tc main_v193) = Read.val_main_v193 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (eq_binary ops_writes 254 main_v190 main_v192 main_v193 _ _ _ _ rfl (by decide) (by decide) (by decide +kernel) (by decide +kernel) (by decide +kernel) V (at_main_v190 V) (at_main_v192 V)).trans rfl

/-! ## The run -/

/-- On every device, for any float values, from any memory with zero counters: every weakly fair execution of the
    reference terminates with its result buffer at the last stage of the reference read one operation at a time, as a
    function of the arguments' launch contents, and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v193) = Read.val_main_v193 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v193).trans (at_main_v193 (launchContents m c)),
      (h c main_arg0).trans (keep_main_arg0 (launchContents m c)),
      (h c main_arg1).trans (keep_main_arg1 (launchContents m c)),
      (h c main_arg2).trans (keep_main_arg2 (launchContents m c)),
      (h c main_arg3).trans (keep_main_arg3 (launchContents m c)),
      (h c main_arg4).trans (keep_main_arg4 (launchContents m c)),
      (h c main_arg5).trans (keep_main_arg5 (launchContents m c)),
      (h c main_arg6).trans (keep_main_arg6 (launchContents m c)),
      (h c main_arg7).trans (keep_main_arg7 (launchContents m c)),
      (h c main_arg8).trans (keep_main_arg8 (launchContents m c))⟩)
    (run_after m ρ)

end Cert.Gcn.R

end
-- ==== Proof.Spec.lean ====
/-
  The graph-convolution encoder as plain functions of its inputs, over the extended reals.

  One graph is a dense weight matrix `a i j` (edge from node `i` to node `j`, 1024 nodes). A node that has no self
  loop (its diagonal weight is zero) gets one of weight one (`loopW`); the degree of a node is the sum of the weights
  into it, the added loop included (`deg`); the symmetric normalisation multiplies an edge's weight by
  `deg^(-1/2)` of both its ends, zero where the degree is not positive. Two convolution layers follow (the first on
  constant features, so its linear map is a column `w1`), a ReLU between them, then the maximum over the sixteen
  output features and a two-layer linear head over the nodes.

  The same numbers are written twice, as the two programs compute them:
  * the FACTORED form (`k…`): the normalisation pulled out of the sums, `dinv j * (∑ i, (dinv i * h i) * a i j + …)`,
    with the reciprocal square root taken in one step;
  * the EDGE form (`r…`): every edge carries its normalised weight `dinv i * a i j * dinv j` and the messages
    `norm * h i` are summed at their target, the reciprocal root as one over the square root.
  That the two agree when every input is a real number is the algebra of the next module; nothing here needs it.
-/
import Idealize.ShloMosaic.PureOps.Ideal

noncomputable section

open scoped BigOperators
open Idealize.ShloMosaic

namespace Cert.Gcn

/-- An extended real that is a real number: what every input entry is under the precondition. -/
def IsReal (x : EReal) : Prop := ∃ r : ℝ, x = (r : EReal)

/-- What every maximum over the features starts from: f32's negative infinity, kept as its word. -/
def negInf : EReal := Ideal.ofBits .f32 0xFF800000#32

/-- The maximum of sixteen features, folded from `negInf`. -/
def featMax (f : Fin 16 → EReal) : EReal := (Finset.univ : Finset (Fin 16)).fold max negInf f

section Graph

variable (a : Fin 1024 → Fin 1024 → EReal)

/-- The weight of the self loop added at node `j`: one exactly when the node has none. -/
def loopW (j : Fin 1024) : EReal := if a j j = 0 then 1 else 0

/-- The weighted in-degree of node `j`, the added loop included. -/
def deg (j : Fin 1024) : EReal := (∑ i, a i j) + loopW a j

/-- The degree where it is positive, else one: what the root is taken of. -/
def safeDeg (j : Fin 1024) : EReal := if 0 < deg a j then deg a j else 1

/-- `deg^(-1/2)` where the degree is positive, else zero, the root taken as a reciprocal square root. -/
def dinvK (j : Fin 1024) : EReal := if 0 < deg a j then Ideal.rsqrt (safeDeg a j) else 0

/-- The same, the root taken as one over the square root. -/
def dinvR (j : Fin 1024) : EReal := if 0 < deg a j then Ideal.div 1 (Ideal.sqrt (safeDeg a j)) else 0

variable (w1 b1 : Fin 16 → EReal) (w2 : Fin 16 → Fin 16 → EReal) (b2 : Fin 16 → EReal)

/-! ### The factored form -/

/-- `∑ i, dinv i * a i j`: the normalised weights into `j`, before `j`'s own factor. -/
def kT1 (j : Fin 1024) : EReal := ∑ i, dinvK a i * a i j

/-- The first layer's aggregate of the constant feature at node `j`. -/
def kS (j : Fin 1024) : EReal := dinvK a j * (kT1 a j + dinvK a j * loopW a j)

/-- The first layer's output after the ReLU, feature `k` of node `j`. -/
def kX1 (k : Fin 16) (j : Fin 1024) : EReal := max (w1 k * kS a j + b1 k) 0

/-- The second layer's linear map of it. -/
def kH2 (k : Fin 16) (j : Fin 1024) : EReal := ∑ l, w2 k l * kX1 a w1 b1 l j

/-- … scaled by the source's `dinv`. -/
def kG (k : Fin 16) (j : Fin 1024) : EReal := dinvK a j * kH2 a w1 b1 w2 k j

/-- … summed over the edges into `j`. -/
def kZ (k : Fin 16) (j : Fin 1024) : EReal := ∑ i, kG a w1 b1 w2 k i * a i j

/-- The second layer's output, feature `k` of node `j`. -/
def kOut2 (k : Fin 16) (j : Fin 1024) : EReal :=
  dinvK a j * (kZ a w1 b1 w2 k j + loopW a j * kG a w1 b1 w2 k j) + b2 k

/-- The node's maximum over the features. -/
def kR (j : Fin 1024) : EReal := featMax fun k => kOut2 a w1 b1 w2 b2 k j

/-! ### The edge form -/

/-- The normalised weight of the edge from `i` to `j`. -/
def normE (i j : Fin 1024) : EReal := dinvR a i * a i j * dinvR a j

/-- The normalised weight of the loop added at `j`. -/
def normL (j : Fin 1024) : EReal := dinvR a j * loopW a j * dinvR a j

/-- The first layer's output before the ReLU: the messages `norm * w1 k` summed at `j`, then the bias. -/
def rOut1 (j : Fin 1024) (k : Fin 16) : EReal := ((∑ i, normE a i j * w1 k) + normL a j * w1 k) + b1 k

/-- … after the ReLU. -/
def rX1 (j : Fin 1024) (k : Fin 16) : EReal := max (rOut1 a w1 b1 j k) 0

/-- The second layer's linear map. -/
def rH2 (j : Fin 1024) (k : Fin 16) : EReal := ∑ l, rX1 a w1 b1 j l * w2 k l

/-- The second layer's output: the messages `norm * h i` summed at `j`, then the bias. -/
def rOut2 (j : Fin 1024) (k : Fin 16) : EReal :=
  ((∑ i, normE a i j * rH2 a w1 b1 w2 i k) + normL a j * rH2 a w1 b1 w2 j k) + b2 k

/-- The node's maximum over the features. -/
def rR (j : Fin 1024) : EReal := featMax fun k => rOut2 a w1 b1 w2 b2 j k

end Graph

/-! ### The head, the same in both forms -/

/-- First head layer: graph `b`'s node maxima against row `p` of `m1`, plus `c1 p`. -/
def head1 (r : Fin 2 → Fin 1024 → EReal) (m1 : Fin 32 → Fin 1024 → EReal) (c1 : Fin 32 → EReal) (b : Fin 2) (p : Fin 32) : EReal :=
  (∑ j, r b j * m1 p j) + c1 p

/-- Second head layer. -/
def head2 (o : Fin 2 → Fin 32 → EReal) (m2 : Fin 16 → Fin 32 → EReal) (c2 : Fin 16 → EReal) (b : Fin 2) (q : Fin 16) : EReal :=
  (∑ p, o b p * m2 q p) + c2 q

/-- The whole encoder, factored form: two graphs `y b`. -/
def gcnK (y : Fin 2 → Fin 1024 → Fin 1024 → EReal) (w1 b1 : Fin 16 → EReal) (w2 : Fin 16 → Fin 16 → EReal) (b2 : Fin 16 → EReal)
    (m1 : Fin 32 → Fin 1024 → EReal) (c1 : Fin 32 → EReal) (m2 : Fin 16 → Fin 32 → EReal) (c2 : Fin 16 → EReal) (b : Fin 2) (q : Fin 16) : EReal :=
  head2 (head1 (fun b j => kR (y b) w1 b1 w2 b2 j) m1 c1) m2 c2 b q

/-- The whole encoder, edge form. -/
def gcnR (y : Fin 2 → Fin 1024 → Fin 1024 → EReal) (w1 b1 : Fin 16 → EReal) (w2 : Fin 16 → Fin 16 → EReal) (b2 : Fin 16 → EReal)
    (m1 : Fin 32 → Fin 1024 → EReal) (c1 : Fin 32 → EReal) (m2 : Fin 16 → Fin 32 → EReal) (c2 : Fin 16 → EReal) (b : Fin 2) (q : Fin 16) : EReal :=
  head2 (head1 (fun b j => rR (y b) w1 b1 w2 b2 j) m1 c1) m2 c2 b q

end Cert.Gcn

end
-- ==== Proof.Arrays.lean ====
/-
  The programs' argument arrays read as the plain functions the encoder is written over: the two graphs' weight
  matrices out of the one [2, 1024, 1024] array, a column [16, 1] and the vectors as functions of one coordinate, the
  matrices as functions of two; and the encoder, in both forms, as a function of the nine arrays.
-/
import proofs.«117536_g81621558493468_cont_sun_c4_510_28_alg».proof.Proof.Spec
import Idealize.ShloMosaic.Lib.ValueIdx

noncomputable section

open Idealize.ShloMosaic Idealize.ShloMosaic.ValueIdx

namespace Cert.Gcn

/-- Graph `b`'s weight matrix. -/
def mat (x0 : (⟨3, ![2, 1024, 1024]⟩ : Shape).Idx → EReal) (b : Fin 2) : Fin 1024 → Fin 1024 → EReal := fun i j => x0 (ix3 b i j)
/-- A [16, 1] column as a function of its row. -/
def colv (x : (⟨2, ![16, 1]⟩ : Shape).Idx → EReal) : Fin 16 → EReal := fun k => x (ix2 k 0)
def vec16 (x : (⟨1, ![16]⟩ : Shape).Idx → EReal) : Fin 16 → EReal := fun k => x (ix1 k)
def vec32 (x : (⟨1, ![32]⟩ : Shape).Idx → EReal) : Fin 32 → EReal := fun p => x (ix1 p)
def mat16 (x : (⟨2, ![16, 16]⟩ : Shape).Idx → EReal) : Fin 16 → Fin 16 → EReal := fun k l => x (ix2 k l)
def matM1 (x : (⟨2, ![32, 1024]⟩ : Shape).Idx → EReal) : Fin 32 → Fin 1024 → EReal := fun p j => x (ix2 p j)
def matM2 (x : (⟨2, ![16, 32]⟩ : Shape).Idx → EReal) : Fin 16 → Fin 32 → EReal := fun q p => x (ix2 q p)

/-- The encoder in the factored form, of the nine argument arrays. -/
def gcnKArr (x0 : (⟨3, ![2, 1024, 1024]⟩ : Shape).Idx → EReal) (x1 : (⟨2, ![16, 1]⟩ : Shape).Idx → EReal) (x2 : (⟨1, ![16]⟩ : Shape).Idx → EReal)
    (x3 : (⟨2, ![16, 16]⟩ : Shape).Idx → EReal) (x4 : (⟨1, ![16]⟩ : Shape).Idx → EReal) (x5 : (⟨2, ![32, 1024]⟩ : Shape).Idx → EReal)
    (x6 : (⟨1, ![32]⟩ : Shape).Idx → EReal) (x7 : (⟨2, ![16, 32]⟩ : Shape).Idx → EReal) (x8 : (⟨1, ![16]⟩ : Shape).Idx → EReal)
    (b : Fin 2) (q : Fin 16) : EReal :=
  gcnK (mat x0) (colv x1) (vec16 x2) (mat16 x3) (vec16 x4) (matM1 x5) (vec32 x6) (matM2 x7) (vec16 x8) b q

/-- The encoder in the edge form, of the nine argument arrays. -/
def gcnRArr (x0 : (⟨3, ![2, 1024, 1024]⟩ : Shape).Idx → EReal) (x1 : (⟨2, ![16, 1]⟩ : Shape).Idx → EReal) (x2 : (⟨1, ![16]⟩ : Shape).Idx → EReal)
    (x3 : (⟨2, ![16, 16]⟩ : Shape).Idx → EReal) (x4 : (⟨1, ![16]⟩ : Shape).Idx → EReal) (x5 : (⟨2, ![32, 1024]⟩ : Shape).Idx → EReal)
    (x6 : (⟨1, ![32]⟩ : Shape).Idx → EReal) (x7 : (⟨2, ![16, 32]⟩ : Shape).Idx → EReal) (x8 : (⟨1, ![16]⟩ : Shape).Idx → EReal)
    (b : Fin 2) (q : Fin 16) : EReal :=
  gcnR (mat x0) (colv x1) (vec16 x2) (mat16 x3) (vec16 x4) (matM1 x5) (vec32 x6) (matM2 x7) (vec16 x8) b q

end Cert.Gcn

end
-- ==== Proof.Algebra.lean ====
/-
  The factored form and the edge form of the encoder agree when every input is a real number.
-/
import proofs.«117536_g81621558493468_cont_sun_c4_510_28_alg».proof.Proof.Spec

noncomputable section

open scoped BigOperators
open Idealize.ShloMosaic

namespace Cert.Gcn

namespace Alg

/-! ### The two reciprocal roots agree, finite argument or not -/

/-- At a positive argument the one-step reciprocal square root is one over the square root: at `⊤` both are
    zero (`⊤⁻¹ = 0`), at a positive real both are `(√r)⁻¹`. -/
theorem rsqrt_eq_div_sqrt (x : EReal) (hx : 0 < x) : Ideal.rsqrt x = Ideal.div 1 (Ideal.sqrt x) := by
  induction x using EReal.rec with
  | bot => exact absurd hx not_lt_bot
  | top => rw [Ideal.rsqrt_top, Ideal.sqrt_top, Ideal.div, if_neg EReal.top_ne_zero, EReal.inv_top, mul_zero]
  | coe r =>
    have hr : 0 < r := EReal.coe_pos.mp hx
    have hs : Real.sqrt r ≠ 0 := (Real.sqrt_pos.mpr hr).ne'
    simp only [Ideal.rsqrt_coe, Ideal.sqrt_coe, if_neg (not_lt.mpr hr.le), if_neg hr.ne']
    rw [Ideal.div_coe hs, one_mul, one_div]

/-- The two spellings of `deg^(-1/2)` are the same number: where the degree is positive the root is taken of the
    degree itself, which is positive. -/
theorem dinvK_eq_dinvR (a : Fin 1024 → Fin 1024 → EReal) (j : Fin 1024) : dinvK a j = dinvR a j := by
  unfold dinvK dinvR
  by_cases h : 0 < deg a j
  · have hs : 0 < safeDeg a j := by unfold safeDeg; rw [if_pos h]; exact h
    simp only [if_pos h]
    exact rsqrt_eq_div_sqrt _ hs
  · simp only [if_neg h]

/-! ### Real numbers inside the extended reals: sums and maxima -/

/-- The inclusion of the reals commutes with finite sums. -/
theorem coe_finsum {ι : Type*} (s : Finset ι) (f : ι → ℝ) :
    ((∑ i ∈ s, f i : ℝ) : EReal) = ∑ i ∈ s, ((f i : ℝ) : EReal) := by
  classical
  refine Finset.induction_on s ?_ ?_
  · simp
  · intro x s hx ih
    rw [Finset.sum_insert hx, Finset.sum_insert hx, EReal.coe_add, ih]

/-- The inclusion of the reals commutes with the maximum of two numbers (it is monotone). -/
theorem coe_max (x y : ℝ) : ((max x y : ℝ) : EReal) = max (x : EReal) (y : EReal) :=
  EReal.coe_strictMono.monotone.map_max

/-! ### The encoder over the real numbers

One real expression per quantity, written in the factored shape; the edge shape of the same expression is a
rearrangement of finite sums and products (`x1R_edge`, `h2R_edge`, `out2R_edge`). -/

section RealSide

variable (A : Fin 1024 → Fin 1024 → ℝ)

/-- The weight of the added loop. -/
def lwR (j : Fin 1024) : ℝ := if A j j = 0 then 1 else 0

/-- The degree, the added loop included. -/
def degR (j : Fin 1024) : ℝ := (∑ i, A i j) + lwR A j

/-- `deg^(-1/2)` where the degree is positive, else zero. -/
def dR (j : Fin 1024) : ℝ := if 0 < degR A j then (Real.sqrt (degR A j))⁻¹ else 0

variable (W1 B1 : Fin 16 → ℝ) (W2 : Fin 16 → Fin 16 → ℝ) (B2 : Fin 16 → ℝ)

/-- The first layer after the ReLU. -/
def x1R (j : Fin 1024) (k : Fin 16) : ℝ :=
  max (W1 k * (dR A j * ((∑ i, dR A i * A i j) + dR A j * lwR A j)) + B1 k) 0

/-- The second layer's linear map. -/
def h2R (j : Fin 1024) (k : Fin 16) : ℝ := ∑ l, W2 k l * x1R A W1 B1 j l

/-- The second layer's output. -/
def out2R (j : Fin 1024) (k : Fin 16) : ℝ :=
  dR A j * ((∑ i, dR A i * h2R A W1 B1 W2 i k * A i j) + lwR A j * (dR A j * h2R A W1 B1 W2 j k)) + B2 k

/-- The first layer, every edge carrying its normalised weight: the factor `dR j * W1 k` goes into the sum. -/
theorem x1R_edge (j : Fin 1024) (k : Fin 16) :
    x1R A W1 B1 j k =
      max (((∑ i, dR A i * A i j * dR A j * W1 k) + dR A j * lwR A j * dR A j * W1 k) + B1 k) 0 := by
  unfold x1R
  have h : ∑ i, dR A i * A i j * dR A j * W1 k = (∑ i, dR A i * A i j) * (dR A j * W1 k) := by
    rw [Finset.sum_mul]
    exact Finset.sum_congr rfl fun i _ => by ring
  rw [h]
  exact congrArg (fun t => max t (0 : ℝ)) (by ring)

/-- The second layer's linear map with the factors in the other order. -/
theorem h2R_edge (j : Fin 1024) (k : Fin 16) : h2R A W1 B1 W2 j k = ∑ l, x1R A W1 B1 j l * W2 k l := by
  unfold h2R
  exact Finset.sum_congr rfl fun l _ => mul_comm _ _

/-- The second layer's output, every edge carrying its normalised weight: the factor `dR j` goes into the sum. -/
theorem out2R_edge (j : Fin 1024) (k : Fin 16) :
    out2R A W1 B1 W2 B2 j k =
      ((∑ i, dR A i * A i j * dR A j * h2R A W1 B1 W2 i k) + dR A j * lwR A j * dR A j * h2R A W1 B1 W2 j k) + B2 k := by
  unfold out2R
  have h : ∑ i, dR A i * A i j * dR A j * h2R A W1 B1 W2 i k = dR A j * ∑ i, dR A i * h2R A W1 B1 W2 i k * A i j := by
    rw [Finset.mul_sum]
    exact Finset.sum_congr rfl fun i _ => by ring
  rw [h]
  ring

end RealSide

/-! ### Both forms are the inclusion of the real expressions -/

section Coe

variable {a : Fin 1024 → Fin 1024 → EReal} {w1 b1 : Fin 16 → EReal} {w2 : Fin 16 → Fin 16 → EReal} {b2 : Fin 16 → EReal}
  {A : Fin 1024 → Fin 1024 → ℝ} {W1 B1 : Fin 16 → ℝ} {W2 : Fin 16 → Fin 16 → ℝ} {B2 : Fin 16 → ℝ}

theorem loopW_coe (hA : ∀ i j, a i j = (A i j : EReal)) (j : Fin 1024) : loopW a j = (lwR A j : EReal) := by
  unfold loopW lwR
  rw [hA j j]
  by_cases h : A j j = 0
  · rw [if_pos h, if_pos (EReal.coe_eq_zero.mpr h), EReal.coe_one]
  · rw [if_neg h, if_neg (fun h' => h (EReal.coe_eq_zero.mp h')), EReal.coe_zero]

theorem deg_coe (hA : ∀ i j, a i j = (A i j : EReal)) (j : Fin 1024) : deg a j = (degR A j : EReal) := by
  simp only [deg, degR, loopW_coe hA, hA, EReal.coe_add, coe_finsum]

/-- Where the degree is a positive real `D`, one over the square root is the real `(√D)⁻¹`. -/
theorem dinvR_coe (hA : ∀ i j, a i j = (A i j : EReal)) (j : Fin 1024) : dinvR a j = (dR A j : EReal) := by
  unfold dinvR safeDeg dR
  rw [deg_coe hA j]
  by_cases h : 0 < degR A j
  · have h' : (0 : EReal) < (degR A j : EReal) := EReal.coe_pos.mpr h
    have hs : Real.sqrt (degR A j) ≠ 0 := (Real.sqrt_pos.mpr h).ne'
    simp only [if_pos h', if_pos h, Ideal.sqrt_coe, if_neg (not_lt.mpr h.le)]
    rw [Ideal.div_coe hs, one_mul, one_div]
  · have h' : ¬ (0 : EReal) < (degR A j : EReal) := fun h' => h (EReal.coe_pos.mp h')
    simp only [if_neg h', if_neg h, EReal.coe_zero]

theorem dinvK_coe (hA : ∀ i j, a i j = (A i j : EReal)) (j : Fin 1024) : dinvK a j = (dR A j : EReal) :=
  (dinvK_eq_dinvR a j).trans (dinvR_coe hA j)

theorem kX1_coe (hA : ∀ i j, a i j = (A i j : EReal)) (hW1 : ∀ k, w1 k = (W1 k : EReal))
    (hB1 : ∀ k, b1 k = (B1 k : EReal)) (k : Fin 16) (j : Fin 1024) :
    kX1 a w1 b1 k j = (x1R A W1 B1 j k : EReal) := by
  simp only [kX1, kS, kT1, x1R, dinvK_coe hA, loopW_coe hA, hA, hW1, hB1, coe_max, EReal.coe_add, EReal.coe_mul,
    coe_finsum, EReal.coe_zero]

theorem rX1_coe (hA : ∀ i j, a i j = (A i j : EReal)) (hW1 : ∀ k, w1 k = (W1 k : EReal))
    (hB1 : ∀ k, b1 k = (B1 k : EReal)) (j : Fin 1024) (k : Fin 16) :
    rX1 a w1 b1 j k = (x1R A W1 B1 j k : EReal) := by
  rw [x1R_edge]
  simp only [rX1, rOut1, normE, normL, dinvR_coe hA, loopW_coe hA, hA, hW1, hB1, coe_max, EReal.coe_add,
    EReal.coe_mul, coe_finsum, EReal.coe_zero]

theorem kH2_coe (hA : ∀ i j, a i j = (A i j : EReal)) (hW1 : ∀ k, w1 k = (W1 k : EReal))
    (hB1 : ∀ k, b1 k = (B1 k : EReal)) (hW2 : ∀ k l, w2 k l = (W2 k l : EReal)) (k : Fin 16) (j : Fin 1024) :
    kH2 a w1 b1 w2 k j = (h2R A W1 B1 W2 j k : EReal) := by
  simp only [kH2, h2R, kX1_coe hA hW1 hB1, hW2, EReal.coe_mul, coe_finsum]

theorem rH2_coe (hA : ∀ i j, a i j = (A i j : EReal)) (hW1 : ∀ k, w1 k = (W1 k : EReal))
    (hB1 : ∀ k, b1 k = (B1 k : EReal)) (hW2 : ∀ k l, w2 k l = (W2 k l : EReal)) (j : Fin 1024) (k : Fin 16) :
    rH2 a w1 b1 w2 j k = (h2R A W1 B1 W2 j k : EReal) := by
  rw [h2R_edge]
  simp only [rH2, rX1_coe hA hW1 hB1, hW2, EReal.coe_mul, coe_finsum]

theorem kOut2_coe (hA : ∀ i j, a i j = (A i j : EReal)) (hW1 : ∀ k, w1 k = (W1 k : EReal))
    (hB1 : ∀ k, b1 k = (B1 k : EReal)) (hW2 : ∀ k l, w2 k l = (W2 k l : EReal)) (hB2 : ∀ k, b2 k = (B2 k : EReal))
    (k : Fin 16) (j : Fin 1024) :
    kOut2 a w1 b1 w2 b2 k j = (out2R A W1 B1 W2 B2 j k : EReal) := by
  simp only [kOut2, kZ, kG, out2R, kH2_coe hA hW1 hB1 hW2, dinvK_coe hA, loopW_coe hA, hA, hB2, EReal.coe_add,
    EReal.coe_mul, coe_finsum]

theorem rOut2_coe (hA : ∀ i j, a i j = (A i j : EReal)) (hW1 : ∀ k, w1 k = (W1 k : EReal))
    (hB1 : ∀ k, b1 k = (B1 k : EReal)) (hW2 : ∀ k l, w2 k l = (W2 k l : EReal)) (hB2 : ∀ k, b2 k = (B2 k : EReal))
    (j : Fin 1024) (k : Fin 16) :
    rOut2 a w1 b1 w2 b2 j k = (out2R A W1 B1 W2 B2 j k : EReal) := by
  rw [out2R_edge]
  simp only [rOut2, normE, normL, rH2_coe hA hW1 hB1 hW2, dinvR_coe hA, loopW_coe hA, hA, hB2, EReal.coe_add,
    EReal.coe_mul, coe_finsum]

end Coe

end Alg

theorem kR_eq_rR (a : Fin 1024 → Fin 1024 → EReal) (w1 b1 : Fin 16 → EReal) (w2 : Fin 16 → Fin 16 → EReal) (b2 : Fin 16 → EReal)
    (ha : ∀ i j, IsReal (a i j)) (hw1 : ∀ k, IsReal (w1 k)) (hb1 : ∀ k, IsReal (b1 k)) (hw2 : ∀ k l, IsReal (w2 k l))
    (hb2 : ∀ k, IsReal (b2 k)) (j : Fin 1024) :
    kR a w1 b1 w2 b2 j = rR a w1 b1 w2 b2 j := by
  have ha' : ∀ i j, ∃ r : ℝ, a i j = (r : EReal) := ha
  have hw1' : ∀ k, ∃ r : ℝ, w1 k = (r : EReal) := hw1
  have hb1' : ∀ k, ∃ r : ℝ, b1 k = (r : EReal) := hb1
  have hw2' : ∀ k l, ∃ r : ℝ, w2 k l = (r : EReal) := hw2
  have hb2' : ∀ k, ∃ r : ℝ, b2 k = (r : EReal) := hb2
  choose A hA using ha'
  choose W1 hW1 using hw1'
  choose B1 hB1 using hb1'
  choose W2 hW2 using hw2'
  choose B2 hB2 using hb2'
  unfold kR rR
  exact congrArg featMax (funext fun k =>
    (Alg.kOut2_coe hA hW1 hB1 hW2 hB2 k j).trans (Alg.rOut2_coe hA hW1 hB1 hW2 hB2 j k).symm)

theorem gcnK_eq_gcnR (y : Fin 2 → Fin 1024 → Fin 1024 → EReal) (w1 b1 : Fin 16 → EReal) (w2 : Fin 16 → Fin 16 → EReal) (b2 : Fin 16 → EReal)
    (m1 : Fin 32 → Fin 1024 → EReal) (c1 : Fin 32 → EReal) (m2 : Fin 16 → Fin 32 → EReal) (c2 : Fin 16 → EReal)
    (hy : ∀ b i j, IsReal (y b i j)) (hw1 : ∀ k, IsReal (w1 k)) (hb1 : ∀ k, IsReal (b1 k)) (hw2 : ∀ k l, IsReal (w2 k l))
    (hb2 : ∀ k, IsReal (b2 k)) (b : Fin 2) (q : Fin 16) :
    gcnK y w1 b1 w2 b2 m1 c1 m2 c2 b q = gcnR y w1 b1 w2 b2 m1 c1 m2 c2 b q := by
  unfold gcnK gcnR
  have h : (fun b j => kR (y b) w1 b1 w2 b2 j) = (fun b j => rR (y b) w1 b1 w2 b2 j) :=
    funext fun b => funext fun j => kR_eq_rR (y b) w1 b1 w2 b2 (hy b) hw1 hb1 hw2 hb2 j
  rw [h]

end Cert.Gcn

end
-- ==== Proof.Finite.lean ====
/-
  From the precondition to real numbers: where every input's absolute value is below infinity at every entry, every
  entry is a real number.
-/
import proofs.«117536_g81621558493468_cont_sun_c4_510_28_alg».proof.Proof.Gen.Pre_finite_inputs
import proofs.«117536_g81621558493468_cont_sun_c4_510_28_alg».proof.Proof.Spec
import Idealize.ShloMosaic.Lib.ReduceAll
import Idealize.ShloMosaic.Lib.ValueIdx

noncomputable section

open Idealize.ShloMosaic Idealize.ShloMosaic.ValueIdx Cert.Pre_finite_inputs Cert.Pre_finite_inputs.Gen

namespace Cert.Gcn

/-- The f32 word of positive infinity denotes the top of the extended reals. -/
private theorem posInf_eq_top : Ideal.ofBits .f32 0x7F800000#32 = (⊤ : EReal) := by
  simp [Ideal.ofBits, Ideal.ieee]

/-- An extended real whose absolute value `max x (-x)` is strictly below positive infinity is a real number:
    at `⊥` and at `⊤` the absolute value is `⊤`. -/
private theorem isReal_of_abs_lt (x : EReal)
    (h : Ideal.cmp .olt (max x (-x)) (Ideal.ofBits .f32 0x7F800000#32) = 1#1) : IsReal x := by
  rw [posInf_eq_top] at h
  have hlt : max x (-x) < ⊤ := by
    by_contra hn
    simp [Ideal.cmp, hn] at h
  induction x using EReal.rec with
  | bot => simp at hlt
  | coe r => exact ⟨r, rfl⟩
  | top => simp at hlt

/-- A rank-zero shape has one index. -/
private instance subsingleton_scalarIdx : Subsingleton S_.Idx := ⟨fun a b => funext fun d => d.elim0⟩

/-- One conjunct of the precondition: where `all (|x| < +inf)` came out true, every entry of `x` is real. -/
private theorem real_of_all {s : Shape} {axes : List (Fin s.rank)} (x : FVec Ideal s .f32)
    (hb : S_.BroadcastsInDim s (![] : Fin 0 → Fin s.rank)) (init : IVec S_ 1) (hr : s.ReducesTo axes S_)
    (hu : 0 < S_.numel)
    (e : Host.reduce IntOp.andi
      (cmpf .olt (Host.absf x) (broadcastInDim s ![] hb (constant (F := Ideal) S_ .f32 0x7F800000#32))) init hr hu ix0 = 1#1)
    (i : s.Idx) : IsReal (x i) :=
  isReal_of_abs_lt (x i) (Host.reduce_andi_all _ init hr hu ix0 e i)

/-- The conjunction of two one-bit scalars is one exactly when both are. -/
private theorem and_split {s : Shape} (a b : IVec s 1) (i : s.Idx) (h : andi a b i = 1#1) : a i = 1#1 ∧ b i = 1#1 :=
  IntOp.andi_eq_one.1 h

theorem real_of_pre (x0 : FVec Ideal S2x1024x1024 .f32) (x1 : FVec Ideal S16x1 .f32) (x2 : FVec Ideal S16 .f32) (x3 : FVec Ideal S16x16 .f32)
    (x4 : FVec Ideal S16 .f32) (x5 : FVec Ideal S32x1024 .f32) (x6 : FVec Ideal S32 .f32) (x7 : FVec Ideal S16x32 .f32) (x8 : FVec Ideal S16 .f32)
    (h : Cert.Pre_finite_inputs.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i)) := by
  -- the result at its one index, with the printed chain of conjunctions in view
  have h0 := congrFun h ix0
  dsimp only [Cert.Pre_finite_inputs.fn, fn_part1, fn_part2] at h0
  -- the chain is ((((((((c0 ∧ c1) ∧ c2) ∧ c3) ∧ c4) ∧ c5) ∧ c6) ∧ c7) ∧ c8): peel it from the outside
  obtain ⟨h7, _⟩ := and_split _ _ _ h0
  obtain ⟨h6, _⟩ := and_split _ _ _ h7
  obtain ⟨h5, _⟩ := and_split _ _ _ h6
  obtain ⟨h4, _⟩ := and_split _ _ _ h5
  obtain ⟨h3, c4⟩ := and_split _ _ _ h4
  obtain ⟨h2, c3⟩ := and_split _ _ _ h3
  obtain ⟨h1, c2⟩ := and_split _ _ _ h2
  obtain ⟨c0, c1⟩ := and_split _ _ _ h1
  exact ⟨real_of_all x0 _ _ _ _ c0, real_of_all x1 _ _ _ _ c1, real_of_all x2 _ _ _ _ c2,
    real_of_all x3 _ _ _ _ c3, real_of_all x4 _ _ _ _ c4⟩

end Cert.Gcn

end
-- ==== Proof.KDiag.lean ====
/-
  What the kernel body reads of the weight array: each graph's matrix as loaded, its column sums, and the loop weights
  from the diagonal. The diagonal is taken tile by tile — of each of the eight 128 × 128 tiles on the diagonal the
  entries off the tile's own diagonal are replaced by zero and the tile is summed down its columns, which leaves the
  diagonal entry of each column — and the eight rows of 128 are laid side by side.
-/
import proofs.«117536_g81621558493468_cont_sun_c4_510_28_alg».proof.Proof.Gen.KernelIdeal.Frame
import proofs.«117536_g81621558493468_cont_sun_c4_510_28_alg».proof.Proof.Arrays
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.TcCoe Idealize.ShloMosaic.ValueIdx

namespace Cert.Gcn.K

variable (x0 : Vec Ideal S2x1024x1024 .f32)

/-- Graph 0's loop weights as the body computes them from the loaded diagonal tiles. -/
abbrev lwTerm0 : FVec Ideal S1x1024 .f32 :=
  k0_pay13 (F := Ideal) k0_pay6 (k0_pay8 (View.ld x0 r0_3)) (k0_pay9 (View.ld x0 r0_4)) (k0_pay10 (View.ld x0 r0_5)) (k0_pay11 (View.ld x0 r0_6)) (k0_pay12 (F := Ideal)) (View.ld x0 r0_7) (View.ld x0 r0_8) (View.ld x0 r0_9) (View.ld x0 r0_10)

/-- Graph 1's. -/
abbrev lwTerm1 : FVec Ideal S1x1024 .f32 :=
  k0_pay23 (F := Ideal) k0_pay6 (k0_pay17 k0_pay6 (View.ld x0 r0_14)) (k0_pay18 k0_pay6 (View.ld x0 r0_15)) (k0_pay19 k0_pay6 (View.ld x0 r0_16)) (k0_pay20 k0_pay6 (View.ld x0 r0_17)) (k0_pay21 k0_pay6 (View.ld x0 r0_18)) (k0_pay22 k0_pay6 (View.ld x0 r0_19)) (View.ld x0 r0_20) (View.ld x0 r0_21)

/-! ### Readings used below: a box loaded from the array, a column sum's index, a masked tile, the eight rows -/

/-- A unit-stride load of a [1, m1, m2] box at offset (b, o1, o2) of a rank-3 array reads, at (0, p, q), the array at
    (b, o1 + p, o2 + q). -/
theorem ld_box_apply {Val : EltTy → Type} {e : EltTy} {n0 n1 n2 m1 m2 : ℕ} (X : (⟨3, ![n0, n1, n2]⟩ : Shape).Idx → Val e) (b o1 o2 : ℕ)
    (inb : ∀ a, (![b, o1, o2] : Fin 3 → ℕ) a + (![1, m1, m2] : Fin 3 → ℕ) a ≤ (⟨3, ![n0, n1, n2]⟩ : Shape).size a)
    (p : Fin m1) (q : Fin m2) (hb : b < n0) (h1 : o1 + p.val < n1) (h2 : o2 + q.val < n2) :
    View.ld X (Rect.unit (s := ⟨3, ![n0, n1, n2]⟩) ![b, o1, o2] ![1, m1, m2] inb) (ix3 (0 : Fin 1) p q)
      = X (ix3 ⟨b, hb⟩ ⟨o1 + p.val, h1⟩ ⟨o2 + q.val, h2⟩) := by
  show X _ = X _
  congr 1
  funext a
  match a with
  | ⟨0, _⟩ => exact Fin.ext (by show b + 1 * 0 = b; omega)
  | ⟨1, _⟩ => exact Fin.ext (by show o1 + 1 * p.val = o1 + p.val; omega)
  | ⟨2, _⟩ => exact Fin.ext (by show o2 + 1 * q.val = o2 + q.val; omega)

/-- The index a column sum of a square matrix inserts: row k of column q. -/
theorem lift_col {n : ℕ} (h : Shape.Reduces ⟨2, ![n, n]⟩ [0] ⟨1, ![n]⟩) (q k : Fin n) : h.lift (ix1 q) k = ix2 k q := by
  funext a
  match a with
  | ⟨0, _⟩ => exact Fin.ext rfl
  | ⟨1, _⟩ => exact Fin.ext rfl

/-- A tile with the entries off its diagonal replaced by zero, summed down its columns: column q keeps the diagonal
    entry (q, q). -/
theorem tileRow_apply (m : IVec S128x128 1) (hm : ∀ p q : Fin 128, m (ix2 p q) = if p = q then 1#1 else 0#1)
    (v : Vec Ideal S1x128x128 .f32) (q : Fin 128) :
    shapeCast S1x128 (multiReduction .add [0] S128 (select m (shapeCast S128x128 v shapeCasts_S1x128x128_S128x128)
      (broadcast S128x128 (Scalar.ofBits (F := Ideal) .f32 0x00000000#32))) 0x00000000#32 reduces_S128x128_S128 (.inl rfl) rfl)
      shapeCasts_S128_S1x128 (ix2 0 q) = v (ix3 0 q q) := by
  refine (shapeCast_a_1a_apply _ shapeCasts_S128_S1x128 0 q).trans ?_
  refine (Ideal.multiReduction_add_single _ _ reduces_S128x128_S128 _ _ (ix1 q)).trans ?_
  show ∑ k : Fin 128, _ = _
  rw [Finset.sum_eq_single q]
  · rw [lift_col]
    show Scalar.select (m (ix2 q q)) _ _ = _
    rw [hm, if_pos rfl, select_one]
    exact shapeCast_1ab_ab_apply v _ q q
  · intro k _ hk
    rw [lift_col]
    show Scalar.select (m (ix2 k q)) _ _ = 0
    rw [hm, if_neg hk, select_zero]
    exact Ideal.ofBits_zero_f32
  · intro h
    exact absurd (Finset.mem_univ q) h

/-- The loop weight from a diagonal entry: one where the entry is zero, else zero. -/
theorem loopSel (d : EReal) :
    Scalar.select (FloatOps.cmpf (F := Ideal) (φ := .f32) .oeq d (Scalar.ofBits (F := Ideal) .f32 0x00000000#32))
      (Scalar.ofBits (F := Ideal) .f32 0x3F800000#32) (Scalar.ofBits (F := Ideal) .f32 0x00000000#32) = if d = 0 then 1 else 0 := by
  show Scalar.select (Ideal.cmp .oeq d (Ideal.ofBits .f32 0x00000000#32)) (Ideal.ofBits .f32 0x3F800000#32) (Ideal.ofBits .f32 0x00000000#32) = _
  rw [Ideal.ofBits_zero_f32, show Ideal.ofBits .f32 0x3F800000#32 = 1 from IdealRules.sign_bit.ideal_onePat .f32]
  by_cases h : d = 0
  · rw [if_pos h]
    show Scalar.select (BitVec.ofBool (decide (d = 0))) 1 0 = 1
    rw [decide_eq_true h]; exact select_one _ _
  · rw [if_neg h]
    show Scalar.select (BitVec.ofBool (decide (d = 0))) 1 0 = 0
    rw [decide_eq_false h]; exact select_zero _ _

/-- Two naturals below `2 ^ 32` with the same 32-bit word are equal. -/
theorem ofNat32_inj_of_lt {m n : Nat} (hm : m < 2 ^ 32) (hn : n < 2 ^ 32)
    (h : BitVec.ofNat 32 m = BitVec.ofNat 32 n) : m = n := by
  have e := congrArg BitVec.toNat h
  rw [BitVec.toNat_ofNat, BitVec.toNat_ofNat, Nat.mod_eq_of_lt hm, Nat.mod_eq_of_lt hn] at e
  exact e

/-- The diagonal mask of a 128 x 128 tile: one exactly on the diagonal. The mask compares the row coordinate with the
    column coordinate as 32-bit words, and coordinates below 128 are equal when their words are. -/
theorem mask_apply (p q : Fin 128) : k0_pay6 (ix2 p q) = if p = q then 1#1 else 0#1 := by
  show IntOp.cmpi .eq (iota .tc S128x128 32 [0] iota_S128x128_d0_w32 (ix2 p q))
    (iota .tc S128x128 32 [1] iota_S128x128_d1_w32 (ix2 p q)) = _
  rw [iota_single_apply, iota_single_apply]
  show BitVec.ofBool (BitVec.ofNat 32 p.val == BitVec.ofNat 32 q.val) = _
  by_cases h : p = q
  · subst h
    rw [if_pos rfl, beq_self_eq_true]
    rfl
  · have hne : BitVec.ofNat 32 p.val ≠ BitVec.ofNat 32 q.val := fun e =>
      h (Fin.ext (ofNat32_inj_of_lt (by have := p.isLt; omega) (by have := q.isLt; omega) e))
    rw [if_neg h, beq_eq_false_iff_ne.mpr hne]
    rfl

/-- Eight rows of 128 laid side by side, read at column 128 t + q: row t at q. The seven rows before row `t` take up
    `128 t` columns, so column `128 t + q` falls in row `t`, at its column `q`. -/
theorem concat8_apply {α : Type} (r0 r1 r2 r3 r4 r5 r6 r7 : S1x128.Idx → α) (t : Fin 8) (q : Fin 128) (j : Fin 1024) (hj : j.val = 128 * t.val + q.val) :
    concatenate S1x1024 1 [⟨S1x128, r0⟩, ⟨S1x128, r1⟩, ⟨S1x128, r2⟩, ⟨S1x128, r3⟩, ⟨S1x128, r4⟩, ⟨S1x128, r5⟩, ⟨S1x128, r6⟩, ⟨S1x128, r7⟩] concatenates_S1x128_S1x128_S1x128_S1x128_S1x128_S1x128_S1x128_S1x128_S1x1024_d1 (ix2 0 j) = (![r0, r1, r2, r3, r4, r5, r6, r7] t) (ix2 0 q) := by
  rcases t with ⟨k, hk⟩
  have hj' : j.val = 128 * k + q.val := hj
  -- off the concatenated axis both indices have the one coordinate 0
  have hi : ∀ b : Fin S1x128.rank, b.cast (rfl : S1x128.rank = S1x1024.rank) ≠ (1 : Fin S1x1024.rank) →
      ((ix2 (0 : Fin 1) q : S1x128.Idx) b).val = ((ix2 (0 : Fin 1) j : S1x1024.Idx) (b.cast rfl)).val := by
    intro b hb
    match b with
    | ⟨0, _⟩ => rfl
    | ⟨1, _⟩ => exact absurd (Fin.ext rfl) hb
  interval_cases k
  · exact concatenate_apply_piece (1 : Fin S1x1024.rank) _ _ (ix2 0 j) 0 (by exact (by decide : 0 < 8)) S1x128 r0 rfl rfl 0 rfl (ix2 0 q) hi
      (by show 0 + q.val = j.val; omega)
  · exact concatenate_apply_piece (1 : Fin S1x1024.rank) _ _ (ix2 0 j) 1 (by exact (by decide : 1 < 8)) S1x128 r1 rfl rfl 128 rfl (ix2 0 q) hi
      (by show 128 + q.val = j.val; omega)
  · exact concatenate_apply_piece (1 : Fin S1x1024.rank) _ _ (ix2 0 j) 2 (by exact (by decide : 2 < 8)) S1x128 r2 rfl rfl 256 rfl (ix2 0 q) hi
      (by show 256 + q.val = j.val; omega)
  · exact concatenate_apply_piece (1 : Fin S1x1024.rank) _ _ (ix2 0 j) 3 (by exact (by decide : 3 < 8)) S1x128 r3 rfl rfl 384 rfl (ix2 0 q) hi
      (by show 384 + q.val = j.val; omega)
  · exact concatenate_apply_piece (1 : Fin S1x1024.rank) _ _ (ix2 0 j) 4 (by exact (by decide : 4 < 8)) S1x128 r4 rfl rfl 512 rfl (ix2 0 q) hi
      (by show 512 + q.val = j.val; omega)
  · exact concatenate_apply_piece (1 : Fin S1x1024.rank) _ _ (ix2 0 j) 5 (by exact (by decide : 5 < 8)) S1x128 r5 rfl rfl 640 rfl (ix2 0 q) hi
      (by show 640 + q.val = j.val; omega)
  · exact concatenate_apply_piece (1 : Fin S1x1024.rank) _ _ (ix2 0 j) 6 (by exact (by decide : 6 < 8)) S1x128 r6 rfl rfl 768 rfl (ix2 0 q) hi
      (by show 768 + q.val = j.val; omega)
  · exact concatenate_apply_piece (1 : Fin S1x1024.rank) _ _ (ix2 0 j) 7 (by exact (by decide : 7 < 8)) S1x128 r7 rfl rfl 896 rfl (ix2 0 q) hi
      (by show 896 + q.val = j.val; omega)

/-- The row a diagonal tile leaves: its entries off the diagonal replaced by zero, summed down the columns. -/
abbrev tileRow (v : Vec Ideal S1x128x128 .f32) : FVec Ideal S1x128 .f32 :=
  shapeCast S1x128 (multiReduction .add [0] S128 (select k0_pay6 (shapeCast S128x128 v shapeCasts_S1x128x128_S128x128)
    (broadcast S128x128 (Scalar.ofBits (F := Ideal) .f32 0x00000000#32))) 0x00000000#32 reduces_S128x128_S128 (.inl rfl) rfl)
    shapeCasts_S128_S1x128

/-- Tile t of graph b, loaded at offset (b, 128 t, 128 t): its row at q is the matrix's diagonal entry at 128 t + q. -/
theorem diag_tile (b : Fin 2) (t : Fin 8) (o : ℕ) (ho : o = 128 * t.val)
    (inb : ∀ a, (![b.val, o, o] : Fin 3 → ℕ) a + (![1, 128, 128] : Fin 3 → ℕ) a ≤ (⟨3, ![2, 1024, 1024]⟩ : Shape).size a)
    (q : Fin 128) (j : Fin 1024) (hj : j.val = 128 * t.val + q.val) :
    tileRow (View.ld x0 (Rect.unit (s := ⟨3, ![2, 1024, 1024]⟩) ![b.val, o, o] ![1, 128, 128] inb)) (ix2 0 q) = mat x0 b j j := by
  refine (tileRow_apply k0_pay6 mask_apply _ q).trans ?_
  refine (ld_box_apply x0 b.val o o inb q q b.isLt (by have := t.isLt; have := q.isLt; have := j.isLt; omega)
    (by have := t.isLt; have := q.isLt; have := j.isLt; omega)).trans ?_
  show x0 _ = x0 _
  congr 1
  funext a
  match a with
  | ⟨0, _⟩ => exact Fin.ext rfl
  | ⟨1, _⟩ => exact Fin.ext (by show o + q.val = j.val; omega)
  | ⟨2, _⟩ => exact Fin.ext (by show o + q.val = j.val; omega)

/-- A column is in one of the eight tiles. -/
theorem col_split (j : Fin 1024) : ∃ (t : Fin 8) (q : Fin 128), j.val = 128 * t.val + q.val :=
  ⟨⟨j.val / 128, by have := j.isLt; omega⟩, ⟨j.val % 128, Nat.mod_lt _ (by norm_num)⟩, by
    show j.val = 128 * (j.val / 128) + j.val % 128; omega⟩

/-- Graph 0's eight tile rows side by side read the matrix's diagonal. -/
theorem diagRow0_apply (j : Fin 1024) :
    concatenate S1x1024 1 [⟨S1x128, tileRow (View.ld x0 r0_3)⟩, ⟨S1x128, tileRow (View.ld x0 r0_4)⟩, ⟨S1x128, tileRow (View.ld x0 r0_5)⟩,
      ⟨S1x128, tileRow (View.ld x0 r0_6)⟩, ⟨S1x128, tileRow (View.ld x0 r0_7)⟩, ⟨S1x128, tileRow (View.ld x0 r0_8)⟩,
      ⟨S1x128, tileRow (View.ld x0 r0_9)⟩, ⟨S1x128, tileRow (View.ld x0 r0_10)⟩]
      concatenates_S1x128_S1x128_S1x128_S1x128_S1x128_S1x128_S1x128_S1x128_S1x1024_d1 (ix2 0 j) = mat x0 0 j j := by
  obtain ⟨t, q, hj⟩ := col_split j
  refine (concat8_apply _ _ _ _ _ _ _ _ t q j hj).trans ?_
  fin_cases t
  · exact diag_tile x0 0 0 0 rfl _ q j hj
  · exact diag_tile x0 0 1 128 rfl _ q j hj
  · exact diag_tile x0 0 2 256 rfl _ q j hj
  · exact diag_tile x0 0 3 384 rfl _ q j hj
  · exact diag_tile x0 0 4 512 rfl _ q j hj
  · exact diag_tile x0 0 5 640 rfl _ q j hj
  · exact diag_tile x0 0 6 768 rfl _ q j hj
  · exact diag_tile x0 0 7 896 rfl _ q j hj

/-- Graph 1's. -/
theorem diagRow1_apply (j : Fin 1024) :
    concatenate S1x1024 1 [⟨S1x128, tileRow (View.ld x0 r0_14)⟩, ⟨S1x128, tileRow (View.ld x0 r0_15)⟩, ⟨S1x128, tileRow (View.ld x0 r0_16)⟩,
      ⟨S1x128, tileRow (View.ld x0 r0_17)⟩, ⟨S1x128, tileRow (View.ld x0 r0_18)⟩, ⟨S1x128, tileRow (View.ld x0 r0_19)⟩,
      ⟨S1x128, tileRow (View.ld x0 r0_20)⟩, ⟨S1x128, tileRow (View.ld x0 r0_21)⟩]
      concatenates_S1x128_S1x128_S1x128_S1x128_S1x128_S1x128_S1x128_S1x128_S1x1024_d1 (ix2 0 j) = mat x0 1 j j := by
  obtain ⟨t, q, hj⟩ := col_split j
  refine (concat8_apply _ _ _ _ _ _ _ _ t q j hj).trans ?_
  fin_cases t
  · exact diag_tile x0 1 0 0 rfl _ q j hj
  · exact diag_tile x0 1 1 128 rfl _ q j hj
  · exact diag_tile x0 1 2 256 rfl _ q j hj
  · exact diag_tile x0 1 3 384 rfl _ q j hj
  · exact diag_tile x0 1 4 512 rfl _ q j hj
  · exact diag_tile x0 1 5 640 rfl _ q j hj
  · exact diag_tile x0 1 6 768 rfl _ q j hj
  · exact diag_tile x0 1 7 896 rfl _ q j hj

/-! ### What the body reads -/

theorem mat0_apply (i j : Fin 1024) : k0_pay7 (F := Ideal) (View.ld x0 r0_2) (ix2 i j) = mat x0 0 i j := by
  show shapeCast S1024x1024 (View.ld x0 r0_2) shapeCasts_S1x1024x1024_S1024x1024 (ix2 i j) = _
  refine (shapeCast_1ab_ab_apply _ shapeCasts_S1x1024x1024_S1024x1024 i j).trans ?_
  refine (ld_box_apply x0 0 0 0 _ i j (by omega) (by omega) (by omega)).trans ?_
  show x0 _ = x0 _
  congr 1
  funext a
  match a with
  | ⟨0, _⟩ => exact Fin.ext rfl
  | ⟨1, _⟩ => exact Fin.ext (by show 0 + i.val = i.val; omega)
  | ⟨2, _⟩ => exact Fin.ext (by show 0 + j.val = j.val; omega)

theorem mat1_apply (i j : Fin 1024) : k0_pay16 (F := Ideal) (View.ld x0 r0_13) (ix2 i j) = mat x0 1 i j := by
  show shapeCast S1024x1024 (View.ld x0 r0_13) shapeCasts_S1x1024x1024_S1024x1024 (ix2 i j) = _
  refine (shapeCast_1ab_ab_apply _ shapeCasts_S1x1024x1024_S1024x1024 i j).trans ?_
  refine (ld_box_apply x0 1 0 0 _ i j (by omega) (by omega) (by omega)).trans ?_
  show x0 _ = x0 _
  congr 1
  funext a
  match a with
  | ⟨0, _⟩ => exact Fin.ext rfl
  | ⟨1, _⟩ => exact Fin.ext (by show 0 + i.val = i.val; omega)
  | ⟨2, _⟩ => exact Fin.ext (by show 0 + j.val = j.val; omega)

theorem colsum0_apply (j : Fin 1024) : k0_pay14 (F := Ideal) (k0_pay7 (View.ld x0 r0_2)) (ix2 0 j) = ∑ i, mat x0 0 i j := by
  show shapeCast S1x1024 (multiReduction .add [0] S1024 (k0_pay7 (F := Ideal) (View.ld x0 r0_2)) 0x00000000#32 reduces_S1024x1024_S1024 (.inl rfl) rfl)
    shapeCasts_S1024_S1x1024 (ix2 0 j) = _
  refine (shapeCast_a_1a_apply _ shapeCasts_S1024_S1x1024 0 j).trans ?_
  refine (Ideal.multiReduction_add_single _ _ reduces_S1024x1024_S1024 _ _ (ix1 j)).trans ?_
  show ∑ k : Fin 1024, _ = _
  refine Finset.sum_congr rfl fun k _ => ?_
  rw [lift_col]
  exact mat0_apply x0 k j

theorem loopW0_apply (j : Fin 1024) : lwTerm0 x0 (ix2 0 j) = loopW (mat x0 0) j := by
  show Scalar.select (FloatOps.cmpf (F := Ideal) (φ := .f32) .oeq
      (concatenate S1x1024 1 [⟨S1x128, tileRow (View.ld x0 r0_3)⟩, ⟨S1x128, tileRow (View.ld x0 r0_4)⟩, ⟨S1x128, tileRow (View.ld x0 r0_5)⟩,
        ⟨S1x128, tileRow (View.ld x0 r0_6)⟩, ⟨S1x128, tileRow (View.ld x0 r0_7)⟩, ⟨S1x128, tileRow (View.ld x0 r0_8)⟩,
        ⟨S1x128, tileRow (View.ld x0 r0_9)⟩, ⟨S1x128, tileRow (View.ld x0 r0_10)⟩]
        concatenates_S1x128_S1x128_S1x128_S1x128_S1x128_S1x128_S1x128_S1x128_S1x1024_d1 (ix2 0 j))
      (Scalar.ofBits (F := Ideal) .f32 0x00000000#32))
      (Scalar.ofBits (F := Ideal) .f32 0x3F800000#32) (Scalar.ofBits (F := Ideal) .f32 0x00000000#32) = _
  rw [diagRow0_apply, loopSel]
  rfl

theorem loopW1_apply (j : Fin 1024) : lwTerm1 x0 (ix2 0 j) = loopW (mat x0 1) j := by
  show Scalar.select (FloatOps.cmpf (F := Ideal) (φ := .f32) .oeq
      (concatenate S1x1024 1 [⟨S1x128, tileRow (View.ld x0 r0_14)⟩, ⟨S1x128, tileRow (View.ld x0 r0_15)⟩, ⟨S1x128, tileRow (View.ld x0 r0_16)⟩,
        ⟨S1x128, tileRow (View.ld x0 r0_17)⟩, ⟨S1x128, tileRow (View.ld x0 r0_18)⟩, ⟨S1x128, tileRow (View.ld x0 r0_19)⟩,
        ⟨S1x128, tileRow (View.ld x0 r0_20)⟩, ⟨S1x128, tileRow (View.ld x0 r0_21)⟩]
        concatenates_S1x128_S1x128_S1x128_S1x128_S1x128_S1x128_S1x128_S1x128_S1x1024_d1 (ix2 0 j))
      (Scalar.ofBits (F := Ideal) .f32 0x00000000#32))
      (Scalar.ofBits (F := Ideal) .f32 0x3F800000#32) (Scalar.ofBits (F := Ideal) .f32 0x00000000#32) = _
  rw [diagRow1_apply, loopSel]
  rfl

end Cert.Gcn.K

end
-- ==== Proof.KGraph.lean ====
/-
  One graph through the kernel body, as the body computes it for the first graph in ONE value: from the matrix, its
  loop weights and its column sums, the degree, its reciprocal root, the two convolution layers in the factored form
  and the maximum over the features. Stated over any vectors holding those entries.
-/
import proofs.«117536_g81621558493468_cont_sun_c4_510_28_alg».proof.Proof.Gen.KernelIdeal.Skeleton
import proofs.«117536_g81621558493468_cont_sun_c4_510_28_alg».proof.Proof.Arrays
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.TcCoe Idealize.ShloMosaic.ValueIdx

namespace Cert.Gcn.K

/-! ### A column broadcast over the lanes -/

/-- An `[a, 1]` column broadcast to `[a, b]` reads, at `(p, c)`, the column's entry of row `p`. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The reciprocal root of the degree -/

/-- At one element: the comparison with zero decides between the reciprocal root (of the element where it is positive, of one
    elsewhere, which is then not used) and zero. -/
theorem dinv_word (d : EReal) :
    Scalar.select (FloatOps.cmpf (F := Ideal) (φ := .f32) .ogt d (Scalar.ofBits (F := Ideal) .f32 0x00000000#32))
      (FloatOps.rsqrt (F := Ideal) (φ := .f32)
        (Scalar.select (FloatOps.cmpf (F := Ideal) (φ := .f32) .ogt d (Scalar.ofBits (F := Ideal) .f32 0x00000000#32)) d
          (Scalar.ofBits (F := Ideal) .f32 0x3F800000#32)))
      (Scalar.ofBits (F := Ideal) .f32 0x00000000#32)
    = if 0 < d then Ideal.rsqrt (if 0 < d then d else 1) else 0 := by
  have hz : Scalar.ofBits (F := Ideal) .f32 0x00000000#32 = (0 : EReal) := Ideal.ofBits_zero_f32
  have ho : Scalar.ofBits (F := Ideal) .f32 0x3F800000#32 = (1 : EReal) := IdealRules.sign_bit.ideal_onePat .f32
  rw [hz, ho]
  by_cases hp : 0 < d
  · have hc : FloatOps.cmpf (F := Ideal) (φ := .f32) .ogt d (0 : EReal) = 1#1 := by
      show BitVec.ofBool (decide (0 < d)) = 1#1
      rw [decide_eq_true hp]; rfl
    rw [hc, select_one, select_one, if_pos hp, if_pos hp]
    rfl
  · have hc : FloatOps.cmpf (F := Ideal) (φ := .f32) .ogt d (0 : EReal) = 0#1 := by
      show BitVec.ofBool (decide (0 < d)) = 0#1
      rw [decide_eq_false hp]; rfl
    rw [hc, select_zero, if_neg hp]

/-- The body's reciprocal root of the degree at node `j`: the degree is the column sum plus the loop weight. -/
theorem dinv_apply (a : Fin 1024 → Fin 1024 → EReal) (v66 v68 : FVec Ideal S1x1024 .f32)
    (h66 : ∀ j : Fin 1024, v66 (ix2 0 j) = loopW a j) (h68 : ∀ j : Fin 1024, v68 (ix2 0 j) = ∑ i, a i j) (j : Fin 1024) :
    select (cmpf .ogt (addf v68 v66) (broadcast S1x1024 (Scalar.ofBits (F := Ideal) .f32 0x00000000#32)))
      (rsqrt (select (cmpf .ogt (addf v68 v66) (broadcast S1x1024 (Scalar.ofBits (F := Ideal) .f32 0x00000000#32))) (addf v68 v66)
        (broadcast S1x1024 (Scalar.ofBits (F := Ideal) .f32 0x3F800000#32))))
      (broadcast S1x1024 (Scalar.ofBits (F := Ideal) .f32 0x00000000#32)) (ix2 0 j) = dinvK a j := by
  have hdeg : addf v68 v66 (ix2 0 j) = deg a j := by rw [addf_apply, h68, h66]; rfl
  refine (dinv_word (addf v68 v66 (ix2 0 j))).trans ?_
  rw [hdeg]
  rfl

/-! ### The three products, each read at an index as the sum over its one contracted coordinate -/

theorem lhs_d1_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhs_d1_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem rhs_d1_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
theorem rhs_d1_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- A row against the matrix: entry `j` is the sum over the nodes `i` of the row at `i` times the matrix at `(i, j)`. -/
theorem matmul_d1_apply (x : FVec Ideal S1x1024 .bf16) (y : FVec Ideal S1024x1024 .bf16) (j : Fin 1024) :
    matmul dot_S1x1024_S1024x1024_S1x1024_1_0_0_1_n_n none x y (constant (F := Ideal) S1x1024 .f32 0x00000000#32) (ix2 0 j)
      = ∑ i : Fin 1024, x (ix2 0 i) * y (ix2 i j) := by
  simp only [matmul]
  rw [Ideal.matmul_constant_zero_apply, ← Equiv.sum_comp (ValueIdx.contrEquiv1 dot_S1x1024_S1024x1024_S1x1024_1_0_0_1_n_n 1024 rfl rfl).symm]
  refine Finset.sum_congr rfl fun c _ => ?_
  have hk := ValueIdx.contrEquiv1_symm_val dot_S1x1024_S1024x1024_S1x1024_1_0_0_1_n_n 1024 rfl rfl c
  have el : dot_S1x1024_S1024x1024_S1x1024_1_0_0_1_n_n.lhsIdx (ix2 0 j) ((ValueIdx.contrEquiv1 dot_S1x1024_S1024x1024_S1x1024_1_0_0_1_n_n 1024 rfl rfl).symm c) = ix2 0 c := funext fun a => Fin.ext (by
    match a with
    | ⟨0, _⟩ => exact lhs_d1_0 _ _
    | ⟨1, _⟩ => exact (lhs_d1_1 _ _).trans hk)
  have er : dot_S1x1024_S1024x1024_S1x1024_1_0_0_1_n_n.rhsIdx (ix2 0 j) ((ValueIdx.contrEquiv1 dot_S1x1024_S1024x1024_S1x1024_1_0_0_1_n_n 1024 rfl rfl).symm c) = ix2 c j := funext fun a => Fin.ext (by
    match a with
    | ⟨0, _⟩ => exact (rhs_d1_0 _ _).trans hk
    | ⟨1, _⟩ => exact rhs_d1_1 _ _)
  rw [el, er]

theorem lhs_d2_0 (i : S16x1024.Idx) (q : dot_S16x16_S16x1024_S16x1024_1_0_0_1_n_n.contr.Idx) :
    (dot_S16x16_S16x1024_S16x1024_1_0_0_1_n_n.lhsIdx i q 0).val = (i 0).val := by
  unfold DotDims.lhsIdx
  rw [dif_neg (show ¬(0 : Fin S16x16.rank) ∈ dot_S16x16_S16x1024_S16x1024_1_0_0_1_n_n.lhsBatch by decide), dif_pos (show (0 : Fin S16x16.rank) ∈ dot_S16x16_S16x1024_S16x1024_1_0_0_1_n_n.lhsNonContracting by decide)]
  rfl
theorem lhs_d2_1 (i : S16x1024.Idx) (q : dot_S16x16_S16x1024_S16x1024_1_0_0_1_n_n.contr.Idx) :
    (dot_S16x16_S16x1024_S16x1024_1_0_0_1_n_n.lhsIdx i q 1).val = (q ⟨0, by decide⟩).val :=
  dot_S16x16_S16x1024_S16x1024_1_0_0_1_n_n.lhsIdx_val_of_single rfl i q
theorem rhs_d2_0 (i : S16x1024.Idx) (q : dot_S16x16_S16x1024_S16x1024_1_0_0_1_n_n.contr.Idx) :
    (dot_S16x16_S16x1024_S16x1024_1_0_0_1_n_n.rhsIdx i q 0).val = (q ⟨0, by decide⟩).val :=
  dot_S16x16_S16x1024_S16x1024_1_0_0_1_n_n.rhsIdx_val_of_single rfl i q
theorem rhs_d2_1 (i : S16x1024.Idx) (q : dot_S16x16_S16x1024_S16x1024_1_0_0_1_n_n.contr.Idx) :
    (dot_S16x16_S16x1024_S16x1024_1_0_0_1_n_n.rhsIdx i q 1).val = (i 1).val := by
  unfold DotDims.rhsIdx
  rw [dif_neg (show ¬(1 : Fin S16x1024.rank) ∈ dot_S16x16_S16x1024_S16x1024_1_0_0_1_n_n.rhsBatch by decide), dif_pos (show (1 : Fin S16x1024.rank) ∈ dot_S16x16_S16x1024_S16x1024_1_0_0_1_n_n.rhsNonContracting by decide)]
  rfl

/-- The sixteen-by-sixteen map against the features: entry `(k, j)` is the sum over the features `i` of the map at `(k, i)` times feature `i` of node `j`. -/
theorem matmul_d2_apply (x : FVec Ideal S16x16 .f32) (y : FVec Ideal S16x1024 .f32) (k : Fin 16) (j : Fin 1024) :
    matmul dot_S16x16_S16x1024_S16x1024_1_0_0_1_n_n none x y (constant (F := Ideal) S16x1024 .f32 0x00000000#32) (ix2 k j)
      = ∑ i : Fin 16, x (ix2 k i) * y (ix2 i j) := by
  simp only [matmul]
  rw [Ideal.matmul_constant_zero_apply, ← Equiv.sum_comp (ValueIdx.contrEquiv1 dot_S16x16_S16x1024_S16x1024_1_0_0_1_n_n 16 rfl rfl).symm]
  refine Finset.sum_congr rfl fun c _ => ?_
  have hk := ValueIdx.contrEquiv1_symm_val dot_S16x16_S16x1024_S16x1024_1_0_0_1_n_n 16 rfl rfl c
  have el : dot_S16x16_S16x1024_S16x1024_1_0_0_1_n_n.lhsIdx (ix2 k j) ((ValueIdx.contrEquiv1 dot_S16x16_S16x1024_S16x1024_1_0_0_1_n_n 16 rfl rfl).symm c) = ix2 k c := funext fun a => Fin.ext (by
    match a with
    | ⟨0, _⟩ => exact lhs_d2_0 _ _
    | ⟨1, _⟩ => exact (lhs_d2_1 _ _).trans hk)
  have er : dot_S16x16_S16x1024_S16x1024_1_0_0_1_n_n.rhsIdx (ix2 k j) ((ValueIdx.contrEquiv1 dot_S16x16_S16x1024_S16x1024_1_0_0_1_n_n 16 rfl rfl).symm c) = ix2 c j := funext fun a => Fin.ext (by
    match a with
    | ⟨0, _⟩ => exact (rhs_d2_0 _ _).trans hk
    | ⟨1, _⟩ => exact rhs_d2_1 _ _)
  rw [el, er]

theorem lhs_d3_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
theorem lhs_d3_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
theorem rhs_d3_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
theorem rhs_d3_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl

/-- The features against the matrix: entry `(k, j)` is the sum over the nodes `i` of feature `k` of node `i` times the matrix at `(i, j)`. -/
theorem matmul_d3_apply (x : FVec Ideal S16x1024 .bf16) (y : FVec Ideal S1024x1024 .bf16) (k : Fin 16) (j : Fin 1024) :
    matmul dot_S16x1024_S1024x1024_S16x1024_1_0_0_1_n_n none x y (constant (F := Ideal) S16x1024 .f32 0x00000000#32) (ix2 k j)
      = ∑ i : Fin 1024, x (ix2 k i) * y (ix2 i j) := by
  simp only [matmul]
  rw [Ideal.matmul_constant_zero_apply, ← Equiv.sum_comp (ValueIdx.contrEquiv1 dot_S16x1024_S1024x1024_S16x1024_1_0_0_1_n_n 1024 rfl rfl).symm]
  refine Finset.sum_congr rfl fun c _ => ?_
  have hk := ValueIdx.contrEquiv1_symm_val dot_S16x1024_S1024x1024_S16x1024_1_0_0_1_n_n 1024 rfl rfl c
  have el : dot_S16x1024_S1024x1024_S16x1024_1_0_0_1_n_n.lhsIdx (ix2 k j) ((ValueIdx.contrEquiv1 dot_S16x1024_S1024x1024_S16x1024_1_0_0_1_n_n 1024 rfl rfl).symm c) = ix2 k c := funext fun a => Fin.ext (by
    match a with
    | ⟨0, _⟩ => exact lhs_d3_0 _ _
    | ⟨1, _⟩ => exact (lhs_d3_1 _ _).trans hk)
  have er : dot_S16x1024_S1024x1024_S16x1024_1_0_0_1_n_n.rhsIdx (ix2 k j) ((ValueIdx.contrEquiv1 dot_S16x1024_S1024x1024_S16x1024_1_0_0_1_n_n 1024 rfl rfl).symm c) = ix2 c j := funext fun a => Fin.ext (by
    match a with
    | ⟨0, _⟩ => exact (rhs_d3_0 _ _).trans hk
    | ⟨1, _⟩ => exact rhs_d3_1 _ _)
  rw [el, er]

/-! ### The layers -/

/-- The first layer's aggregate of the constant feature: the row of reciprocal roots against the matrix, the loop's share
    added, the target's own factor in front. -/
theorem s_apply (a : Fin 1024 → Fin 1024 → EReal) (d v66 : FVec Ideal S1x1024 .f32) (v12 : FVec Ideal S1024x1024 .f32)
    (hd : ∀ j : Fin 1024, d (ix2 0 j) = dinvK a j) (h66 : ∀ j : Fin 1024, v66 (ix2 0 j) = loopW a j)
    (h12 : ∀ i j : Fin 1024, v12 (ix2 i j) = a i j) (j : Fin 1024) :
    mulf d (addf (matmul dot_S1x1024_S1024x1024_S1x1024_1_0_0_1_n_n none (truncf .bf16 d bitsLt_bf16_f32) (truncf .bf16 v12 bitsLt_bf16_f32)
        (constant (F := Ideal) S1x1024 .f32 0x00000000#32)) (mulf d v66)) (ix2 0 j) = kS a j := by
  rw [mulf_apply, addf_apply, mulf_apply, matmul_d1_apply, hd, h66]
  unfold kS kT1
  refine congrArg (fun t => dinvK a j * (t + dinvK a j * loopW a j)) (Finset.sum_congr rfl fun i _ => ?_)
  rw [truncf_apply, truncf_apply, hd, h12]

/-- The first layer's output after the ReLU: the weight column times the aggregate, the bias column added, the maximum with
    zero. -/
theorem x1_apply (a : Fin 1024 → Fin 1024 → EReal) (w1 b1 : Fin 16 → EReal) (s : FVec Ideal S1x1024 .f32) (v85 v1 : FVec Ideal S16x1 .f32)
    (hs : ∀ j : Fin 1024, s (ix2 0 j) = kS a j) (h85 : ∀ k : Fin 16, v85 (ix2 k 0) = w1 k) (h1 : ∀ k : Fin 16, v1 (ix2 k 0) = b1 k)
    (k : Fin 16) (j : Fin 1024) :
    maximumf (addf (mulf (broadcastTo S16x1024 v85 broadcasts_S16x1_S16x1024) (broadcastTo S16x1024 s broadcasts_S1x1024_S16x1024))
        (broadcastTo S16x1024 v1 broadcasts_S16x1_S16x1024)) (broadcast S16x1024 (Scalar.ofBits (F := Ideal) .f32 0x00000000#32)) (ix2 k j)
      = kX1 a w1 b1 k j := by
  rw [maximumf_apply, addf_apply, mulf_apply, bcast_col_apply, bcast_col_apply, broadcastTo_1b_ab_apply, broadcast_apply, h85, hs, h1]
  have hz : Scalar.ofBits (F := Ideal) .f32 0x00000000#32 = (0 : EReal) := Ideal.ofBits_zero_f32
  rw [hz]
  rfl

/-- The second layer's linear map of it, scaled by the source's reciprocal root. -/
theorem g_apply (a : Fin 1024 → Fin 1024 → EReal) (w1 b1 : Fin 16 → EReal) (w2 : Fin 16 → Fin 16 → EReal)
    (d : FVec Ideal S1x1024 .f32) (x : FVec Ideal S16x1024 .f32) (v93 : FVec Ideal S16x16 .f32)
    (hd : ∀ j : Fin 1024, d (ix2 0 j) = dinvK a j) (hx : ∀ (k : Fin 16) (j : Fin 1024), x (ix2 k j) = kX1 a w1 b1 k j)
    (h93 : ∀ k l : Fin 16, v93 (ix2 k l) = w2 k l) (k : Fin 16) (j : Fin 1024) :
    mulf (broadcastTo S16x1024 d broadcasts_S1x1024_S16x1024)
        (matmul dot_S16x16_S16x1024_S16x1024_1_0_0_1_n_n none v93 x (constant (F := Ideal) S16x1024 .f32 0x00000000#32)) (ix2 k j)
      = kG a w1 b1 w2 k j := by
  rw [mulf_apply, broadcastTo_1b_ab_apply, matmul_d2_apply, hd]
  unfold kG kH2
  refine congrArg (fun t => dinvK a j * t) (Finset.sum_congr rfl fun l _ => ?_)
  rw [h93, hx]

/-- The second layer's output: the scaled features against the matrix, the loop's share added, the target's own factor in
    front, the bias column added. -/
theorem out2_apply (a : Fin 1024 → Fin 1024 → EReal) (w1 b1 : Fin 16 → EReal) (w2 : Fin 16 → Fin 16 → EReal) (b2 : Fin 16 → EReal)
    (d v66 : FVec Ideal S1x1024 .f32) (g : FVec Ideal S16x1024 .f32) (v12 : FVec Ideal S1024x1024 .f32) (v3 : FVec Ideal S16x1 .f32)
    (hd : ∀ j : Fin 1024, d (ix2 0 j) = dinvK a j) (h66 : ∀ j : Fin 1024, v66 (ix2 0 j) = loopW a j)
    (hg : ∀ (k : Fin 16) (j : Fin 1024), g (ix2 k j) = kG a w1 b1 w2 k j) (h12 : ∀ i j : Fin 1024, v12 (ix2 i j) = a i j)
    (h3 : ∀ k : Fin 16, v3 (ix2 k 0) = b2 k) (k : Fin 16) (j : Fin 1024) :
    addf (mulf (broadcastTo S16x1024 d broadcasts_S1x1024_S16x1024)
        (addf (matmul dot_S16x1024_S1024x1024_S16x1024_1_0_0_1_n_n none (truncf .bf16 g bitsLt_bf16_f32) (truncf .bf16 v12 bitsLt_bf16_f32)
            (constant (F := Ideal) S16x1024 .f32 0x00000000#32))
          (mulf (broadcastTo S16x1024 v66 broadcasts_S1x1024_S16x1024) g)))
      (broadcastTo S16x1024 v3 broadcasts_S16x1_S16x1024) (ix2 k j) = kOut2 a w1 b1 w2 b2 k j := by
  rw [addf_apply, mulf_apply, addf_apply, mulf_apply, broadcastTo_1b_ab_apply, broadcastTo_1b_ab_apply, bcast_col_apply, matmul_d3_apply,
    hd, h66, hg, h3]
  unfold kOut2 kZ
  refine congrArg (fun t => dinvK a j * (t + loopW a j * kG a w1 b1 w2 k j) + b2 k) (Finset.sum_congr rfl fun i _ => ?_)
  rw [truncf_apply, truncf_apply, hg, h12]

/-! ### The maximum over the features -/

/-- The maximum over the rows of a sixteen-row block, read at lane `j`: the fold of `max` over the sixteen entries of column
    `j`, from the accumulator's value, which is left as its word. -/
theorem featmax_apply (o : FVec Ideal S16x1024 .f32) (j : Fin 1024) :
    shapeCast S1x1024 (multiReduction (F := Ideal) .maximumf [0] S1024 o 0xFF800000#32 reduces_S16x1024_S1024 (.inl rfl) rfl)
        shapeCasts_S1024_S1x1024 (ix2 0 j)
      = featMax fun k => o (ix2 k j) := by
  refine (shapeCast_a_1a_apply _ shapeCasts_S1024_S1x1024 0 j).trans ?_
  refine (Ideal.multiReduction_maximumf_single o _ reduces_S16x1024_S1024 _ _ (ix1 j)).trans ?_
  have hl : (o ∘ reduces_S16x1024_S1024.lift (ix1 j)) = fun k : Fin 16 => o (ix2 k j) :=
    funext fun k => congrArg o (funext fun c => Fin.ext (by
      match c with
      | ⟨0, _⟩ => rfl
      | ⟨1, _⟩ => rfl))
  exact congrArg (fun f : Fin 16 → EReal => (Finset.univ : Finset (Fin 16)).fold max (Ideal.ofBits .f32 0xFF800000#32) f) hl

/-! ### One graph -/

theorem graph_apply (a : Fin 1024 → Fin 1024 → EReal) (w1 b1 : Fin 16 → EReal) (w2 : Fin 16 → Fin 16 → EReal) (b2 : Fin 16 → EReal)
    (v1 v3 : FVec Ideal S16x1 .f32) (v12 : FVec Ideal S1024x1024 .f32) (v66 v68 : FVec Ideal S1x1024 .f32)
    (v85 : Vec Ideal S16x1 .f32) (v93 : Vec Ideal S16x16 .f32)
    (h1 : ∀ k : Fin 16, v1 (ix2 k 0) = b1 k) (h3 : ∀ k : Fin 16, v3 (ix2 k 0) = b2 k)
    (h12 : ∀ i j : Fin 1024, v12 (ix2 i j) = a i j) (h66 : ∀ j : Fin 1024, v66 (ix2 0 j) = loopW a j)
    (h68 : ∀ j : Fin 1024, v68 (ix2 0 j) = ∑ i, a i j) (h85 : ∀ k : Fin 16, v85 (ix2 k 0) = w1 k)
    (h93 : ∀ k l : Fin 16, v93 (ix2 k l) = w2 k l) (j : Fin 1024) :
    k0_pay15 (F := Ideal) v1 v3 v12 v66 v68 v85 v93 (ix2 0 j) = kR a w1 b1 w2 b2 j := by
  unfold k0_pay15
  refine (featmax_apply _ j).trans ?_
  unfold kR
  refine congrArg featMax (funext fun k => ?_)
  refine out2_apply a w1 b1 w2 b2 _ v66 _ v12 v3 ?_ h66 ?_ h12 h3 k j
  · exact fun j => dinv_apply a v66 v68 h66 h68 j
  intro k j
  refine g_apply a w1 b1 w2 _ _ v93 ?_ ?_ h93 k j
  · exact fun j => dinv_apply a v66 v68 h66 h68 j
  intro k j
  refine x1_apply a w1 b1 _ v85 v1 ?_ h85 h1 k j
  intro j
  exact s_apply a _ v66 v12 (fun j => dinv_apply a v66 v68 h66 h68 j) h66 h12 j

end Cert.Gcn.K

end
-- ==== Proof.KGraph1.lean ====
/-
  The second graph's reciprocal root of the degree and its first-layer aggregate, as the body computes them: the same
  formulas as for the first graph, carried as separate values because the rest of that graph's computation comes later
  in the body.
-/
import proofs.«117536_g81621558493468_cont_sun_c4_510_28_alg».proof.Proof.Gen.KernelIdeal.Skeleton
import proofs.«117536_g81621558493468_cont_sun_c4_510_28_alg».proof.Proof.Arrays
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.TcCoe Idealize.ShloMosaic.ValueIdx

namespace Cert.Gcn.K

variable (a : Fin 1024 → Fin 1024 → EReal)
  (v10 : IVec S128x128 1) (v109 : FVec Ideal S1024x1024 .f32) (v115 v121 v127 v133 v139 : FVec Ideal S1x128 .f32)
  (v143 : FVec Ideal S128x128 .f32) (v146 v152 : Vec Ideal S1x128x128 .f32)

/-- The word of f32's one reads as the extended real one. -/
private theorem one_f32 : Ideal.ofBits .f32 0x3F800000#32 = 1 := IdealRules.sign_bit.ideal_onePat .f32

/-- The column sum of the matrix, read at column `j`. -/
private theorem colSum_apply (h109 : ∀ i j : Fin 1024, v109 (ix2 i j) = a i j)
    (hr : S1024x1024.Reduces [0] S1024) (hφ : FKind.Formats .f32)
    (hacc : (0x00000000#32 : BitVec 32) = FKind.add.neutral .f32 hφ) (hc : S1024.ShapeCasts S1x1024) (j : Fin 1024) :
    shapeCast S1x1024 (multiReduction (F := Ideal) .add [0] S1024 v109 0x00000000#32 hr hφ hacc) hc (ix2 0 j)
      = ∑ i, a i j := by
  refine (shapeCast_a_1a_apply _ _ 0 j).trans ?_
  refine (Ideal.multiReduction_add_single v109 _ _ _ _ (ix1 j)).trans ?_
  refine Finset.sum_congr rfl fun i _ => ?_
  refine (congrArg v109 ?_).trans (h109 i j)
  funext c
  refine Fin.ext ?_
  match c with
  | ⟨0, _⟩ => rfl
  | ⟨1, _⟩ => rfl

/-- One entry of the reciprocal root as the body computes it from the degree `x`. -/
private theorem dinv_word (x : EReal) :
    Scalar.select (FloatOps.cmpf (F := Ideal) (φ := .f32) .ogt x (Scalar.ofBits .f32 0x00000000#32))
      (FloatOps.rsqrt (F := Ideal) (φ := .f32) (Scalar.select (FloatOps.cmpf (F := Ideal) (φ := .f32) .ogt x (Scalar.ofBits .f32 0x00000000#32)) x
        (Scalar.ofBits .f32 0x3F800000#32)))
      (Scalar.ofBits .f32 0x00000000#32)
    = if 0 < x then Ideal.rsqrt (if 0 < x then x else 1) else 0 := by
  have hs : ∀ b : BitVec 32, Scalar.ofBits (F := Ideal) .f32 b = Ideal.ofBits .f32 b := fun _ => rfl
  simp only [Ideal.cmpf_def, Ideal.cmp, hs, Ideal.ofBits_zero_f32, one_f32, Ideal.rsqrt_def]
  by_cases h : 0 < x
  · simp [Scalar.select, h]
  · simp [Scalar.select, h]

theorem dinv1_apply (h109 : ∀ i j : Fin 1024, v109 (ix2 i j) = a i j)
    (hlw : ∀ j : Fin 1024, k0_pay23 (F := Ideal) v10 v115 v121 v127 v133 v139 v143 v146 v152 (ix2 0 j) = loopW a j) (j : Fin 1024) :
    k0_pay24 (F := Ideal) v10 v109 v115 v121 v127 v133 v139 v143 v146 v152 (ix2 0 j) = dinvK a j := by
  have hd : addf (shapeCast S1x1024 (multiReduction (F := Ideal) .add [0] S1024 v109 0x00000000#32 Facts₀.reduces_S1024x1024_S1024 (.inl rfl) rfl) Facts₀.shapeCasts_S1024_S1x1024)
      (k0_pay23 (F := Ideal) v10 v115 v121 v127 v133 v139 v143 v146 v152) (ix2 0 j) = deg a j := by
    exact congrArg₂ (· + ·) (colSum_apply a v109 h109 _ _ _ _ j) (hlw j)
  refine (dinv_word (addf (shapeCast S1x1024 (multiReduction (F := Ideal) .add [0] S1024 v109 0x00000000#32 Facts₀.reduces_S1024x1024_S1024 (.inl rfl) rfl) Facts₀.shapeCasts_S1024_S1x1024)
      (k0_pay23 (F := Ideal) v10 v115 v121 v127 v133 v139 v143 v146 v152) (ix2 0 j))).trans ?_
  rw [hd]
  rfl

/-! The one product of the body here: a row of 1024 against the 1024 × 1024 matrix, contracted over the row's one long axis. -/

private theorem lhs1_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide),
    dif_pos (show (0 : Fin S1x1024.rank) ∈ dot_S1x1024_S1024x1024_S1x1024_1_0_0_1_n_n.lhsNonContracting by decide)]
  rfl
private theorem lhs1_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
private theorem rhs1_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
private theorem rhs1_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide),
    dif_pos (show (1 : Fin S1024x1024.rank) ∈ dot_S1x1024_S1024x1024_S1x1024_1_0_0_1_n_n.rhsNonContracting by decide)]
  rfl

/-- The product of a row `x` with a matrix `y` into the zero accumulator, at column `j`: `∑ k, x k * y k j`. -/
private theorem rowMat_apply {φ₁ φ₂ : FTy} (x : FVec Ideal S1x1024 φ₁) (y : FVec Ideal S1024x1024 φ₂) (j : Fin 1024) :
    matmul dot_S1x1024_S1024x1024_S1x1024_1_0_0_1_n_n none x y (constant S1x1024 .f32 0x00000000#32) (ix2 0 j)
      = ∑ k : Fin 1024, x (ix2 0 k) * y (ix2 k j) := by
  simp only [matmul]
  rw [Ideal.matmul_constant_zero_apply,
    ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 0 j)
      ((contrEquiv1 dot_S1x1024_S1024x1024_S1x1024_1_0_0_1_n_n 1024 rfl rfl).symm k) = ix2 0 k :=
    funext fun c => Fin.ext (by
      match c with
      | ⟨0, _⟩ => exact lhs1_0 _ _
      | ⟨1, _⟩ => exact (lhs1_1 _ _).trans hk)
  have er : dot_S1x1024_S1024x1024_S1x1024_1_0_0_1_n_n.rhsIdx (ix2 0 j)
      ((contrEquiv1 dot_S1x1024_S1024x1024_S1x1024_1_0_0_1_n_n 1024 rfl rfl).symm k) = ix2 k j :=
    funext fun c => Fin.ext (by
      match c with
      | ⟨0, _⟩ => exact (rhs1_0 _ _).trans hk
      | ⟨1, _⟩ => exact rhs1_1 _ _)
  rw [el, er]

theorem s1_apply (h109 : ∀ i j : Fin 1024, v109 (ix2 i j) = a i j)
    (hlw : ∀ j : Fin 1024, k0_pay23 (F := Ideal) v10 v115 v121 v127 v133 v139 v143 v146 v152 (ix2 0 j) = loopW a j) (j : Fin 1024) :
    k0_pay26 (F := Ideal) v10 v109 v115 v121 v127 v133 v139 v143 v146 v152 (ix2 0 j) = kS a j := by
  have hD := dinv1_apply a v10 v109 v115 v121 v127 v133 v139 v143 v146 v152 h109 hlw
  unfold k0_pay26
  refine (mulf_apply _ _ _).trans ?_
  rw [hD j]
  refine congrArg (dinvK a j * ·) ?_
  refine (addf_apply _ _ _).trans ?_
  refine congrArg₂ (· + ·) ?_ ?_
  · refine (rowMat_apply _ _ j).trans ?_
    refine Finset.sum_congr rfl fun k _ => ?_
    exact congrArg₂ (· * ·) ((truncf_apply (φ := .f32) (ψ := .bf16) (k0_pay24 (F := Ideal) v10 v109 v115 v121 v127 v133 v139 v143 v146 v152)
        Facts₀.bitsLt_bf16_f32 (ix2 0 k)).trans (hD k))
      ((show k0_pay25 (F := Ideal) v109 (ix2 k j) = v109 (ix2 k j) from rfl).trans (h109 k j))
  · refine (mulf_apply _ _ _).trans ?_
    rw [hD j, hlw j]

theorem abf1_apply (i j : Fin 1024) : k0_pay25 (F := Ideal) v109 (ix2 i j) = v109 (ix2 i j) := rfl

end Cert.Gcn.K

end
-- ==== Proof.KHead.lean ====
/-
  The end of the kernel body: the second graph's two layers from its carried values, the two graphs' node maxima laid
  one above the other, and the linear head.
-/
import proofs.«117536_g81621558493468_cont_sun_c4_510_28_alg».proof.Proof.Gen.KernelIdeal.Skeleton
import proofs.«117536_g81621558493468_cont_sun_c4_510_28_alg».proof.Proof.Arrays
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.TcCoe Idealize.ShloMosaic.ValueIdx

namespace Cert.Gcn.K

/-! ### A column broadcast along the rows -/

/-- A `[a, 1]` column broadcast to `[a, b]` reads, at `(p, c)`, the column at `p`. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The four products read at an index

Each is the sum over its one contraction coordinate of the operands' products: the first two contract the left
operand's columns with the right operand's rows, the last two (the head) contract the columns of both. -/

theorem d1_lhs_0 (i : S16x1024.Idx) (q : dot_S16x16_S16x1024_S16x1024_1_0_0_1_n_n.contr.Idx) :
    (dot_S16x16_S16x1024_S16x1024_1_0_0_1_n_n.lhsIdx i q 0).val = (i 0).val := by
  unfold DotDims.lhsIdx
  rw [dif_neg (show ¬(0 : Fin S16x16.rank) ∈ dot_S16x16_S16x1024_S16x1024_1_0_0_1_n_n.lhsBatch by decide), dif_pos (show (0 : Fin S16x16.rank) ∈ dot_S16x16_S16x1024_S16x1024_1_0_0_1_n_n.lhsNonContracting by decide)]
  rfl
theorem d1_lhs_1 (i : S16x1024.Idx) (q : dot_S16x16_S16x1024_S16x1024_1_0_0_1_n_n.contr.Idx) :
    (dot_S16x16_S16x1024_S16x1024_1_0_0_1_n_n.lhsIdx i q 1).val = (q ⟨0, by decide⟩).val :=
  dot_S16x16_S16x1024_S16x1024_1_0_0_1_n_n.lhsIdx_val_of_single rfl i q
theorem d1_rhs_0 (i : S16x1024.Idx) (q : dot_S16x16_S16x1024_S16x1024_1_0_0_1_n_n.contr.Idx) :
    (dot_S16x16_S16x1024_S16x1024_1_0_0_1_n_n.rhsIdx i q 0).val = (q ⟨0, by decide⟩).val :=
  dot_S16x16_S16x1024_S16x1024_1_0_0_1_n_n.rhsIdx_val_of_single rfl i q
theorem d1_rhs_1 (i : S16x1024.Idx) (q : dot_S16x16_S16x1024_S16x1024_1_0_0_1_n_n.contr.Idx) :
    (dot_S16x16_S16x1024_S16x1024_1_0_0_1_n_n.rhsIdx i q 1).val = (i 1).val := by
  unfold DotDims.rhsIdx
  rw [dif_neg (show ¬(1 : Fin S16x1024.rank) ∈ dot_S16x16_S16x1024_S16x1024_1_0_0_1_n_n.rhsBatch by decide), dif_pos (show (1 : Fin S16x1024.rank) ∈ dot_S16x16_S16x1024_S16x1024_1_0_0_1_n_n.rhsNonContracting by decide)]
  rfl
theorem d1_apply (A : FVec Ideal S16x16 .f32) (B : FVec Ideal S16x1024 .f32) (r : Fin 16) (c : Fin 1024) :
    matmul dot_S16x16_S16x1024_S16x1024_1_0_0_1_n_n none A B (constant (F := Ideal) S16x1024 .f32 0x00000000#32) (ix2 r c)
      = ∑ l : Fin 16, A (ix2 r l) * B (ix2 l c) := by
  refine (Ideal.matmul_constant_zero_apply dot_S16x16_S16x1024_S16x1024_1_0_0_1_n_n none A B (ix2 r c)).trans ?_
  refine (Equiv.sum_comp (contrEquiv1 dot_S16x16_S16x1024_S16x1024_1_0_0_1_n_n 16 rfl rfl).symm _).symm.trans ?_
  refine Finset.sum_congr rfl fun l _ => ?_
  have hk := contrEquiv1_symm_val dot_S16x16_S16x1024_S16x1024_1_0_0_1_n_n 16 rfl rfl l
  have el : dot_S16x16_S16x1024_S16x1024_1_0_0_1_n_n.lhsIdx (ix2 r c) ((contrEquiv1 dot_S16x16_S16x1024_S16x1024_1_0_0_1_n_n 16 rfl rfl).symm l) = ix2 r l := funext fun a => Fin.ext (by
    match a with
    | ⟨0, _⟩ => exact d1_lhs_0 _ _
    | ⟨1, _⟩ => exact (d1_lhs_1 _ _).trans hk)
  have er : dot_S16x16_S16x1024_S16x1024_1_0_0_1_n_n.rhsIdx (ix2 r c) ((contrEquiv1 dot_S16x16_S16x1024_S16x1024_1_0_0_1_n_n 16 rfl rfl).symm l) = ix2 l c := funext fun a => Fin.ext (by
    match a with
    | ⟨0, _⟩ => exact (d1_rhs_0 _ _).trans hk
    | ⟨1, _⟩ => exact d1_rhs_1 _ _)
  rw [el, er]

theorem d2_lhs_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
theorem d2_lhs_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
theorem d2_rhs_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
theorem d2_rhs_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl
theorem d2_apply (A : FVec Ideal S16x1024 .bf16) (B : FVec Ideal S1024x1024 .bf16) (r : Fin 16) (c : Fin 1024) :
    matmul dot_S16x1024_S1024x1024_S16x1024_1_0_0_1_n_n none A B (constant (F := Ideal) S16x1024 .f32 0x00000000#32) (ix2 r c)
      = ∑ l : Fin 1024, A (ix2 r l) * B (ix2 l c) := by
  refine (Ideal.matmul_constant_zero_apply dot_S16x1024_S1024x1024_S16x1024_1_0_0_1_n_n none A B (ix2 r c)).trans ?_
  refine (Equiv.sum_comp (contrEquiv1 dot_S16x1024_S1024x1024_S16x1024_1_0_0_1_n_n 1024 rfl rfl).symm _).symm.trans ?_
  refine Finset.sum_congr rfl fun l _ => ?_
  have hk := contrEquiv1_symm_val dot_S16x1024_S1024x1024_S16x1024_1_0_0_1_n_n 1024 rfl rfl l
  have el : dot_S16x1024_S1024x1024_S16x1024_1_0_0_1_n_n.lhsIdx (ix2 r c) ((contrEquiv1 dot_S16x1024_S1024x1024_S16x1024_1_0_0_1_n_n 1024 rfl rfl).symm l) = ix2 r l := funext fun a => Fin.ext (by
    match a with
    | ⟨0, _⟩ => exact d2_lhs_0 _ _
    | ⟨1, _⟩ => exact (d2_lhs_1 _ _).trans hk)
  have er : dot_S16x1024_S1024x1024_S16x1024_1_0_0_1_n_n.rhsIdx (ix2 r c) ((contrEquiv1 dot_S16x1024_S1024x1024_S16x1024_1_0_0_1_n_n 1024 rfl rfl).symm l) = ix2 l c := funext fun a => Fin.ext (by
    match a with
    | ⟨0, _⟩ => exact (d2_rhs_0 _ _).trans hk
    | ⟨1, _⟩ => exact d2_rhs_1 _ _)
  rw [el, er]

theorem d3_lhs_0 (i : S2x32.Idx) (q : dot_S2x1024_S32x1024_S2x32_1_1_0_0_n_n.contr.Idx) :
    (dot_S2x1024_S32x1024_S2x32_1_1_0_0_n_n.lhsIdx i q 0).val = (i 0).val := by
  unfold DotDims.lhsIdx
  rw [dif_neg (show ¬(0 : Fin S2x1024.rank) ∈ dot_S2x1024_S32x1024_S2x32_1_1_0_0_n_n.lhsBatch by decide), dif_pos (show (0 : Fin S2x1024.rank) ∈ dot_S2x1024_S32x1024_S2x32_1_1_0_0_n_n.lhsNonContracting by decide)]
  rfl
theorem d3_lhs_1 (i : S2x32.Idx) (q : dot_S2x1024_S32x1024_S2x32_1_1_0_0_n_n.contr.Idx) :
    (dot_S2x1024_S32x1024_S2x32_1_1_0_0_n_n.lhsIdx i q 1).val = (q ⟨0, by decide⟩).val :=
  dot_S2x1024_S32x1024_S2x32_1_1_0_0_n_n.lhsIdx_val_of_single rfl i q
theorem d3_rhs_0 (i : S2x32.Idx) (q : dot_S2x1024_S32x1024_S2x32_1_1_0_0_n_n.contr.Idx) :
    (dot_S2x1024_S32x1024_S2x32_1_1_0_0_n_n.rhsIdx i q 0).val = (i 1).val := by
  unfold DotDims.rhsIdx
  rw [dif_neg (show ¬(0 : Fin S32x1024.rank) ∈ dot_S2x1024_S32x1024_S2x32_1_1_0_0_n_n.rhsBatch by decide), dif_pos (show (0 : Fin S32x1024.rank) ∈ dot_S2x1024_S32x1024_S2x32_1_1_0_0_n_n.rhsNonContracting by decide)]
  rfl
theorem d3_rhs_1 (i : S2x32.Idx) (q : dot_S2x1024_S32x1024_S2x32_1_1_0_0_n_n.contr.Idx) :
    (dot_S2x1024_S32x1024_S2x32_1_1_0_0_n_n.rhsIdx i q 1).val = (q ⟨0, by decide⟩).val :=
  dot_S2x1024_S32x1024_S2x32_1_1_0_0_n_n.rhsIdx_val_of_single rfl i q
theorem d3_apply (A : FVec Ideal S2x1024 .f32) (B : FVec Ideal S32x1024 .f32) (r : Fin 2) (c : Fin 32) :
    matmul dot_S2x1024_S32x1024_S2x32_1_1_0_0_n_n none A B (constant (F := Ideal) S2x32 .f32 0x00000000#32) (ix2 r c)
      = ∑ l : Fin 1024, A (ix2 r l) * B (ix2 c l) := by
  refine (Ideal.matmul_constant_zero_apply dot_S2x1024_S32x1024_S2x32_1_1_0_0_n_n none A B (ix2 r c)).trans ?_
  refine (Equiv.sum_comp (contrEquiv1 dot_S2x1024_S32x1024_S2x32_1_1_0_0_n_n 1024 rfl rfl).symm _).symm.trans ?_
  refine Finset.sum_congr rfl fun l _ => ?_
  have hk := contrEquiv1_symm_val dot_S2x1024_S32x1024_S2x32_1_1_0_0_n_n 1024 rfl rfl l
  have el : dot_S2x1024_S32x1024_S2x32_1_1_0_0_n_n.lhsIdx (ix2 r c) ((contrEquiv1 dot_S2x1024_S32x1024_S2x32_1_1_0_0_n_n 1024 rfl rfl).symm l) = ix2 r l := funext fun a => Fin.ext (by
    match a with
    | ⟨0, _⟩ => exact d3_lhs_0 _ _
    | ⟨1, _⟩ => exact (d3_lhs_1 _ _).trans hk)
  have er : dot_S2x1024_S32x1024_S2x32_1_1_0_0_n_n.rhsIdx (ix2 r c) ((contrEquiv1 dot_S2x1024_S32x1024_S2x32_1_1_0_0_n_n 1024 rfl rfl).symm l) = ix2 c l := funext fun a => Fin.ext (by
    match a with
    | ⟨0, _⟩ => exact d3_rhs_0 _ _
    | ⟨1, _⟩ => exact (d3_rhs_1 _ _).trans hk)
  rw [el, er]

theorem d4_lhs_0 (i : S2x16.Idx) (q : dot_S2x32_S16x32_S2x16_1_1_0_0_n_n.contr.Idx) :
    (dot_S2x32_S16x32_S2x16_1_1_0_0_n_n.lhsIdx i q 0).val = (i 0).val := by
  unfold DotDims.lhsIdx
  rw [dif_neg (show ¬(0 : Fin S2x32.rank) ∈ dot_S2x32_S16x32_S2x16_1_1_0_0_n_n.lhsBatch by decide), dif_pos (show (0 : Fin S2x32.rank) ∈ dot_S2x32_S16x32_S2x16_1_1_0_0_n_n.lhsNonContracting by decide)]
  rfl
theorem d4_lhs_1 (i : S2x16.Idx) (q : dot_S2x32_S16x32_S2x16_1_1_0_0_n_n.contr.Idx) :
    (dot_S2x32_S16x32_S2x16_1_1_0_0_n_n.lhsIdx i q 1).val = (q ⟨0, by decide⟩).val :=
  dot_S2x32_S16x32_S2x16_1_1_0_0_n_n.lhsIdx_val_of_single rfl i q
theorem d4_rhs_0 (i : S2x16.Idx) (q : dot_S2x32_S16x32_S2x16_1_1_0_0_n_n.contr.Idx) :
    (dot_S2x32_S16x32_S2x16_1_1_0_0_n_n.rhsIdx i q 0).val = (i 1).val := by
  unfold DotDims.rhsIdx
  rw [dif_neg (show ¬(0 : Fin S16x32.rank) ∈ dot_S2x32_S16x32_S2x16_1_1_0_0_n_n.rhsBatch by decide), dif_pos (show (0 : Fin S16x32.rank) ∈ dot_S2x32_S16x32_S2x16_1_1_0_0_n_n.rhsNonContracting by decide)]
  rfl
theorem d4_rhs_1 (i : S2x16.Idx) (q : dot_S2x32_S16x32_S2x16_1_1_0_0_n_n.contr.Idx) :
    (dot_S2x32_S16x32_S2x16_1_1_0_0_n_n.rhsIdx i q 1).val = (q ⟨0, by decide⟩).val :=
  dot_S2x32_S16x32_S2x16_1_1_0_0_n_n.rhsIdx_val_of_single rfl i q
theorem d4_apply (A : FVec Ideal S2x32 .f32) (B : FVec Ideal S16x32 .f32) (r : Fin 2) (c : Fin 16) :
    matmul dot_S2x32_S16x32_S2x16_1_1_0_0_n_n none A B (constant (F := Ideal) S2x16 .f32 0x00000000#32) (ix2 r c)
      = ∑ l : Fin 32, A (ix2 r l) * B (ix2 c l) := by
  refine (Ideal.matmul_constant_zero_apply dot_S2x32_S16x32_S2x16_1_1_0_0_n_n none A B (ix2 r c)).trans ?_
  refine (Equiv.sum_comp (contrEquiv1 dot_S2x32_S16x32_S2x16_1_1_0_0_n_n 32 rfl rfl).symm _).symm.trans ?_
  refine Finset.sum_congr rfl fun l _ => ?_
  have hk := contrEquiv1_symm_val dot_S2x32_S16x32_S2x16_1_1_0_0_n_n 32 rfl rfl l
  have el : dot_S2x32_S16x32_S2x16_1_1_0_0_n_n.lhsIdx (ix2 r c) ((contrEquiv1 dot_S2x32_S16x32_S2x16_1_1_0_0_n_n 32 rfl rfl).symm l) = ix2 r l := funext fun a => Fin.ext (by
    match a with
    | ⟨0, _⟩ => exact d4_lhs_0 _ _
    | ⟨1, _⟩ => exact (d4_lhs_1 _ _).trans hk)
  have er : dot_S2x32_S16x32_S2x16_1_1_0_0_n_n.rhsIdx (ix2 r c) ((contrEquiv1 dot_S2x32_S16x32_S2x16_1_1_0_0_n_n 32 rfl rfl).symm l) = ix2 c l := funext fun a => Fin.ext (by
    match a with
    | ⟨0, _⟩ => exact d4_rhs_0 _ _
    | ⟨1, _⟩ => exact (d4_rhs_1 _ _).trans hk)
  rw [el, er]

/-! ### The second graph's two layers, stage by stage

Each stage is read at an index `(k, j)`: feature `k` of node `j`. The graph is `a`; its carried rows are the added
loops' weights, the factors `deg^(-1/2)` and the first layer's aggregate. -/

section Layers

variable (a : Fin 1024 → Fin 1024 → EReal) (w1 b1 : Fin 16 → EReal) (w2 : Fin 16 → Fin 16 → EReal) (b2 : Fin 16 → EReal)

/-- The first layer after the ReLU: `max (w1 k * kS j + b1 k) 0`. -/
theorem x1_read (v1 : FVec Ideal S16x1 .f32) (v181 : FVec Ideal S1x1024 .f32) (v182 : FVec Ideal S16x1 .f32)
    (hc : S16x1.Broadcasts S16x1024) (hr : S1x1024.Broadcasts S16x1024)
    (h1 : ∀ k : Fin 16, v1 (ix2 k 0) = b1 k) (h181 : ∀ j : Fin 1024, v181 (ix2 0 j) = kS a j)
    (h182 : ∀ k : Fin 16, v182 (ix2 k 0) = w1 k) (k : Fin 16) (j : Fin 1024) :
    maximumf (addf (mulf (broadcastTo S16x1024 v182 hc) (broadcastTo S16x1024 v181 hr)) (broadcastTo S16x1024 v1 hc))
      (broadcast S16x1024 (Scalar.ofBits (F := Ideal) .f32 0x00000000#32)) (ix2 k j) = kX1 a w1 b1 k j := by
  show max (broadcastTo S16x1024 v182 hc (ix2 k j) * broadcastTo S16x1024 v181 hr (ix2 k j) + broadcastTo S16x1024 v1 hc (ix2 k j))
      (Ideal.ofBits .f32 0x00000000#32) = max (w1 k * kS a j + b1 k) 0
  rw [bcast_col v182 hc k j, broadcastTo_1b_ab_apply v181 hr k j, bcast_col v1 hc k j, h182, h181, h1, Ideal.ofBits_zero_f32]

/-- The second layer's linear map of it, scaled by the source's factor. -/
theorem g_read (v175 : FVec Ideal S1x1024 .f32) (v190 : FVec Ideal S16x16 .f32) (X : FVec Ideal S16x1024 .f32)
    (hr : S1x1024.Broadcasts S16x1024)
    (h175 : ∀ j : Fin 1024, v175 (ix2 0 j) = dinvK a j) (h190 : ∀ k l : Fin 16, v190 (ix2 k l) = w2 k l)
    (hX : ∀ (l : Fin 16) (j : Fin 1024), X (ix2 l j) = kX1 a w1 b1 l j) (k : Fin 16) (j : Fin 1024) :
    mulf (broadcastTo S16x1024 v175 hr)
      (matmul dot_S16x16_S16x1024_S16x1024_1_0_0_1_n_n none v190 X (constant (F := Ideal) S16x1024 .f32 0x00000000#32)) (ix2 k j)
      = kG a w1 b1 w2 k j := by
  show broadcastTo S16x1024 v175 hr (ix2 k j)
      * matmul dot_S16x16_S16x1024_S16x1024_1_0_0_1_n_n none v190 X (constant (F := Ideal) S16x1024 .f32 0x00000000#32) (ix2 k j)
      = dinvK a j * ∑ l, w2 k l * kX1 a w1 b1 l j
  rw [broadcastTo_1b_ab_apply v175 hr k j, d1_apply v190 X k j, h175]
  exact congrArg (dinvK a j * ·) (Finset.sum_congr rfl fun l _ => by rw [h190, hX])

/-- The second layer's output: the scaled features summed over the edges into `j`, the added loop's share, the target's
    factor and the bias. The narrowing of the left operand changes no value. -/
theorem out2_read (v3 : FVec Ideal S16x1 .f32) (v163 v175 : FVec Ideal S1x1024 .f32) (v176 : FVec Ideal S1024x1024 .bf16)
    (G : FVec Ideal S16x1024 .f32) (hc : S16x1.Broadcasts S16x1024) (hr : S1x1024.Broadcasts S16x1024)
    (hlt : FTy.bits .bf16 < FTy.bits .f32)
    (h3 : ∀ k : Fin 16, v3 (ix2 k 0) = b2 k) (h163 : ∀ j : Fin 1024, v163 (ix2 0 j) = loopW a j)
    (h175 : ∀ j : Fin 1024, v175 (ix2 0 j) = dinvK a j) (h176 : ∀ i j : Fin 1024, v176 (ix2 i j) = a i j)
    (hG : ∀ (k : Fin 16) (j : Fin 1024), G (ix2 k j) = kG a w1 b1 w2 k j) (k : Fin 16) (j : Fin 1024) :
    addf (mulf (broadcastTo S16x1024 v175 hr)
        (addf (matmul dot_S16x1024_S1024x1024_S16x1024_1_0_0_1_n_n none (truncf .bf16 G hlt) v176 (constant (F := Ideal) S16x1024 .f32 0x00000000#32))
          (mulf (broadcastTo S16x1024 v163 hr) G)))
      (broadcastTo S16x1024 v3 hc) (ix2 k j) = kOut2 a w1 b1 w2 b2 k j := by
  show broadcastTo S16x1024 v175 hr (ix2 k j)
        * (matmul dot_S16x1024_S1024x1024_S16x1024_1_0_0_1_n_n none (truncf .bf16 G hlt) v176 (constant (F := Ideal) S16x1024 .f32 0x00000000#32) (ix2 k j)
          + broadcastTo S16x1024 v163 hr (ix2 k j) * G (ix2 k j))
      + broadcastTo S16x1024 v3 hc (ix2 k j)
      = dinvK a j * ((∑ i, kG a w1 b1 w2 k i * a i j) + loopW a j * kG a w1 b1 w2 k j) + b2 k
  rw [broadcastTo_1b_ab_apply v175 hr k j, broadcastTo_1b_ab_apply v163 hr k j, bcast_col v3 hc k j,
    d2_apply (truncf .bf16 G hlt) v176 k j, h175, h163, h3, hG]
  refine congrArg (fun s => dinvK a j * (s + loopW a j * kG a w1 b1 w2 k j) + b2 k) (Finset.sum_congr rfl fun i _ => ?_)
  show G (ix2 k i) * v176 (ix2 i j) = _
  rw [hG, h176]

/-- The node's maximum over the sixteen features, as a `[1, 1024]` row: the fold of `max` from negative infinity. -/
theorem row_read (O : FVec Ideal S16x1024 .f32) (hred : S16x1024.Reduces [0] S1024) (hφ : FKind.Formats .f32)
    (hacc : (0xFF800000#32 : BitVec (FTy.bits .f32)) = FKind.maximumf.neutral .f32 hφ) (hsc : S1024.ShapeCasts S1x1024)
    (hO : ∀ (k : Fin 16) (j : Fin 1024), O (ix2 k j) = kOut2 a w1 b1 w2 b2 k j) (j : Fin 1024) :
    shapeCast S1x1024 (multiReduction .maximumf [0] S1024 O 0xFF800000#32 hred hφ hacc) hsc (ix2 0 j)
      = kR a w1 b1 w2 b2 j := by
  refine (shapeCast_a_1a_apply _ hsc 0 j).trans ?_
  refine (Ideal.multiReduction_maximumf_single O 0xFF800000#32 hred hφ hacc (ix1 j)).trans ?_
  show (Finset.univ : Finset (Fin 16)).fold max (Ideal.ofBits .f32 0xFF800000#32) (fun k => O (hred.lift (ix1 j) k))
      = (Finset.univ : Finset (Fin 16)).fold max (Ideal.ofBits .f32 0xFF800000#32) (fun k => kOut2 a w1 b1 w2 b2 k j)
  refine congrArg (fun f : Fin 16 → EReal => (Finset.univ : Finset (Fin 16)).fold max (Ideal.ofBits .f32 0xFF800000#32) f)
    (funext fun (k : Fin 16) => ?_)
  have e : hred.lift (ix1 j) k = ix2 k j := funext fun ax => Fin.ext (by
    match ax with
    | ⟨0, _⟩ => rfl
    | ⟨1, _⟩ => rfl)
  exact (congrArg O e).trans (hO k j)

end Layers

/-! ### The two graphs' rows one above the other -/

theorem cat_read0 (r0 r1 : FVec Ideal S1x1024 .f32) (hcat : Shape.Concatenates [S1x1024, S1x1024] S2x1024 0) (j : Fin 1024) :
    concatenate S2x1024 0 [⟨S1x1024, r0⟩, ⟨S1x1024, r1⟩] hcat (ix2 (0 : Fin 2) j) = r0 (ix2 (0 : Fin 1) j) :=
  concatenate_pair_apply_left (0 : Fin S2x1024.rank) r0 r1 hcat (ix2 (0 : Fin 2) j) rfl (ix2 (0 : Fin 1) j)
    (fun b => match b with
      | ⟨0, _⟩ => rfl
      | ⟨1, _⟩ => rfl)

theorem cat_read1 (r0 r1 : FVec Ideal S1x1024 .f32) (hcat : Shape.Concatenates [S1x1024, S1x1024] S2x1024 0) (j : Fin 1024) :
    concatenate S2x1024 0 [⟨S1x1024, r0⟩, ⟨S1x1024, r1⟩] hcat (ix2 (1 : Fin 2) j) = r1 (ix2 (0 : Fin 1) j) :=
  concatenate_pair_apply_right (0 : Fin S2x1024.rank) r0 r1 hcat (ix2 (1 : Fin 2) j) rfl rfl (ix2 (0 : Fin 1) j)
    (fun b hb => match b, hb with
      | ⟨0, _⟩, hb => (hb (Fin.ext rfl)).elim
      | ⟨1, _⟩, _ => rfl)
    rfl

/-- Row `b` of the two stacked rows is graph `b`'s. -/
theorem cat_read (r : Fin 2 → Fin 1024 → EReal) (r0 r1 : FVec Ideal S1x1024 .f32)
    (hcat : Shape.Concatenates [S1x1024, S1x1024] S2x1024 0)
    (h0 : ∀ j : Fin 1024, r0 (ix2 0 j) = r 0 j) (h1 : ∀ j : Fin 1024, r1 (ix2 0 j) = r 1 j) (b : Fin 2) (j : Fin 1024) :
    concatenate S2x1024 0 [⟨S1x1024, r0⟩, ⟨S1x1024, r1⟩] hcat (ix2 b j) = r b j := by
  match b with
  | ⟨0, _⟩ => exact (cat_read0 r0 r1 hcat j).trans (h0 j)
  | ⟨1, _⟩ => exact (cat_read1 r0 r1 hcat j).trans (h1 j)

/-! ### The linear head -/

/-- First head layer: the rows against the rows of `m1`, plus `c1`. -/
theorem head1_read (r : Fin 2 → Fin 1024 → EReal) (m1 : Fin 32 → Fin 1024 → EReal) (c1 : Fin 32 → EReal)
    (R : FVec Ideal S2x1024 .f32) (v206 : FVec Ideal S32x1024 .f32) (v5 : FVec Ideal S1x32 .f32) (hb : S1x32.Broadcasts S2x32)
    (hR : ∀ (b : Fin 2) (j : Fin 1024), R (ix2 b j) = r b j) (h206 : ∀ (p : Fin 32) (j : Fin 1024), v206 (ix2 p j) = m1 p j)
    (h5 : ∀ p : Fin 32, v5 (ix2 0 p) = c1 p) (b : Fin 2) (p : Fin 32) :
    addf (matmul dot_S2x1024_S32x1024_S2x32_1_1_0_0_n_n none R v206 (constant (F := Ideal) S2x32 .f32 0x00000000#32)) (broadcastTo S2x32 v5 hb) (ix2 b p)
      = head1 r m1 c1 b p := by
  show matmul dot_S2x1024_S32x1024_S2x32_1_1_0_0_n_n none R v206 (constant (F := Ideal) S2x32 .f32 0x00000000#32) (ix2 b p) + broadcastTo S2x32 v5 hb (ix2 b p)
      = (∑ j, r b j * m1 p j) + c1 p
  rw [d3_apply R v206 b p, broadcastTo_1b_ab_apply v5 hb b p, h5]
  exact congrArg (· + c1 p) (Finset.sum_congr rfl fun j _ => by rw [hR, h206])

/-- Second head layer. -/
theorem head2_read (o : Fin 2 → Fin 32 → EReal) (m2 : Fin 16 → Fin 32 → EReal) (c2 : Fin 16 → EReal)
    (O : FVec Ideal S2x32 .f32) (v210 : FVec Ideal S16x32 .f32) (v7 : FVec Ideal S1x16 .f32) (hb : S1x16.Broadcasts S2x16)
    (hO : ∀ (b : Fin 2) (p : Fin 32), O (ix2 b p) = o b p) (h210 : ∀ (q : Fin 16) (p : Fin 32), v210 (ix2 q p) = m2 q p)
    (h7 : ∀ q : Fin 16, v7 (ix2 0 q) = c2 q) (b : Fin 2) (q : Fin 16) :
    addf (matmul dot_S2x32_S16x32_S2x16_1_1_0_0_n_n none O v210 (constant (F := Ideal) S2x16 .f32 0x00000000#32)) (broadcastTo S2x16 v7 hb) (ix2 b q)
      = head2 o m2 c2 b q := by
  show matmul dot_S2x32_S16x32_S2x16_1_1_0_0_n_n none O v210 (constant (F := Ideal) S2x16 .f32 0x00000000#32) (ix2 b q) + broadcastTo S2x16 v7 hb (ix2 b q)
      = (∑ p, o b p * m2 q p) + c2 q
  rw [d4_apply O v210 b q, broadcastTo_1b_ab_apply v7 hb b q, h7]
  exact congrArg (· + c2 q) (Finset.sum_congr rfl fun p _ => by rw [hO, h210])

theorem head_apply (y : Fin 2 → Fin 1024 → Fin 1024 → EReal) (w1 b1 : Fin 16 → EReal) (w2 : Fin 16 → Fin 16 → EReal) (b2 : Fin 16 → EReal)
    (m1 : Fin 32 → Fin 1024 → EReal) (c1 : Fin 32 → EReal) (m2 : Fin 16 → Fin 32 → EReal) (c2 : Fin 16 → EReal)
    (v1 v3 : FVec Ideal S16x1 .f32) (v5 : FVec Ideal S1x32 .f32) (v7 : FVec Ideal S1x16 .f32)
    (v107 v163 v175 : FVec Ideal S1x1024 .f32) (v176 : FVec Ideal S1024x1024 .bf16) (v181 : FVec Ideal S1x1024 .f32)
    (v182 : Vec Ideal S16x1 .f32) (v190 : Vec Ideal S16x16 .f32) (v206 : Vec Ideal S32x1024 .f32) (v210 : Vec Ideal S16x32 .f32)
    (h1 : ∀ k : Fin 16, v1 (ix2 k 0) = b1 k) (h3 : ∀ k : Fin 16, v3 (ix2 k 0) = b2 k)
    (h5 : ∀ p : Fin 32, v5 (ix2 0 p) = c1 p) (h7 : ∀ q : Fin 16, v7 (ix2 0 q) = c2 q)
    (h107 : ∀ j : Fin 1024, v107 (ix2 0 j) = kR (y 0) w1 b1 w2 b2 j)
    (h163 : ∀ j : Fin 1024, v163 (ix2 0 j) = loopW (y 1) j) (h175 : ∀ j : Fin 1024, v175 (ix2 0 j) = dinvK (y 1) j)
    (h176 : ∀ i j : Fin 1024, v176 (ix2 i j) = y 1 i j) (h181 : ∀ j : Fin 1024, v181 (ix2 0 j) = kS (y 1) j)
    (h182 : ∀ k : Fin 16, v182 (ix2 k 0) = w1 k) (h190 : ∀ k l : Fin 16, v190 (ix2 k l) = w2 k l)
    (h206 : ∀ (p : Fin 32) (j : Fin 1024), v206 (ix2 p j) = m1 p j) (h210 : ∀ (q : Fin 16) (p : Fin 32), v210 (ix2 q p) = m2 q p)
    (b : Fin 2) (q : Fin 16) :
    k0_pay1 (F := Ideal) v1 v3 v5 v7 v107 v163 v175 v176 v181 v182 v190 v206 v210 (ix2 b q)
      = gcnK y w1 b1 w2 b2 m1 c1 m2 c2 b q := by
  -- the second graph's layers, from the carried rows
  have hx1 := x1_read (y 1) w1 b1 v1 v181 v182 broadcasts_S16x1_S16x1024 broadcasts_S1x1024_S16x1024 h1 h181 h182
  have hg := g_read (y 1) w1 b1 w2 v175 v190 _ broadcasts_S1x1024_S16x1024 h175 h190 hx1
  have ho := out2_read (y 1) w1 b1 w2 b2 v3 v163 v175 v176 _ broadcasts_S16x1_S16x1024 broadcasts_S1x1024_S16x1024
    bitsLt_bf16_f32 h3 h163 h175 h176 hg
  have hrow := row_read (y 1) w1 b1 w2 b2 _ reduces_S16x1024_S1024 (.inl rfl) rfl shapeCasts_S1024_S1x1024 ho
  -- the two graphs' rows, then the head
  have hcat := cat_read (fun b j => kR (y b) w1 b1 w2 b2 j) v107 _ concatenates_S1x1024_S1x1024_S2x1024_d0 h107 hrow
  have hh1 := head1_read _ m1 c1 _ v206 v5 broadcasts_S1x32_S2x32 hcat h206 h5
  exact head2_read _ m2 c2 _ v210 v7 broadcasts_S1x16_S2x16 hh1 h210 h7 b q

end Cert.Gcn.K

end
-- ==== Proof.KAsm.lean ====
/-
  The kernel's output array as the encoder in the factored form: the body's one store is the last value of the body,
  whose arguments are the carried values read above.
-/
import proofs.«117536_g81621558493468_cont_sun_c4_510_28_alg».proof.Proof.Gen.KernelIdeal.Frame
import proofs.«117536_g81621558493468_cont_sun_c4_510_28_alg».proof.Proof.KDiag
import proofs.«117536_g81621558493468_cont_sun_c4_510_28_alg».proof.Proof.KGraph
import proofs.«117536_g81621558493468_cont_sun_c4_510_28_alg».proof.Proof.KGraph1
import proofs.«117536_g81621558493468_cont_sun_c4_510_28_alg».proof.Proof.KHead

noncomputable section

open scoped BigOperators
open Cert.KernelIdeal Cert.KernelIdeal.Gen Idealize.ShloMosaic Idealize.ShloMosaic.TcCoe Idealize.ShloMosaic.ValueIdx

namespace Cert.Gcn.K

/-- The offsets of a rank-1 access at the origin are all zero. -/
theorem zeros1 : (![0] : Fin 1 → Nat) = fun _ => 0 := funext fun a => by fin_cases a; rfl
/-- The offsets of a rank-2 access at the origin are all zero. -/
theorem zeros2 : (![0, 0] : Fin 2 → Nat) = fun _ => 0 := funext fun a => by fin_cases a <;> rfl

/-- A vector of 16 laid as a column `[16, 1]`: row `k` of the column is entry `k`. -/
theorem col16_apply (h : S16.ShapeCasts S16x1) (v : Vec Ideal S16 .f32) (k : Fin 16) :
    shapeCast S16x1 v h (ix2 k 0) = vec16 v k :=
  shapeCast_apply v h _ (ix1 k) (by
    rw [Shape.rowMajor_val_two, Shape.rowMajor_val_one]
    show k.val = k.val * 1 + 0
    omega)

theorem pay2_apply (v : Vec Ideal S16 .f32) (k : Fin 16) : k0_pay2 (F := Ideal) v (ix2 k 0) = vec16 v k :=
  col16_apply _ v k

theorem pay3_apply (v : Vec Ideal S16 .f32) (k : Fin 16) : k0_pay3 (F := Ideal) v (ix2 k 0) = vec16 v k :=
  col16_apply _ v k

/-- A vector of 32 laid as a row `[1, 32]`. -/
theorem pay4_apply (v : Vec Ideal S32 .f32) (p : Fin 32) : k0_pay4 (F := Ideal) v (ix2 0 p) = vec32 v p :=
  shapeCast_a_1a_apply v shapeCasts_S32_S1x32 (0 : Fin 1) p

/-- A vector of 16 laid as a row `[1, 16]`. -/
theorem pay5_apply (v : Vec Ideal S16 .f32) (q : Fin 16) : k0_pay5 (F := Ideal) v (ix2 0 q) = vec16 v q :=
  shapeCast_a_1a_apply v shapeCasts_S16_S1x16 (0 : Fin 1) q

theorem out_apply (x0 : Vec Ideal S2x1024x1024 .f32) (x1 : Vec Ideal S16x1 .f32) (x2 : Vec Ideal S16 .f32) (x3 : Vec Ideal S16x16 .f32)
    (x4 : Vec Ideal S16 .f32) (x5 : Vec Ideal S32x1024 .f32) (x6 : Vec Ideal S32 .f32) (x7 : Vec Ideal S16x32 .f32) (x8 : Vec Ideal S16 .f32)
    (b : Fin 2) (q : Fin 16) :
    out0_9 (F := Ideal) x0 x1 x2 x3 x4 x5 x6 x7 x8 (ix2 b q) = gcnKArr x0 x1 x2 x3 x4 x5 x6 x7 x8 b q := by
  -- the loads of whole arrays read the arrays
  have l0 : ∀ v : Vec Ideal S16 .f32, View.ld v r0_0 = v := fun v => View.ld_unit_zero (S := S16) zeros1 _ v
  have l1 : View.ld x6 r0_1 = x6 := View.ld_unit_zero (S := S32) zeros1 _ x6
  have l11 : View.ld x1 r0_11 = x1 := View.ld_unit_zero (S := S16x1) zeros2 _ x1
  have l12 : View.ld x3 r0_12 = x3 := View.ld_unit_zero (S := S16x16) zeros2 _ x3
  have l22 : View.ld x5 r0_22 = x5 := View.ld_unit_zero (S := S32x1024) zeros2 _ x5
  have l23 : View.ld x7 r0_23 = x7 := View.ld_unit_zero (S := S16x32) zeros2 _ x7
  -- the one store covers the output: what is left is its value
  unfold out0_9
  rw [View.canon_unit_zero zeros2]
  rw [l0 x2, l0 x4, l0 x8, l1, l11, l12, l22, l23]
  refine head_apply (mat x0) (colv x1) (vec16 x2) (mat16 x3) (vec16 x4) (matM1 x5) (vec32 x6) (matM2 x7) (vec16 x8)
    _ _ _ _ _ _ _ _ _ _ _ _ _ ?_ ?_ ?_ ?_ ?_ ?_ ?_ ?_ ?_ ?_ ?_ ?_ ?_ b q
  · -- the first layer's bias, as a column
    exact fun k => pay2_apply x2 k
  · -- the second layer's bias, as a column
    exact fun k => pay3_apply x4 k
  · -- the head's first bias, as a row
    exact fun p => pay4_apply x6 p
  · -- the head's second bias, as a row
    exact fun q => pay5_apply x8 q
  · -- the first graph, whole
    exact fun j => graph_apply (mat x0 0) (colv x1) (vec16 x2) (mat16 x3) (vec16 x4) _ _ _ _ _ _ _
      (fun k => pay2_apply x2 k) (fun k => pay3_apply x4 k) (mat0_apply x0) (loopW0_apply x0) (colsum0_apply x0)
      (fun k => rfl) (fun k l => rfl) j
  · -- the second graph's loop weights
    exact loopW1_apply x0
  · -- its reciprocal root of the degree
    exact fun j => dinv1_apply (mat x0 1) _ _ _ _ _ _ _ _ _ _ (mat1_apply x0) (loopW1_apply x0) j
  · -- its matrix, narrowed
    exact fun i j => (abf1_apply _ i j).trans (mat1_apply x0 i j)
  · -- its first-layer aggregate
    exact fun j => s1_apply (mat x0 1) _ _ _ _ _ _ _ _ _ _ (mat1_apply x0) (loopW1_apply x0) j
  · exact fun k => rfl
  · exact fun k l => rfl
  · exact fun p j => rfl
  · exact fun q p => rfl

end Cert.Gcn.K

end
-- ==== Proof.KFinal.lean ====
/-
  From the one block to the array: the kernel has no grid, so its single point's block of the output window is the
  whole [2, 16] array, and what that point writes back is the body's result of the whole argument arrays.
-/
import proofs.«117536_g81621558493468_cont_sun_c4_510_28_alg».proof.Proof.Gen.KernelIdeal.Value
import Idealize.ShloMosaic.Lib.Pipeline.Value
import Idealize.ShloMosaic.Lib.ValueIdx

noncomputable section

open scoped BigOperators
open Cert.KernelIdeal Cert.KernelIdeal.Gen Idealize.ShloMosaic Idealize.ShloMosaic.TcCoe Idealize.ShloMosaic.ValueIdx

open Idealize.SL.Sem

namespace Cert.Gcn.K

/-! ## Each input block is its whole array

Every window has block index 0 on every axis and a block of the array's own extents, so the block's multi-index
`y` sits in the array at `0 * size a + 1 * y a = y a` on each axis `a`: reading the array through the block is
reading the array. -/

/-- Input window 0's block at the one point is the whole argument array 0. -/
theorem iblk_0 (m : (ℓ : Loc nD τ sig) → Buf (Elt Ideal) ℓ) (c : Dev nD) (t : Fin cfg0.N) :
    iblk m c 0 t = m ((c : Thread nD τ).loc main_arg0) := by
  funext y
  show m ((c : Thread nD τ).loc main_arg0) (((cfg0.win 0).blk t).view.emb y) = m ((c : Thread nD τ).loc main_arg0) y
  congr 1
  funext a
  apply Fin.ext
  show 0 * S2x1024x1024.size a + 1 * (y a).val = (y a).val
  omega

/-- Input window 1's block at the one point is the whole argument array 1. -/
theorem iblk_1 (m : (ℓ : Loc nD τ sig) → Buf (Elt Ideal) ℓ) (c : Dev nD) (t : Fin cfg0.N) :
    iblk m c 1 t = m ((c : Thread nD τ).loc main_arg1) := by
  funext y
  show m ((c : Thread nD τ).loc main_arg1) (((cfg0.win 1).blk t).view.emb y) = m ((c : Thread nD τ).loc main_arg1) y
  congr 1
  funext a
  apply Fin.ext
  show 0 * S16x1.size a + 1 * (y a).val = (y a).val
  omega

/-- Input window 2's block at the one point is the whole argument array 2. -/
theorem iblk_2 (m : (ℓ : Loc nD τ sig) → Buf (Elt Ideal) ℓ) (c : Dev nD) (t : Fin cfg0.N) :
    iblk m c 2 t = m ((c : Thread nD τ).loc main_arg2) := by
  funext y
  show m ((c : Thread nD τ).loc main_arg2) (((cfg0.win 2).blk t).view.emb y) = m ((c : Thread nD τ).loc main_arg2) y
  congr 1
  funext a
  apply Fin.ext
  show 0 * S16.size a + 1 * (y a).val = (y a).val
  omega

/-- Input window 3's block at the one point is the whole argument array 3. -/
theorem iblk_3 (m : (ℓ : Loc nD τ sig) → Buf (Elt Ideal) ℓ) (c : Dev nD) (t : Fin cfg0.N) :
    iblk m c 3 t = m ((c : Thread nD τ).loc main_arg3) := by
  funext y
  show m ((c : Thread nD τ).loc main_arg3) (((cfg0.win 3).blk t).view.emb y) = m ((c : Thread nD τ).loc main_arg3) y
  congr 1
  funext a
  apply Fin.ext
  show 0 * S16x16.size a + 1 * (y a).val = (y a).val
  omega

/-- Input window 4's block at the one point is the whole argument array 4. -/
theorem iblk_4 (m : (ℓ : Loc nD τ sig) → Buf (Elt Ideal) ℓ) (c : Dev nD) (t : Fin cfg0.N) :
    iblk m c 4 t = m ((c : Thread nD τ).loc main_arg4) := by
  funext y
  show m ((c : Thread nD τ).loc main_arg4) (((cfg0.win 4).blk t).view.emb y) = m ((c : Thread nD τ).loc main_arg4) y
  congr 1
  funext a
  apply Fin.ext
  show 0 * S16.size a + 1 * (y a).val = (y a).val
  omega

/-- Input window 5's block at the one point is the whole argument array 5. -/
theorem iblk_5 (m : (ℓ : Loc nD τ sig) → Buf (Elt Ideal) ℓ) (c : Dev nD) (t : Fin cfg0.N) :
    iblk m c 5 t = m ((c : Thread nD τ).loc main_arg5) := by
  funext y
  show m ((c : Thread nD τ).loc main_arg5) (((cfg0.win 5).blk t).view.emb y) = m ((c : Thread nD τ).loc main_arg5) y
  congr 1
  funext a
  apply Fin.ext
  show 0 * S32x1024.size a + 1 * (y a).val = (y a).val
  omega

/-- Input window 6's block at the one point is the whole argument array 6. -/
theorem iblk_6 (m : (ℓ : Loc nD τ sig) → Buf (Elt Ideal) ℓ) (c : Dev nD) (t : Fin cfg0.N) :
    iblk m c 6 t = m ((c : Thread nD τ).loc main_arg6) := by
  funext y
  show m ((c : Thread nD τ).loc main_arg6) (((cfg0.win 6).blk t).view.emb y) = m ((c : Thread nD τ).loc main_arg6) y
  congr 1
  funext a
  apply Fin.ext
  show 0 * S32.size a + 1 * (y a).val = (y a).val
  omega

/-- Input window 7's block at the one point is the whole argument array 7. -/
theorem iblk_7 (m : (ℓ : Loc nD τ sig) → Buf (Elt Ideal) ℓ) (c : Dev nD) (t : Fin cfg0.N) :
    iblk m c 7 t = m ((c : Thread nD τ).loc main_arg7) := by
  funext y
  show m ((c : Thread nD τ).loc main_arg7) (((cfg0.win 7).blk t).view.emb y) = m ((c : Thread nD τ).loc main_arg7) y
  congr 1
  funext a
  apply Fin.ext
  show 0 * S16x32.size a + 1 * (y a).val = (y a).val
  omega

/-- Input window 8's block at the one point is the whole argument array 8. -/
theorem iblk_8 (m : (ℓ : Loc nD τ sig) → Buf (Elt Ideal) ℓ) (c : Dev nD) (t : Fin cfg0.N) :
    iblk m c 8 t = m ((c : Thread nD τ).loc main_arg8) := by
  funext y
  show m ((c : Thread nD τ).loc main_arg8) (((cfg0.win 8).blk t).view.emb y) = m ((c : Thread nD τ).loc main_arg8) y
  congr 1
  funext a
  apply Fin.ext
  show 0 * S16.size a + 1 * (y a).val = (y a).val
  omega

/-! ## What the one point writes back -/

/-- The point writes back the body's result of the whole argument arrays, read through the output window's block
    (which is the whole [2, 16] array: block index 0, the array's own extents). -/
theorem flushed_eq (m : (ℓ : Loc nD τ sig) → Buf (Elt Ideal) ℓ) (c : Dev nD) (t : Fin cfg0.N) :
    (dats m 0 c).flushed 9 t
      = ((cfg0.win 9).blk t).view.read (Elt Ideal) (out0_9 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))) := by
  rw [Value.flushed9, iblk_0 m c t, iblk_1 m c t, iblk_2 m c t, iblk_3 m c t, iblk_4 m c t, iblk_5 m c t,
    iblk_6 m c t, iblk_7 m c t, iblk_8 m c t]
  funext y
  show (out0_9 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))) ((cfg0.win 9).xinj (grid0.coords t) y)
    = (out0_9 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))) (((cfg0.win 9).blk t).view.emb y)
  congr 1
  funext a
  apply Fin.ext
  show (y a).val = 0 * S2x16.size a + 1 * (y a).val
  omega

/-! ## The one block covers the array -/

/-- Every index of the [2, 16] array lies in the block of the one point, which writes back. -/
theorem cover9 (c : Dev nD) (i : ((cfg0.win 9).arr.view.loc (c.tc : Thread nD τ)).2.ty.Idx) :
    ∃ t : Fin cfg0.N, (cfg0.win 9).flush t = true ∧ i ∈ ((cfg0.win 9).blk t).view.set := by
  refine ⟨t0_0, flush0_9 t0_0, ?_⟩
  show i ∈ ((View.whole main_v0).slice (win0_9.rect t0_0)).set
  rw [View.set_slice_whole, Rect.mem_set_unit]
  intro a
  have hi : (i a).val < S2x16.size a := (i a).isLt
  constructor
  · show 0 * S2x16.size a ≤ (i a).val
    omega
  · show (i a).val < 0 * S2x16.size a + S2x16.size a
    omega

theorem final9 (m : (ℓ : Loc nD τ sig) → Buf (Elt Ideal) ℓ) (c : Dev nD) :
    (dats m 0 c).arrAt 9 cfg0.N
      = out0_9 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
  (dats m 0 c).arrAt_eq_of_cover 9 _ (fun t _ => flushed_eq m c t) (cover9 c)

end Cert.Gcn.K

end
-- ==== Proof.Edges.lean ====
/-
  How the edge list of the two graphs is laid out. The reference enumerates every pair (i, j) of every graph as an
  edge, graph by graph, row by row: edge number `e < 2·1024·1024` is the edge from node `i` to node `j` of graph `b`
  with `e = b·1024² + i·1024 + j`; nodes are numbered `b·1024 + j` over both graphs. After the `2·1024²` proper edges
  come the 2048 added self loops, loop `n` at position `2·1024² + n`. `rowOf` / `colOf` are an edge's source and
  target node.
-/
import Mathlib.Data.Fin.Basic
import Mathlib.Tactic

namespace Cert.Gcn

/-- Node `j` of graph `b` among the 2048 nodes. -/
def nodeIdx (b : Fin 2) (j : Fin 1024) : Fin 2048 := ⟨b.val * 1024 + j.val, by omega⟩

/-- The position of the edge `i → j` of graph `b` in the edge list. -/
def edgeIdx (b : Fin 2) (i j : Fin 1024) : Fin 2099200 := ⟨b.val * 1048576 + i.val * 1024 + j.val, by omega⟩

/-- The position of the self loop added at node `n`. -/
def loopIdx (n : Fin 2048) : Fin 2099200 := ⟨2097152 + n.val, by omega⟩

/-- The source node of the edge at position `e`. -/
def rowOf (e : Fin 2099200) : ℕ :=
  if e.val < 2097152 then (e.val / 1048576) * 1024 + (e.val % 1048576) / 1024 else e.val - 2097152

/-- The target node of the edge at position `e`. -/
def colOf (e : Fin 2099200) : ℕ :=
  if e.val < 2097152 then (e.val / 1048576) * 1024 + e.val % 1024 else e.val - 2097152

theorem rowOf_lt (e : Fin 2099200) : rowOf e < 2048 := by
  unfold rowOf; split <;> omega
theorem colOf_lt (e : Fin 2099200) : colOf e < 2048 := by
  unfold colOf; split <;> omega

theorem edgeIdx_lt (b : Fin 2) (i j : Fin 1024) : (edgeIdx b i j).val < 2097152 := by
  show b.val * 1048576 + i.val * 1024 + j.val < 2097152; omega

theorem rowOf_edgeIdx (b : Fin 2) (i j : Fin 1024) : rowOf (edgeIdx b i j) = (nodeIdx b i).val := by
  unfold rowOf; rw [if_pos (edgeIdx_lt b i j)]
  show (b.val * 1048576 + i.val * 1024 + j.val) / 1048576 * 1024 + (b.val * 1048576 + i.val * 1024 + j.val) % 1048576 / 1024 = b.val * 1024 + i.val
  omega

theorem colOf_edgeIdx (b : Fin 2) (i j : Fin 1024) : colOf (edgeIdx b i j) = (nodeIdx b j).val := by
  unfold colOf; rw [if_pos (edgeIdx_lt b i j)]
  show (b.val * 1048576 + i.val * 1024 + j.val) / 1048576 * 1024 + (b.val * 1048576 + i.val * 1024 + j.val) % 1024 = b.val * 1024 + j.val
  omega

theorem rowOf_loopIdx (n : Fin 2048) : rowOf (loopIdx n) = n.val := by
  unfold rowOf; rw [if_neg (by show ¬ (2097152 + n.val < 2097152); omega)]
  show 2097152 + n.val - 2097152 = n.val; omega

theorem colOf_loopIdx (n : Fin 2048) : colOf (loopIdx n) = n.val := by
  unfold colOf; rw [if_neg (by show ¬ (2097152 + n.val < 2097152); omega)]
  show 2097152 + n.val - 2097152 = n.val; omega

/-- The graph and the node inside it of node number `n`. -/
def graphOf (n : Fin 2048) : Fin 2 := ⟨n.val / 1024, by omega⟩
def localOf (n : Fin 2048) : Fin 1024 := ⟨n.val % 1024, Nat.mod_lt _ (by decide)⟩

theorem nodeIdx_graphOf_localOf (n : Fin 2048) : nodeIdx (graphOf n) (localOf n) = n := by
  apply Fin.ext; show n.val / 1024 * 1024 + n.val % 1024 = n.val; omega
theorem graphOf_nodeIdx (b : Fin 2) (j : Fin 1024) : graphOf (nodeIdx b j) = b := by
  apply Fin.ext; show (b.val * 1024 + j.val) / 1024 = b.val; omega
theorem localOf_nodeIdx (b : Fin 2) (j : Fin 1024) : localOf (nodeIdx b j) = j := by
  apply Fin.ext; show (b.val * 1024 + j.val) % 1024 = j.val; omega

end Cert.Gcn
-- ==== Proof.EdgeSum.lean ====
/-
  Summing over the edges into one node. Of all positions of the edge list, those whose target is node `j` of graph
  `b` are the 1024 edges `i → j` of that graph, one per source `i`, and the node's own added loop: so a sum over
  the edge list restricted to that target is a sum over the sources plus the loop's term.
-/
import proofs.«117536_g81621558493468_cont_sun_c4_510_28_alg».proof.Proof.Edges
import Mathlib.Algebra.BigOperators.Fin
import Mathlib.Tactic

open scoped BigOperators

namespace Cert.Gcn

/-- A proper edge position whose target is node `b·1024 + j` is the edge `i → j` of graph `b`, with the source
`i = (e mod 1024²) / 1024`. -/
theorem edge_of_target (e b j : ℕ) (he : e < 2097152) (hj : j < 1024)
    (h : e / 1048576 * 1024 + e % 1024 = b * 1024 + j) :
    b * 1048576 + (e % 1048576 / 1024) * 1024 + j = e ∧ e % 1048576 / 1024 < 1024 := by
  omega

/-- Two edges into the same node of the same graph at the same position have the same source. -/
theorem edge_source_inj (b i i' j : ℕ) (hj : j < 1024)
    (h : b * 1048576 + i * 1024 + j = b * 1048576 + i' * 1024 + j) : i = i' := by
  omega

/-- The edge positions whose target is node `j` of graph `b`: the edges `i → j` of that graph and the node's loop. -/
theorem into_node_eq (b : Fin 2) (j : Fin 1024) :
    Finset.univ.filter (fun e : Fin 2099200 => colOf e = (nodeIdx b j).val)
      = (Finset.univ.image fun i : Fin 1024 => edgeIdx b i j) ∪ {loopIdx (nodeIdx b j)} := by
  ext e
  simp only [Finset.mem_filter, Finset.mem_univ, true_and, Finset.mem_union, Finset.mem_image,
    Finset.mem_singleton]
  constructor
  · intro h
    by_cases he : e.val < 2097152
    · left
      unfold colOf at h
      rw [if_pos he] at h
      have h' : e.val / 1048576 * 1024 + e.val % 1024 = b.val * 1024 + j.val := h
      obtain ⟨h1, h2⟩ := edge_of_target e.val b.val j.val he j.isLt h'
      exact ⟨⟨e.val % 1048576 / 1024, h2⟩, Fin.ext h1⟩
    · right
      unfold colOf at h
      rw [if_neg he] at h
      have h' : e.val - 2097152 = b.val * 1024 + j.val := h
      apply Fin.ext
      show e.val = 2097152 + (b.val * 1024 + j.val)
      omega
  · rintro (⟨i, rfl⟩ | rfl)
    · exact colOf_edgeIdx b i j
    · exact colOf_loopIdx _

theorem sum_into_node {M : Type*} [AddCommMonoid M] (f : Fin 2099200 → M) (b : Fin 2) (j : Fin 1024) :
    (∑ e ∈ Finset.univ.filter (fun e : Fin 2099200 => colOf e = (nodeIdx b j).val), f e)
      = (∑ i : Fin 1024, f (edgeIdx b i j)) + f (loopIdx (nodeIdx b j)) := by
  rw [into_node_eq, Finset.sum_union, Finset.sum_image, Finset.sum_singleton]
  · -- distinct sources give distinct positions
    intro i _ i' _ h
    have h' : b.val * 1048576 + i.val * 1024 + j.val = b.val * 1048576 + i'.val * 1024 + j.val :=
      congrArg Fin.val h
    exact Fin.ext (edge_source_inj b.val i.val i'.val j.val j.isLt h')
  · -- a proper edge lies before the loops
    rw [Finset.disjoint_singleton_right]
    simp only [Finset.mem_image, Finset.mem_univ, true_and, not_exists]
    intro i h
    have h1 : (edgeIdx b i j).val < 2097152 := edgeIdx_lt b i j
    rw [h] at h1
    have h2 : 2097152 + (nodeIdx b j).val < 2097152 := h1
    omega

end Cert.Gcn
-- ==== Proof.Indexed.lean ====
/-
  The reference's gathers and accumulating scatters read at an index, for the dimension numbers the program uses.
  A gather's element is the operand at the start index, each component read as a signed integer and clamped into the
  operand; an accumulating scatter's element is the operand's plus the sum of the updates whose index, read as a
  signed integer and not clamped, names that element.
-/
import proofs.«117536_g81621558493468_cont_sun_c4_510_28_alg».proof.Proof.Gen.ReferenceIdeal
import Idealize.ShloMosaic.Lib.ValueIdx
import Idealize.ShloMosaic.PureOps.Ideal.Laws

noncomputable section

open scoped BigOperators
open Cert.ReferenceIdeal Cert.ReferenceIdeal.Gen Idealize.ShloMosaic Idealize.ShloMosaic.TcCoe Idealize.ShloMosaic.ValueIdx

namespace Cert.Gcn

variable {α : Type}

/-! ## A gather's slice start, axis by axis -/

/-- On an operand axis the start index map names, the slice starts at that component of the start index, read signed
    and clamped so that the slice fits. -/
theorem gather_start_of_mem {s si t : Shape} (d : GatherDims s si t) {w : Nat} (j : t.Idx) (idx : IVec si w)
    (a : Fin s.rank) (ha : a ∈ d.startIndexMap) (p : si.Idx)
    (hp : d.siIdx j ⟨d.startIndexMap.idxOf a, List.idxOf_lt_length_iff.2 ha⟩ = p) :
    d.start j idx a = min (idx p).toInt.toNat (s.size a - d.sliceSizes a) := by
  unfold GatherDims.start
  rw [dif_pos ha, hp]

/-- On an operand axis the start index map does not name, the slice starts at `0`. -/
theorem gather_start_of_not_mem {s si t : Shape} (d : GatherDims s si t) {w : Nat} (j : t.Idx) (idx : IVec si w)
    (a : Fin s.rank) (ha : a ∉ d.startIndexMap) : d.start j idx a = 0 := by
  unfold GatherDims.start
  rw [dif_neg ha]

/-! ## Where an update of an accumulating scatter lands -/

/-- An update lands at operand index `i` exactly when, on every operand axis, its window's start (read signed, not
    clamped) plus its window coordinate is `i`'s coordinate: the sum is then inside the operand on every axis. -/
theorem scatter_resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + (d.window j a : ℤ) ∧ d.start j idx a + (d.window j a : ℤ) < (s.size a : ℤ)
  · rw [dif_pos h]
    constructor
    · intro he a
      have h1 := congrFun (Option.some.inj he) a
      have h2 : (d.start j idx a + (d.window j a : ℤ)).toNat = (i a).val := congrArg Fin.val h1
      have h3 := (h a).1
      omega
    · intro hall
      refine congrArg some (funext fun a => Fin.ext ?_)
      show (d.start j idx a + (d.window j a : ℤ)).toNat = (i a).val
      rw [hall a]
      exact Int.toNat_natCast _
  · rw [dif_neg h]
    constructor
    · intro he
      cases he
    · intro hall
      exfalso
      apply h
      intro a
      rw [hall a]
      exact ⟨Int.natCast_nonneg _, Int.ofNat_lt.mpr (i a).isLt⟩

/-- For the per-node accumulation: the update of edge `e` lands at node `n` exactly when the edge's index, read
    signed, is `n`. -/
theorem scatter_node_lands_iff (idx : IVec S2099200x1 32) (e : Fin 2099200) (n : Fin 2048) :
    scatter_S2048_S2099200x1_S2099200_n_0_0_1.resultIdx? (ix1 e) idx = some (ix1 n) ↔ (idx (ix2 e 0)).toInt = (n.val : ℤ) := by
  rw [scatter_resultIdx?_eq_some_iff]
  have hs : scatter_S2048_S2099200x1_S2099200_n_0_0_1.start (ix1 e) idx 0 = (idx (ix2 e 0)).toInt := by
    have hm : (0 : Fin 1) ∈ scatter_S2048_S2099200x1_S2099200_n_0_0_1.scatterDimsToOperandDims := by decide
    have hsi : scatter_S2048_S2099200x1_S2099200_n_0_0_1.siIdx (ix1 e) ⟨List.idxOf (0 : Fin 1) scatter_S2048_S2099200x1_S2099200_n_0_0_1.scatterDimsToOperandDims,
        List.idxOf_lt_length_iff.2 hm⟩ = ix2 e 0 := by
      funext b; refine Fin.ext ?_
      match b with
      | ⟨0, _⟩ => rfl
      | ⟨1, _⟩ => rfl
    unfold ScatterDims.start
    rw [dif_pos hm, hsi]
  have hw : scatter_S2048_S2099200x1_S2099200_n_0_0_1.window (ix1 e) 0 = 0 := by
    have hk : (0 : Fin 1) ∉ scatter_S2048_S2099200x1_S2099200_n_0_0_1.sKept := by decide
    unfold ScatterDims.window
    rw [dif_neg hk]
  constructor
  · intro h
    have h0 := h 0
    rw [hs, hw] at h0
    simpa using h0
  · intro h a
    obtain rfl : a = 0 := Subsingleton.elim _ _
    rw [hs, hw, h]
    simp

/-- For the per-node accumulation of rows: the update element `(e, k')` lands at `(n, k)` exactly when the edge's index,
    read signed, is `n` and the two feature coordinates agree. -/
theorem scatter_feat_lands_iff (idx : IVec S2099200x1 32) (e : Fin 2099200) (k' k : Fin 16) (n : Fin 2048) :
    scatter_S2048x16_S2099200x1_S2099200x16_1_0_0_1.resultIdx? (ix2 e k') idx = some (ix2 n k)
      ↔ (idx (ix2 e 0)).toInt = (n.val : ℤ) ∧ k' = k := by
  rw [scatter_resultIdx?_eq_some_iff]
  -- the node axis: the scattered one, no window coordinate
  have hs0 : scatter_S2048x16_S2099200x1_S2099200x16_1_0_0_1.start (ix2 e k') idx 0 = (idx (ix2 e 0)).toInt := by
    have hm : (0 : Fin 2) ∈ scatter_S2048x16_S2099200x1_S2099200x16_1_0_0_1.scatterDimsToOperandDims := by decide
    have hsi : scatter_S2048x16_S2099200x1_S2099200x16_1_0_0_1.siIdx (ix2 e k') ⟨List.idxOf (0 : Fin 2) scatter_S2048x16_S2099200x1_S2099200x16_1_0_0_1.scatterDimsToOperandDims,
        List.idxOf_lt_length_iff.2 hm⟩ = ix2 e 0 := by
      funext b; refine Fin.ext ?_
      match b with
      | ⟨0, _⟩ => rfl
      | ⟨1, _⟩ => rfl
    unfold ScatterDims.start
    rw [dif_pos hm, hsi]
  have hw0 : scatter_S2048x16_S2099200x1_S2099200x16_1_0_0_1.window (ix2 e k') 0 = 0 := by
    have hk : (0 : Fin 2) ∉ scatter_S2048x16_S2099200x1_S2099200x16_1_0_0_1.sKept := by decide
    unfold ScatterDims.window
    rw [dif_neg hk]
  -- the feature axis: the window's, starting at `0`
  have hs1 : scatter_S2048x16_S2099200x1_S2099200x16_1_0_0_1.start (ix2 e k') idx 1 = 0 := by
    have hm : (1 : Fin 2) ∉ scatter_S2048x16_S2099200x1_S2099200x16_1_0_0_1.scatterDimsToOperandDims := by decide
    unfold ScatterDims.start
    rw [dif_neg hm]
  have hw1 : scatter_S2048x16_S2099200x1_S2099200x16_1_0_0_1.window (ix2 e k') 1 = k'.val := by
    have hk : (1 : Fin 2) ∈ scatter_S2048x16_S2099200x1_S2099200x16_1_0_0_1.sKept := by decide
    unfold ScatterDims.window
    rw [dif_pos hk]
    rfl
  constructor
  · intro h
    have h0 := h 0
    have h1 := h 1
    rw [hs0, hw0] at h0
    rw [hs1, hw1] at h1
    have e0 : (idx (ix2 e 0)).toInt + ((0 : ℕ) : ℤ) = (n.val : ℤ) := h0
    have e1 : (0 : ℤ) + (k'.val : ℤ) = (k.val : ℤ) := h1
    refine ⟨by omega, Fin.ext (by omega)⟩
  · rintro ⟨h, rfl⟩ a
    match a with
    | ⟨0, _⟩ =>
      show scatter_S2048x16_S2099200x1_S2099200x16_1_0_0_1.start (ix2 e k') idx 0 + ((scatter_S2048x16_S2099200x1_S2099200x16_1_0_0_1.window (ix2 e k') 0 : ℕ) : ℤ) = (n.val : ℤ)
      rw [hs0, hw0, h]
      omega
    | ⟨1, _⟩ =>
      show scatter_S2048x16_S2099200x1_S2099200x16_1_0_0_1.start (ix2 e k') idx 1 + ((scatter_S2048x16_S2099200x1_S2099200x16_1_0_0_1.window (ix2 e k') 1 : ℕ) : ℤ) = (k'.val : ℤ)
      rw [hs1, hw1]
      omega

/-! ## The program's gathers and scatters at an index -/

/-- `x[idx]` of a vector over the nodes at one index per edge. -/
theorem gather_node_apply (x : S2048.Idx → α) (idx : IVec S2099200x1 32) (e : Fin 2099200) :
    Host.gather gather_S2048_S2099200x1_S2099200_n_0_n_n_0_1_1 x idx (ix1 e)
      = x (ix1 ⟨min (idx (ix2 e 0)).toInt.toNat 2047, by omega⟩) := by
  unfold Host.gather
  congr 1
  funext a
  obtain rfl : a = 0 := Subsingleton.elim _ _
  refine Fin.ext ?_
  show gather_S2048_S2099200x1_S2099200_n_0_n_n_0_1_1.start (ix1 e) idx 0 + gather_S2048_S2099200x1_S2099200_n_0_n_n_0_1_1.batchCoord (ix1 e) 0
    + gather_S2048_S2099200x1_S2099200_n_0_n_n_0_1_1.offCoord (ix1 e) 0 = _
  have hsi : gather_S2048_S2099200x1_S2099200_n_0_n_n_0_1_1.siIdx (ix1 e) ⟨List.idxOf (0 : Fin 1) gather_S2048_S2099200x1_S2099200_n_0_n_n_0_1_1.startIndexMap,
      List.idxOf_lt_length_iff.2 (List.mem_singleton.mpr rfl)⟩ = ix2 e 0 := by
    funext b; refine Fin.ext ?_
    match b with
    | ⟨0, _⟩ => rfl
    | ⟨1, _⟩ => rfl
  rw [GatherDims.batchCoord_eq_zero _ _ _ List.not_mem_nil,
    GatherDims.offCoord_eq_zero _ _ _ (fun h => ((GatherDims.mem_sKept _ _).mp h).1 (List.mem_singleton.mpr rfl)),
    gather_start_of_mem gather_S2048_S2099200x1_S2099200_n_0_n_n_0_1_1 (ix1 e) idx 0 (List.mem_singleton.mpr rfl) (ix2 e 0) hsi]
  rfl

/-- Rows of a [nodes, 16] array at one row index per edge. -/
theorem gather_feat_apply (x : S2048x16.Idx → α) (idx : IVec S2099200x1 32) (e : Fin 2099200) (k : Fin 16) :
    Host.gather gather_S2048x16_S2099200x1_S2099200x16_1_0_n_n_0_1_116 x idx (ix2 e k)
      = x (ix2 (⟨min (idx (ix2 e 0)).toInt.toNat 2047, by omega⟩ : Fin 2048) k) := by
  unfold Host.gather
  congr 1
  funext a
  refine Fin.ext ?_
  match a with
  | ⟨0, _⟩ =>
    -- the row axis: collapsed, and the one the start index names
    show gather_S2048x16_S2099200x1_S2099200x16_1_0_n_n_0_1_116.start (ix2 e k) idx 0 + gather_S2048x16_S2099200x1_S2099200x16_1_0_n_n_0_1_116.batchCoord (ix2 e k) 0
      + gather_S2048x16_S2099200x1_S2099200x16_1_0_n_n_0_1_116.offCoord (ix2 e k) 0 = _
    have hsi : gather_S2048x16_S2099200x1_S2099200x16_1_0_n_n_0_1_116.siIdx (ix2 e k) ⟨List.idxOf (0 : Fin 2) gather_S2048x16_S2099200x1_S2099200x16_1_0_n_n_0_1_116.startIndexMap,
        List.idxOf_lt_length_iff.2 (List.mem_singleton.mpr rfl)⟩ = ix2 e 0 := by
      funext b; refine Fin.ext ?_
      match b with
      | ⟨0, _⟩ => rfl
      | ⟨1, _⟩ => rfl
    rw [GatherDims.batchCoord_eq_zero _ _ _ List.not_mem_nil,
      GatherDims.offCoord_eq_zero _ _ _ (fun h => ((GatherDims.mem_sKept _ _).mp h).1 (List.mem_singleton.mpr rfl)),
      gather_start_of_mem gather_S2048x16_S2099200x1_S2099200x16_1_0_n_n_0_1_116 (ix2 e k) idx 0 (List.mem_singleton.mpr rfl) (ix2 e 0) hsi]
    rfl
  | ⟨1, _⟩ =>
    -- the feature axis: an offset axis, read whole
    show gather_S2048x16_S2099200x1_S2099200x16_1_0_n_n_0_1_116.start (ix2 e k) idx 1 + gather_S2048x16_S2099200x1_S2099200x16_1_0_n_n_0_1_116.batchCoord (ix2 e k) 1
      + gather_S2048x16_S2099200x1_S2099200x16_1_0_n_n_0_1_116.offCoord (ix2 e k) 1 = _
    have h1 : (1 : Fin 2) ∉ gather_S2048x16_S2099200x1_S2099200x16_1_0_n_n_0_1_116.startIndexMap := by decide
    have h2 : (1 : Fin 2) ∈ gather_S2048x16_S2099200x1_S2099200x16_1_0_n_n_0_1_116.sKept := by decide
    have ho : gather_S2048x16_S2099200x1_S2099200x16_1_0_n_n_0_1_116.offCoord (ix2 e k) 1 = k.val := by
      unfold GatherDims.offCoord
      rw [dif_pos h2]
      rfl
    rw [GatherDims.batchCoord_eq_zero _ _ _ List.not_mem_nil, gather_start_of_not_mem gather_S2048x16_S2099200x1_S2099200x16_1_0_n_n_0_1_116 _ idx 1 h1, ho,
      Nat.add_zero, Nat.zero_add]

/-- The weight array at one (graph, source, target) triple per edge. -/
theorem gather_edge_apply (x : S2x1024x1024.Idx → α) (idx : IVec S2097152x3 32) (e : Fin 2097152) :
    Host.gather gather_S2x1024x1024_S2097152x3_S2097152_n_012_n_n_012_1_111 x idx (ix1 e)
      = x (ix3 (⟨min (idx (ix2 e 0)).toInt.toNat 1, by omega⟩ : Fin 2) (⟨min (idx (ix2 e 1)).toInt.toNat 1023, by omega⟩ : Fin 1024)
          (⟨min (idx (ix2 e 2)).toInt.toNat 1023, by omega⟩ : Fin 1024)) := by
  unfold Host.gather
  congr 1
  funext a
  refine Fin.ext ?_
  -- every operand axis is collapsed and named by one component of the start index
  match a with
  | ⟨0, _⟩ =>
    show gather_S2x1024x1024_S2097152x3_S2097152_n_012_n_n_012_1_111.start (ix1 e) idx 0 + gather_S2x1024x1024_S2097152x3_S2097152_n_012_n_n_012_1_111.batchCoord (ix1 e) 0
      + gather_S2x1024x1024_S2097152x3_S2097152_n_012_n_n_012_1_111.offCoord (ix1 e) 0 = _
    have hm : (0 : Fin 3) ∈ gather_S2x1024x1024_S2097152x3_S2097152_n_012_n_n_012_1_111.startIndexMap := by decide
    have hc : (0 : Fin 3) ∈ gather_S2x1024x1024_S2097152x3_S2097152_n_012_n_n_012_1_111.collapsedSliceDims := by decide
    have hsi : gather_S2x1024x1024_S2097152x3_S2097152_n_012_n_n_012_1_111.siIdx (ix1 e) ⟨List.idxOf (0 : Fin 3) gather_S2x1024x1024_S2097152x3_S2097152_n_012_n_n_012_1_111.startIndexMap,
        List.idxOf_lt_length_iff.2 hm⟩ = ix2 e 0 := by
      funext b; refine Fin.ext ?_
      match b with
      | ⟨0, _⟩ => rfl
      | ⟨1, _⟩ => rfl
    rw [GatherDims.batchCoord_eq_zero _ _ _ List.not_mem_nil,
      GatherDims.offCoord_eq_zero _ _ _ (fun h => ((GatherDims.mem_sKept _ _).mp h).1 hc),
      gather_start_of_mem gather_S2x1024x1024_S2097152x3_S2097152_n_012_n_n_012_1_111 (ix1 e) idx 0 hm (ix2 e 0) hsi]
    rfl
  | ⟨1, _⟩ =>
    show gather_S2x1024x1024_S2097152x3_S2097152_n_012_n_n_012_1_111.start (ix1 e) idx 1 + gather_S2x1024x1024_S2097152x3_S2097152_n_012_n_n_012_1_111.batchCoord (ix1 e) 1
      + gather_S2x1024x1024_S2097152x3_S2097152_n_012_n_n_012_1_111.offCoord (ix1 e) 1 = _
    have hm : (1 : Fin 3) ∈ gather_S2x1024x1024_S2097152x3_S2097152_n_012_n_n_012_1_111.startIndexMap := by decide
    have hc : (1 : Fin 3) ∈ gather_S2x1024x1024_S2097152x3_S2097152_n_012_n_n_012_1_111.collapsedSliceDims := by decide
    have hsi : gather_S2x1024x1024_S2097152x3_S2097152_n_012_n_n_012_1_111.siIdx (ix1 e) ⟨List.idxOf (1 : Fin 3) gather_S2x1024x1024_S2097152x3_S2097152_n_012_n_n_012_1_111.startIndexMap,
        List.idxOf_lt_length_iff.2 hm⟩ = ix2 e 1 := by
      funext b; refine Fin.ext ?_
      match b with
      | ⟨0, _⟩ => rfl
      | ⟨1, _⟩ => rfl
    rw [GatherDims.batchCoord_eq_zero _ _ _ List.not_mem_nil,
      GatherDims.offCoord_eq_zero _ _ _ (fun h => ((GatherDims.mem_sKept _ _).mp h).1 hc),
      gather_start_of_mem gather_S2x1024x1024_S2097152x3_S2097152_n_012_n_n_012_1_111 (ix1 e) idx 1 hm (ix2 e 1) hsi]
    rfl
  | ⟨2, _⟩ =>
    show gather_S2x1024x1024_S2097152x3_S2097152_n_012_n_n_012_1_111.start (ix1 e) idx 2 + gather_S2x1024x1024_S2097152x3_S2097152_n_012_n_n_012_1_111.batchCoord (ix1 e) 2
      + gather_S2x1024x1024_S2097152x3_S2097152_n_012_n_n_012_1_111.offCoord (ix1 e) 2 = _
    have hm : (2 : Fin 3) ∈ gather_S2x1024x1024_S2097152x3_S2097152_n_012_n_n_012_1_111.startIndexMap := by decide
    have hc : (2 : Fin 3) ∈ gather_S2x1024x1024_S2097152x3_S2097152_n_012_n_n_012_1_111.collapsedSliceDims := by decide
    have hsi : gather_S2x1024x1024_S2097152x3_S2097152_n_012_n_n_012_1_111.siIdx (ix1 e) ⟨List.idxOf (2 : Fin 3) gather_S2x1024x1024_S2097152x3_S2097152_n_012_n_n_012_1_111.startIndexMap,
        List.idxOf_lt_length_iff.2 hm⟩ = ix2 e 2 := by
      funext b; refine Fin.ext ?_
      match b with
      | ⟨0, _⟩ => rfl
      | ⟨1, _⟩ => rfl
    rw [GatherDims.batchCoord_eq_zero _ _ _ List.not_mem_nil,
      GatherDims.offCoord_eq_zero _ _ _ (fun h => ((GatherDims.mem_sKept _ _).mp h).1 hc),
      gather_start_of_mem gather_S2x1024x1024_S2097152x3_S2097152_n_012_n_n_012_1_111 (ix1 e) idx 2 hm (ix2 e 2) hsi]
    rfl

/-- The weight array's diagonal: for every graph, at one (row, column) pair per node. -/
theorem gather_diag_apply (x : S2x1024x1024.Idx → α) (idx : IVec S1024x2 32) (b : Fin 2) (t : Fin 1024) :
    Host.gather gather_S2x1024x1024_S1024x2_S2x1024_0_12_n_n_12_1_211 x idx (ix2 b t)
      = x (ix3 b (⟨min (idx (ix2 t 0)).toInt.toNat 1023, by omega⟩ : Fin 1024) (⟨min (idx (ix2 t 1)).toInt.toNat 1023, by omega⟩ : Fin 1024)) := by
  unfold Host.gather
  congr 1
  funext a
  refine Fin.ext ?_
  match a with
  | ⟨0, _⟩ =>
    -- the graph axis: an offset axis, read whole
    show gather_S2x1024x1024_S1024x2_S2x1024_0_12_n_n_12_1_211.start (ix2 b t) idx 0 + gather_S2x1024x1024_S1024x2_S2x1024_0_12_n_n_12_1_211.batchCoord (ix2 b t) 0
      + gather_S2x1024x1024_S1024x2_S2x1024_0_12_n_n_12_1_211.offCoord (ix2 b t) 0 = _
    have h1 : (0 : Fin 3) ∉ gather_S2x1024x1024_S1024x2_S2x1024_0_12_n_n_12_1_211.startIndexMap := by decide
    have h2 : (0 : Fin 3) ∈ gather_S2x1024x1024_S1024x2_S2x1024_0_12_n_n_12_1_211.sKept := by decide
    have ho : gather_S2x1024x1024_S1024x2_S2x1024_0_12_n_n_12_1_211.offCoord (ix2 b t) 0 = b.val := by
      unfold GatherDims.offCoord
      rw [dif_pos h2]
      rfl
    rw [GatherDims.batchCoord_eq_zero _ _ _ List.not_mem_nil, gather_start_of_not_mem gather_S2x1024x1024_S1024x2_S2x1024_0_12_n_n_12_1_211 _ idx 0 h1, ho,
      Nat.add_zero, Nat.zero_add]
  | ⟨1, _⟩ =>
    show gather_S2x1024x1024_S1024x2_S2x1024_0_12_n_n_12_1_211.start (ix2 b t) idx 1 + gather_S2x1024x1024_S1024x2_S2x1024_0_12_n_n_12_1_211.batchCoord (ix2 b t) 1
      + gather_S2x1024x1024_S1024x2_S2x1024_0_12_n_n_12_1_211.offCoord (ix2 b t) 1 = _
    have hm : (1 : Fin 3) ∈ gather_S2x1024x1024_S1024x2_S2x1024_0_12_n_n_12_1_211.startIndexMap := by decide
    have hc : (1 : Fin 3) ∈ gather_S2x1024x1024_S1024x2_S2x1024_0_12_n_n_12_1_211.collapsedSliceDims := by decide
    have hsi : gather_S2x1024x1024_S1024x2_S2x1024_0_12_n_n_12_1_211.siIdx (ix2 b t) ⟨List.idxOf (1 : Fin 3) gather_S2x1024x1024_S1024x2_S2x1024_0_12_n_n_12_1_211.startIndexMap,
        List.idxOf_lt_length_iff.2 hm⟩ = ix2 t 0 := by
      funext b'; refine Fin.ext ?_
      match b' with
      | ⟨0, _⟩ => rfl
      | ⟨1, _⟩ => rfl
    rw [GatherDims.batchCoord_eq_zero _ _ _ List.not_mem_nil,
      GatherDims.offCoord_eq_zero _ _ _ (fun h => ((GatherDims.mem_sKept _ _).mp h).1 hc),
      gather_start_of_mem gather_S2x1024x1024_S1024x2_S2x1024_0_12_n_n_12_1_211 (ix2 b t) idx 1 hm (ix2 t 0) hsi]
    rfl
  | ⟨2, _⟩ =>
    show gather_S2x1024x1024_S1024x2_S2x1024_0_12_n_n_12_1_211.start (ix2 b t) idx 2 + gather_S2x1024x1024_S1024x2_S2x1024_0_12_n_n_12_1_211.batchCoord (ix2 b t) 2
      + gather_S2x1024x1024_S1024x2_S2x1024_0_12_n_n_12_1_211.offCoord (ix2 b t) 2 = _
    have hm : (2 : Fin 3) ∈ gather_S2x1024x1024_S1024x2_S2x1024_0_12_n_n_12_1_211.startIndexMap := by decide
    have hc : (2 : Fin 3) ∈ gather_S2x1024x1024_S1024x2_S2x1024_0_12_n_n_12_1_211.collapsedSliceDims := by decide
    have hsi : gather_S2x1024x1024_S1024x2_S2x1024_0_12_n_n_12_1_211.siIdx (ix2 b t) ⟨List.idxOf (2 : Fin 3) gather_S2x1024x1024_S1024x2_S2x1024_0_12_n_n_12_1_211.startIndexMap,
        List.idxOf_lt_length_iff.2 hm⟩ = ix2 t 1 := by
      funext b'; refine Fin.ext ?_
      match b' with
      | ⟨0, _⟩ => rfl
      | ⟨1, _⟩ => rfl
    rw [GatherDims.batchCoord_eq_zero _ _ _ List.not_mem_nil,
      GatherDims.offCoord_eq_zero _ _ _ (fun h => ((GatherDims.mem_sKept _ _).mp h).1 hc),
      gather_start_of_mem gather_S2x1024x1024_S1024x2_S2x1024_0_12_n_n_12_1_211 (ix2 b t) idx 2 hm (ix2 t 1) hsi]
    rfl

/-- Accumulating one number per edge at the node its index names. -/
theorem scatterAdd_node_apply (x : FVec Ideal S2048 .f32) (idx : IVec S2099200x1 32) (upd : FVec Ideal S2099200 .f32) (n : Fin 2048) :
    Host.scatterAdd (F := Ideal) scatter_S2048_S2099200x1_S2099200_n_0_0_1 x idx upd (ix1 n)
      = x (ix1 n) + ∑ e ∈ Finset.univ.filter (fun e : Fin 2099200 => (idx (ix2 e 0)).toInt = (n.val : ℤ)), upd (ix1 e) := by
  unfold Host.scatterAdd
  rw [Ideal.hostScatterAdd_def]
  unfold Ideal.hostScatterAdd
  refine congrArg (fun z => x (ix1 n) + z) ?_
  -- the updates' indices are the edges: re-index the sum by the one coordinate
  refine Finset.sum_nbij' (fun j => (j 0 : Fin 2099200)) (fun e => ix1 e) ?_ ?_ ?_ ?_ ?_
  · intro j hj
    obtain ⟨e, rfl⟩ : ∃ e : Fin 2099200, j = ix1 e := ⟨j 0, eq_ix1 j⟩
    rw [Finset.mem_filter] at hj ⊢
    exact ⟨Finset.mem_univ _, (scatter_node_lands_iff idx e n).mp hj.2⟩
  · intro e he
    rw [Finset.mem_filter] at he ⊢
    exact ⟨Finset.mem_univ _, (scatter_node_lands_iff idx e n).mpr he.2⟩
  · intro j _
    exact (eq_ix1 j).symm
  · intro e _
    rfl
  · intro j _
    exact congrArg upd (eq_ix1 j)

/-- Accumulating one row of 16 per edge at the node its index names. -/
theorem scatterAdd_feat_apply (x : FVec Ideal S2048x16 .f32) (idx : IVec S2099200x1 32) (upd : FVec Ideal S2099200x16 .f32)
    (n : Fin 2048) (k : Fin 16) :
    Host.scatterAdd (F := Ideal) scatter_S2048x16_S2099200x1_S2099200x16_1_0_0_1 x idx upd (ix2 n k)
      = x (ix2 n k) + ∑ e ∈ Finset.univ.filter (fun e : Fin 2099200 => (idx (ix2 e 0)).toInt = (n.val : ℤ)), upd (ix2 e k) := by
  unfold Host.scatterAdd
  rw [Ideal.hostScatterAdd_def]
  unfold Ideal.hostScatterAdd
  refine congrArg (fun z => x (ix2 n k) + z) ?_
  -- an update element that lands in column `k` is in column `k`: re-index the sum by the edge coordinate
  refine Finset.sum_nbij' (fun j => (j 0 : Fin 2099200)) (fun e => ix2 e k) ?_ ?_ ?_ ?_ ?_
  · intro j hj
    obtain ⟨e, k', rfl⟩ : ∃ (e : Fin 2099200) (k' : Fin 16), j = ix2 e k' := ⟨j 0, j 1, eq_ix2 j⟩
    rw [Finset.mem_filter] at hj ⊢
    exact ⟨Finset.mem_univ _, ((scatter_feat_lands_iff idx e k' k n).mp hj.2).1⟩
  · intro e he
    rw [Finset.mem_filter] at he ⊢
    exact ⟨Finset.mem_univ _, (scatter_feat_lands_iff idx e k k n).mpr ⟨he.2, rfl⟩⟩
  · intro j hj
    obtain ⟨e, k', rfl⟩ : ∃ (e : Fin 2099200) (k' : Fin 16), j = ix2 e k' := ⟨j 0, j 1, eq_ix2 j⟩
    rw [Finset.mem_filter] at hj
    obtain rfl : k' = k := ((scatter_feat_lands_iff idx e k' k n).mp hj.2).2
    rfl
  · intro e _
    rfl
  · intro j hj
    obtain ⟨e, k', rfl⟩ : ∃ (e : Fin 2099200) (k' : Fin 16), j = ix2 e k' := ⟨j 0, j 1, eq_ix2 j⟩
    rw [Finset.mem_filter] at hj
    obtain rfl : k' = k := ((scatter_feat_lands_iff idx e k' k n).mp hj.2).2
    rfl

end Cert.Gcn

end
-- ==== Proof.RIdx.lean ====
/-
  The reference's index arrays and edge data, read at an edge. The edge list is laid out graph by graph, row by row
  (Edges.lean): the source and target node of each position, as 32-bit words, are what `rowOf` / `colOf` say; every
  index the program wraps ("negative means from the end") is non-negative, so the wrap is the identity; the weight
  gathered for the edge `i → j` of graph `b` is the array's entry there, and the weight of the loop added at a node
  is one exactly when the node's diagonal entry is zero.
-/
import proofs.«117536_g81621558493468_cont_sun_c4_510_28_alg».proof.Proof.ReadP
import proofs.«117536_g81621558493468_cont_sun_c4_510_28_alg».proof.Proof.Arrays
import proofs.«117536_g81621558493468_cont_sun_c4_510_28_alg».proof.Proof.Edges
import proofs.«117536_g81621558493468_cont_sun_c4_510_28_alg».proof.Proof.EdgeSum
import proofs.«117536_g81621558493468_cont_sun_c4_510_28_alg».proof.Proof.Indexed
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.StableHlo.Predicate

noncomputable section

open scoped BigOperators
open Cert.ReferenceIdeal Cert.ReferenceIdeal.Read Idealize.ShloMosaic Idealize.ShloMosaic.TcCoe Idealize.ShloMosaic.ValueIdx

namespace Cert.Gcn.R

/-! ### Words: small 32-bit words as numbers -/

/-- A 32-bit word that is not negative as a signed integer is left alone by the wrap "negative means from the end". -/
theorem wrap_eq (x y : BitVec 32) (hx : x.toNat < 2 ^ 31) :
    Scalar.select (IntOp.cmpi .slt x 0#32) y x = x := by
  have h0 : IntOp.cmpi .slt x 0#32 = 0#1 := by
    apply eq_zero_of_ne_one
    intro h
    have := (StableHlo.Predicate.slt_iff_toNat (a := x) (b := 0#32) hx (by decide)).1 h
    simp at this
  rw [h0, select_zero]

/-- The word of a small natural number read back. -/
theorem toNat_ofNat32 (n : ℕ) (h : n < 2 ^ 32) : (BitVec.ofNat 32 n).toNat = n := by
  rw [BitVec.toNat_ofNat]; exact Nat.mod_eq_of_lt h

/-- The wrap leaves the word of a small natural number alone. -/
theorem wrap_ofNat (n : ℕ) (y : BitVec 32) (h : n < 2 ^ 31) :
    Scalar.select (IntOp.cmpi .slt (BitVec.ofNat 32 n) 0#32) y (BitVec.ofNat 32 n) = BitVec.ofNat 32 n :=
  wrap_eq _ _ (by rw [toNat_ofNat32 n (by omega)]; exact h)

/-- The word of a small natural number, read signed, is that number. -/
theorem toIntNat_ofNat (n : ℕ) (h : n < 2 ^ 31) : (BitVec.ofNat 32 n).toInt.toNat = n := by
  rw [StableHlo.Predicate.toInt_ofNat_small n h]
  exact Int.toNat_natCast n

/-- `g·1024 + r` computed on 32-bit words does not wrap for a graph number and a node number. -/
theorem toNat_mul_add (g r : ℕ) (hg : g < 2) (hr : r < 1024) :
    (IntOp.addi (IntOp.muli (BitVec.ofNat 32 g) 1024#32) (BitVec.ofNat 32 r)).toNat = g * 1024 + r := by
  unfold IntOp.addi IntOp.muli
  rw [BitVec.toNat_add, BitVec.toNat_mul, toNat_ofNat32 g (by omega), toNat_ofNat32 r (by omega)]
  show (g * 1024 % 2 ^ 32 + r) % 2 ^ 32 = g * 1024 + r
  omega

/-- A word whose value is a small natural number reads the same signed. -/
theorem toInt_of_toNat (x : BitVec 32) (n : ℕ) (h : x.toNat = n) (hn : n < 2 ^ 31) : x.toInt = (n : ℤ) := by
  rw [StableHlo.Predicate.toInt_eq_toNat_of_lt (by omega), h]

/-- The "not equal to zero" test on an extended real selects zero where it holds and one where it fails. -/
theorem select_une_zero (d : EReal) :
    Scalar.select (FloatOps.cmpf (F := Ideal) (φ := .f32) .une d (FloatOps.ofBits .f32 0x00000000#32))
      (FloatOps.ofBits (F := Ideal) .f32 0x00000000#32) (FloatOps.ofBits (F := Ideal) .f32 0x3F800000#32)
      = if d = 0 then 1 else 0 := by
  rw [Ideal.cmpf_def, Ideal.ofBits_def, Ideal.ofBits_def, Ideal.ofBits_zero_f32, Ideal.ofBits_one_f32]
  unfold Ideal.cmp
  by_cases h : d = 0
  · rw [if_pos h]
    have : BitVec.ofBool (decide (d ≠ 0)) = 0#1 := by simp [h]
    rw [this, select_zero]
  · rw [if_neg h]
    have : BitVec.ofBool (decide (d ≠ 0)) = 1#1 := by simp [h]
    rw [this, select_one]

/-- Two rank-3 indices with equal coordinates are equal. -/
theorem ix3_congr {n0 n1 n2 : ℕ} {a a' : Fin n0} {b b' : Fin n1} {c c' : Fin n2} (ha : a = a') (hb : b = b') (hc : c = c') :
    ix3 a b c = ix3 a' b' c' := by rw [ha, hb, hc]

/-! ### Joined arrays read at an index -/

section Joined
variable {α : Type}

/-- The edge list's proper part: a position below `2·1024²` of a joined array reads the first piece there. -/
theorem cat_left (x₁ : S2097152.Idx → α) (x₂ : S2048.Idx → α)
    (h : Shape.Concatenates [S2097152, S2048] S2099200 0) (e : Fin 2099200) (he : e.val < 2097152) :
    concatenate S2099200 0 [⟨S2097152, x₁⟩, ⟨S2048, x₂⟩] h (ix1 e) = x₁ (ix1 (⟨e.val, he⟩ : Fin 2097152)) :=
  concatenate_pair_apply_left (0 : Fin 1) x₁ x₂ h (ix1 e) rfl (ix1 (⟨e.val, he⟩ : Fin 2097152))
    (fun b => match b with | ⟨0, _⟩ => rfl)

/-- The added loops: a position from `2·1024²` on reads the second piece, `2·1024²` less. -/
theorem cat_right (x₁ : S2097152.Idx → α) (x₂ : S2048.Idx → α)
    (h : Shape.Concatenates [S2097152, S2048] S2099200 0) (e : Fin 2099200) (he : 2097152 ≤ e.val) :
    concatenate S2099200 0 [⟨S2097152, x₁⟩, ⟨S2048, x₂⟩] h (ix1 e)
      = x₂ (ix1 (⟨e.val - 2097152, by have := e.isLt; omega⟩ : Fin 2048)) :=
  concatenate_pair_apply_right (0 : Fin 1) x₁ x₂ h (ix1 e) rfl rfl
    (ix1 (⟨e.val - 2097152, by have := e.isLt; omega⟩ : Fin 2048))
    (fun b hb => absurd (Subsingleton.elim _ _) hb)
    (by show e.val - 2097152 + 2097152 = e.val; omega)

/-- Three columns side by side: column 0 is the first. -/
theorem cat3_c0 (x₀ x₁ x₂ : S2097152x1.Idx → α)
    (h : Shape.Concatenates [S2097152x1, S2097152x1, S2097152x1] S2097152x3 1) (e : Fin 2097152) :
    concatenate S2097152x3 1 [⟨S2097152x1, x₀⟩, ⟨S2097152x1, x₁⟩, ⟨S2097152x1, x₂⟩] h (ix2 e (0 : Fin 3))
      = x₀ (ix2 e (0 : Fin 1)) :=
  concatenate_apply_piece (t := S2097152x3) (1 : Fin 2) [⟨S2097152x1, x₀⟩, ⟨S2097152x1, x₁⟩, ⟨S2097152x1, x₂⟩] h (ix2 e (0 : Fin 3)) 0
    (by show 0 < 3; omega) S2097152x1 x₀ rfl rfl 0 rfl (ix2 e (0 : Fin 1))
    (fun b hb => match b, hb with
      | ⟨0, _⟩, _ => rfl
      | ⟨1, _⟩, hb => absurd (Fin.ext rfl) hb) rfl

/-- … column 1 the second … -/
theorem cat3_c1 (x₀ x₁ x₂ : S2097152x1.Idx → α)
    (h : Shape.Concatenates [S2097152x1, S2097152x1, S2097152x1] S2097152x3 1) (e : Fin 2097152) :
    concatenate S2097152x3 1 [⟨S2097152x1, x₀⟩, ⟨S2097152x1, x₁⟩, ⟨S2097152x1, x₂⟩] h (ix2 e (1 : Fin 3))
      = x₁ (ix2 e (0 : Fin 1)) :=
  concatenate_apply_piece (t := S2097152x3) (1 : Fin 2) [⟨S2097152x1, x₀⟩, ⟨S2097152x1, x₁⟩, ⟨S2097152x1, x₂⟩] h (ix2 e (1 : Fin 3)) 1
    (by show 1 < 3; omega) S2097152x1 x₁ rfl rfl 1 rfl (ix2 e (0 : Fin 1))
    (fun b hb => match b, hb with
      | ⟨0, _⟩, _ => rfl
      | ⟨1, _⟩, hb => absurd (Fin.ext rfl) hb) rfl

/-- … column 2 the third. -/
theorem cat3_c2 (x₀ x₁ x₂ : S2097152x1.Idx → α)
    (h : Shape.Concatenates [S2097152x1, S2097152x1, S2097152x1] S2097152x3 1) (e : Fin 2097152) :
    concatenate S2097152x3 1 [⟨S2097152x1, x₀⟩, ⟨S2097152x1, x₁⟩, ⟨S2097152x1, x₂⟩] h (ix2 e (2 : Fin 3))
      = x₂ (ix2 e (0 : Fin 1)) :=
  concatenate_apply_piece (t := S2097152x3) (1 : Fin 2) [⟨S2097152x1, x₀⟩, ⟨S2097152x1, x₁⟩, ⟨S2097152x1, x₂⟩] h (ix2 e (2 : Fin 3)) 2
    (by show 2 < 3; omega) S2097152x1 x₂ rfl rfl 2 rfl (ix2 e (0 : Fin 1))
    (fun b hb => match b, hb with
      | ⟨0, _⟩, _ => rfl
      | ⟨1, _⟩, hb => absurd (Fin.ext rfl) hb) rfl

/-- Two columns side by side: column 0 is the first … -/
theorem cat2_c0 (x₀ x₁ : S1024x1.Idx → α) (h : Shape.Concatenates [S1024x1, S1024x1] S1024x2 1) (t : Fin 1024) :
    concatenate S1024x2 1 [⟨S1024x1, x₀⟩, ⟨S1024x1, x₁⟩] h (ix2 t (0 : Fin 2)) = x₀ (ix2 t (0 : Fin 1)) :=
  concatenate_pair_apply_left (1 : Fin 2) x₀ x₁ h (ix2 t (0 : Fin 2)) rfl (ix2 t (0 : Fin 1))
    (fun b => match b with | ⟨0, _⟩ => rfl | ⟨1, _⟩ => rfl)

/-- … column 1 the second. -/
theorem cat2_c1 (x₀ x₁ : S1024x1.Idx → α) (h : Shape.Concatenates [S1024x1, S1024x1] S1024x2 1) (t : Fin 1024) :
    concatenate S1024x2 1 [⟨S1024x1, x₀⟩, ⟨S1024x1, x₁⟩] h (ix2 t (1 : Fin 2)) = x₁ (ix2 t (0 : Fin 1)) :=
  concatenate_pair_apply_right (1 : Fin 2) x₀ x₁ h (ix2 t (1 : Fin 2)) rfl rfl (ix2 t (0 : Fin 1))
    (fun b hb => match b, hb with
      | ⟨0, _⟩, _ => rfl
      | ⟨1, _⟩, hb => absurd (Fin.ext rfl) hb) rfl

end Joined

/-! ### The graph, the source and the target of a proper edge, as words -/

/-- The graph of the edge at position `e`: `e / 1024²`. -/
theorem bnz_apply (e : Fin 2097152) : val_main_v2 (F := Ideal) (ix1 e) = BitVec.ofNat 32 (e.val / 1048576) := by
  rw [val_main_v2_apply, val_main_v1_apply, val_main_v0_apply]

/-- Its source inside the graph: `(e mod 1024²) / 1024`. -/
theorem inz_apply (e : Fin 2097152) : val_main_v8 (F := Ideal) (ix1 e) = BitVec.ofNat 32 (e.val % 1048576 / 1024) := by
  rw [val_main_v8_apply, val_main_v7_apply, val_main_v6_apply, val_main_v5_apply, val_main_v4_apply, val_main_v3_apply]
  refine congrArg (BitVec.ofNat 32) ?_
  show (0 * 1048576 + e.val % 1048576) / 1024 = e.val % 1048576 / 1024
  omega

/-- Its target inside the graph: `e mod 1024`. -/
theorem jnz_apply (e : Fin 2097152) : val_main_v12 (F := Ideal) (ix1 e) = BitVec.ofNat 32 (e.val % 1024) := by
  rw [val_main_v12_apply, val_main_v11_apply, val_main_v10_apply, val_main_v9_apply]
  refine congrArg (BitVec.ofNat 32) ?_
  show 0 * 1024 + e.val % 1024 = e.val % 1024
  omega

/-- The source node `graph·1024 + source`, as a number. -/
theorem v15_toNat (e : Fin 2097152) :
    (val_main_v15 (F := Ideal) (ix1 e)).toNat = e.val / 1048576 * 1024 + e.val % 1048576 / 1024 := by
  rw [val_main_v15_apply, val_main_v14_apply, val_main_v13_apply, val_main_c_apply, bnz_apply, inz_apply]
  exact toNat_mul_add _ _ (by have := e.isLt; omega) (by omega)

/-- The target node `graph·1024 + target`, as a number. -/
theorem v18_toNat (e : Fin 2097152) :
    (val_main_v18 (F := Ideal) (ix1 e)).toNat = e.val / 1048576 * 1024 + e.val % 1024 := by
  rw [val_main_v18_apply, val_main_v17_apply, val_main_v16_apply, val_main_c_0_apply, bnz_apply, jnz_apply]
  exact toNat_mul_add _ _ (by have := e.isLt; omega) (by omega)

/-! ### Source and target nodes of the edge list, and the (wrapped) index columns built from them -/

theorem v63_toNat (e : Fin 2099200) : (val_main_v63 (F := Ideal) (ix1 e)).toNat = rowOf e := by
  unfold rowOf val_main_v63
  by_cases h : e.val < 2097152
  · rw [if_pos h, cat_left _ _ _ e h, v15_toNat]
  · rw [if_neg h, cat_right _ _ _ e (by omega), val_main_v36_apply]
    show (BitVec.ofNat 32 (e.val - 2097152)).toNat = e.val - 2097152
    exact toNat_ofNat32 _ (by have := e.isLt; omega)

theorem v64_toNat (e : Fin 2099200) : (val_main_v64 (F := Ideal) (ix1 e)).toNat = colOf e := by
  unfold colOf val_main_v64
  by_cases h : e.val < 2097152
  · rw [if_pos h, cat_left _ _ _ e h, v18_toNat]
  · rw [if_neg h, cat_right _ _ _ e (by omega), val_main_v36_apply]
    show (BitVec.ofNat 32 (e.val - 2097152)).toNat = e.val - 2097152
    exact toNat_ofNat32 _ (by have := e.isLt; omega)

theorem v63_lt (e : Fin 2099200) : (val_main_v63 (F := Ideal) (ix1 e)).toNat < 2 ^ 31 := by
  rw [v63_toNat]; have := rowOf_lt e; omega
theorem v64_lt (e : Fin 2099200) : (val_main_v64 (F := Ideal) (ix1 e)).toNat < 2 ^ 31 := by
  rw [v64_toNat]; have := colOf_lt e; omega

theorem row2_toInt (e : Fin 2099200) : (val_main_v63 (F := Ideal) (ix1 e)).toInt = (rowOf e : ℤ) :=
  toInt_of_toNat _ _ (v63_toNat e) (by have := rowOf_lt e; omega)
theorem col2_toInt (e : Fin 2099200) : (val_main_v64 (F := Ideal) (ix1 e)).toInt = (colOf e : ℤ) :=
  toInt_of_toNat _ _ (v64_toNat e) (by have := colOf_lt e; omega)

/-- The one coordinate of a column's index is the row's index. -/
theorem colIdx_eq {n : ℕ} (f : (⟨2, ![n, 1]⟩ : Shape).Idx → (⟨1, ![n]⟩ : Shape).Idx)
    (hf : ∀ i, (f i 0).val = (i 0).val) (e : Fin n) : f (ix2 e (0 : Fin 1)) = ix1 e := by
  funext a
  match a with
  | ⟨0, _⟩ => exact Fin.ext (hf _)

/-- the scatter index of the degree sum: the target -/
theorem v72_toInt (e : Fin 2099200) : (val_main_v72 (F := Ideal) (ix2 e 0)).toInt = (colOf e : ℤ) := by
  rw [val_main_v72_apply, colIdx_eq idx_main_v72 (fun _ => rfl) e, val_main_v71_apply, val_main_v68_apply,
    val_main_v67_apply, val_main_c_15_apply, wrap_eq _ _ (v64_lt e)]
  exact col2_toInt e
/-- the gather index of `dinv[row]` -/
theorem v88_toInt (e : Fin 2099200) : (val_main_v88 (F := Ideal) (ix2 e 0)).toInt = (rowOf e : ℤ) := by
  rw [val_main_v88_apply, colIdx_eq idx_main_v88 (fun _ => rfl) e, val_main_v87_apply, val_main_v84_apply,
    val_main_v83_apply, val_main_c_22_apply, wrap_eq _ _ (v63_lt e)]
  exact row2_toInt e
/-- the gather index of `dinv[col]` -/
theorem v96_toInt (e : Fin 2099200) : (val_main_v96 (F := Ideal) (ix2 e 0)).toInt = (colOf e : ℤ) := by
  rw [val_main_v96_apply, colIdx_eq idx_main_v96 (fun _ => rfl) e, val_main_v95_apply, val_main_v92_apply,
    val_main_v91_apply, val_main_c_24_apply, wrap_eq _ _ (v64_lt e)]
  exact col2_toInt e
/-- the gather index of `h[row]` -/
theorem v107_toInt (e : Fin 2099200) : (val_main_v107 (F := Ideal) (ix2 e 0)).toInt = (rowOf e : ℤ) := by
  rw [val_main_v107_apply, colIdx_eq idx_main_v107 (fun _ => rfl) e, val_main_v106_apply, val_main_v103_apply,
    val_main_v102_apply, val_main_c_26_apply, wrap_eq _ _ (v63_lt e)]
  exact row2_toInt e
/-- the scatter index of a layer's aggregation: the target -/
theorem v117_toInt (e : Fin 2099200) : (val_main_v117 (F := Ideal) (ix2 e 0)).toInt = (colOf e : ℤ) := by
  rw [val_main_v117_apply, colIdx_eq idx_main_v117 (fun _ => rfl) e, val_main_v116_apply, val_main_v113_apply,
    val_main_v112_apply, val_main_c_29_apply, wrap_eq _ _ (v64_lt e)]
  exact col2_toInt e

/-! ### The second layer rebuilds the same arrays under new names -/

section AnyInstance
variable {F : FTy → Type} [FloatOps F]

theorem v132_eq' : val_main_v132 (F := F) = val_main_v72 (F := F) := rfl
theorem v148_eq' : val_main_v148 (F := F) = val_main_v88 (F := F) := rfl
theorem v156_eq' : val_main_v156 (F := F) = val_main_v96 (F := F) := rfl
theorem v167_eq' : val_main_v167 (F := F) = val_main_v107 (F := F) := rfl
theorem v177_eq' : val_main_v177 (F := F) = val_main_v117 (F := F) := rfl
theorem v125_eq' (x0 : (⟨S2x1024x1024, .f32⟩ : BufTy).Contents (Elt F)) : val_main_v125 (F := F) x0 = val_main_v65 (F := F) x0 := rfl

end AnyInstance

theorem v132_eq : val_main_v132 (F := Ideal) = val_main_v72 (F := Ideal) := v132_eq'
theorem v148_eq : val_main_v148 (F := Ideal) = val_main_v88 (F := Ideal) := v148_eq'
theorem v156_eq : val_main_v156 (F := Ideal) = val_main_v96 (F := Ideal) := v156_eq'
theorem v167_eq : val_main_v167 (F := Ideal) = val_main_v107 (F := Ideal) := v167_eq'
theorem v177_eq : val_main_v177 (F := Ideal) = val_main_v117 (F := Ideal) := v177_eq'
theorem v125_eq (x0 : (⟨S2x1024x1024, .f32⟩ : BufTy).Contents (Elt Ideal)) : val_main_v125 (F := Ideal) x0 = val_main_v65 (F := Ideal) x0 :=
  v125_eq' x0

/-! ### The edge weights with the added loops appended -/

/-- The three start-index columns of the weight gather at a proper edge: its graph, source and target, wrapped (and so
    unchanged). -/
theorem v60_c0 (e : Fin 2097152) : (val_main_v60 (F := Ideal) (ix2 e (0 : Fin 3))).toInt.toNat = e.val / 1048576 := by
  unfold val_main_v60
  rw [cat3_c0, val_main_v57_apply, colIdx_eq idx_main_v57 (fun _ => rfl) e, val_main_v46_apply, val_main_v43_apply,
    val_main_v42_apply, val_main_c_7_apply, bnz_apply, wrap_ofNat _ _ (by have := e.isLt; omega)]
  exact toIntNat_ofNat _ (by have := e.isLt; omega)
theorem v60_c1 (e : Fin 2097152) : (val_main_v60 (F := Ideal) (ix2 e (1 : Fin 3))).toInt.toNat = e.val % 1048576 / 1024 := by
  unfold val_main_v60
  rw [cat3_c1, val_main_v58_apply, colIdx_eq idx_main_v58 (fun _ => rfl) e, val_main_v51_apply, val_main_v48_apply,
    val_main_v47_apply, val_main_c_9_apply, inz_apply, wrap_ofNat _ _ (by omega)]
  exact toIntNat_ofNat _ (by omega)
theorem v60_c2 (e : Fin 2097152) : (val_main_v60 (F := Ideal) (ix2 e (2 : Fin 3))).toInt.toNat = e.val % 1024 := by
  unfold val_main_v60
  rw [cat3_c2, val_main_v59_apply, colIdx_eq idx_main_v59 (fun _ => rfl) e, val_main_v56_apply, val_main_v53_apply,
    val_main_v52_apply, val_main_c_11_apply, jnz_apply, wrap_ofNat _ _ (by omega)]
  exact toIntNat_ofNat _ (by omega)

theorem ew2_edge (x0 : (⟨S2x1024x1024, .f32⟩ : BufTy).Contents (Elt Ideal)) (b : Fin 2) (i j : Fin 1024) :
    val_main_v65 (F := Ideal) x0 (ix1 (edgeIdx b i j)) = mat x0 b i j := by
  unfold val_main_v65
  rw [cat_left _ _ _ (edgeIdx b i j) (edgeIdx_lt b i j)]
  unfold val_main_v61
  rw [gather_edge_apply]
  show x0 _ = x0 (ix3 b i j)
  refine congrArg x0 (ix3_congr (Fin.ext ?_) (Fin.ext ?_) (Fin.ext ?_))
  · show min (val_main_v60 (F := Ideal) (ix2 (⟨(edgeIdx b i j).val, edgeIdx_lt b i j⟩ : Fin 2097152) (0 : Fin 3))).toInt.toNat 1 = b.val
    rw [v60_c0]
    show min ((b.val * 1048576 + i.val * 1024 + j.val) / 1048576) 1 = b.val
    omega
  · show min (val_main_v60 (F := Ideal) (ix2 (⟨(edgeIdx b i j).val, edgeIdx_lt b i j⟩ : Fin 2097152) (1 : Fin 3))).toInt.toNat 1023 = i.val
    rw [v60_c1]
    show min ((b.val * 1048576 + i.val * 1024 + j.val) % 1048576 / 1024) 1023 = i.val
    omega
  · show min (val_main_v60 (F := Ideal) (ix2 (⟨(edgeIdx b i j).val, edgeIdx_lt b i j⟩ : Fin 2097152) (2 : Fin 3))).toInt.toNat 1023 = j.val
    rw [v60_c2]
    show min ((b.val * 1048576 + i.val * 1024 + j.val) % 1024) 1023 = j.val
    omega

/-- The two start-index columns of the diagonal's gather: the node inside its graph, wrapped (and so unchanged), twice. -/
theorem v33_c0 (t : Fin 1024) : (val_main_v33 (F := Ideal) (ix2 t (0 : Fin 2))).toInt.toNat = t.val := by
  unfold val_main_v33
  rw [cat2_c0, val_main_v31_apply, colIdx_eq idx_main_v31 (fun _ => rfl) t, val_main_v25_apply, val_main_v22_apply,
    val_main_v21_apply, val_main_c_1_apply, val_main_v19_apply]
  show (Scalar.select (IntOp.cmpi .slt (BitVec.ofNat 32 t.val) 0#32) _ (BitVec.ofNat 32 t.val)).toInt.toNat = t.val
  rw [wrap_ofNat _ _ (by have := t.isLt; omega)]
  exact toIntNat_ofNat _ (by have := t.isLt; omega)
theorem v33_c1 (t : Fin 1024) : (val_main_v33 (F := Ideal) (ix2 t (1 : Fin 2))).toInt.toNat = t.val := by
  unfold val_main_v33
  rw [cat2_c1, val_main_v32_apply, colIdx_eq idx_main_v32 (fun _ => rfl) t, val_main_v30_apply, val_main_v27_apply,
    val_main_v26_apply, val_main_c_3_apply, val_main_v20_apply]
  show (Scalar.select (IntOp.cmpi .slt (BitVec.ofNat 32 t.val) 0#32) _ (BitVec.ofNat 32 t.val)).toInt.toNat = t.val
  rw [wrap_ofNat _ _ (by have := t.isLt; omega)]
  exact toIntNat_ofNat _ (by have := t.isLt; omega)

/-- The diagonal entry of node `j` of graph `b`. -/
theorem diag_apply (x0 : (⟨S2x1024x1024, .f32⟩ : BufTy).Contents (Elt Ideal)) (b : Fin 2) (j : Fin 1024) :
    val_main_v35 (F := Ideal) x0 (ix1 (nodeIdx b j)) = x0 (ix3 b j j) := by
  have hi : idx_main_v35 (ix1 (nodeIdx b j)) = ix2 b j := by
    funext a
    match a with
    | ⟨0, _⟩ => exact Fin.ext (by show (b.val * 1024 + j.val) / 1024 = b.val; omega)
    | ⟨1, _⟩ => exact Fin.ext (by show (b.val * 1024 + j.val) % 1024 = j.val; omega)
  rw [val_main_v35_apply, hi]
  unfold val_main_v34
  rw [gather_diag_apply]
  refine congrArg x0 (ix3_congr rfl (Fin.ext ?_) (Fin.ext ?_))
  · show min (val_main_v33 (F := Ideal) (ix2 j (0 : Fin 2))).toInt.toNat 1023 = j.val
    rw [v33_c0]; omega
  · show min (val_main_v33 (F := Ideal) (ix2 j (1 : Fin 2))).toInt.toNat 1023 = j.val
    rw [v33_c1]; omega

theorem ew2_loop (x0 : (⟨S2x1024x1024, .f32⟩ : BufTy).Contents (Elt Ideal)) (b : Fin 2) (j : Fin 1024) :
    val_main_v65 (F := Ideal) x0 (ix1 (loopIdx (nodeIdx b j))) = loopW (mat x0 b) j := by
  unfold val_main_v65
  rw [cat_right _ _ _ (loopIdx (nodeIdx b j)) (by show 2097152 ≤ 2097152 + (nodeIdx b j).val; omega)]
  have hn : (⟨(loopIdx (nodeIdx b j)).val - 2097152, by have := (loopIdx (nodeIdx b j)).isLt; omega⟩ : Fin 2048) = nodeIdx b j :=
    Fin.ext (by show 2097152 + (nodeIdx b j).val - 2097152 = (nodeIdx b j).val; omega)
  rw [hn, val_main_v41_apply, val_main_v38_apply, val_main_v37_apply, val_main_cst_apply, val_main_v39_apply,
    val_main_cst_5_apply, val_main_v40_apply, val_main_cst_6_apply, diag_apply]
  unfold loopW mat
  exact select_une_zero _

end Cert.Gcn.R

end
-- ==== Proof.RDeg.lean ====
/-
  The reference's degree, its reciprocal root and the normalised edge weights. The degree of a node is the scatter of
  all edge weights (loops appended) to their targets: the sum over the edges into the node, which are its 1024 incoming
  edges and its own loop.
-/
import proofs.«117536_g81621558493468_cont_sun_c4_510_28_alg».proof.Proof.ReadP
import proofs.«117536_g81621558493468_cont_sun_c4_510_28_alg».proof.Proof.Arrays
import proofs.«117536_g81621558493468_cont_sun_c4_510_28_alg».proof.Proof.Edges
import proofs.«117536_g81621558493468_cont_sun_c4_510_28_alg».proof.Proof.EdgeSum
import proofs.«117536_g81621558493468_cont_sun_c4_510_28_alg».proof.Proof.Indexed
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«117536_g81621558493468_cont_sun_c4_510_28_alg».proof.Proof.RIdx

noncomputable section

open scoped BigOperators
open Cert.ReferenceIdeal Cert.ReferenceIdeal.Read Idealize.ShloMosaic Idealize.ShloMosaic.TcCoe Idealize.ShloMosaic.ValueIdx

namespace Cert.Gcn.R

/-! ### The literals and the comparison with zero -/

/-- "Greater than zero" as a bit, where the number is positive … -/
private theorem cmp_pos {d : EReal} (h : 0 < d) : FloatOps.cmpf (F := Ideal) (φ := .f32) .ogt d 0 = 1#1 := by
  show BitVec.ofBool (decide (0 < d)) = 1#1
  rw [decide_eq_true h]; rfl

/-- … and where it is not. -/
private theorem cmp_not_pos {d : EReal} (h : ¬ 0 < d) : FloatOps.cmpf (F := Ideal) (φ := .f32) .ogt d 0 = 0#1 := by
  show BitVec.ofBool (decide (0 < d)) = 0#1
  rw [decide_eq_false h]; rfl

/-- `where(d > 0, 1 / sqrt(where(d > 0, d, 1)), 0)` of one number. -/
private theorem dinv_core (d : EReal) :
    Scalar.select (FloatOps.cmpf (F := Ideal) (φ := .f32) .ogt d 0)
        (FloatOps.hostDivf (F := Ideal) (φ := .f32) 1
          (FloatOps.hostUnary (F := Ideal) (φ := .f32) .sqrt
            (Scalar.select (FloatOps.cmpf (F := Ideal) (φ := .f32) .ogt d 0) d 1))) 0
      = if 0 < d then Ideal.div 1 (Ideal.sqrt (if 0 < d then d else 1)) else 0 := by
  by_cases h : 0 < d
  · rw [cmp_pos h, select_one, select_one, if_pos h, if_pos h]; rfl
  · rw [cmp_not_pos h, select_zero, if_neg h]

/-- The constant vectors of the degree sum and of the reciprocal root: zeros and ones. -/
private theorem v66_zero (i : S2048.Idx) : val_main_v66 (F := Ideal) i = 0 := by
  rw [val_main_v66_apply, val_main_cst_14_apply]; exact Ideal.ofBits_zero_f32
private theorem v74_zero (i : S2048.Idx) : val_main_v74 (F := Ideal) i = 0 := by
  rw [val_main_v74_apply, val_main_cst_17_apply]; exact Ideal.ofBits_zero_f32
private theorem v77_zero (i : S2048.Idx) : val_main_v77 (F := Ideal) i = 0 := by
  rw [val_main_v77_apply, val_main_cst_19_apply]; exact Ideal.ofBits_zero_f32
private theorem v80_one (i : S2048.Idx) : val_main_v80 (F := Ideal) i = 1 := by
  rw [val_main_v80_apply, val_main_cst_20_apply]; exact Ideal.ofBits_one_f32
private theorem call1_one (i : S2048.Idx) : val_main_call1_v1 (F := Ideal) i = 1 := by
  rw [val_main_call1_v1_apply, val_main_call1_v0_apply, val_main_cst_18_apply]; exact Ideal.ofBits_one_f32
private theorem call2_zero (i : S2048.Idx) : val_main_call2_v1 (F := Ideal) i = 0 := by
  rw [val_main_call2_v1_apply, val_main_call2_v0_apply, val_main_cst_21_apply]; exact Ideal.ofBits_zero_f32

/-- A node number written as a 32-bit word, read back signed and clamped into the nodes, is itself. -/
private theorem clamp_node (n : ℕ) (h : n < 2048) : min ((n : ℤ).toNat) 2047 = n := by
  rw [Int.toNat_natCast]; omega

/-! ### The degree -/

theorem deg_apply (x0 : (⟨S2x1024x1024, .f32⟩ : BufTy).Contents (Elt Ideal)) (b : Fin 2) (j : Fin 1024) :
    val_main_v73 (F := Ideal) x0 (ix1 (nodeIdx b j)) = deg (mat x0 b) j := by
  refine (Cert.Gcn.scatterAdd_node_apply (val_main_v66 (F := Ideal)) (val_main_v72 (F := Ideal))
    (val_main_v65 (F := Ideal) x0) (nodeIdx b j)).trans ?_
  rw [v66_zero, zero_add]
  -- the edges whose scatter index names the node are those whose target is the node
  have hf : (Finset.univ.filter fun e : Fin 2099200 => (val_main_v72 (F := Ideal) (ix2 e 0)).toInt = ((nodeIdx b j).val : ℤ))
      = Finset.univ.filter fun e : Fin 2099200 => colOf e = (nodeIdx b j).val := by
    refine Finset.filter_congr fun e _ => ?_
    show (val_main_v72 (F := Ideal) (ix2 e 0)).toInt = ((nodeIdx b j).val : ℤ) ↔ colOf e = (nodeIdx b j).val
    rw [v72_toInt]
    exact Nat.cast_inj
  rw [hf, Cert.Gcn.sum_into_node]
  -- its 1024 incoming edges carry the matrix column, its loop the added weight
  unfold deg
  rw [ew2_loop]
  exact congrArg (· + loopW (mat x0 b) j) (Finset.sum_congr rfl fun i _ => ew2_edge x0 b i j)

/-! ### The reciprocal root -/

theorem dinv_apply (x0 : (⟨S2x1024x1024, .f32⟩ : BufTy).Contents (Elt Ideal)) (b : Fin 2) (j : Fin 1024) :
    val_main_v82 (F := Ideal) x0 (ix1 (nodeIdx b j)) = dinvR (mat x0 b) j := by
  rw [val_main_v82_apply, val_main_v78_apply, val_main_v81_apply, val_main_v79_apply, val_main_v76_apply,
    val_main_v75_apply, v74_zero, v77_zero, v80_one, call1_one, call2_zero, deg_apply]
  exact dinv_core (deg (mat x0 b) j)

/-! ### The normalised weights -/

/-- `dinv[row]` at an edge: the reciprocal root of the edge's source node. -/
private theorem v89_apply (x0 : (⟨S2x1024x1024, .f32⟩ : BufTy).Contents (Elt Ideal)) (e : Fin 2099200) :
    val_main_v89 (F := Ideal) x0 (ix1 e) = val_main_v82 (F := Ideal) x0 (ix1 (⟨rowOf e, rowOf_lt e⟩ : Fin 2048)) := by
  refine (Cert.Gcn.gather_node_apply (val_main_v82 (F := Ideal) x0) (val_main_v88 (F := Ideal)) e).trans ?_
  refine congrArg (fun n : Fin 2048 => val_main_v82 (F := Ideal) x0 (ix1 n)) (Fin.ext ?_)
  show min (val_main_v88 (F := Ideal) (ix2 e 0)).toInt.toNat 2047 = rowOf e
  rw [v88_toInt]
  exact clamp_node _ (rowOf_lt e)

/-- `dinv[col]` at an edge: the reciprocal root of the edge's target node. -/
private theorem v97_apply (x0 : (⟨S2x1024x1024, .f32⟩ : BufTy).Contents (Elt Ideal)) (e : Fin 2099200) :
    val_main_v97 (F := Ideal) x0 (ix1 e) = val_main_v82 (F := Ideal) x0 (ix1 (⟨colOf e, colOf_lt e⟩ : Fin 2048)) := by
  refine (Cert.Gcn.gather_node_apply (val_main_v82 (F := Ideal) x0) (val_main_v96 (F := Ideal)) e).trans ?_
  refine congrArg (fun n : Fin 2048 => val_main_v82 (F := Ideal) x0 (ix1 n)) (Fin.ext ?_)
  show min (val_main_v96 (F := Ideal) (ix2 e 0)).toInt.toNat 2047 = colOf e
  rw [v96_toInt]
  exact clamp_node _ (colOf_lt e)

/-- The normalised weight at any position of the edge list: source's root times weight times target's root. -/
private theorem v98_apply (x0 : (⟨S2x1024x1024, .f32⟩ : BufTy).Contents (Elt Ideal)) (e : Fin 2099200) :
    val_main_v98 (F := Ideal) x0 (ix1 e)
      = val_main_v82 (F := Ideal) x0 (ix1 (⟨rowOf e, rowOf_lt e⟩ : Fin 2048)) * val_main_v65 (F := Ideal) x0 (ix1 e)
        * val_main_v82 (F := Ideal) x0 (ix1 (⟨colOf e, colOf_lt e⟩ : Fin 2048)) := by
  rw [val_main_v98_apply, val_main_v90_apply, v89_apply, v97_apply]; rfl

theorem norm_edge (x0 : (⟨S2x1024x1024, .f32⟩ : BufTy).Contents (Elt Ideal)) (b : Fin 2) (i j : Fin 1024) :
    val_main_v98 (F := Ideal) x0 (ix1 (edgeIdx b i j)) = normE (mat x0 b) i j := by
  have hr : (⟨rowOf (edgeIdx b i j), rowOf_lt _⟩ : Fin 2048) = nodeIdx b i := Fin.ext (rowOf_edgeIdx b i j)
  have hc : (⟨colOf (edgeIdx b i j), colOf_lt _⟩ : Fin 2048) = nodeIdx b j := Fin.ext (colOf_edgeIdx b i j)
  rw [v98_apply, hr, hc, dinv_apply, dinv_apply, ew2_edge]; rfl

theorem norm_loop (x0 : (⟨S2x1024x1024, .f32⟩ : BufTy).Contents (Elt Ideal)) (b : Fin 2) (j : Fin 1024) :
    val_main_v98 (F := Ideal) x0 (ix1 (loopIdx (nodeIdx b j))) = normL (mat x0 b) j := by
  have hr : (⟨rowOf (loopIdx (nodeIdx b j)), rowOf_lt _⟩ : Fin 2048) = nodeIdx b j := Fin.ext (rowOf_loopIdx _)
  have hc : (⟨colOf (loopIdx (nodeIdx b j)), colOf_lt _⟩ : Fin 2048) = nodeIdx b j := Fin.ext (colOf_loopIdx _)
  rw [v98_apply, hr, hc, dinv_apply, ew2_loop]; rfl

/-! ### The second layer's copy -/

/-- The second layer's degree is the first's: the same scatter of the same arrays. -/
private theorem v133_eq (x0 : (⟨S2x1024x1024, .f32⟩ : BufTy).Contents (Elt Ideal)) :
    val_main_v133 (F := Ideal) x0 = val_main_v73 (F := Ideal) x0 := by
  unfold val_main_v133 val_main_v73
  rw [v132_eq, v125_eq]; rfl

/-- … and so is its reciprocal root. -/
private theorem v142_eq (x0 : (⟨S2x1024x1024, .f32⟩ : BufTy).Contents (Elt Ideal)) :
    val_main_v142 (F := Ideal) x0 = val_main_v82 (F := Ideal) x0 := by
  unfold val_main_v142 val_main_v138 val_main_v141 val_main_v139 val_main_v136 val_main_v135
  rw [v133_eq]; rfl

/-- The second layer computes the same normalised weights again. -/
theorem v158_eq (x0 : (⟨S2x1024x1024, .f32⟩ : BufTy).Contents (Elt Ideal)) : val_main_v158 (F := Ideal) x0 = val_main_v98 (F := Ideal) x0 := by
  unfold val_main_v158 val_main_v150 val_main_v157 val_main_v149
  rw [v142_eq, v148_eq, v156_eq, v125_eq]; rfl

end Cert.Gcn.R

end
-- ==== Proof.RLayer1.lean ====
/-
  The reference's first convolution layer: the constant feature through the column `w1`, each edge's message
  `norm · h[source]` accumulated at its target, the bias, the ReLU.
-/
import proofs.«117536_g81621558493468_cont_sun_c4_510_28_alg».proof.Proof.ReadP
import proofs.«117536_g81621558493468_cont_sun_c4_510_28_alg».proof.Proof.Arrays
import proofs.«117536_g81621558493468_cont_sun_c4_510_28_alg».proof.Proof.Edges
import proofs.«117536_g81621558493468_cont_sun_c4_510_28_alg».proof.Proof.EdgeSum
import proofs.«117536_g81621558493468_cont_sun_c4_510_28_alg».proof.Proof.Indexed
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import proofs.«117536_g81621558493468_cont_sun_c4_510_28_alg».proof.Proof.RIdx
import proofs.«117536_g81621558493468_cont_sun_c4_510_28_alg».proof.Proof.RDeg

noncomputable section

open scoped BigOperators
open Cert.ReferenceIdeal Cert.ReferenceIdeal.Read Idealize.ShloMosaic Idealize.ShloMosaic.TcCoe Idealize.ShloMosaic.ValueIdx

namespace Cert.Gcn.R

/-- The linear map of the constant feature: every node's row is the column `w1` (one times `w1 k`, a sum of one term). -/
theorem l1_lin_apply (x1 : (⟨S16x1, .f32⟩ : BufTy).Contents (Elt Ideal)) (n : Fin 2048) (k : Fin 16) :
    val_main_v100 (F := Ideal) x1 (ix2 n k) = colv x1 k := by
  rw [val_main_v100_apply, Fin.sum_univ_one, val_main_v62_apply, val_main_cst_13_apply, val_main_v99_apply,
    Ideal.ofBits_def, Ideal.ofBits_one_f32, one_mul]
  exact congrArg x1 (funext fun a => match a with
    | ⟨0, _⟩ => rfl
    | ⟨1, _⟩ => rfl)

/-- The row gathered for an edge is the row of its source, which is `w1` whatever the source. -/
theorem l1_gathered_apply (x1 : (⟨S16x1, .f32⟩ : BufTy).Contents (Elt Ideal)) (e : Fin 2099200) (k : Fin 16) :
    val_main_v108 (F := Ideal) x1 (ix2 e k) = colv x1 k := by
  unfold val_main_v108
  exact (gather_feat_apply _ _ e k).trans (l1_lin_apply x1 _ k)

/-- The message of an edge: its normalised weight times `w1 k`. -/
theorem l1_msg_apply (x0 : (⟨S2x1024x1024, .f32⟩ : BufTy).Contents (Elt Ideal)) (x1 : (⟨S16x1, .f32⟩ : BufTy).Contents (Elt Ideal))
    (e : Fin 2099200) (k : Fin 16) :
    val_main_v110 (F := Ideal) x0 x1 (ix2 e k) = val_main_v98 (F := Ideal) x0 (ix1 e) * colv x1 k := by
  rw [val_main_v110_apply, Ideal.mulf_def, val_main_v109_apply, val_main_v101_apply, l1_gathered_apply]
  exact congrArg (fun t => val_main_v98 (F := Ideal) x0 t * colv x1 k) (funext fun a => match a with
    | ⟨0, _⟩ => rfl)

/-- The messages accumulated at node `j` of graph `b`: those of its 1024 incoming edges and of its own loop. -/
theorem l1_agg_apply (x0 : (⟨S2x1024x1024, .f32⟩ : BufTy).Contents (Elt Ideal)) (x1 : (⟨S16x1, .f32⟩ : BufTy).Contents (Elt Ideal))
    (b : Fin 2) (j : Fin 1024) (k : Fin 16) :
    val_main_v118 (F := Ideal) x0 x1 (ix2 (nodeIdx b j) k)
      = (∑ i, normE (mat x0 b) i j * colv x1 k) + normL (mat x0 b) j * colv x1 k := by
  unfold val_main_v118
  rw [scatterAdd_feat_apply, val_main_v111_apply, val_main_cst_28_apply, Ideal.ofBits_def, Ideal.ofBits_zero_f32, zero_add]
  refine (Finset.sum_congr (Finset.filter_congr fun e _ => ?_) fun _ _ => rfl).trans
    ((sum_into_node (M := EReal) (fun e => val_main_v110 (F := Ideal) x0 x1 (ix2 e k)) b j).trans ?_)
  · rw [v117_toInt, Nat.cast_inj]
  · simp only [l1_msg_apply, norm_edge, norm_loop]

/-- … then the bias. -/
theorem l1_out_apply (x0 : (⟨S2x1024x1024, .f32⟩ : BufTy).Contents (Elt Ideal)) (x1 : (⟨S16x1, .f32⟩ : BufTy).Contents (Elt Ideal))
    (x2 : (⟨S16, .f32⟩ : BufTy).Contents (Elt Ideal)) (b : Fin 2) (j : Fin 1024) (k : Fin 16) :
    val_main_v121 (F := Ideal) x0 x1 x2 (ix2 (nodeIdx b j) k) = rOut1 (mat x0 b) (colv x1) (vec16 x2) j k := by
  rw [val_main_v121_apply, Ideal.addf_def, l1_agg_apply, val_main_v120_apply, val_main_v119_apply]
  exact congrArg (fun t => ((∑ i, normE (mat x0 b) i j * colv x1 k) + normL (mat x0 b) j * colv x1 k) + x2 t)
    (funext fun a => match a with
      | ⟨0, _⟩ => rfl)

theorem x1_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (b : Fin 2) (j : Fin 1024) (k : Fin 16) :
    val_main_v122 (F := Ideal) x0 x1 x2 (ix2 (nodeIdx b j) k) = rX1 (mat x0 b) (colv x1) (vec16 x2) j k := by
  rw [val_main_v122_apply, Ideal.maximumf_def, l1_out_apply, val_main_call3_v0_apply, val_main_call3_cst_apply,
    Ideal.ofBits_def, Ideal.ofBits_zero_f32]
  rfl

end Cert.Gcn.R

end
-- ==== Proof.RLayer2.lean ====
/-
  The reference's second convolution layer: the first layer's output through `w2`, each edge's message accumulated at
  its target, the bias.
-/
import proofs.«117536_g81621558493468_cont_sun_c4_510_28_alg».proof.Proof.ReadP
import proofs.«117536_g81621558493468_cont_sun_c4_510_28_alg».proof.Proof.Arrays
import proofs.«117536_g81621558493468_cont_sun_c4_510_28_alg».proof.Proof.Edges
import proofs.«117536_g81621558493468_cont_sun_c4_510_28_alg».proof.Proof.EdgeSum
import proofs.«117536_g81621558493468_cont_sun_c4_510_28_alg».proof.Proof.Indexed
import Idealize.ShloMosaic.Lib.Pipeline.Value
import Idealize.ShloMosaic.Lib.ValueIdx
import Idealize.ShloMosaic.Lib.ValueLayout
import Idealize.ShloMosaic.PureOps.Ideal.Laws
import proofs.«117536_g81621558493468_cont_sun_c4_510_28_alg».proof.Proof.RIdx
import proofs.«117536_g81621558493468_cont_sun_c4_510_28_alg».proof.Proof.RDeg
import proofs.«117536_g81621558493468_cont_sun_c4_510_28_alg».proof.Proof.RLayer1

noncomputable section

open scoped BigOperators
open Cert.ReferenceIdeal Cert.ReferenceIdeal.Read Idealize.ShloMosaic Idealize.ShloMosaic.TcCoe Idealize.ShloMosaic.ValueIdx

namespace Cert.Gcn.R

/-! ### The linear map: the first layer's output against the transposed weight matrix -/

/-- Row n of the first layer's output against row k of w2: the dot product's left operand is read at (n, l), the
right one, the transpose of w2, at (l, k), which is w2 at (k, l). -/
theorem h2_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (b : Fin 2) (j : Fin 1024) (k : Fin 16) :
    val_main_v160 (F := Ideal) x0 x1 x2 x3 (ix2 (nodeIdx b j) k)
      = rH2 (mat x0 b) (colv x1) (vec16 x2) (mat16 x3) j k := by
  rw [val_main_v160_apply]
  unfold rH2
  refine Finset.sum_congr rfl fun l _ => ?_
  have el : lidx_main_v160 (ix2 (nodeIdx b j) k) l = ix2 (nodeIdx b j) l := by
    funext a; match a with | ⟨0, _⟩ => rfl | ⟨1, _⟩ => rfl
  have er : idx_main_v159 (ridx_main_v160 (ix2 (nodeIdx b j) k) l) = ix2 k l := by
    funext a; match a with | ⟨0, _⟩ => rfl | ⟨1, _⟩ => rfl
  rw [el, x1_apply, val_main_v159_apply, er]
  rfl

/-! ### The rows gathered at the edges' sources -/

/-- The row gathered for the edge at position e is the row of its source node: the index word is the source, a
natural number below 2048, so neither the signed reading nor the clamp changes it. -/
theorem v168_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (e : Fin 2099200) (k : Fin 16) :
    val_main_v168 (F := Ideal) x0 x1 x2 x3 (ix2 e k)
      = val_main_v160 (F := Ideal) x0 x1 x2 x3 (ix2 (⟨rowOf e, rowOf_lt e⟩ : Fin 2048) k) := by
  unfold val_main_v168
  refine (Cert.Gcn.gather_feat_apply _ _ e k).trans ?_
  refine congrArg (fun n : Fin 2048 => val_main_v160 (F := Ideal) x0 x1 x2 x3 (ix2 n k)) (Fin.ext ?_)
  show min (val_main_v167 (F := Ideal) (ix2 e 0)).toInt.toNat 2047 = rowOf e
  rw [v167_eq, v107_toInt, Int.toNat_natCast]
  exact Nat.min_eq_left (by have := rowOf_lt e; omega)

/-! ### The messages: an edge's normalised weight times its source's row -/

theorem v170_edge_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (e : Fin 2099200) (k : Fin 16) :
    val_main_v170 (F := Ideal) x0 x1 x2 x3 (ix2 e k)
      = val_main_v98 (F := Ideal) x0 (ix1 e)
          * val_main_v160 (F := Ideal) x0 x1 x2 x3 (ix2 (⟨rowOf e, rowOf_lt e⟩ : Fin 2048) k) := by
  have hi : idx_main_v161 (idx_main_v169 (ix2 e k)) = ix1 e := by
    funext a; match a with | ⟨0, _⟩ => rfl
  rw [val_main_v170_apply, Ideal.mulf_def, val_main_v169_apply, val_main_v161_apply, hi, v158_eq, v168_apply]

/-- The message along the edge from i to j of graph b. -/
theorem msg_edge (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (b : Fin 2) (i j : Fin 1024) (k : Fin 16) :
    val_main_v170 (F := Ideal) x0 x1 x2 x3 (ix2 (edgeIdx b i j) k)
      = normE (mat x0 b) i j * rH2 (mat x0 b) (colv x1) (vec16 x2) (mat16 x3) i k := by
  have hn : (⟨rowOf (edgeIdx b i j), rowOf_lt _⟩ : Fin 2048) = nodeIdx b i := Fin.ext (rowOf_edgeIdx b i j)
  rw [v170_edge_apply, norm_edge, hn, h2_apply]

/-- The message along the loop added at node j of graph b. -/
theorem msg_loop (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (b : Fin 2) (j : Fin 1024) (k : Fin 16) :
    val_main_v170 (F := Ideal) x0 x1 x2 x3 (ix2 (loopIdx (nodeIdx b j)) k)
      = normL (mat x0 b) j * rH2 (mat x0 b) (colv x1) (vec16 x2) (mat16 x3) j k := by
  have hn : (⟨rowOf (loopIdx (nodeIdx b j)), rowOf_lt _⟩ : Fin 2048) = nodeIdx b j := Fin.ext (rowOf_loopIdx (nodeIdx b j))
  rw [v170_edge_apply, norm_loop, hn, h2_apply]

/-! ### The messages accumulated at their targets -/

/-- Accumulated into a zero array, node j of graph b receives the messages of its 1024 incoming edges and of its own
loop: the edge positions whose target word is that node. -/
theorem v178_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (b : Fin 2) (j : Fin 1024) (k : Fin 16) :
    val_main_v178 (F := Ideal) x0 x1 x2 x3 (ix2 (nodeIdx b j) k)
      = (∑ i, normE (mat x0 b) i j * rH2 (mat x0 b) (colv x1) (vec16 x2) (mat16 x3) i k)
          + normL (mat x0 b) j * rH2 (mat x0 b) (colv x1) (vec16 x2) (mat16 x3) j k := by
  unfold val_main_v178
  refine (Cert.Gcn.scatterAdd_feat_apply _ _ _ (nodeIdx b j) k).trans ?_
  have hz : val_main_v171 (F := Ideal) (ix2 (nodeIdx b j) k) = (0 : EReal) := by
    rw [val_main_v171_apply, val_main_cst_45_apply, Ideal.ofBits_def, Ideal.ofBits_zero_f32]
  have hf : (Finset.univ.filter fun e : Fin 2099200 => (val_main_v177 (F := Ideal) (ix2 e 0)).toInt = ((nodeIdx b j).val : ℤ))
      = Finset.univ.filter (fun e : Fin 2099200 => colOf e = (nodeIdx b j).val) := by
    refine Finset.filter_congr fun e _ => ?_
    rw [v177_eq, v117_toInt]
    exact Nat.cast_inj
  rw [hz, zero_add, hf, Cert.Gcn.sum_into_node, msg_loop]
  refine congrArg (fun s : EReal => s + normL (mat x0 b) j * rH2 (mat x0 b) (colv x1) (vec16 x2) (mat16 x3) j k) ?_
  exact Finset.sum_congr rfl fun i _ => msg_edge x0 x1 x2 x3 b i j k

/-! ### The bias -/

theorem out2_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (b : Fin 2) (j : Fin 1024) (k : Fin 16) :
    val_main_v181 (F := Ideal) x0 x1 x2 x3 x4 (ix2 (nodeIdx b j) k)
      = rOut2 (mat x0 b) (colv x1) (vec16 x2) (mat16 x3) (vec16 x4) j k := by
  have hb : idx_main_v179 (idx_main_v180 (ix2 (nodeIdx b j) k)) = ix1 k := by
    funext a; match a with | ⟨0, _⟩ => rfl
  rw [val_main_v181_apply, Ideal.addf_def, v178_apply, val_main_v180_apply, val_main_v179_apply, hb]
  rfl

end Cert.Gcn.R

end
-- ==== Proof.RHead.lean ====
/-
  The end of the reference: each node's maximum over its sixteen features, the nodes regrouped by graph, and the
  linear head.
-/
import proofs.«117536_g81621558493468_cont_sun_c4_510_28_alg».proof.Proof.ReadP
import proofs.«117536_g81621558493468_cont_sun_c4_510_28_alg».proof.Proof.Arrays
import proofs.«117536_g81621558493468_cont_sun_c4_510_28_alg».proof.Proof.Edges
import proofs.«117536_g81621558493468_cont_sun_c4_510_28_alg».proof.Proof.EdgeSum
import proofs.«117536_g81621558493468_cont_sun_c4_510_28_alg».proof.Proof.Indexed
import Idealize.ShloMosaic.Lib.Pipeline.Value
import Idealize.ShloMosaic.Lib.ValueIdx
import Idealize.ShloMosaic.Lib.ValueLayout
import Idealize.ShloMosaic.PureOps.Ideal.Laws
import proofs.«117536_g81621558493468_cont_sun_c4_510_28_alg».proof.Proof.RLayer2
import Idealize.ShloMosaic.PureOps.Reduce

noncomputable section

open scoped BigOperators
open Cert.ReferenceIdeal Cert.ReferenceIdeal.Read Idealize.ShloMosaic Idealize.ShloMosaic.TcCoe Idealize.ShloMosaic.ValueIdx

namespace Cert.Gcn.R

/-- The maximum over the second axis of a [2048, 16] array, from any starting value: at node `n` it is the fold of
    `max`, from that value, over the sixteen entries of row `n` (the maximum is commutative and associative, so the
    order the entries are met in does not matter). -/
theorem hostMax_apply (x : (⟨S2048x16, .f32⟩ : BufTy).Contents (Elt Ideal)) (init : (⟨S_, .f32⟩ : BufTy).Contents (Elt Ideal))
    (h' : S2048x16.ReducesTo [1] S2048) (hu : 0 < S_.numel) (n : Fin 2048) :
    Host.reduce (FloatOps.maximumf (F := Ideal) (φ := .f32)) x init h' hu (ix1 n)
      = (Finset.univ : Finset (Fin 16)).fold max (init (Shape.Idx.first hu)) (fun k => x (ix2 n k)) := by
  have h : S2048x16.Reduces [1] S2048 := by decide
  refine (Host.reduce_eq_fold_single _ x init h' h hu (ix1 n)).trans ?_
  have e : (x ∘ h.lift (ix1 n)) = fun k : Fin 16 => x (ix2 n k) := by
    funext k
    show x (h.lift (ix1 n) k) = x (ix2 n k)
    congr 1
    funext c
    match c with
    | ⟨0, _⟩ => exact Fin.ext rfl
    | ⟨1, _⟩ => exact Fin.ext rfl
  rw [e]
  rfl

/-- Node `j` of graph `b`: its maximum over the sixteen features of the second layer's output, folded from minus
    infinity, is the edge form's `rR` of that graph. -/
theorem nodeMax_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (b : Fin 2) (j : Fin 1024) :
    val_main_v182 (F := Ideal) x0 x1 x2 x3 x4 (ix1 (nodeIdx b j))
      = rR (mat x0 b) (colv x1) (vec16 x2) (mat16 x3) (vec16 x4) j := by
  unfold val_main_v182
  refine (hostMax_apply _ _ _ _ (nodeIdx b j)).trans ?_
  refine (Finset.fold_congr (g := fun k => rOut2 (mat x0 b) (colv x1) (vec16 x2) (mat16 x3) (vec16 x4) j k)
    (fun k _ => out2_apply x0 x1 x2 x3 x4 b j k)).trans ?_
  rfl

/-- Regrouped by graph: entry (b, j) of the [2, 1024] array is node `b * 1024 + j`. -/
theorem graphMax_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (b : Fin 2) (j : Fin 1024) :
    val_main_v183 (F := Ideal) x0 x1 x2 x3 x4 (ix2 b j)
      = rR (mat x0 b) (colv x1) (vec16 x2) (mat16 x3) (vec16 x4) j := by
  have e : idx_main_v183 (ix2 b j) = ix1 (nodeIdx b j) := by
    funext a
    match a with
    | ⟨0, _⟩ => exact Fin.ext rfl
  exact ((val_main_v183_apply x0 x1 x2 x3 x4 (ix2 b j)).trans
    (congrArg (val_main_v182 (F := Ideal) x0 x1 x2 x3 x4) e)).trans (nodeMax_apply x0 x1 x2 x3 x4 b j)

/-- The first head layer: graph `b`'s node maxima against row `p` of the first head matrix (read through its
    transpose), plus the bias. -/
theorem hidden_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S32x1024, .f32⟩ : BufTy).Contents (Elt Ideal)) (x6 : (⟨S32, .f32⟩ : BufTy).Contents (Elt Ideal)) (b : Fin 2) (p : Fin 32) :
    val_main_v188 (F := Ideal) x0 x1 x2 x3 x4 x5 x6 (ix2 b p)
      = head1 (fun b j => rR (mat x0 b) (colv x1) (vec16 x2) (mat16 x3) (vec16 x4) j) (matM1 x5) (vec32 x6) b p := by
  have hs : (∑ k : Fin 1024, val_main_v183 (F := Ideal) x0 x1 x2 x3 x4 (lidx_main_v185 (ix2 b p) k) * val_main_v184 (F := Ideal) x5 (ridx_main_v185 (ix2 b p) k))
      = ∑ k : Fin 1024, rR (mat x0 b) (colv x1) (vec16 x2) (mat16 x3) (vec16 x4) k * matM1 x5 p k := by
    refine Finset.sum_congr rfl fun k _ => ?_
    have el : lidx_main_v185 (ix2 b p) k = ix2 b k := by
      funext a
      match a with
      | ⟨0, _⟩ => exact Fin.ext rfl
      | ⟨1, _⟩ => exact Fin.ext rfl
    have er : idx_main_v184 (ridx_main_v185 (ix2 b p) k) = ix2 p k := by
      funext a
      match a with
      | ⟨0, _⟩ => exact Fin.ext rfl
      | ⟨1, _⟩ => exact Fin.ext rfl
    exact congrArg₂ (fun (u v : EReal) => u * v)
      ((congrArg (val_main_v183 (F := Ideal) x0 x1 x2 x3 x4) el).trans (graphMax_apply x0 x1 x2 x3 x4 b k))
      ((val_main_v184_apply x5 _).trans (congrArg x5 er))
  have eb : idx_main_v186 (idx_main_v187 (ix2 b p)) = ix1 p := by
    funext a
    match a with
    | ⟨0, _⟩ => exact Fin.ext rfl
  have hb : val_main_v187 (F := Ideal) x6 (ix2 b p) = vec32 x6 p :=
    ((val_main_v187_apply x6 (ix2 b p)).trans (val_main_v186_apply x6 _)).trans (congrArg x6 eb)
  exact congrArg₂ (fun (u v : EReal) => u + v) ((val_main_v185_apply x0 x1 x2 x3 x4 x5 (ix2 b p)).trans hs) hb

/-- The reference's result: the second head layer over the first, which is the encoder in its edge form. -/
theorem result_apply (x0 : (⟨S2x1024x1024, .f32⟩ : BufTy).Contents (Elt Ideal)) (x1 : (⟨S16x1, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S32x1024, .f32⟩ : BufTy).Contents (Elt Ideal)) (x6 : (⟨S32, .f32⟩ : BufTy).Contents (Elt Ideal)) (x7 : (⟨S16x32, .f32⟩ : BufTy).Contents (Elt Ideal)) (x8 : (⟨S16, .f32⟩ : BufTy).Contents (Elt Ideal)) (b : Fin 2) (q : Fin 16) :
    val_main_v193 (F := Ideal) x0 x1 x2 x3 x4 x5 x6 x7 x8 (ix2 b q) = gcnRArr x0 x1 x2 x3 x4 x5 x6 x7 x8 b q := by
  have hs : (∑ k : Fin 32, val_main_v188 (F := Ideal) x0 x1 x2 x3 x4 x5 x6 (lidx_main_v190 (ix2 b q) k) * val_main_v189 (F := Ideal) x7 (ridx_main_v190 (ix2 b q) k))
      = ∑ k : Fin 32, head1 (fun b j => rR (mat x0 b) (colv x1) (vec16 x2) (mat16 x3) (vec16 x4) j) (matM1 x5) (vec32 x6) b k * matM2 x7 q k := by
    refine Finset.sum_congr rfl fun k _ => ?_
    have el : lidx_main_v190 (ix2 b q) k = ix2 b k := by
      funext a
      match a with
      | ⟨0, _⟩ => exact Fin.ext rfl
      | ⟨1, _⟩ => exact Fin.ext rfl
    have er : idx_main_v189 (ridx_main_v190 (ix2 b q) k) = ix2 q k := by
      funext a
      match a with
      | ⟨0, _⟩ => exact Fin.ext rfl
      | ⟨1, _⟩ => exact Fin.ext rfl
    exact congrArg₂ (fun (u v : EReal) => u * v)
      ((congrArg (val_main_v188 (F := Ideal) x0 x1 x2 x3 x4 x5 x6) el).trans (hidden_apply x0 x1 x2 x3 x4 x5 x6 b k))
      ((val_main_v189_apply x7 _).trans (congrArg x7 er))
  have eb : idx_main_v191 (idx_main_v192 (ix2 b q)) = ix1 q := by
    funext a
    match a with
    | ⟨0, _⟩ => exact Fin.ext rfl
  have hb : val_main_v192 (F := Ideal) x8 (ix2 b q) = vec16 x8 q :=
    ((val_main_v192_apply x8 (ix2 b q)).trans (val_main_v191_apply x8 _)).trans (congrArg x8 eb)
  exact congrArg₂ (fun (u v : EReal) => u + v) ((val_main_v190_apply x0 x1 x2 x3 x4 x5 x6 x7 (ix2 b q)).trans hs) hb

end Cert.Gcn.R

end
-- ==== Proof.lean ====
/-
  The certificate of the graph-convolution encoder: the Pallas kernel against its jnp reference over the extended
  reals.

  Both programs compute, for two graphs given as dense 1024 × 1024 weight matrices, a two-layer graph convolution with
  symmetric degree normalisation and added self loops, the maximum over the sixteen output features at every node, and a
  two-layer linear head over the nodes. The reference enumerates all 2·1024² pairs as an edge list (with the 2048
  added loops appended) and aggregates messages by scatter-add; the kernel works on the dense matrices, pulls the
  normalisation out of the sums and takes the diagonal tile by tile.

  The kernel's output array is the encoder's FACTORED form of the argument arrays (K.final9, K.out_apply), the
  reference's result its EDGE form (R.result_apply); the two forms agree when every entry of the weight array, of the
  two layers' weights and of their biases is a real number (gcnK_eq_gcnR: distributivity of the normalisation over the
  sums), which is what the precondition says of them (real_of_pre). The head needs no such law.
  The kernels' two frames are the generated ones; the reference's frame and its result come from its run read one
  operation at a time (R.ref_run: each of the 255 operations writes a buffer of its own, so the final contents satisfy
  one equation per operation, down to the result). The idealization rewrote nothing.
-/
import proofs.«117536_g81621558493468_cont_sun_c4_510_28_alg».proof.Defs
import proofs.«117536_g81621558493468_cont_sun_c4_510_28_alg».proof.Proof.Gen.Kernel
import proofs.«117536_g81621558493468_cont_sun_c4_510_28_alg».proof.Proof.Gen.Kernel.Skeleton
import proofs.«117536_g81621558493468_cont_sun_c4_510_28_alg».proof.Proof.Gen.Kernel.Launch
import proofs.«117536_g81621558493468_cont_sun_c4_510_28_alg».proof.Proof.Gen.Kernel.Points
import proofs.«117536_g81621558493468_cont_sun_c4_510_28_alg».proof.Proof.Gen.Kernel.Frame
import proofs.«117536_g81621558493468_cont_sun_c4_510_28_alg».proof.Proof.Gen.KernelIdeal
import proofs.«117536_g81621558493468_cont_sun_c4_510_28_alg».proof.Proof.Gen.KernelIdeal.Skeleton
import proofs.«117536_g81621558493468_cont_sun_c4_510_28_alg».proof.Proof.Gen.KernelIdeal.Launch
import proofs.«117536_g81621558493468_cont_sun_c4_510_28_alg».proof.Proof.Gen.KernelIdeal.Points
import proofs.«117536_g81621558493468_cont_sun_c4_510_28_alg».proof.Proof.Gen.KernelIdeal.Frame
import proofs.«117536_g81621558493468_cont_sun_c4_510_28_alg».proof.Proof.Gen.ReferenceIdeal
import proofs.«117536_g81621558493468_cont_sun_c4_510_28_alg».proof.Proof.Gen.Pre_finite_inputs
import proofs.«117536_g81621558493468_cont_sun_c4_510_28_alg».proof.Proof.Gen.KernelIdeal.Value
import proofs.«117536_g81621558493468_cont_sun_c4_510_28_alg».proof.Proof.ReadP
import proofs.«117536_g81621558493468_cont_sun_c4_510_28_alg».proof.Proof.RefRun
import proofs.«117536_g81621558493468_cont_sun_c4_510_28_alg».proof.Proof.Spec
import proofs.«117536_g81621558493468_cont_sun_c4_510_28_alg».proof.Proof.Arrays
import proofs.«117536_g81621558493468_cont_sun_c4_510_28_alg».proof.Proof.Algebra
import proofs.«117536_g81621558493468_cont_sun_c4_510_28_alg».proof.Proof.Finite
import proofs.«117536_g81621558493468_cont_sun_c4_510_28_alg».proof.Proof.KAsm
import proofs.«117536_g81621558493468_cont_sun_c4_510_28_alg».proof.Proof.KFinal
import proofs.«117536_g81621558493468_cont_sun_c4_510_28_alg».proof.Proof.RHead
import Idealize.ShloMosaic.Adequacy
import Idealize.ShloMosaic.Init

noncomputable section

namespace Cert.Proof

open Idealize.ShloMosaic Idealize.ShloMosaic.ValueIdx Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (R.ref_run (F := Ideal) m ρ)

/-- On arrays of real numbers the reference's result and the kernel's output block are one array: index by index the
    edge form and the factored form of the encoder. -/
theorem values_eq (x0 : FVec Ideal Cert.KernelIdeal.S2x1024x1024 .f32) (x1 : FVec Ideal Cert.KernelIdeal.S16x1 .f32)
    (x2 : FVec Ideal Cert.KernelIdeal.S16 .f32) (x3 : FVec Ideal Cert.KernelIdeal.S16x16 .f32) (x4 : FVec Ideal Cert.KernelIdeal.S16 .f32)
    (x5 : FVec Ideal Cert.KernelIdeal.S32x1024 .f32) (x6 : FVec Ideal Cert.KernelIdeal.S32 .f32) (x7 : FVec Ideal Cert.KernelIdeal.S16x32 .f32)
    (x8 : FVec Ideal Cert.KernelIdeal.S16 .f32)
    (hpre : Cert.Pre_finite_inputs.fn (F := Ideal) x0 x1 x2 x3 x4 x5 x6 x7 x8 = fun _ => 1#1) :
    Cert.ReferenceIdeal.Read.val_main_v193 (F := Ideal) x0 x1 x2 x3 x4 x5 x6 x7 x8
      = Cert.KernelIdeal.Gen.out0_9 (F := Ideal) x0 x1 x2 x3 x4 x5 x6 x7 x8 := by
  funext i
  obtain ⟨b, q, rfl⟩ : ∃ (b : Fin 2) (q : Fin 16), i = ix2 b q := ⟨i 0, i 1, eq_ix2 i⟩
  obtain ⟨h0, h1, h2, h3, h4⟩ := real_of_pre x0 x1 x2 x3 x4 x5 x6 x7 x8 hpre
  refine (R.result_apply x0 x1 x2 x3 x4 x5 x6 x7 x8 b q).trans ?_
  refine Eq.trans ?_ (K.out_apply x0 x1 x2 x3 x4 x5 x6 x7 x8 b q).symm
  unfold gcnRArr gcnKArr
  exact (gcnK_eq_gcnR (mat x0) (colv x1) (vec16 x2) (mat16 x3) (vec16 x4) (matM1 x5) (vec32 x6) (matM2 x7) (vec16 x8)
    (fun b i j => h0 _) (fun k => h1 _) (fun k => h2 _) (fun k l => h3 _) (fun k => h4 _) b q).symm

/-- Both runs end, from memories agreeing on the arguments, with the kernel's output array. -/
theorem algebraic : Cert.algebraic_KernelIdeal_ReferenceIdeal := by
  intro m ρ m' ρ' hpre hagree
  refine ⟨fun c => (Cert.KernelIdeal.Gen.dats m 0 c).arrAt 9 Cert.KernelIdeal.cfg0.N,
    Cert.KernelIdeal.Value.run_blocks (F := Ideal) m ρ, ?_⟩
  refine (θ_run Cert.ReferenceIdeal.defs _ _).mono (fun _ h c => ⟨(h c).1.trans ?_, (h c).2⟩) (R.ref_run (F := Ideal) m' ρ')
  rw [(hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (values_eq _ _ _ _ _ _ _ _ _ (hpre c)).trans (K.final9 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
